-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8142 : Shape := ⟨2, ![4096, 8142]⟩
abbrev S4096 : Shape := ⟨1, ![4096]⟩
abbrev S8142x8142 : Shape := ⟨2, ![8142, 8142]⟩
abbrev S_ : Shape := ⟨0, ![]⟩

class Facts : Prop where
  bcast_S_S4096x8142 : S_.BroadcastsInDim S4096x8142 (![] : Fin 0 → Fin S4096x8142.rank)
  reducesTo_S4096x8142_S_d0_1 : S4096x8142.ReducesTo [0, 1] S_
  h_S_ : 0 < S_.numel
  bcast_S_S8142x8142 : S_.BroadcastsInDim S8142x8142 (![] : Fin 0 → Fin S8142x8142.rank)
  reducesTo_S8142x8142_S_d0_1 : S8142x8142.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : FVec F S8142x8142 .f32) (main_v15 : IVec S_ 1) (main_cst_5 : FVec F S_ .f32) : IVec S_ 1 :=
  let main_v16 : FVec F S8142x8142 .f32 := broadcastInDim S8142x8142 ![] bcast_S_S8142x8142 main_cst_5
  let main_v17 : IVec S8142x8142 1 := cmpf .ogt main_arg2 main_v16
  let main_c_6 : IVec S_ 1 := constantI S_ 1 1#1
  let main_v18 : IVec S_ 1 := (fun x v => Host.reduce IntOp.andi x v reducesTo_S8142x8142_S_d0_1 h_S_) main_v17 main_c_6
  let main_v19 : IVec S_ 1 := andi main_v15 main_v18
  main_v19

def fn {F : FTy → Type} [FloatOps F] (main_arg0 : FVec F S4096x8142 .f32) (main_arg1 : IVec S4096 32) (main_arg2 : FVec F S8142x8142 .f32) : IVec S_ 1 :=
  let main_v0 : FVec F S4096x8142 .f32 := Host.absf main_arg0
  let main_cst : FVec F S_ .f32 := constant S_ .f32 0x7F800000#32
  let main_v1 : FVec F S4096x8142 .f32 := broadcastInDim S4096x8142 ![] bcast_S_S4096x8142 main_cst
  let main_v2 : IVec S4096x8142 1 := cmpf .olt main_v0 main_v1
  let main_c : IVec S_ 1 := constantI S_ 1 1#1
  let main_v3 : IVec S_ 1 := (fun x v => Host.reduce IntOp.andi x v reducesTo_S4096x8142_S_d0_1 h_S_) main_v2 main_c
  let main_v4 : FVec F S8142x8142 .f32 := Host.absf main_arg2
  let main_cst_0 : FVec F S_ .f32 := constant S_ .f32 0x7F800000#32
  let main_v5 : FVec F S8142x8142 .f32 := broadcastInDim S8142x8142 ![] bcast_S_S8142x8142 main_cst_0
  let main_v6 : IVec S8142x8142 1 := cmpf .olt main_v4 main_v5
  let main_c_1 : IVec S_ 1 := constantI S_ 1 1#1
  let main_v7 : IVec S_ 1 := (fun x v => Host.reduce IntOp.andi x v reducesTo_S8142x8142_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 8142#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_cst_5 : FVec F S_ .f32 := constant S_ .f32 0x00000000#32
  fn_part1 (F := F) main_arg2 main_v15 main_cst_5
-- ==== Kernel.lean ====
abbrev S4096x8142 : Shape := ⟨2, ![4096, 8142]⟩
abbrev S4096 : Shape := ⟨1, ![4096]⟩
abbrev S8142x8142 : Shape := ⟨2, ![8142, 8142]⟩
abbrev S4096x1 : Shape := ⟨2, ![4096, 1]⟩
abbrev S1x1 : Shape := ⟨2, ![1, 1]⟩
abbrev S128x8142 : Shape := ⟨2, ![128, 8142]⟩
abbrev S128x1 : Shape := ⟨2, ![128, 1]⟩
abbrev S2 : Shape := ⟨1, ![2]⟩
abbrev S1 : Shape := ⟨1, ![1]⟩
abbrev S_ : Shape := ⟨0, ![]⟩
abbrev S1x8142 : Shape := ⟨2, ![1, 8142]⟩
abbrev S8142 : Shape := ⟨1, ![8142]⟩
abbrev S128 : Shape := ⟨1, ![128]⟩

abbrev nBuf : Space → Nat
  | .hbm => 5
  | .vmem => 7
  | .smem => 1
  | _ => 0

abbrev bufTy : (tb : Table) → Fin (tcTables nBuf tb) → BufTy
  | .hbm, ⟨0, _⟩ => ⟨S4096x8142, .f32⟩
  | .hbm, ⟨1, _⟩ => ⟨S8142x8142, .f32⟩
  | .hbm, ⟨2, _⟩ => ⟨S4096x1, .i32⟩
  | .hbm, ⟨3, _⟩ => ⟨S1x1, .f32⟩
  | .hbm, ⟨4, _⟩ => ⟨S_, .f32⟩
  | .local _ .vmem, ⟨0, _⟩ => ⟨S128x8142, .f32⟩
  | .local _ .vmem, ⟨1, _⟩ => ⟨S128x8142, .f32⟩
  | .local _ .vmem, ⟨2, _⟩ => ⟨S128x1, .i32⟩
  | .local _ .vmem, ⟨3, _⟩ => ⟨S128x1, .i32⟩
  | .local _ .vmem, ⟨4, _⟩ => ⟨S1x1, .f32⟩
  | .local _ .vmem, ⟨5, _⟩ => ⟨S128x8142, .f32⟩
  | .local _ .vmem, ⟨6, _⟩ => ⟨S1x1, .f32⟩
  | .local _ .smem, ⟨0, _⟩ => ⟨S4096, .i32⟩
  | _, _ => ⟨S4096x8142, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let v1 : Index := Scalar.indexCast v0
  ![v1.toNat]
def k0_off2 (v2 : BitVec 32) : Fin 2 → Nat :=
  let c0_i32_2 : BitVec 32 := 0#32
  ![v2.toNat, 0]

def k0_chk1 (v2 : BitVec 32) : Prop :=
  (∀ a, (k0_off2 v2) a + S1x8142.size a ≤ S8142x8142.size a)
instance k0_chk1.dec : ∀ (v2 : BitVec 32), Decidable (k0_chk1 v2) := fun v2 => decidable_of_iff' _ (Iff.of_eq (k0_chk1.eq_1 v2))
theorem k0_off2_inb : ∀ (v2 : BitVec 32) (k0_hw1 : k0_chk1 v2), ∀ a, (k0_off2 v2) a + S1x8142.size a ≤ S8142x8142.size a := fun v2 k0_hw1 => k0_hw1

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v9 : BitVec 32 := Scalar.addi v0 c1_i32
  let v10 : Index := Scalar.indexCast v9
  ![v10.toNat]
def k0_off4 (v11 : BitVec 32) : Fin 2 → Nat :=
  let c0_i32_6 : BitVec 32 := 0#32
  ![v11.toNat, 0]

def k0_chk2 (v11 : BitVec 32) : Prop :=
  (∀ a, (k0_off4 v11) a + S1x8142.size a ≤ S8142x8142.size a)
instance k0_chk2.dec : ∀ (v11 : BitVec 32), Decidable (k0_chk2 v11) := fun v11 => decidable_of_iff' _ (Iff.of_eq (k0_chk2.eq_1 v11))
theorem k0_off4_inb : ∀ (v11 : BitVec 32) (k0_hw2 : k0_chk2 v11), ∀ a, (k0_off4 v11) a + S1x8142.size a ≤ S8142x8142.size a := fun v11 k0_hw2 => k0_hw2

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v24 : BitVec 32 := Scalar.addi v0 c2_i32
  let v25 : Index := Scalar.indexCast v24
  ![v25.toNat]
def k0_off6 (v26 : BitVec 32) : Fin 2 → Nat :=
  let c0_i32_15 : BitVec 32 := 0#32
  ![v26.toNat, 0]

def k0_chk3 (v26 : BitVec 32) : Prop :=
  (∀ a, (k0_off6 v26) a + S1x8142.size a ≤ S8142x8142.size a)
instance k0_chk3.dec : ∀ (v26 : BitVec 32), Decidable (k0_chk3 v26) := fun v26 => decidable_of_iff' _ (Iff.of_eq (k0_chk3.eq_1 v26))
theorem k0_off6_inb : ∀ (v26 : BitVec 32) (k0_hw3 : k0_chk3 v26), ∀ a, (k0_off6 v26) a + S1x8142.size a ≤ S8142x8142.size a := fun v26 k0_hw3 => k0_hw3

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v39 : BitVec 32 := Scalar.addi v0 c3_i32
  let v40 : Index := Scalar.indexCast v39
  ![v40.toNat]
def k0_off8 (v41 : BitVec 32) : Fin 2 → Nat :=
  let c0_i32_24 : BitVec 32 := 0#32
  ![v41.toNat, 0]

def k0_chk4 (v41 : BitVec 32) : Prop :=
  (∀ a, (k0_off8 v41) a + S1x8142.size a ≤ S8142x8142.size a)
instance k0_chk4.dec : ∀ (v41 : BitVec 32), Decidable (k0_chk4 v41) := fun v41 => decidable_of_iff' _ (Iff.of_eq (k0_chk4.eq_1 v41))
theorem k0_off8_inb : ∀ (v41 : BitVec 32) (k0_hw4 : k0_chk4 v41), ∀ a, (k0_off8 v41) a + S1x8142.size a ≤ S8142x8142.size a := fun v41 k0_hw4 => k0_hw4

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v54 : BitVec 32 := Scalar.addi v0 c4_i32
  let v55 : Index := Scalar.indexCast v54
  ![v55.toNat]
def k0_off10 (v56 : BitVec 32) : Fin 2 → Nat :=
  let c0_i32_33 : BitVec 32 := 0#32
  ![v56.toNat, 0]

def k0_chk5 (v56 : BitVec 32) : Prop :=
  (∀ a, (k0_off10 v56) a + S1x8142.size a ≤ S8142x8142.size a)
instance k0_chk5.dec : ∀ (v56 : BitVec 32), Decidable (k0_chk5 v56) := fun v56 => decidable_of_iff' _ (Iff.of_eq (k0_chk5.eq_1 v56))
theorem k0_off10_inb : ∀ (v56 : BitVec 32) (k0_hw5 : k0_chk5 v56), ∀ a, (k0_off10 v56) a + S1x8142.size a ≤ S8142x8142.size a := fun v56 k0_hw5 => k0_hw5

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v69 : BitVec 32 := Scalar.addi v0 c5_i32
  let v70 : Index := Scalar.indexCast v69
  ![v70.toNat]
def k0_off12 (v71 : BitVec 32) : Fin 2 → Nat :=
  let c0_i32_42 : BitVec 32 := 0#32
  ![v71.toNat, 0]

def k0_chk6 (v71 : BitVec 32) : Prop :=
  (∀ a, (k0_off12 v71) a + S1x8142.size a ≤ S8142x8142.size a)
instance k0_chk6.dec : ∀ (v71 : BitVec 32), Decidable (k0_chk6 v71) := fun v71 => decidable_of_iff' _ (Iff.of_eq (k0_chk6.eq_1 v71))
theorem k0_off12_inb : ∀ (v71 : BitVec 32) (k0_hw6 : k0_chk6 v71), ∀ a, (k0_off12 v71) a + S1x8142.size a ≤ S8142x8142.size a := fun v71 k0_hw6 => k0_hw6

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v84 : BitVec 32 := Scalar.addi v0 c6_i32
  let v85 : Index := Scalar.indexCast v84
  ![v85.toNat]
def k0_off14 (v86 : BitVec 32) : Fin 2 → Nat :=
  let c0_i32_51 : BitVec 32 := 0#32
  ![v86.toNat, 0]

def k0_chk7 (v86 : BitVec 32) : Prop :=
  (∀ a, (k0_off14 v86) a + S1x8142.size a ≤ S8142x8142.size a)
instance k0_chk7.dec : ∀ (v86 : BitVec 32), Decidable (k0_chk7 v86) := fun v86 => decidable_of_iff' _ (Iff.of_eq (k0_chk7.eq_1 v86))
theorem k0_off14_inb : ∀ (v86 : BitVec 32) (k0_hw7 : k0_chk7 v86), ∀ a, (k0_off14 v86) a + S1x8142.size a ≤ S8142x8142.size a := fun v86 k0_hw7 => k0_hw7

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v99 : BitVec 32 := Scalar.addi v0 c7_i32
  let v100 : Index := Scalar.indexCast v99
  ![v100.toNat]
def k0_off16 (v101 : BitVec 32) : Fin 2 → Nat :=
  let c0_i32_60 : BitVec 32 := 0#32
  ![v101.toNat, 0]

def k0_chk8 (v101 : BitVec 32) : Prop :=
  (∀ a, (k0_off16 v101) a + S1x8142.size a ≤ S8142x8142.size a)
instance k0_chk8.dec : ∀ (v101 : BitVec 32), Decidable (k0_chk8 v101) := fun v101 => decidable_of_iff' _ (Iff.of_eq (k0_chk8.eq_1 v101))
theorem k0_off16_inb : ∀ (v101 : BitVec 32) (k0_hw8 : k0_chk8 v101), ∀ a, (k0_off16 v101) a + S1x8142.size a ≤ S8142x8142.size a := fun v101 k0_hw8 => k0_hw8

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v114 : BitVec 32 := Scalar.addi v0 c8_i32
  let v115 : Index := Scalar.indexCast v114
  ![v115.toNat]
def k0_off18 (v116 : BitVec 32) : Fin 2 → Nat :=
  let c0_i32_69 : BitVec 32 := 0#32
  ![v116.toNat, 0]

def k0_chk9 (v116 : BitVec 32) : Prop :=
  (∀ a, (k0_off18 v116) a + S1x8142.size a ≤ S8142x8142.size a)
instance k0_chk9.dec : ∀ (v116 : BitVec 32), Decidable (k0_chk9 v116) := fun v116 => decidable_of_iff' _ (Iff.of_eq (k0_chk9.eq_1 v116))
theorem k0_off18_inb : ∀ (v116 : BitVec 32) (k0_hw9 : k0_chk9 v116), ∀ a, (k0_off18 v116) a + S1x8142.size a ≤ S8142x8142.size a := fun v116 k0_hw9 => k0_hw9

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v129 : BitVec 32 := Scalar.addi v0 c9_i32
  let v130 : Index := Scalar.indexCast v129
  ![v130.toNat]
def k0_off20 (v131 : BitVec 32) : Fin 2 → Nat :=
  let c0_i32_78 : BitVec 32 := 0#32
  ![v131.toNat, 0]

def k0_chk10 (v131 : BitVec 32) : Prop :=
  (∀ a, (k0_off20 v131) a + S1x8142.size a ≤ S8142x8142.size a)
instance k0_chk10.dec : ∀ (v131 : BitVec 32), Decidable (k0_chk10 v131) := fun v131 => decidable_of_iff' _ (Iff.of_eq (k0_chk10.eq_1 v131))
theorem k0_off20_inb : ∀ (v131 : BitVec 32) (k0_hw10 : k0_chk10 v131), ∀ a, (k0_off20 v131) a + S1x8142.size a ≤ S8142x8142.size a := fun v131 k0_hw10 => k0_hw10

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v144 : BitVec 32 := Scalar.addi v0 c10_i32
  let v145 : Index := Scalar.indexCast v144
  ![v145.toNat]
def k0_off22 (v146 : BitVec 32) : Fin 2 → Nat :=
  let c0_i32_87 : BitVec 32 := 0#32
  ![v146.toNat, 0]

def k0_chk11 (v146 : BitVec 32) : Prop :=
  (∀ a, (k0_off22 v146) a + S1x8142.size a ≤ S8142x8142.size a)
instance k0_chk11.dec : ∀ (v146 : BitVec 32), Decidable (k0_chk11 v146) := fun v146 => decidable_of_iff' _ (Iff.of_eq (k0_chk11.eq_1 v146))
theorem k0_off22_inb : ∀ (v146 : BitVec 32) (k0_hw11 : k0_chk11 v146), ∀ a, (k0_off22 v146) a + S1x8142.size a ≤ S8142x8142.size a := fun v146 k0_hw11 => k0_hw11

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v159 : BitVec 32 := Scalar.addi v0 c11_i32
  let v160 : Index := Scalar.indexCast v159
  ![v160.toNat]
def k0_off24 (v161 : BitVec 32) : Fin 2 → Nat :=
  let c0_i32_96 : BitVec 32 := 0#32
  ![v161.toNat, 0]

def k0_chk12 (v161 : BitVec 32) : Prop :=
  (∀ a, (k0_off24 v161) a + S1x8142.size a ≤ S8142x8142.size a)
instance k0_chk12.dec : ∀ (v161 : BitVec 32), Decidable (k0_chk12 v161) := fun v161 => decidable_of_iff' _ (Iff.of_eq (k0_chk12.eq_1 v161))
theorem k0_off24_inb : ∀ (v161 : BitVec 32) (k0_hw12 : k0_chk12 v161), ∀ a, (k0_off24 v161) a + S1x8142.size a ≤ S8142x8142.size a := fun v161 k0_hw12 => k0_hw12

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v174 : BitVec 32 := Scalar.addi v0 c12_i32
  let v175 : Index := Scalar.indexCast v174
  ![v175.toNat]
def k0_off26 (v176 : BitVec 32) : Fin 2 → Nat :=
  let c0_i32_105 : BitVec 32 := 0#32
  ![v176.toNat, 0]

def k0_chk13 (v176 : BitVec 32) : Prop :=
  (∀ a, (k0_off26 v176) a + S1x8142.size a ≤ S8142x8142.size a)
instance k0_chk13.dec : ∀ (v176 : BitVec 32), Decidable (k0_chk13 v176) := fun v176 => decidable_of_iff' _ (Iff.of_eq (k0_chk13.eq_1 v176))
theorem k0_off26_inb : ∀ (v176 : BitVec 32) (k0_hw13 : k0_chk13 v176), ∀ a, (k0_off26 v176) a + S1x8142.size a ≤ S8142x8142.size a := fun v176 k0_hw13 => k0_hw13

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v189 : BitVec 32 := Scalar.addi v0 c13_i32
  let v190 : Index := Scalar.indexCast v189
  ![v190.toNat]
def k0_off28 (v191 : BitVec 32) : Fin 2 → Nat :=
  let c0_i32_114 : BitVec 32 := 0#32
  ![v191.toNat, 0]

def k0_chk14 (v191 : BitVec 32) : Prop :=
  (∀ a, (k0_off28 v191) a + S1x8142.size a ≤ S8142x8142.size a)
instance k0_chk14.dec : ∀ (v191 : BitVec 32), Decidable (k0_chk14 v191) := fun v191 => decidable_of_iff' _ (Iff.of_eq (k0_chk14.eq_1 v191))
theorem k0_off28_inb : ∀ (v191 : BitVec 32) (k0_hw14 : k0_chk14 v191), ∀ a, (k0_off28 v191) a + S1x8142.size a ≤ S8142x8142.size a := fun v191 k0_hw14 => k0_hw14

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v204 : BitVec 32 := Scalar.addi v0 c14_i32
  let v205 : Index := Scalar.indexCast v204
  ![v205.toNat]
def k0_off30 (v206 : BitVec 32) : Fin 2 → Nat :=
  let c0_i32_123 : BitVec 32 := 0#32
  ![v206.toNat, 0]

def k0_chk15 (v206 : BitVec 32) : Prop :=
  (∀ a, (k0_off30 v206) a + S1x8142.size a ≤ S8142x8142.size a)
instance k0_chk15.dec : ∀ (v206 : BitVec 32), Decidable (k0_chk15 v206) := fun v206 => decidable_of_iff' _ (Iff.of_eq (k0_chk15.eq_1 v206))
theorem k0_off30_inb : ∀ (v206 : BitVec 32) (k0_hw15 : k0_chk15 v206), ∀ a, (k0_off30 v206) a + S1x8142.size a ≤ S8142x8142.size a := fun v206 k0_hw15 => k0_hw15

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v219 : BitVec 32 := Scalar.addi v0 c15_i32
  let v220 : Index := Scalar.indexCast v219
  ![v220.toNat]
def k0_off32 (v221 : BitVec 32) : Fin 2 → Nat :=
  let c0_i32_132 : BitVec 32 := 0#32
  ![v221.toNat, 0]

def k0_chk16 (v221 : BitVec 32) : Prop :=
  (∀ a, (k0_off32 v221) a + S1x8142.size a ≤ S8142x8142.size a)
instance k0_chk16.dec : ∀ (v221 : BitVec 32), Decidable (k0_chk16 v221) := fun v221 => decidable_of_iff' _ (Iff.of_eq (k0_chk16.eq_1 v221))
theorem k0_off32_inb : ∀ (v221 : BitVec 32) (k0_hw16 : k0_chk16 v221), ∀ a, (k0_off32 v221) a + S1x8142.size a ≤ S8142x8142.size a := fun v221 k0_hw16 => k0_hw16

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v234 : BitVec 32 := Scalar.addi v0 c16_i32
  let v235 : Index := Scalar.indexCast v234
  ![v235.toNat]
def k0_off34 (v236 : BitVec 32) : Fin 2 → Nat :=
  let c0_i32_141 : BitVec 32 := 0#32
  ![v236.toNat, 0]

def k0_chk17 (v236 : BitVec 32) : Prop :=
  (∀ a, (k0_off34 v236) a + S1x8142.size a ≤ S8142x8142.size a)
instance k0_chk17.dec : ∀ (v236 : BitVec 32), Decidable (k0_chk17 v236) := fun v236 => decidable_of_iff' _ (Iff.of_eq (k0_chk17.eq_1 v236))
theorem k0_off34_inb : ∀ (v236 : BitVec 32) (k0_hw17 : k0_chk17 v236), ∀ a, (k0_off34 v236) a + S1x8142.size a ≤ S8142x8142.size a := fun v236 k0_hw17 => k0_hw17

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v249 : BitVec 32 := Scalar.addi v0 c17_i32
  let v250 : Index := Scalar.indexCast v249
  ![v250.toNat]
def k0_off36 (v251 : BitVec 32) : Fin 2 → Nat :=
  let c0_i32_150 : BitVec 32 := 0#32
  ![v251.toNat, 0]

def k0_chk18 (v251 : BitVec 32) : Prop :=
  (∀ a, (k0_off36 v251) a + S1x8142.size a ≤ S8142x8142.size a)
instance k0_chk18.dec : ∀ (v251 : BitVec 32), Decidable (k0_chk18 v251) := fun v251 => decidable_of_iff' _ (Iff.of_eq (k0_chk18.eq_1 v251))
theorem k0_off36_inb : ∀ (v251 : BitVec 32) (k0_hw18 : k0_chk18 v251), ∀ a, (k0_off36 v251) a + S1x8142.size a ≤ S8142x8142.size a := fun v251 k0_hw18 => k0_hw18

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v264 : BitVec 32 := Scalar.addi v0 c18_i32
  let v265 : Index := Scalar.indexCast v264
  ![v265.toNat]
def k0_off38 (v266 : BitVec 32) : Fin 2 → Nat :=
  let c0_i32_159 : BitVec 32 := 0#32
  ![v266.toNat, 0]

def k0_chk19 (v266 : BitVec 32) : Prop :=
  (∀ a, (k0_off38 v266) a + S1x8142.size a ≤ S8142x8142.size a)
instance k0_chk19.dec : ∀ (v266 : BitVec 32), Decidable (k0_chk19 v266) := fun v266 => decidable_of_iff' _ (Iff.of_eq (k0_chk19.eq_1 v266))
theorem k0_off38_inb : ∀ (v266 : BitVec 32) (k0_hw19 : k0_chk19 v266), ∀ a, (k0_off38 v266) a + S1x8142.size a ≤ S8142x8142.size a := fun v266 k0_hw19 => k0_hw19

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v279 : BitVec 32 := Scalar.addi v0 c19_i32
  let v280 : Index := Scalar.indexCast v279
  ![v280.toNat]
def k0_off40 (v281 : BitVec 32) : Fin 2 → Nat :=
  let c0_i32_168 : BitVec 32 := 0#32
  ![v281.toNat, 0]

def k0_chk20 (v281 : BitVec 32) : Prop :=
  (∀ a, (k0_off40 v281) a + S1x8142.size a ≤ S8142x8142.size a)
instance k0_chk20.dec : ∀ (v281 : BitVec 32), Decidable (k0_chk20 v281) := fun v281 => decidable_of_iff' _ (Iff.of_eq (k0_chk20.eq_1 v281))
theorem k0_off40_inb : ∀ (v281 : BitVec 32) (k0_hw20 : k0_chk20 v281), ∀ a, (k0_off40 v281) a + S1x8142.size a ≤ S8142x8142.size a := fun v281 k0_hw20 => k0_hw20

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v294 : BitVec 32 := Scalar.addi v0 c20_i32
  let v295 : Index := Scalar.indexCast v294
  ![v295.toNat]
def k0_off42 (v296 : BitVec 32) : Fin 2 → Nat :=
  let c0_i32_177 : BitVec 32 := 0#32
  ![v296.toNat, 0]

def k0_chk21 (v296 : BitVec 32) : Prop :=
  (∀ a, (k0_off42 v296) a + S1x8142.size a ≤ S8142x8142.size a)
instance k0_chk21.dec : ∀ (v296 : BitVec 32), Decidable (k0_chk21 v296) := fun v296 => decidable_of_iff' _ (Iff.of_eq (k0_chk21.eq_1 v296))
theorem k0_off42_inb : ∀ (v296 : BitVec 32) (k0_hw21 : k0_chk21 v296), ∀ a, (k0_off42 v296) a + S1x8142.size a ≤ S8142x8142.size a := fun v296 k0_hw21 => k0_hw21

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v309 : BitVec 32 := Scalar.addi v0 c21_i32
  let v310 : Index := Scalar.indexCast v309
  ![v310.toNat]
def k0_off44 (v311 : BitVec 32) : Fin 2 → Nat :=
  let c0_i32_186 : BitVec 32 := 0#32
  ![v311.toNat, 0]

def k0_chk22 (v311 : BitVec 32) : Prop :=
  (∀ a, (k0_off44 v311) a + S1x8142.size a ≤ S8142x8142.size a)
instance k0_chk22.dec : ∀ (v311 : BitVec 32), Decidable (k0_chk22 v311) := fun v311 => decidable_of_iff' _ (Iff.of_eq (k0_chk22.eq_1 v311))
theorem k0_off44_inb : ∀ (v311 : BitVec 32) (k0_hw22 : k0_chk22 v311), ∀ a, (k0_off44 v311) a + S1x8142.size a ≤ S8142x8142.size a := fun v311 k0_hw22 => k0_hw22

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v324 : BitVec 32 := Scalar.addi v0 c22_i32
  let v325 : Index := Scalar.indexCast v324
  ![v325.toNat]
def k0_off46 (v326 : BitVec 32) : Fin 2 → Nat :=
  let c0_i32_195 : BitVec 32 := 0#32
  ![v326.toNat, 0]

def k0_chk23 (v326 : BitVec 32) : Prop :=
  (∀ a, (k0_off46 v326) a + S1x8142.size a ≤ S8142x8142.size a)
instance k0_chk23.dec : ∀ (v326 : BitVec 32), Decidable (k0_chk23 v326) := fun v326 => decidable_of_iff' _ (Iff.of_eq (k0_chk23.eq_1 v326))
theorem k0_off46_inb : ∀ (v326 : BitVec 32) (k0_hw23 : k0_chk23 v326), ∀ a, (k0_off46 v326) a + S1x8142.size a ≤ S8142x8142.size a := fun v326 k0_hw23 => k0_hw23

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v339 : BitVec 32 := Scalar.addi v0 c23_i32
  let v340 : Index := Scalar.indexCast v339
  ![v340.toNat]
def k0_off48 (v341 : BitVec 32) : Fin 2 → Nat :=
  let c0_i32_204 : BitVec 32 := 0#32
  ![v341.toNat, 0]

def k0_chk24 (v341 : BitVec 32) : Prop :=
  (∀ a, (k0_off48 v341) a + S1x8142.size a ≤ S8142x8142.size a)
instance k0_chk24.dec : ∀ (v341 : BitVec 32), Decidable (k0_chk24 v341) := fun v341 => decidable_of_iff' _ (Iff.of_eq (k0_chk24.eq_1 v341))
theorem k0_off48_inb : ∀ (v341 : BitVec 32) (k0_hw24 : k0_chk24 v341), ∀ a, (k0_off48 v341) a + S1x8142.size a ≤ S8142x8142.size a := fun v341 k0_hw24 => k0_hw24

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v354 : BitVec 32 := Scalar.addi v0 c24_i32
  let v355 : Index := Scalar.indexCast v354
  ![v355.toNat]
def k0_off50 (v356 : BitVec 32) : Fin 2 → Nat :=
  let c0_i32_213 : BitVec 32 := 0#32
  ![v356.toNat, 0]

def k0_chk25 (v356 : BitVec 32) : Prop :=
  (∀ a, (k0_off50 v356) a + S1x8142.size a ≤ S8142x8142.size a)
instance k0_chk25.dec : ∀ (v356 : BitVec 32), Decidable (k0_chk25 v356) := fun v356 => decidable_of_iff' _ (Iff.of_eq (k0_chk25.eq_1 v356))
theorem k0_off50_inb : ∀ (v356 : BitVec 32) (k0_hw25 : k0_chk25 v356), ∀ a, (k0_off50 v356) a + S1x8142.size a ≤ S8142x8142.size a := fun v356 k0_hw25 => k0_hw25

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v369 : BitVec 32 := Scalar.addi v0 c25_i32
  let v370 : Index := Scalar.indexCast v369
  ![v370.toNat]
def k0_off52 (v371 : BitVec 32) : Fin 2 → Nat :=
  let c0_i32_222 : BitVec 32 := 0#32
  ![v371.toNat, 0]

def k0_chk26 (v371 : BitVec 32) : Prop :=
  (∀ a, (k0_off52 v371) a + S1x8142.size a ≤ S8142x8142.size a)
instance k0_chk26.dec : ∀ (v371 : BitVec 32), Decidable (k0_chk26 v371) := fun v371 => decidable_of_iff' _ (Iff.of_eq (k0_chk26.eq_1 v371))
theorem k0_off52_inb : ∀ (v371 : BitVec 32) (k0_hw26 : k0_chk26 v371), ∀ a, (k0_off52 v371) a + S1x8142.size a ≤ S8142x8142.size a := fun v371 k0_hw26 => k0_hw26

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v384 : BitVec 32 := Scalar.addi v0 c26_i32
  let v385 : Index := Scalar.indexCast v384
  ![v385.toNat]
def k0_off54 (v386 : BitVec 32) : Fin 2 → Nat :=
  let c0_i32_231 : BitVec 32 := 0#32
  ![v386.toNat, 0]

def k0_chk27 (v386 : BitVec 32) : Prop :=
  (∀ a, (k0_off54 v386) a + S1x8142.size a ≤ S8142x8142.size a)
instance k0_chk27.dec : ∀ (v386 : BitVec 32), Decidable (k0_chk27 v386) := fun v386 => decidable_of_iff' _ (Iff.of_eq (k0_chk27.eq_1 v386))
theorem k0_off54_inb : ∀ (v386 : BitVec 32) (k0_hw27 : k0_chk27 v386), ∀ a, (k0_off54 v386) a + S1x8142.size a ≤ S8142x8142.size a := fun v386 k0_hw27 => k0_hw27

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v399 : BitVec 32 := Scalar.addi v0 c27_i32
  let v400 : Index := Scalar.indexCast v399
  ![v400.toNat]
def k0_off56 (v401 : BitVec 32) : Fin 2 → Nat :=
  let c0_i32_240 : BitVec 32 := 0#32
  ![v401.toNat, 0]

def k0_chk28 (v401 : BitVec 32) : Prop :=
  (∀ a, (k0_off56 v401) a + S1x8142.size a ≤ S8142x8142.size a)
instance k0_chk28.dec : ∀ (v401 : BitVec 32), Decidable (k0_chk28 v401) := fun v401 => decidable_of_iff' _ (Iff.of_eq (k0_chk28.eq_1 v401))
theorem k0_off56_inb : ∀ (v401 : BitVec 32) (k0_hw28 : k0_chk28 v401), ∀ a, (k0_off56 v401) a + S1x8142.size a ≤ S8142x8142.size a := fun v401 k0_hw28 => k0_hw28

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v414 : BitVec 32 := Scalar.addi v0 c28_i32
  let v415 : Index := Scalar.indexCast v414
  ![v415.toNat]
def k0_off58 (v416 : BitVec 32) : Fin 2 → Nat :=
  let c0_i32_249 : BitVec 32 := 0#32
  ![v416.toNat, 0]

def k0_chk29 (v416 : BitVec 32) : Prop :=
  (∀ a, (k0_off58 v416) a + S1x8142.size a ≤ S8142x8142.size a)
instance k0_chk29.dec : ∀ (v416 : BitVec 32), Decidable (k0_chk29 v416) := fun v416 => decidable_of_iff' _ (Iff.of_eq (k0_chk29.eq_1 v416))
theorem k0_off58_inb : ∀ (v416 : BitVec 32) (k0_hw29 : k0_chk29 v416), ∀ a, (k0_off58 v416) a + S1x8142.size a ≤ S8142x8142.size a := fun v416 k0_hw29 => k0_hw29

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v429 : BitVec 32 := Scalar.addi v0 c29_i32
  let v430 : Index := Scalar.indexCast v429
  ![v430.toNat]
def k0_off60 (v431 : BitVec 32) : Fin 2 → Nat :=
  let c0_i32_258 : BitVec 32 := 0#32
  ![v431.toNat, 0]

def k0_chk30 (v431 : BitVec 32) : Prop :=
  (∀ a, (k0_off60 v431) a + S1x8142.size a ≤ S8142x8142.size a)
instance k0_chk30.dec : ∀ (v431 : BitVec 32), Decidable (k0_chk30 v431) := fun v431 => decidable_of_iff' _ (Iff.of_eq (k0_chk30.eq_1 v431))
theorem k0_off60_inb : ∀ (v431 : BitVec 32) (k0_hw30 : k0_chk30 v431), ∀ a, (k0_off60 v431) a + S1x8142.size a ≤ S8142x8142.size a := fun v431 k0_hw30 => k0_hw30

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v444 : BitVec 32 := Scalar.addi v0 c30_i32
  let v445 : Index := Scalar.indexCast v444
  ![v445.toNat]
def k0_off62 (v446 : BitVec 32) : Fin 2 → Nat :=
  let c0_i32_267 : BitVec 32 := 0#32
  ![v446.toNat, 0]

def k0_chk31 (v446 : BitVec 32) : Prop :=
  (∀ a, (k0_off62 v446) a + S1x8142.size a ≤ S8142x8142.size a)
instance k0_chk31.dec : ∀ (v446 : BitVec 32), Decidable (k0_chk31 v446) := fun v446 => decidable_of_iff' _ (Iff.of_eq (k0_chk31.eq_1 v446))
theorem k0_off62_inb : ∀ (v446 : BitVec 32) (k0_hw31 : k0_chk31 v446), ∀ a, (k0_off62 v446) a + S1x8142.size a ≤ S8142x8142.size a := fun v446 k0_hw31 => k0_hw31

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v459 : BitVec 32 := Scalar.addi v0 c31_i32
  let v460 : Index := Scalar.indexCast v459
  ![v460.toNat]
def k0_off64 (v461 : BitVec 32) : Fin 2 → Nat :=
  let c0_i32_276 : BitVec 32 := 0#32
  ![v461.toNat, 0]

def k0_chk32 (v461 : BitVec 32) : Prop :=
  (∀ a, (k0_off64 v461) a + S1x8142.size a ≤ S8142x8142.size a)
instance k0_chk32.dec : ∀ (v461 : BitVec 32), Decidable (k0_chk32 v461) := fun v461 => decidable_of_iff' _ (Iff.of_eq (k0_chk32.eq_1 v461))
theorem k0_off64_inb : ∀ (v461 : BitVec 32) (k0_hw32 : k0_chk32 v461), ∀ a, (k0_off64 v461) a + S1x8142.size a ≤ S8142x8142.size a := fun v461 k0_hw32 => k0_hw32

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v474 : BitVec 32 := Scalar.addi v0 c32_i32
  let v475 : Index := Scalar.indexCast v474
  ![v475.toNat]
def k0_off66 (v476 : BitVec 32) : Fin 2 → Nat :=
  let c0_i32_285 : BitVec 32 := 0#32
  ![v476.toNat, 0]

def k0_chk33 (v476 : BitVec 32) : Prop :=
  (∀ a, (k0_off66 v476) a + S1x8142.size a ≤ S8142x8142.size a)
instance k0_chk33.dec : ∀ (v476 : BitVec 32), Decidable (k0_chk33 v476) := fun v476 => decidable_of_iff' _ (Iff.of_eq (k0_chk33.eq_1 v476))
theorem k0_off66_inb : ∀ (v476 : BitVec 32) (k0_hw33 : k0_chk33 v476), ∀ a, (k0_off66 v476) a + S1x8142.size a ≤ S8142x8142.size a := fun v476 k0_hw33 => k0_hw33

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v489 : BitVec 32 := Scalar.addi v0 c33_i32
  let v490 : Index := Scalar.indexCast v489
  ![v490.toNat]
def k0_off68 (v491 : BitVec 32) : Fin 2 → Nat :=
  let c0_i32_294 : BitVec 32 := 0#32
  ![v491.toNat, 0]

def k0_chk34 (v491 : BitVec 32) : Prop :=
  (∀ a, (k0_off68 v491) a + S1x8142.size a ≤ S8142x8142.size a)
instance k0_chk34.dec : ∀ (v491 : BitVec 32), Decidable (k0_chk34 v491) := fun v491 => decidable_of_iff' _ (Iff.of_eq (k0_chk34.eq_1 v491))
theorem k0_off68_inb : ∀ (v491 : BitVec 32) (k0_hw34 : k0_chk34 v491), ∀ a, (k0_off68 v491) a + S1x8142.size a ≤ S8142x8142.size a := fun v491 k0_hw34 => k0_hw34

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v504 : BitVec 32 := Scalar.addi v0 c34_i32
  let v505 : Index := Scalar.indexCast v504
  ![v505.toNat]
def k0_off70 (v506 : BitVec 32) : Fin 2 → Nat :=
  let c0_i32_303 : BitVec 32 := 0#32
  ![v506.toNat, 0]

def k0_chk35 (v506 : BitVec 32) : Prop :=
  (∀ a, (k0_off70 v506) a + S1x8142.size a ≤ S8142x8142.size a)
instance k0_chk35.dec : ∀ (v506 : BitVec 32), Decidable (k0_chk35 v506) := fun v506 => decidable_of_iff' _ (Iff.of_eq (k0_chk35.eq_1 v506))
theorem k0_off70_inb : ∀ (v506 : BitVec 32) (k0_hw35 : k0_chk35 v506), ∀ a, (k0_off70 v506) a + S1x8142.size a ≤ S8142x8142.size a := fun v506 k0_hw35 => k0_hw35

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v519 : BitVec 32 := Scalar.addi v0 c35_i32
  let v520 : Index := Scalar.indexCast v519
  ![v520.toNat]
def k0_off72 (v521 : BitVec 32) : Fin 2 → Nat :=
  let c0_i32_312 : BitVec 32 := 0#32
  ![v521.toNat, 0]

def k0_chk36 (v521 : BitVec 32) : Prop :=
  (∀ a, (k0_off72 v521) a + S1x8142.size a ≤ S8142x8142.size a)
instance k0_chk36.dec : ∀ (v521 : BitVec 32), Decidable (k0_chk36 v521) := fun v521 => decidable_of_iff' _ (Iff.of_eq (k0_chk36.eq_1 v521))
theorem k0_off72_inb : ∀ (v521 : BitVec 32) (k0_hw36 : k0_chk36 v521), ∀ a, (k0_off72 v521) a + S1x8142.size a ≤ S8142x8142.size a := fun v521 k0_hw36 => k0_hw36

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v534 : BitVec 32 := Scalar.addi v0 c36_i32
  let v535 : Index := Scalar.indexCast v534
  ![v535.toNat]
def k0_off74 (v536 : BitVec 32) : Fin 2 → Nat :=
  let c0_i32_321 : BitVec 32 := 0#32
  ![v536.toNat, 0]

def k0_chk37 (v536 : BitVec 32) : Prop :=
  (∀ a, (k0_off74 v536) a + S1x8142.size a ≤ S8142x8142.size a)
instance k0_chk37.dec : ∀ (v536 : BitVec 32), Decidable (k0_chk37 v536) := fun v536 => decidable_of_iff' _ (Iff.of_eq (k0_chk37.eq_1 v536))
theorem k0_off74_inb : ∀ (v536 : BitVec 32) (k0_hw37 : k0_chk37 v536), ∀ a, (k0_off74 v536) a + S1x8142.size a ≤ S8142x8142.size a := fun v536 k0_hw37 => k0_hw37

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v549 : BitVec 32 := Scalar.addi v0 c37_i32
  let v550 : Index := Scalar.indexCast v549
  ![v550.toNat]
def k0_off76 (v551 : BitVec 32) : Fin 2 → Nat :=
  let c0_i32_330 : BitVec 32 := 0#32
  ![v551.toNat, 0]

def k0_chk38 (v551 : BitVec 32) : Prop :=
  (∀ a, (k0_off76 v551) a + S1x8142.size a ≤ S8142x8142.size a)
instance k0_chk38.dec : ∀ (v551 : BitVec 32), Decidable (k0_chk38 v551) := fun v551 => decidable_of_iff' _ (Iff.of_eq (k0_chk38.eq_1 v551))
theorem k0_off76_inb : ∀ (v551 : BitVec 32) (k0_hw38 : k0_chk38 v551), ∀ a, (k0_off76 v551) a + S1x8142.size a ≤ S8142x8142.size a := fun v551 k0_hw38 => k0_hw38

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v564 : BitVec 32 := Scalar.addi v0 c38_i32
  let v565 : Index := Scalar.indexCast v564
  ![v565.toNat]
def k0_off78 (v566 : BitVec 32) : Fin 2 → Nat :=
  let c0_i32_339 : BitVec 32 := 0#32
  ![v566.toNat, 0]

def k0_chk39 (v566 : BitVec 32) : Prop :=
  (∀ a, (k0_off78 v566) a + S1x8142.size a ≤ S8142x8142.size a)
instance k0_chk39.dec : ∀ (v566 : BitVec 32), Decidable (k0_chk39 v566) := fun v566 => decidable_of_iff' _ (Iff.of_eq (k0_chk39.eq_1 v566))
theorem k0_off78_inb : ∀ (v566 : BitVec 32) (k0_hw39 : k0_chk39 v566), ∀ a, (k0_off78 v566) a + S1x8142.size a ≤ S8142x8142.size a := fun v566 k0_hw39 => k0_hw39

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v579 : BitVec 32 := Scalar.addi v0 c39_i32
  let v580 : Index := Scalar.indexCast v579
  ![v580.toNat]
def k0_off80 (v581 : BitVec 32) : Fin 2 → Nat :=
  let c0_i32_348 : BitVec 32 := 0#32
  ![v581.toNat, 0]

def k0_chk40 (v581 : BitVec 32) : Prop :=
  (∀ a, (k0_off80 v581) a + S1x8142.size a ≤ S8142x8142.size a)
instance k0_chk40.dec : ∀ (v581 : BitVec 32), Decidable (k0_chk40 v581) := fun v581 => decidable_of_iff' _ (Iff.of_eq (k0_chk40.eq_1 v581))
theorem k0_off80_inb : ∀ (v581 : BitVec 32) (k0_hw40 : k0_chk40 v581), ∀ a, (k0_off80 v581) a + S1x8142.size a ≤ S8142x8142.size a := fun v581 k0_hw40 => k0_hw40

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v594 : BitVec 32 := Scalar.addi v0 c40_i32
  let v595 : Index := Scalar.indexCast v594
  ![v595.toNat]
def k0_off82 (v596 : BitVec 32) : Fin 2 → Nat :=
  let c0_i32_357 : BitVec 32 := 0#32
  ![v596.toNat, 0]

def k0_chk41 (v596 : BitVec 32) : Prop :=
  (∀ a, (k0_off82 v596) a + S1x8142.size a ≤ S8142x8142.size a)
instance k0_chk41.dec : ∀ (v596 : BitVec 32), Decidable (k0_chk41 v596) := fun v596 => decidable_of_iff' _ (Iff.of_eq (k0_chk41.eq_1 v596))
theorem k0_off82_inb : ∀ (v596 : BitVec 32) (k0_hw41 : k0_chk41 v596), ∀ a, (k0_off82 v596) a + S1x8142.size a ≤ S8142x8142.size a := fun v596 k0_hw41 => k0_hw41

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v609 : BitVec 32 := Scalar.addi v0 c41_i32
  let v610 : Index := Scalar.indexCast v609
  ![v610.toNat]
def k0_off84 (v611 : BitVec 32) : Fin 2 → Nat :=
  let c0_i32_366 : BitVec 32 := 0#32
  ![v611.toNat, 0]

def k0_chk42 (v611 : BitVec 32) : Prop :=
  (∀ a, (k0_off84 v611) a + S1x8142.size a ≤ S8142x8142.size a)
instance k0_chk42.dec : ∀ (v611 : BitVec 32), Decidable (k0_chk42 v611) := fun v611 => decidable_of_iff' _ (Iff.of_eq (k0_chk42.eq_1 v611))
theorem k0_off84_inb : ∀ (v611 : BitVec 32) (k0_hw42 : k0_chk42 v611), ∀ a, (k0_off84 v611) a + S1x8142.size a ≤ S8142x8142.size a := fun v611 k0_hw42 => k0_hw42

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v624 : BitVec 32 := Scalar.addi v0 c42_i32
  let v625 : Index := Scalar.indexCast v624
  ![v625.toNat]
def k0_off86 (v626 : BitVec 32) : Fin 2 → Nat :=
  let c0_i32_375 : BitVec 32 := 0#32
  ![v626.toNat, 0]

def k0_chk43 (v626 : BitVec 32) : Prop :=
  (∀ a, (k0_off86 v626) a + S1x8142.size a ≤ S8142x8142.size a)
instance k0_chk43.dec : ∀ (v626 : BitVec 32), Decidable (k0_chk43 v626) := fun v626 => decidable_of_iff' _ (Iff.of_eq (k0_chk43.eq_1 v626))
theorem k0_off86_inb : ∀ (v626 : BitVec 32) (k0_hw43 : k0_chk43 v626), ∀ a, (k0_off86 v626) a + S1x8142.size a ≤ S8142x8142.size a := fun v626 k0_hw43 => k0_hw43

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v639 : BitVec 32 := Scalar.addi v0 c43_i32
  let v640 : Index := Scalar.indexCast v639
  ![v640.toNat]
def k0_off88 (v641 : BitVec 32) : Fin 2 → Nat :=
  let c0_i32_384 : BitVec 32 := 0#32
  ![v641.toNat, 0]

def k0_chk44 (v641 : BitVec 32) : Prop :=
  (∀ a, (k0_off88 v641) a + S1x8142.size a ≤ S8142x8142.size a)
instance k0_chk44.dec : ∀ (v641 : BitVec 32), Decidable (k0_chk44 v641) := fun v641 => decidable_of_iff' _ (Iff.of_eq (k0_chk44.eq_1 v641))
theorem k0_off88_inb : ∀ (v641 : BitVec 32) (k0_hw44 : k0_chk44 v641), ∀ a, (k0_off88 v641) a + S1x8142.size a ≤ S8142x8142.size a := fun v641 k0_hw44 => k0_hw44

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v654 : BitVec 32 := Scalar.addi v0 c44_i32
  let v655 : Index := Scalar.indexCast v654
  ![v655.toNat]
def k0_off90 (v656 : BitVec 32) : Fin 2 → Nat :=
  let c0_i32_393 : BitVec 32 := 0#32
  ![v656.toNat, 0]

def k0_chk45 (v656 : BitVec 32) : Prop :=
  (∀ a, (k0_off90 v656) a + S1x8142.size a ≤ S8142x8142.size a)
instance k0_chk45.dec : ∀ (v656 : BitVec 32), Decidable (k0_chk45 v656) := fun v656 => decidable_of_iff' _ (Iff.of_eq (k0_chk45.eq_1 v656))
theorem k0_off90_inb : ∀ (v656 : BitVec 32) (k0_hw45 : k0_chk45 v656), ∀ a, (k0_off90 v656) a + S1x8142.size a ≤ S8142x8142.size a := fun v656 k0_hw45 => k0_hw45

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v669 : BitVec 32 := Scalar.addi v0 c45_i32
  let v670 : Index := Scalar.indexCast v669
  ![v670.toNat]
def k0_off92 (v671 : BitVec 32) : Fin 2 → Nat :=
  let c0_i32_402 : BitVec 32 := 0#32
  ![v671.toNat, 0]

def k0_chk46 (v671 : BitVec 32) : Prop :=
  (∀ a, (k0_off92 v671) a + S1x8142.size a ≤ S8142x8142.size a)
instance k0_chk46.dec : ∀ (v671 : BitVec 32), Decidable (k0_chk46 v671) := fun v671 => decidable_of_iff' _ (Iff.of_eq (k0_chk46.eq_1 v671))
theorem k0_off92_inb : ∀ (v671 : BitVec 32) (k0_hw46 : k0_chk46 v671), ∀ a, (k0_off92 v671) a + S1x8142.size a ≤ S8142x8142.size a := fun v671 k0_hw46 => k0_hw46

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v684 : BitVec 32 := Scalar.addi v0 c46_i32
  let v685 : Index := Scalar.indexCast v684
  ![v685.toNat]
def k0_off94 (v686 : BitVec 32) : Fin 2 → Nat :=
  let c0_i32_411 : BitVec 32 := 0#32
  ![v686.toNat, 0]

def k0_chk47 (v686 : BitVec 32) : Prop :=
  (∀ a, (k0_off94 v686) a + S1x8142.size a ≤ S8142x8142.size a)
instance k0_chk47.dec : ∀ (v686 : BitVec 32), Decidable (k0_chk47 v686) := fun v686 => decidable_of_iff' _ (Iff.of_eq (k0_chk47.eq_1 v686))
theorem k0_off94_inb : ∀ (v686 : BitVec 32) (k0_hw47 : k0_chk47 v686), ∀ a, (k0_off94 v686) a + S1x8142.size a ≤ S8142x8142.size a := fun v686 k0_hw47 => k0_hw47

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v699 : BitVec 32 := Scalar.addi v0 c47_i32
  let v700 : Index := Scalar.indexCast v699
  ![v700.toNat]
def k0_off96 (v701 : BitVec 32) : Fin 2 → Nat :=
  let c0_i32_420 : BitVec 32 := 0#32
  ![v701.toNat, 0]

def k0_chk48 (v701 : BitVec 32) : Prop :=
  (∀ a, (k0_off96 v701) a + S1x8142.size a ≤ S8142x8142.size a)
instance k0_chk48.dec : ∀ (v701 : BitVec 32), Decidable (k0_chk48 v701) := fun v701 => decidable_of_iff' _ (Iff.of_eq (k0_chk48.eq_1 v701))
theorem k0_off96_inb : ∀ (v701 : BitVec 32) (k0_hw48 : k0_chk48 v701), ∀ a, (k0_off96 v701) a + S1x8142.size a ≤ S8142x8142.size a := fun v701 k0_hw48 => k0_hw48

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v714 : BitVec 32 := Scalar.addi v0 c48_i32
  let v715 : Index := Scalar.indexCast v714
  ![v715.toNat]
def k0_off98 (v716 : BitVec 32) : Fin 2 → Nat :=
  let c0_i32_429 : BitVec 32 := 0#32
  ![v716.toNat, 0]

def k0_chk49 (v716 : BitVec 32) : Prop :=
  (∀ a, (k0_off98 v716) a + S1x8142.size a ≤ S8142x8142.size a)
instance k0_chk49.dec : ∀ (v716 : BitVec 32), Decidable (k0_chk49 v716) := fun v716 => decidable_of_iff' _ (Iff.of_eq (k0_chk49.eq_1 v716))
theorem k0_off98_inb : ∀ (v716 : BitVec 32) (k0_hw49 : k0_chk49 v716), ∀ a, (k0_off98 v716) a + S1x8142.size a ≤ S8142x8142.size a := fun v716 k0_hw49 => k0_hw49

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v729 : BitVec 32 := Scalar.addi v0 c49_i32
  let v730 : Index := Scalar.indexCast v729
  ![v730.toNat]
def k0_off100 (v731 : BitVec 32) : Fin 2 → Nat :=
  let c0_i32_438 : BitVec 32 := 0#32
  ![v731.toNat, 0]

def k0_chk50 (v731 : BitVec 32) : Prop :=
  (∀ a, (k0_off100 v731) a + S1x8142.size a ≤ S8142x8142.size a)
instance k0_chk50.dec : ∀ (v731 : BitVec 32), Decidable (k0_chk50 v731) := fun v731 => decidable_of_iff' _ (Iff.of_eq (k0_chk50.eq_1 v731))
theorem k0_off100_inb : ∀ (v731 : BitVec 32) (k0_hw50 : k0_chk50 v731), ∀ a, (k0_off100 v731) a + S1x8142.size a ≤ S8142x8142.size a := fun v731 k0_hw50 => k0_hw50

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v744 : BitVec 32 := Scalar.addi v0 c50_i32
  let v745 : Index := Scalar.indexCast v744
  ![v745.toNat]
def k0_off102 (v746 : BitVec 32) : Fin 2 → Nat :=
  let c0_i32_447 : BitVec 32 := 0#32
  ![v746.toNat, 0]

def k0_chk51 (v746 : BitVec 32) : Prop :=
  (∀ a, (k0_off102 v746) a + S1x8142.size a ≤ S8142x8142.size a)
instance k0_chk51.dec : ∀ (v746 : BitVec 32), Decidable (k0_chk51 v746) := fun v746 => decidable_of_iff' _ (Iff.of_eq (k0_chk51.eq_1 v746))
theorem k0_off102_inb : ∀ (v746 : BitVec 32) (k0_hw51 : k0_chk51 v746), ∀ a, (k0_off102 v746) a + S1x8142.size a ≤ S8142x8142.size a := fun v746 k0_hw51 => k0_hw51

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v759 : BitVec 32 := Scalar.addi v0 c51_i32
  let v760 : Index := Scalar.indexCast v759
  ![v760.toNat]
def k0_off104 (v761 : BitVec 32) : Fin 2 → Nat :=
  let c0_i32_456 : BitVec 32 := 0#32
  ![v761.toNat, 0]

def k0_chk52 (v761 : BitVec 32) : Prop :=
  (∀ a, (k0_off104 v761) a + S1x8142.size a ≤ S8142x8142.size a)
instance k0_chk52.dec : ∀ (v761 : BitVec 32), Decidable (k0_chk52 v761) := fun v761 => decidable_of_iff' _ (Iff.of_eq (k0_chk52.eq_1 v761))
theorem k0_off104_inb : ∀ (v761 : BitVec 32) (k0_hw52 : k0_chk52 v761), ∀ a, (k0_off104 v761) a + S1x8142.size a ≤ S8142x8142.size a := fun v761 k0_hw52 => k0_hw52

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v774 : BitVec 32 := Scalar.addi v0 c52_i32
  let v775 : Index := Scalar.indexCast v774
  ![v775.toNat]
def k0_off106 (v776 : BitVec 32) : Fin 2 → Nat :=
  let c0_i32_465 : BitVec 32 := 0#32
  ![v776.toNat, 0]

def k0_chk53 (v776 : BitVec 32) : Prop :=
  (∀ a, (k0_off106 v776) a + S1x8142.size a ≤ S8142x8142.size a)
instance k0_chk53.dec : ∀ (v776 : BitVec 32), Decidable (k0_chk53 v776) := fun v776 => decidable_of_iff' _ (Iff.of_eq (k0_chk53.eq_1 v776))
theorem k0_off106_inb : ∀ (v776 : BitVec 32) (k0_hw53 : k0_chk53 v776), ∀ a, (k0_off106 v776) a + S1x8142.size a ≤ S8142x8142.size a := fun v776 k0_hw53 => k0_hw53

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v789 : BitVec 32 := Scalar.addi v0 c53_i32
  let v790 : Index := Scalar.indexCast v789
  ![v790.toNat]
def k0_off108 (v791 : BitVec 32) : Fin 2 → Nat :=
  let c0_i32_474 : BitVec 32 := 0#32
  ![v791.toNat, 0]

def k0_chk54 (v791 : BitVec 32) : Prop :=
  (∀ a, (k0_off108 v791) a + S1x8142.size a ≤ S8142x8142.size a)
instance k0_chk54.dec : ∀ (v791 : BitVec 32), Decidable (k0_chk54 v791) := fun v791 => decidable_of_iff' _ (Iff.of_eq (k0_chk54.eq_1 v791))
theorem k0_off108_inb : ∀ (v791 : BitVec 32) (k0_hw54 : k0_chk54 v791), ∀ a, (k0_off108 v791) a + S1x8142.size a ≤ S8142x8142.size a := fun v791 k0_hw54 => k0_hw54

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v804 : BitVec 32 := Scalar.addi v0 c54_i32
  let v805 : Index := Scalar.indexCast v804
  ![v805.toNat]
def k0_off110 (v806 : BitVec 32) : Fin 2 → Nat :=
  let c0_i32_483 : BitVec 32 := 0#32
  ![v806.toNat, 0]

def k0_chk55 (v806 : BitVec 32) : Prop :=
  (∀ a, (k0_off110 v806) a + S1x8142.size a ≤ S8142x8142.size a)
instance k0_chk55.dec : ∀ (v806 : BitVec 32), Decidable (k0_chk55 v806) := fun v806 => decidable_of_iff' _ (Iff.of_eq (k0_chk55.eq_1 v806))
theorem k0_off110_inb : ∀ (v806 : BitVec 32) (k0_hw55 : k0_chk55 v806), ∀ a, (k0_off110 v806) a + S1x8142.size a ≤ S8142x8142.size a := fun v806 k0_hw55 => k0_hw55

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v819 : BitVec 32 := Scalar.addi v0 c55_i32
  let v820 : Index := Scalar.indexCast v819
  ![v820.toNat]
def k0_off112 (v821 : BitVec 32) : Fin 2 → Nat :=
  let c0_i32_492 : BitVec 32 := 0#32
  ![v821.toNat, 0]

def k0_chk56 (v821 : BitVec 32) : Prop :=
  (∀ a, (k0_off112 v821) a + S1x8142.size a ≤ S8142x8142.size a)
instance k0_chk56.dec : ∀ (v821 : BitVec 32), Decidable (k0_chk56 v821) := fun v821 => decidable_of_iff' _ (Iff.of_eq (k0_chk56.eq_1 v821))
theorem k0_off112_inb : ∀ (v821 : BitVec 32) (k0_hw56 : k0_chk56 v821), ∀ a, (k0_off112 v821) a + S1x8142.size a ≤ S8142x8142.size a := fun v821 k0_hw56 => k0_hw56

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v834 : BitVec 32 := Scalar.addi v0 c56_i32
  let v835 : Index := Scalar.indexCast v834
  ![v835.toNat]
def k0_off114 (v836 : BitVec 32) : Fin 2 → Nat :=
  let c0_i32_501 : BitVec 32 := 0#32
  ![v836.toNat, 0]

def k0_chk57 (v836 : BitVec 32) : Prop :=
  (∀ a, (k0_off114 v836) a + S1x8142.size a ≤ S8142x8142.size a)
instance k0_chk57.dec : ∀ (v836 : BitVec 32), Decidable (k0_chk57 v836) := fun v836 => decidable_of_iff' _ (Iff.of_eq (k0_chk57.eq_1 v836))
theorem k0_off114_inb : ∀ (v836 : BitVec 32) (k0_hw57 : k0_chk57 v836), ∀ a, (k0_off114 v836) a + S1x8142.size a ≤ S8142x8142.size a := fun v836 k0_hw57 => k0_hw57

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v849 : BitVec 32 := Scalar.addi v0 c57_i32
  let v850 : Index := Scalar.indexCast v849
  ![v850.toNat]
def k0_off116 (v851 : BitVec 32) : Fin 2 → Nat :=
  let c0_i32_510 : BitVec 32 := 0#32
  ![v851.toNat, 0]

def k0_chk58 (v851 : BitVec 32) : Prop :=
  (∀ a, (k0_off116 v851) a + S1x8142.size a ≤ S8142x8142.size a)
instance k0_chk58.dec : ∀ (v851 : BitVec 32), Decidable (k0_chk58 v851) := fun v851 => decidable_of_iff' _ (Iff.of_eq (k0_chk58.eq_1 v851))
theorem k0_off116_inb : ∀ (v851 : BitVec 32) (k0_hw58 : k0_chk58 v851), ∀ a, (k0_off116 v851) a + S1x8142.size a ≤ S8142x8142.size a := fun v851 k0_hw58 => k0_hw58

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v864 : BitVec 32 := Scalar.addi v0 c58_i32
  let v865 : Index := Scalar.indexCast v864
  ![v865.toNat]
def k0_off118 (v866 : BitVec 32) : Fin 2 → Nat :=
  let c0_i32_519 : BitVec 32 := 0#32
  ![v866.toNat, 0]

def k0_chk59 (v866 : BitVec 32) : Prop :=
  (∀ a, (k0_off118 v866) a + S1x8142.size a ≤ S8142x8142.size a)
instance k0_chk59.dec : ∀ (v866 : BitVec 32), Decidable (k0_chk59 v866) := fun v866 => decidable_of_iff' _ (Iff.of_eq (k0_chk59.eq_1 v866))
theorem k0_off118_inb : ∀ (v866 : BitVec 32) (k0_hw59 : k0_chk59 v866), ∀ a, (k0_off118 v866) a + S1x8142.size a ≤ S8142x8142.size a := fun v866 k0_hw59 => k0_hw59

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v879 : BitVec 32 := Scalar.addi v0 c59_i32
  let v880 : Index := Scalar.indexCast v879
  ![v880.toNat]
def k0_off120 (v881 : BitVec 32) : Fin 2 → Nat :=
  let c0_i32_528 : BitVec 32 := 0#32
  ![v881.toNat, 0]

def k0_chk60 (v881 : BitVec 32) : Prop :=
  (∀ a, (k0_off120 v881) a + S1x8142.size a ≤ S8142x8142.size a)
instance k0_chk60.dec : ∀ (v881 : BitVec 32), Decidable (k0_chk60 v881) := fun v881 => decidable_of_iff' _ (Iff.of_eq (k0_chk60.eq_1 v881))
theorem k0_off120_inb : ∀ (v881 : BitVec 32) (k0_hw60 : k0_chk60 v881), ∀ a, (k0_off120 v881) a + S1x8142.size a ≤ S8142x8142.size a := fun v881 k0_hw60 => k0_hw60

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v894 : BitVec 32 := Scalar.addi v0 c60_i32
  let v895 : Index := Scalar.indexCast v894
  ![v895.toNat]
def k0_off122 (v896 : BitVec 32) : Fin 2 → Nat :=
  let c0_i32_537 : BitVec 32 := 0#32
  ![v896.toNat, 0]

def k0_chk61 (v896 : BitVec 32) : Prop :=
  (∀ a, (k0_off122 v896) a + S1x8142.size a ≤ S8142x8142.size a)
instance k0_chk61.dec : ∀ (v896 : BitVec 32), Decidable (k0_chk61 v896) := fun v896 => decidable_of_iff' _ (Iff.of_eq (k0_chk61.eq_1 v896))
theorem k0_off122_inb : ∀ (v896 : BitVec 32) (k0_hw61 : k0_chk61 v896), ∀ a, (k0_off122 v896) a + S1x8142.size a ≤ S8142x8142.size a := fun v896 k0_hw61 => k0_hw61

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v909 : BitVec 32 := Scalar.addi v0 c61_i32
  let v910 : Index := Scalar.indexCast v909
  ![v910.toNat]
def k0_off124 (v911 : BitVec 32) : Fin 2 → Nat :=
  let c0_i32_546 : BitVec 32 := 0#32
  ![v911.toNat, 0]

def k0_chk62 (v911 : BitVec 32) : Prop :=
  (∀ a, (k0_off124 v911) a + S1x8142.size a ≤ S8142x8142.size a)
instance k0_chk62.dec : ∀ (v911 : BitVec 32), Decidable (k0_chk62 v911) := fun v911 => decidable_of_iff' _ (Iff.of_eq (k0_chk62.eq_1 v911))
theorem k0_off124_inb : ∀ (v911 : BitVec 32) (k0_hw62 : k0_chk62 v911), ∀ a, (k0_off124 v911) a + S1x8142.size a ≤ S8142x8142.size a := fun v911 k0_hw62 => k0_hw62

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v924 : BitVec 32 := Scalar.addi v0 c62_i32
  let v925 : Index := Scalar.indexCast v924
  ![v925.toNat]
def k0_off126 (v926 : BitVec 32) : Fin 2 → Nat :=
  let c0_i32_555 : BitVec 32 := 0#32
  ![v926.toNat, 0]

def k0_chk63 (v926 : BitVec 32) : Prop :=
  (∀ a, (k0_off126 v926) a + S1x8142.size a ≤ S8142x8142.size a)
instance k0_chk63.dec : ∀ (v926 : BitVec 32), Decidable (k0_chk63 v926) := fun v926 => decidable_of_iff' _ (Iff.of_eq (k0_chk63.eq_1 v926))
theorem k0_off126_inb : ∀ (v926 : BitVec 32) (k0_hw63 : k0_chk63 v926), ∀ a, (k0_off126 v926) a + S1x8142.size a ≤ S8142x8142.size a := fun v926 k0_hw63 => k0_hw63

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v939 : BitVec 32 := Scalar.addi v0 c63_i32
  let v940 : Index := Scalar.indexCast v939
  ![v940.toNat]
def k0_off128 (v941 : BitVec 32) : Fin 2 → Nat :=
  let c0_i32_564 : BitVec 32 := 0#32
  ![v941.toNat, 0]

def k0_chk64 (v941 : BitVec 32) : Prop :=
  (∀ a, (k0_off128 v941) a + S1x8142.size a ≤ S8142x8142.size a)
instance k0_chk64.dec : ∀ (v941 : BitVec 32), Decidable (k0_chk64 v941) := fun v941 => decidable_of_iff' _ (Iff.of_eq (k0_chk64.eq_1 v941))
theorem k0_off128_inb : ∀ (v941 : BitVec 32) (k0_hw64 : k0_chk64 v941), ∀ a, (k0_off128 v941) a + S1x8142.size a ≤ S8142x8142.size a := fun v941 k0_hw64 => k0_hw64

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v954 : BitVec 32 := Scalar.addi v0 c64_i32
  let v955 : Index := Scalar.indexCast v954
  ![v955.toNat]
def k0_off130 (v956 : BitVec 32) : Fin 2 → Nat :=
  let c0_i32_573 : BitVec 32 := 0#32
  ![v956.toNat, 0]

def k0_chk65 (v956 : BitVec 32) : Prop :=
  (∀ a, (k0_off130 v956) a + S1x8142.size a ≤ S8142x8142.size a)
instance k0_chk65.dec : ∀ (v956 : BitVec 32), Decidable (k0_chk65 v956) := fun v956 => decidable_of_iff' _ (Iff.of_eq (k0_chk65.eq_1 v956))
theorem k0_off130_inb : ∀ (v956 : BitVec 32) (k0_hw65 : k0_chk65 v956), ∀ a, (k0_off130 v956) a + S1x8142.size a ≤ S8142x8142.size a := fun v956 k0_hw65 => k0_hw65

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v969 : BitVec 32 := Scalar.addi v0 c65_i32
  let v970 : Index := Scalar.indexCast v969
  ![v970.toNat]
def k0_off132 (v971 : BitVec 32) : Fin 2 → Nat :=
  let c0_i32_582 : BitVec 32 := 0#32
  ![v971.toNat, 0]

def k0_chk66 (v971 : BitVec 32) : Prop :=
  (∀ a, (k0_off132 v971) a + S1x8142.size a ≤ S8142x8142.size a)
instance k0_chk66.dec : ∀ (v971 : BitVec 32), Decidable (k0_chk66 v971) := fun v971 => decidable_of_iff' _ (Iff.of_eq (k0_chk66.eq_1 v971))
theorem k0_off132_inb : ∀ (v971 : BitVec 32) (k0_hw66 : k0_chk66 v971), ∀ a, (k0_off132 v971) a + S1x8142.size a ≤ S8142x8142.size a := fun v971 k0_hw66 => k0_hw66

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v984 : BitVec 32 := Scalar.addi v0 c66_i32
  let v985 : Index := Scalar.indexCast v984
  ![v985.toNat]
def k0_off134 (v986 : BitVec 32) : Fin 2 → Nat :=
  let c0_i32_591 : BitVec 32 := 0#32
  ![v986.toNat, 0]

def k0_chk67 (v986 : BitVec 32) : Prop :=
  (∀ a, (k0_off134 v986) a + S1x8142.size a ≤ S8142x8142.size a)
instance k0_chk67.dec : ∀ (v986 : BitVec 32), Decidable (k0_chk67 v986) := fun v986 => decidable_of_iff' _ (Iff.of_eq (k0_chk67.eq_1 v986))
theorem k0_off134_inb : ∀ (v986 : BitVec 32) (k0_hw67 : k0_chk67 v986), ∀ a, (k0_off134 v986) a + S1x8142.size a ≤ S8142x8142.size a := fun v986 k0_hw67 => k0_hw67

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v999 : BitVec 32 := Scalar.addi v0 c67_i32
  let v1000 : Index := Scalar.indexCast v999
  ![v1000.toNat]
def k0_off136 (v1001 : BitVec 32) : Fin 2 → Nat :=
  let c0_i32_600 : BitVec 32 := 0#32
  ![v1001.toNat, 0]

def k0_chk68 (v1001 : BitVec 32) : Prop :=
  (∀ a, (k0_off136 v1001) a + S1x8142.size a ≤ S8142x8142.size a)
instance k0_chk68.dec : ∀ (v1001 : BitVec 32), Decidable (k0_chk68 v1001) := fun v1001 => decidable_of_iff' _ (Iff.of_eq (k0_chk68.eq_1 v1001))
theorem k0_off136_inb : ∀ (v1001 : BitVec 32) (k0_hw68 : k0_chk68 v1001), ∀ a, (k0_off136 v1001) a + S1x8142.size a ≤ S8142x8142.size a := fun v1001 k0_hw68 => k0_hw68

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v1014 : BitVec 32 := Scalar.addi v0 c68_i32
  let v1015 : Index := Scalar.indexCast v1014
  ![v1015.toNat]
def k0_off138 (v1016 : BitVec 32) : Fin 2 → Nat :=
  let c0_i32_609 : BitVec 32 := 0#32
  ![v1016.toNat, 0]

def k0_chk69 (v1016 : BitVec 32) : Prop :=
  (∀ a, (k0_off138 v1016) a + S1x8142.size a ≤ S8142x8142.size a)
instance k0_chk69.dec : ∀ (v1016 : BitVec 32), Decidable (k0_chk69 v1016) := fun v1016 => decidable_of_iff' _ (Iff.of_eq (k0_chk69.eq_1 v1016))
theorem k0_off138_inb : ∀ (v1016 : BitVec 32) (k0_hw69 : k0_chk69 v1016), ∀ a, (k0_off138 v1016) a + S1x8142.size a ≤ S8142x8142.size a := fun v1016 k0_hw69 => k0_hw69

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1029 : BitVec 32 := Scalar.addi v0 c69_i32
  let v1030 : Index := Scalar.indexCast v1029
  ![v1030.toNat]
def k0_off140 (v1031 : BitVec 32) : Fin 2 → Nat :=
  let c0_i32_618 : BitVec 32 := 0#32
  ![v1031.toNat, 0]

def k0_chk70 (v1031 : BitVec 32) : Prop :=
  (∀ a, (k0_off140 v1031) a + S1x8142.size a ≤ S8142x8142.size a)
instance k0_chk70.dec : ∀ (v1031 : BitVec 32), Decidable (k0_chk70 v1031) := fun v1031 => decidable_of_iff' _ (Iff.of_eq (k0_chk70.eq_1 v1031))
theorem k0_off140_inb : ∀ (v1031 : BitVec 32) (k0_hw70 : k0_chk70 v1031), ∀ a, (k0_off140 v1031) a + S1x8142.size a ≤ S8142x8142.size a := fun v1031 k0_hw70 => k0_hw70

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1044 : BitVec 32 := Scalar.addi v0 c70_i32
  let v1045 : Index := Scalar.indexCast v1044
  ![v1045.toNat]
def k0_off142 (v1046 : BitVec 32) : Fin 2 → Nat :=
  let c0_i32_627 : BitVec 32 := 0#32
  ![v1046.toNat, 0]

def k0_chk71 (v1046 : BitVec 32) : Prop :=
  (∀ a, (k0_off142 v1046) a + S1x8142.size a ≤ S8142x8142.size a)
instance k0_chk71.dec : ∀ (v1046 : BitVec 32), Decidable (k0_chk71 v1046) := fun v1046 => decidable_of_iff' _ (Iff.of_eq (k0_chk71.eq_1 v1046))
theorem k0_off142_inb : ∀ (v1046 : BitVec 32) (k0_hw71 : k0_chk71 v1046), ∀ a, (k0_off142 v1046) a + S1x8142.size a ≤ S8142x8142.size a := fun v1046 k0_hw71 => k0_hw71

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1059 : BitVec 32 := Scalar.addi v0 c71_i32
  let v1060 : Index := Scalar.indexCast v1059
  ![v1060.toNat]
def k0_off144 (v1061 : BitVec 32) : Fin 2 → Nat :=
  let c0_i32_636 : BitVec 32 := 0#32
  ![v1061.toNat, 0]

def k0_chk72 (v1061 : BitVec 32) : Prop :=
  (∀ a, (k0_off144 v1061) a + S1x8142.size a ≤ S8142x8142.size a)
instance k0_chk72.dec : ∀ (v1061 : BitVec 32), Decidable (k0_chk72 v1061) := fun v1061 => decidable_of_iff' _ (Iff.of_eq (k0_chk72.eq_1 v1061))
theorem k0_off144_inb : ∀ (v1061 : BitVec 32) (k0_hw72 : k0_chk72 v1061), ∀ a, (k0_off144 v1061) a + S1x8142.size a ≤ S8142x8142.size a := fun v1061 k0_hw72 => k0_hw72

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1074 : BitVec 32 := Scalar.addi v0 c72_i32
  let v1075 : Index := Scalar.indexCast v1074
  ![v1075.toNat]
def k0_off146 (v1076 : BitVec 32) : Fin 2 → Nat :=
  let c0_i32_645 : BitVec 32 := 0#32
  ![v1076.toNat, 0]

def k0_chk73 (v1076 : BitVec 32) : Prop :=
  (∀ a, (k0_off146 v1076) a + S1x8142.size a ≤ S8142x8142.size a)
instance k0_chk73.dec : ∀ (v1076 : BitVec 32), Decidable (k0_chk73 v1076) := fun v1076 => decidable_of_iff' _ (Iff.of_eq (k0_chk73.eq_1 v1076))
theorem k0_off146_inb : ∀ (v1076 : BitVec 32) (k0_hw73 : k0_chk73 v1076), ∀ a, (k0_off146 v1076) a + S1x8142.size a ≤ S8142x8142.size a := fun v1076 k0_hw73 => k0_hw73

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1089 : BitVec 32 := Scalar.addi v0 c73_i32
  let v1090 : Index := Scalar.indexCast v1089
  ![v1090.toNat]
def k0_off148 (v1091 : BitVec 32) : Fin 2 → Nat :=
  let c0_i32_654 : BitVec 32 := 0#32
  ![v1091.toNat, 0]

def k0_chk74 (v1091 : BitVec 32) : Prop :=
  (∀ a, (k0_off148 v1091) a + S1x8142.size a ≤ S8142x8142.size a)
instance k0_chk74.dec : ∀ (v1091 : BitVec 32), Decidable (k0_chk74 v1091) := fun v1091 => decidable_of_iff' _ (Iff.of_eq (k0_chk74.eq_1 v1091))
theorem k0_off148_inb : ∀ (v1091 : BitVec 32) (k0_hw74 : k0_chk74 v1091), ∀ a, (k0_off148 v1091) a + S1x8142.size a ≤ S8142x8142.size a := fun v1091 k0_hw74 => k0_hw74

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1104 : BitVec 32 := Scalar.addi v0 c74_i32
  let v1105 : Index := Scalar.indexCast v1104
  ![v1105.toNat]
def k0_off150 (v1106 : BitVec 32) : Fin 2 → Nat :=
  let c0_i32_663 : BitVec 32 := 0#32
  ![v1106.toNat, 0]

def k0_chk75 (v1106 : BitVec 32) : Prop :=
  (∀ a, (k0_off150 v1106) a + S1x8142.size a ≤ S8142x8142.size a)
instance k0_chk75.dec : ∀ (v1106 : BitVec 32), Decidable (k0_chk75 v1106) := fun v1106 => decidable_of_iff' _ (Iff.of_eq (k0_chk75.eq_1 v1106))
theorem k0_off150_inb : ∀ (v1106 : BitVec 32) (k0_hw75 : k0_chk75 v1106), ∀ a, (k0_off150 v1106) a + S1x8142.size a ≤ S8142x8142.size a := fun v1106 k0_hw75 => k0_hw75

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1119 : BitVec 32 := Scalar.addi v0 c75_i32
  let v1120 : Index := Scalar.indexCast v1119
  ![v1120.toNat]
def k0_off152 (v1121 : BitVec 32) : Fin 2 → Nat :=
  let c0_i32_672 : BitVec 32 := 0#32
  ![v1121.toNat, 0]

def k0_chk76 (v1121 : BitVec 32) : Prop :=
  (∀ a, (k0_off152 v1121) a + S1x8142.size a ≤ S8142x8142.size a)
instance k0_chk76.dec : ∀ (v1121 : BitVec 32), Decidable (k0_chk76 v1121) := fun v1121 => decidable_of_iff' _ (Iff.of_eq (k0_chk76.eq_1 v1121))
theorem k0_off152_inb : ∀ (v1121 : BitVec 32) (k0_hw76 : k0_chk76 v1121), ∀ a, (k0_off152 v1121) a + S1x8142.size a ≤ S8142x8142.size a := fun v1121 k0_hw76 => k0_hw76

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1134 : BitVec 32 := Scalar.addi v0 c76_i32
  let v1135 : Index := Scalar.indexCast v1134
  ![v1135.toNat]
def k0_off154 (v1136 : BitVec 32) : Fin 2 → Nat :=
  let c0_i32_681 : BitVec 32 := 0#32
  ![v1136.toNat, 0]

def k0_chk77 (v1136 : BitVec 32) : Prop :=
  (∀ a, (k0_off154 v1136) a + S1x8142.size a ≤ S8142x8142.size a)
instance k0_chk77.dec : ∀ (v1136 : BitVec 32), Decidable (k0_chk77 v1136) := fun v1136 => decidable_of_iff' _ (Iff.of_eq (k0_chk77.eq_1 v1136))
theorem k0_off154_inb : ∀ (v1136 : BitVec 32) (k0_hw77 : k0_chk77 v1136), ∀ a, (k0_off154 v1136) a + S1x8142.size a ≤ S8142x8142.size a := fun v1136 k0_hw77 => k0_hw77

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1149 : BitVec 32 := Scalar.addi v0 c77_i32
  let v1150 : Index := Scalar.indexCast v1149
  ![v1150.toNat]
def k0_off156 (v1151 : BitVec 32) : Fin 2 → Nat :=
  let c0_i32_690 : BitVec 32 := 0#32
  ![v1151.toNat, 0]

def k0_chk78 (v1151 : BitVec 32) : Prop :=
  (∀ a, (k0_off156 v1151) a + S1x8142.size a ≤ S8142x8142.size a)
instance k0_chk78.dec : ∀ (v1151 : BitVec 32), Decidable (k0_chk78 v1151) := fun v1151 => decidable_of_iff' _ (Iff.of_eq (k0_chk78.eq_1 v1151))
theorem k0_off156_inb : ∀ (v1151 : BitVec 32) (k0_hw78 : k0_chk78 v1151), ∀ a, (k0_off156 v1151) a + S1x8142.size a ≤ S8142x8142.size a := fun v1151 k0_hw78 => k0_hw78

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1164 : BitVec 32 := Scalar.addi v0 c78_i32
  let v1165 : Index := Scalar.indexCast v1164
  ![v1165.toNat]
def k0_off158 (v1166 : BitVec 32) : Fin 2 → Nat :=
  let c0_i32_699 : BitVec 32 := 0#32
  ![v1166.toNat, 0]

def k0_chk79 (v1166 : BitVec 32) : Prop :=
  (∀ a, (k0_off158 v1166) a + S1x8142.size a ≤ S8142x8142.size a)
instance k0_chk79.dec : ∀ (v1166 : BitVec 32), Decidable (k0_chk79 v1166) := fun v1166 => decidable_of_iff' _ (Iff.of_eq (k0_chk79.eq_1 v1166))
theorem k0_off158_inb : ∀ (v1166 : BitVec 32) (k0_hw79 : k0_chk79 v1166), ∀ a, (k0_off158 v1166) a + S1x8142.size a ≤ S8142x8142.size a := fun v1166 k0_hw79 => k0_hw79

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1179 : BitVec 32 := Scalar.addi v0 c79_i32
  let v1180 : Index := Scalar.indexCast v1179
  ![v1180.toNat]
def k0_off160 (v1181 : BitVec 32) : Fin 2 → Nat :=
  let c0_i32_708 : BitVec 32 := 0#32
  ![v1181.toNat, 0]

def k0_chk80 (v1181 : BitVec 32) : Prop :=
  (∀ a, (k0_off160 v1181) a + S1x8142.size a ≤ S8142x8142.size a)
instance k0_chk80.dec : ∀ (v1181 : BitVec 32), Decidable (k0_chk80 v1181) := fun v1181 => decidable_of_iff' _ (Iff.of_eq (k0_chk80.eq_1 v1181))
theorem k0_off160_inb : ∀ (v1181 : BitVec 32) (k0_hw80 : k0_chk80 v1181), ∀ a, (k0_off160 v1181) a + S1x8142.size a ≤ S8142x8142.size a := fun v1181 k0_hw80 => k0_hw80

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v1194 : BitVec 32 := Scalar.addi v0 c80_i32
  let v1195 : Index := Scalar.indexCast v1194
  ![v1195.toNat]
def k0_off162 (v1196 : BitVec 32) : Fin 2 → Nat :=
  let c0_i32_717 : BitVec 32 := 0#32
  ![v1196.toNat, 0]

def k0_chk81 (v1196 : BitVec 32) : Prop :=
  (∀ a, (k0_off162 v1196) a + S1x8142.size a ≤ S8142x8142.size a)
instance k0_chk81.dec : ∀ (v1196 : BitVec 32), Decidable (k0_chk81 v1196) := fun v1196 => decidable_of_iff' _ (Iff.of_eq (k0_chk81.eq_1 v1196))
theorem k0_off162_inb : ∀ (v1196 : BitVec 32) (k0_hw81 : k0_chk81 v1196), ∀ a, (k0_off162 v1196) a + S1x8142.size a ≤ S8142x8142.size a := fun v1196 k0_hw81 => k0_hw81

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v1209 : BitVec 32 := Scalar.addi v0 c81_i32
  let v1210 : Index := Scalar.indexCast v1209
  ![v1210.toNat]
def k0_off164 (v1211 : BitVec 32) : Fin 2 → Nat :=
  let c0_i32_726 : BitVec 32 := 0#32
  ![v1211.toNat, 0]

def k0_chk82 (v1211 : BitVec 32) : Prop :=
  (∀ a, (k0_off164 v1211) a + S1x8142.size a ≤ S8142x8142.size a)
instance k0_chk82.dec : ∀ (v1211 : BitVec 32), Decidable (k0_chk82 v1211) := fun v1211 => decidable_of_iff' _ (Iff.of_eq (k0_chk82.eq_1 v1211))
theorem k0_off164_inb : ∀ (v1211 : BitVec 32) (k0_hw82 : k0_chk82 v1211), ∀ a, (k0_off164 v1211) a + S1x8142.size a ≤ S8142x8142.size a := fun v1211 k0_hw82 => k0_hw82

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v1224 : BitVec 32 := Scalar.addi v0 c82_i32
  let v1225 : Index := Scalar.indexCast v1224
  ![v1225.toNat]
def k0_off166 (v1226 : BitVec 32) : Fin 2 → Nat :=
  let c0_i32_735 : BitVec 32 := 0#32
  ![v1226.toNat, 0]

def k0_chk83 (v1226 : BitVec 32) : Prop :=
  (∀ a, (k0_off166 v1226) a + S1x8142.size a ≤ S8142x8142.size a)
instance k0_chk83.dec : ∀ (v1226 : BitVec 32), Decidable (k0_chk83 v1226) := fun v1226 => decidable_of_iff' _ (Iff.of_eq (k0_chk83.eq_1 v1226))
theorem k0_off166_inb : ∀ (v1226 : BitVec 32) (k0_hw83 : k0_chk83 v1226), ∀ a, (k0_off166 v1226) a + S1x8142.size a ≤ S8142x8142.size a := fun v1226 k0_hw83 => k0_hw83

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v1239 : BitVec 32 := Scalar.addi v0 c83_i32
  let v1240 : Index := Scalar.indexCast v1239
  ![v1240.toNat]
def k0_off168 (v1241 : BitVec 32) : Fin 2 → Nat :=
  let c0_i32_744 : BitVec 32 := 0#32
  ![v1241.toNat, 0]

def k0_chk84 (v1241 : BitVec 32) : Prop :=
  (∀ a, (k0_off168 v1241) a + S1x8142.size a ≤ S8142x8142.size a)
instance k0_chk84.dec : ∀ (v1241 : BitVec 32), Decidable (k0_chk84 v1241) := fun v1241 => decidable_of_iff' _ (Iff.of_eq (k0_chk84.eq_1 v1241))
theorem k0_off168_inb : ∀ (v1241 : BitVec 32) (k0_hw84 : k0_chk84 v1241), ∀ a, (k0_off168 v1241) a + S1x8142.size a ≤ S8142x8142.size a := fun v1241 k0_hw84 => k0_hw84

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v1254 : BitVec 32 := Scalar.addi v0 c84_i32
  let v1255 : Index := Scalar.indexCast v1254
  ![v1255.toNat]
def k0_off170 (v1256 : BitVec 32) : Fin 2 → Nat :=
  let c0_i32_753 : BitVec 32 := 0#32
  ![v1256.toNat, 0]

def k0_chk85 (v1256 : BitVec 32) : Prop :=
  (∀ a, (k0_off170 v1256) a + S1x8142.size a ≤ S8142x8142.size a)
instance k0_chk85.dec : ∀ (v1256 : BitVec 32), Decidable (k0_chk85 v1256) := fun v1256 => decidable_of_iff' _ (Iff.of_eq (k0_chk85.eq_1 v1256))
theorem k0_off170_inb : ∀ (v1256 : BitVec 32) (k0_hw85 : k0_chk85 v1256), ∀ a, (k0_off170 v1256) a + S1x8142.size a ≤ S8142x8142.size a := fun v1256 k0_hw85 => k0_hw85

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v1269 : BitVec 32 := Scalar.addi v0 c85_i32
  let v1270 : Index := Scalar.indexCast v1269
  ![v1270.toNat]
def k0_off172 (v1271 : BitVec 32) : Fin 2 → Nat :=
  let c0_i32_762 : BitVec 32 := 0#32
  ![v1271.toNat, 0]

def k0_chk86 (v1271 : BitVec 32) : Prop :=
  (∀ a, (k0_off172 v1271) a + S1x8142.size a ≤ S8142x8142.size a)
instance k0_chk86.dec : ∀ (v1271 : BitVec 32), Decidable (k0_chk86 v1271) := fun v1271 => decidable_of_iff' _ (Iff.of_eq (k0_chk86.eq_1 v1271))
theorem k0_off172_inb : ∀ (v1271 : BitVec 32) (k0_hw86 : k0_chk86 v1271), ∀ a, (k0_off172 v1271) a + S1x8142.size a ≤ S8142x8142.size a := fun v1271 k0_hw86 => k0_hw86

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v1284 : BitVec 32 := Scalar.addi v0 c86_i32
  let v1285 : Index := Scalar.indexCast v1284
  ![v1285.toNat]
def k0_off174 (v1286 : BitVec 32) : Fin 2 → Nat :=
  let c0_i32_771 : BitVec 32 := 0#32
  ![v1286.toNat, 0]

def k0_chk87 (v1286 : BitVec 32) : Prop :=
  (∀ a, (k0_off174 v1286) a + S1x8142.size a ≤ S8142x8142.size a)
instance k0_chk87.dec : ∀ (v1286 : BitVec 32), Decidable (k0_chk87 v1286) := fun v1286 => decidable_of_iff' _ (Iff.of_eq (k0_chk87.eq_1 v1286))
theorem k0_off174_inb : ∀ (v1286 : BitVec 32) (k0_hw87 : k0_chk87 v1286), ∀ a, (k0_off174 v1286) a + S1x8142.size a ≤ S8142x8142.size a := fun v1286 k0_hw87 => k0_hw87

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v1299 : BitVec 32 := Scalar.addi v0 c87_i32
  let v1300 : Index := Scalar.indexCast v1299
  ![v1300.toNat]
def k0_off176 (v1301 : BitVec 32) : Fin 2 → Nat :=
  let c0_i32_780 : BitVec 32 := 0#32
  ![v1301.toNat, 0]

def k0_chk88 (v1301 : BitVec 32) : Prop :=
  (∀ a, (k0_off176 v1301) a + S1x8142.size a ≤ S8142x8142.size a)
instance k0_chk88.dec : ∀ (v1301 : BitVec 32), Decidable (k0_chk88 v1301) := fun v1301 => decidable_of_iff' _ (Iff.of_eq (k0_chk88.eq_1 v1301))
theorem k0_off176_inb : ∀ (v1301 : BitVec 32) (k0_hw88 : k0_chk88 v1301), ∀ a, (k0_off176 v1301) a + S1x8142.size a ≤ S8142x8142.size a := fun v1301 k0_hw88 => k0_hw88

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v1314 : BitVec 32 := Scalar.addi v0 c88_i32
  let v1315 : Index := Scalar.indexCast v1314
  ![v1315.toNat]
def k0_off178 (v1316 : BitVec 32) : Fin 2 → Nat :=
  let c0_i32_789 : BitVec 32 := 0#32
  ![v1316.toNat, 0]

def k0_chk89 (v1316 : BitVec 32) : Prop :=
  (∀ a, (k0_off178 v1316) a + S1x8142.size a ≤ S8142x8142.size a)
instance k0_chk89.dec : ∀ (v1316 : BitVec 32), Decidable (k0_chk89 v1316) := fun v1316 => decidable_of_iff' _ (Iff.of_eq (k0_chk89.eq_1 v1316))
theorem k0_off178_inb : ∀ (v1316 : BitVec 32) (k0_hw89 : k0_chk89 v1316), ∀ a, (k0_off178 v1316) a + S1x8142.size a ≤ S8142x8142.size a := fun v1316 k0_hw89 => k0_hw89

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v1329 : BitVec 32 := Scalar.addi v0 c89_i32
  let v1330 : Index := Scalar.indexCast v1329
  ![v1330.toNat]
def k0_off180 (v1331 : BitVec 32) : Fin 2 → Nat :=
  let c0_i32_798 : BitVec 32 := 0#32
  ![v1331.toNat, 0]

def k0_chk90 (v1331 : BitVec 32) : Prop :=
  (∀ a, (k0_off180 v1331) a + S1x8142.size a ≤ S8142x8142.size a)
instance k0_chk90.dec : ∀ (v1331 : BitVec 32), Decidable (k0_chk90 v1331) := fun v1331 => decidable_of_iff' _ (Iff.of_eq (k0_chk90.eq_1 v1331))
theorem k0_off180_inb : ∀ (v1331 : BitVec 32) (k0_hw90 : k0_chk90 v1331), ∀ a, (k0_off180 v1331) a + S1x8142.size a ≤ S8142x8142.size a := fun v1331 k0_hw90 => k0_hw90

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v1344 : BitVec 32 := Scalar.addi v0 c90_i32
  let v1345 : Index := Scalar.indexCast v1344
  ![v1345.toNat]
def k0_off182 (v1346 : BitVec 32) : Fin 2 → Nat :=
  let c0_i32_807 : BitVec 32 := 0#32
  ![v1346.toNat, 0]

def k0_chk91 (v1346 : BitVec 32) : Prop :=
  (∀ a, (k0_off182 v1346) a + S1x8142.size a ≤ S8142x8142.size a)
instance k0_chk91.dec : ∀ (v1346 : BitVec 32), Decidable (k0_chk91 v1346) := fun v1346 => decidable_of_iff' _ (Iff.of_eq (k0_chk91.eq_1 v1346))
theorem k0_off182_inb : ∀ (v1346 : BitVec 32) (k0_hw91 : k0_chk91 v1346), ∀ a, (k0_off182 v1346) a + S1x8142.size a ≤ S8142x8142.size a := fun v1346 k0_hw91 => k0_hw91

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1359 : BitVec 32 := Scalar.addi v0 c91_i32
  let v1360 : Index := Scalar.indexCast v1359
  ![v1360.toNat]
def k0_off184 (v1361 : BitVec 32) : Fin 2 → Nat :=
  let c0_i32_816 : BitVec 32 := 0#32
  ![v1361.toNat, 0]

def k0_chk92 (v1361 : BitVec 32) : Prop :=
  (∀ a, (k0_off184 v1361) a + S1x8142.size a ≤ S8142x8142.size a)
instance k0_chk92.dec : ∀ (v1361 : BitVec 32), Decidable (k0_chk92 v1361) := fun v1361 => decidable_of_iff' _ (Iff.of_eq (k0_chk92.eq_1 v1361))
theorem k0_off184_inb : ∀ (v1361 : BitVec 32) (k0_hw92 : k0_chk92 v1361), ∀ a, (k0_off184 v1361) a + S1x8142.size a ≤ S8142x8142.size a := fun v1361 k0_hw92 => k0_hw92

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1374 : BitVec 32 := Scalar.addi v0 c92_i32
  let v1375 : Index := Scalar.indexCast v1374
  ![v1375.toNat]
def k0_off186 (v1376 : BitVec 32) : Fin 2 → Nat :=
  let c0_i32_825 : BitVec 32 := 0#32
  ![v1376.toNat, 0]

def k0_chk93 (v1376 : BitVec 32) : Prop :=
  (∀ a, (k0_off186 v1376) a + S1x8142.size a ≤ S8142x8142.size a)
instance k0_chk93.dec : ∀ (v1376 : BitVec 32), Decidable (k0_chk93 v1376) := fun v1376 => decidable_of_iff' _ (Iff.of_eq (k0_chk93.eq_1 v1376))
theorem k0_off186_inb : ∀ (v1376 : BitVec 32) (k0_hw93 : k0_chk93 v1376), ∀ a, (k0_off186 v1376) a + S1x8142.size a ≤ S8142x8142.size a := fun v1376 k0_hw93 => k0_hw93

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1389 : BitVec 32 := Scalar.addi v0 c93_i32
  let v1390 : Index := Scalar.indexCast v1389
  ![v1390.toNat]
def k0_off188 (v1391 : BitVec 32) : Fin 2 → Nat :=
  let c0_i32_834 : BitVec 32 := 0#32
  ![v1391.toNat, 0]

def k0_chk94 (v1391 : BitVec 32) : Prop :=
  (∀ a, (k0_off188 v1391) a + S1x8142.size a ≤ S8142x8142.size a)
instance k0_chk94.dec : ∀ (v1391 : BitVec 32), Decidable (k0_chk94 v1391) := fun v1391 => decidable_of_iff' _ (Iff.of_eq (k0_chk94.eq_1 v1391))
theorem k0_off188_inb : ∀ (v1391 : BitVec 32) (k0_hw94 : k0_chk94 v1391), ∀ a, (k0_off188 v1391) a + S1x8142.size a ≤ S8142x8142.size a := fun v1391 k0_hw94 => k0_hw94

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1404 : BitVec 32 := Scalar.addi v0 c94_i32
  let v1405 : Index := Scalar.indexCast v1404
  ![v1405.toNat]
def k0_off190 (v1406 : BitVec 32) : Fin 2 → Nat :=
  let c0_i32_843 : BitVec 32 := 0#32
  ![v1406.toNat, 0]

def k0_chk95 (v1406 : BitVec 32) : Prop :=
  (∀ a, (k0_off190 v1406) a + S1x8142.size a ≤ S8142x8142.size a)
instance k0_chk95.dec : ∀ (v1406 : BitVec 32), Decidable (k0_chk95 v1406) := fun v1406 => decidable_of_iff' _ (Iff.of_eq (k0_chk95.eq_1 v1406))
theorem k0_off190_inb : ∀ (v1406 : BitVec 32) (k0_hw95 : k0_chk95 v1406), ∀ a, (k0_off190 v1406) a + S1x8142.size a ≤ S8142x8142.size a := fun v1406 k0_hw95 => k0_hw95

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1419 : BitVec 32 := Scalar.addi v0 c95_i32
  let v1420 : Index := Scalar.indexCast v1419
  ![v1420.toNat]
def k0_off192 (v1421 : BitVec 32) : Fin 2 → Nat :=
  let c0_i32_852 : BitVec 32 := 0#32
  ![v1421.toNat, 0]

def k0_chk96 (v1421 : BitVec 32) : Prop :=
  (∀ a, (k0_off192 v1421) a + S1x8142.size a ≤ S8142x8142.size a)
instance k0_chk96.dec : ∀ (v1421 : BitVec 32), Decidable (k0_chk96 v1421) := fun v1421 => decidable_of_iff' _ (Iff.of_eq (k0_chk96.eq_1 v1421))
theorem k0_off192_inb : ∀ (v1421 : BitVec 32) (k0_hw96 : k0_chk96 v1421), ∀ a, (k0_off192 v1421) a + S1x8142.size a ≤ S8142x8142.size a := fun v1421 k0_hw96 => k0_hw96

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1434 : BitVec 32 := Scalar.addi v0 c96_i32
  let v1435 : Index := Scalar.indexCast v1434
  ![v1435.toNat]
def k0_off194 (v1436 : BitVec 32) : Fin 2 → Nat :=
  let c0_i32_861 : BitVec 32 := 0#32
  ![v1436.toNat, 0]

def k0_chk97 (v1436 : BitVec 32) : Prop :=
  (∀ a, (k0_off194 v1436) a + S1x8142.size a ≤ S8142x8142.size a)
instance k0_chk97.dec : ∀ (v1436 : BitVec 32), Decidable (k0_chk97 v1436) := fun v1436 => decidable_of_iff' _ (Iff.of_eq (k0_chk97.eq_1 v1436))
theorem k0_off194_inb : ∀ (v1436 : BitVec 32) (k0_hw97 : k0_chk97 v1436), ∀ a, (k0_off194 v1436) a + S1x8142.size a ≤ S8142x8142.size a := fun v1436 k0_hw97 => k0_hw97

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1449 : BitVec 32 := Scalar.addi v0 c97_i32
  let v1450 : Index := Scalar.indexCast v1449
  ![v1450.toNat]
def k0_off196 (v1451 : BitVec 32) : Fin 2 → Nat :=
  let c0_i32_870 : BitVec 32 := 0#32
  ![v1451.toNat, 0]

def k0_chk98 (v1451 : BitVec 32) : Prop :=
  (∀ a, (k0_off196 v1451) a + S1x8142.size a ≤ S8142x8142.size a)
instance k0_chk98.dec : ∀ (v1451 : BitVec 32), Decidable (k0_chk98 v1451) := fun v1451 => decidable_of_iff' _ (Iff.of_eq (k0_chk98.eq_1 v1451))
theorem k0_off196_inb : ∀ (v1451 : BitVec 32) (k0_hw98 : k0_chk98 v1451), ∀ a, (k0_off196 v1451) a + S1x8142.size a ≤ S8142x8142.size a := fun v1451 k0_hw98 => k0_hw98

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1464 : BitVec 32 := Scalar.addi v0 c98_i32
  let v1465 : Index := Scalar.indexCast v1464
  ![v1465.toNat]
def k0_off198 (v1466 : BitVec 32) : Fin 2 → Nat :=
  let c0_i32_879 : BitVec 32 := 0#32
  ![v1466.toNat, 0]

def k0_chk99 (v1466 : BitVec 32) : Prop :=
  (∀ a, (k0_off198 v1466) a + S1x8142.size a ≤ S8142x8142.size a)
instance k0_chk99.dec : ∀ (v1466 : BitVec 32), Decidable (k0_chk99 v1466) := fun v1466 => decidable_of_iff' _ (Iff.of_eq (k0_chk99.eq_1 v1466))
theorem k0_off198_inb : ∀ (v1466 : BitVec 32) (k0_hw99 : k0_chk99 v1466), ∀ a, (k0_off198 v1466) a + S1x8142.size a ≤ S8142x8142.size a := fun v1466 k0_hw99 => k0_hw99

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1479 : BitVec 32 := Scalar.addi v0 c99_i32
  let v1480 : Index := Scalar.indexCast v1479
  ![v1480.toNat]
def k0_off200 (v1481 : BitVec 32) : Fin 2 → Nat :=
  let c0_i32_888 : BitVec 32 := 0#32
  ![v1481.toNat, 0]

def k0_chk100 (v1481 : BitVec 32) : Prop :=
  (∀ a, (k0_off200 v1481) a + S1x8142.size a ≤ S8142x8142.size a)
instance k0_chk100.dec : ∀ (v1481 : BitVec 32), Decidable (k0_chk100 v1481) := fun v1481 => decidable_of_iff' _ (Iff.of_eq (k0_chk100.eq_1 v1481))
theorem k0_off200_inb : ∀ (v1481 : BitVec 32) (k0_hw100 : k0_chk100 v1481), ∀ a, (k0_off200 v1481) a + S1x8142.size a ≤ S8142x8142.size a := fun v1481 k0_hw100 => k0_hw100

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1494 : BitVec 32 := Scalar.addi v0 c100_i32
  let v1495 : Index := Scalar.indexCast v1494
  ![v1495.toNat]
def k0_off202 (v1496 : BitVec 32) : Fin 2 → Nat :=
  let c0_i32_897 : BitVec 32 := 0#32
  ![v1496.toNat, 0]

def k0_chk101 (v1496 : BitVec 32) : Prop :=
  (∀ a, (k0_off202 v1496) a + S1x8142.size a ≤ S8142x8142.size a)
instance k0_chk101.dec : ∀ (v1496 : BitVec 32), Decidable (k0_chk101 v1496) := fun v1496 => decidable_of_iff' _ (Iff.of_eq (k0_chk101.eq_1 v1496))
theorem k0_off202_inb : ∀ (v1496 : BitVec 32) (k0_hw101 : k0_chk101 v1496), ∀ a, (k0_off202 v1496) a + S1x8142.size a ≤ S8142x8142.size a := fun v1496 k0_hw101 => k0_hw101

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1509 : BitVec 32 := Scalar.addi v0 c101_i32
  let v1510 : Index := Scalar.indexCast v1509
  ![v1510.toNat]
def k0_off204 (v1511 : BitVec 32) : Fin 2 → Nat :=
  let c0_i32_906 : BitVec 32 := 0#32
  ![v1511.toNat, 0]

def k0_chk102 (v1511 : BitVec 32) : Prop :=
  (∀ a, (k0_off204 v1511) a + S1x8142.size a ≤ S8142x8142.size a)
instance k0_chk102.dec : ∀ (v1511 : BitVec 32), Decidable (k0_chk102 v1511) := fun v1511 => decidable_of_iff' _ (Iff.of_eq (k0_chk102.eq_1 v1511))
theorem k0_off204_inb : ∀ (v1511 : BitVec 32) (k0_hw102 : k0_chk102 v1511), ∀ a, (k0_off204 v1511) a + S1x8142.size a ≤ S8142x8142.size a := fun v1511 k0_hw102 => k0_hw102

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1524 : BitVec 32 := Scalar.addi v0 c102_i32
  let v1525 : Index := Scalar.indexCast v1524
  ![v1525.toNat]
def k0_off206 (v1526 : BitVec 32) : Fin 2 → Nat :=
  let c0_i32_915 : BitVec 32 := 0#32
  ![v1526.toNat, 0]

def k0_chk103 (v1526 : BitVec 32) : Prop :=
  (∀ a, (k0_off206 v1526) a + S1x8142.size a ≤ S8142x8142.size a)
instance k0_chk103.dec : ∀ (v1526 : BitVec 32), Decidable (k0_chk103 v1526) := fun v1526 => decidable_of_iff' _ (Iff.of_eq (k0_chk103.eq_1 v1526))
theorem k0_off206_inb : ∀ (v1526 : BitVec 32) (k0_hw103 : k0_chk103 v1526), ∀ a, (k0_off206 v1526) a + S1x8142.size a ≤ S8142x8142.size a := fun v1526 k0_hw103 => k0_hw103

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1539 : BitVec 32 := Scalar.addi v0 c103_i32
  let v1540 : Index := Scalar.indexCast v1539
  ![v1540.toNat]
def k0_off208 (v1541 : BitVec 32) : Fin 2 → Nat :=
  let c0_i32_924 : BitVec 32 := 0#32
  ![v1541.toNat, 0]

def k0_chk104 (v1541 : BitVec 32) : Prop :=
  (∀ a, (k0_off208 v1541) a + S1x8142.size a ≤ S8142x8142.size a)
instance k0_chk104.dec : ∀ (v1541 : BitVec 32), Decidable (k0_chk104 v1541) := fun v1541 => decidable_of_iff' _ (Iff.of_eq (k0_chk104.eq_1 v1541))
theorem k0_off208_inb : ∀ (v1541 : BitVec 32) (k0_hw104 : k0_chk104 v1541), ∀ a, (k0_off208 v1541) a + S1x8142.size a ≤ S8142x8142.size a := fun v1541 k0_hw104 => k0_hw104

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1554 : BitVec 32 := Scalar.addi v0 c104_i32
  let v1555 : Index := Scalar.indexCast v1554
  ![v1555.toNat]
def k0_off210 (v1556 : BitVec 32) : Fin 2 → Nat :=
  let c0_i32_933 : BitVec 32 := 0#32
  ![v1556.toNat, 0]

def k0_chk105 (v1556 : BitVec 32) : Prop :=
  (∀ a, (k0_off210 v1556) a + S1x8142.size a ≤ S8142x8142.size a)
instance k0_chk105.dec : ∀ (v1556 : BitVec 32), Decidable (k0_chk105 v1556) := fun v1556 => decidable_of_iff' _ (Iff.of_eq (k0_chk105.eq_1 v1556))
theorem k0_off210_inb : ∀ (v1556 : BitVec 32) (k0_hw105 : k0_chk105 v1556), ∀ a, (k0_off210 v1556) a + S1x8142.size a ≤ S8142x8142.size a := fun v1556 k0_hw105 => k0_hw105

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1569 : BitVec 32 := Scalar.addi v0 c105_i32
  let v1570 : Index := Scalar.indexCast v1569
  ![v1570.toNat]
def k0_off212 (v1571 : BitVec 32) : Fin 2 → Nat :=
  let c0_i32_942 : BitVec 32 := 0#32
  ![v1571.toNat, 0]

def k0_chk106 (v1571 : BitVec 32) : Prop :=
  (∀ a, (k0_off212 v1571) a + S1x8142.size a ≤ S8142x8142.size a)
instance k0_chk106.dec : ∀ (v1571 : BitVec 32), Decidable (k0_chk106 v1571) := fun v1571 => decidable_of_iff' _ (Iff.of_eq (k0_chk106.eq_1 v1571))
theorem k0_off212_inb : ∀ (v1571 : BitVec 32) (k0_hw106 : k0_chk106 v1571), ∀ a, (k0_off212 v1571) a + S1x8142.size a ≤ S8142x8142.size a := fun v1571 k0_hw106 => k0_hw106

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1584 : BitVec 32 := Scalar.addi v0 c106_i32
  let v1585 : Index := Scalar.indexCast v1584
  ![v1585.toNat]
def k0_off214 (v1586 : BitVec 32) : Fin 2 → Nat :=
  let c0_i32_951 : BitVec 32 := 0#32
  ![v1586.toNat, 0]

def k0_chk107 (v1586 : BitVec 32) : Prop :=
  (∀ a, (k0_off214 v1586) a + S1x8142.size a ≤ S8142x8142.size a)
instance k0_chk107.dec : ∀ (v1586 : BitVec 32), Decidable (k0_chk107 v1586) := fun v1586 => decidable_of_iff' _ (Iff.of_eq (k0_chk107.eq_1 v1586))
theorem k0_off214_inb : ∀ (v1586 : BitVec 32) (k0_hw107 : k0_chk107 v1586), ∀ a, (k0_off214 v1586) a + S1x8142.size a ≤ S8142x8142.size a := fun v1586 k0_hw107 => k0_hw107

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1599 : BitVec 32 := Scalar.addi v0 c107_i32
  let v1600 : Index := Scalar.indexCast v1599
  ![v1600.toNat]
def k0_off216 (v1601 : BitVec 32) : Fin 2 → Nat :=
  let c0_i32_960 : BitVec 32 := 0#32
  ![v1601.toNat, 0]

def k0_chk108 (v1601 : BitVec 32) : Prop :=
  (∀ a, (k0_off216 v1601) a + S1x8142.size a ≤ S8142x8142.size a)
instance k0_chk108.dec : ∀ (v1601 : BitVec 32), Decidable (k0_chk108 v1601) := fun v1601 => decidable_of_iff' _ (Iff.of_eq (k0_chk108.eq_1 v1601))
theorem k0_off216_inb : ∀ (v1601 : BitVec 32) (k0_hw108 : k0_chk108 v1601), ∀ a, (k0_off216 v1601) a + S1x8142.size a ≤ S8142x8142.size a := fun v1601 k0_hw108 => k0_hw108

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1614 : BitVec 32 := Scalar.addi v0 c108_i32
  let v1615 : Index := Scalar.indexCast v1614
  ![v1615.toNat]
def k0_off218 (v1616 : BitVec 32) : Fin 2 → Nat :=
  let c0_i32_969 : BitVec 32 := 0#32
  ![v1616.toNat, 0]

def k0_chk109 (v1616 : BitVec 32) : Prop :=
  (∀ a, (k0_off218 v1616) a + S1x8142.size a ≤ S8142x8142.size a)
instance k0_chk109.dec : ∀ (v1616 : BitVec 32), Decidable (k0_chk109 v1616) := fun v1616 => decidable_of_iff' _ (Iff.of_eq (k0_chk109.eq_1 v1616))
theorem k0_off218_inb : ∀ (v1616 : BitVec 32) (k0_hw109 : k0_chk109 v1616), ∀ a, (k0_off218 v1616) a + S1x8142.size a ≤ S8142x8142.size a := fun v1616 k0_hw109 => k0_hw109

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1629 : BitVec 32 := Scalar.addi v0 c109_i32
  let v1630 : Index := Scalar.indexCast v1629
  ![v1630.toNat]
def k0_off220 (v1631 : BitVec 32) : Fin 2 → Nat :=
  let c0_i32_978 : BitVec 32 := 0#32
  ![v1631.toNat, 0]

def k0_chk110 (v1631 : BitVec 32) : Prop :=
  (∀ a, (k0_off220 v1631) a + S1x8142.size a ≤ S8142x8142.size a)
instance k0_chk110.dec : ∀ (v1631 : BitVec 32), Decidable (k0_chk110 v1631) := fun v1631 => decidable_of_iff' _ (Iff.of_eq (k0_chk110.eq_1 v1631))
theorem k0_off220_inb : ∀ (v1631 : BitVec 32) (k0_hw110 : k0_chk110 v1631), ∀ a, (k0_off220 v1631) a + S1x8142.size a ≤ S8142x8142.size a := fun v1631 k0_hw110 => k0_hw110

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1644 : BitVec 32 := Scalar.addi v0 c110_i32
  let v1645 : Index := Scalar.indexCast v1644
  ![v1645.toNat]
def k0_off222 (v1646 : BitVec 32) : Fin 2 → Nat :=
  let c0_i32_987 : BitVec 32 := 0#32
  ![v1646.toNat, 0]

def k0_chk111 (v1646 : BitVec 32) : Prop :=
  (∀ a, (k0_off222 v1646) a + S1x8142.size a ≤ S8142x8142.size a)
instance k0_chk111.dec : ∀ (v1646 : BitVec 32), Decidable (k0_chk111 v1646) := fun v1646 => decidable_of_iff' _ (Iff.of_eq (k0_chk111.eq_1 v1646))
theorem k0_off222_inb : ∀ (v1646 : BitVec 32) (k0_hw111 : k0_chk111 v1646), ∀ a, (k0_off222 v1646) a + S1x8142.size a ≤ S8142x8142.size a := fun v1646 k0_hw111 => k0_hw111

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1659 : BitVec 32 := Scalar.addi v0 c111_i32
  let v1660 : Index := Scalar.indexCast v1659
  ![v1660.toNat]
def k0_off224 (v1661 : BitVec 32) : Fin 2 → Nat :=
  let c0_i32_996 : BitVec 32 := 0#32
  ![v1661.toNat, 0]

def k0_chk112 (v1661 : BitVec 32) : Prop :=
  (∀ a, (k0_off224 v1661) a + S1x8142.size a ≤ S8142x8142.size a)
instance k0_chk112.dec : ∀ (v1661 : BitVec 32), Decidable (k0_chk112 v1661) := fun v1661 => decidable_of_iff' _ (Iff.of_eq (k0_chk112.eq_1 v1661))
theorem k0_off224_inb : ∀ (v1661 : BitVec 32) (k0_hw112 : k0_chk112 v1661), ∀ a, (k0_off224 v1661) a + S1x8142.size a ≤ S8142x8142.size a := fun v1661 k0_hw112 => k0_hw112

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1674 : BitVec 32 := Scalar.addi v0 c112_i32
  let v1675 : Index := Scalar.indexCast v1674
  ![v1675.toNat]
def k0_off226 (v1676 : BitVec 32) : Fin 2 → Nat :=
  let c0_i32_1005 : BitVec 32 := 0#32
  ![v1676.toNat, 0]

def k0_chk113 (v1676 : BitVec 32) : Prop :=
  (∀ a, (k0_off226 v1676) a + S1x8142.size a ≤ S8142x8142.size a)
instance k0_chk113.dec : ∀ (v1676 : BitVec 32), Decidable (k0_chk113 v1676) := fun v1676 => decidable_of_iff' _ (Iff.of_eq (k0_chk113.eq_1 v1676))
theorem k0_off226_inb : ∀ (v1676 : BitVec 32) (k0_hw113 : k0_chk113 v1676), ∀ a, (k0_off226 v1676) a + S1x8142.size a ≤ S8142x8142.size a := fun v1676 k0_hw113 => k0_hw113

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1689 : BitVec 32 := Scalar.addi v0 c113_i32
  let v1690 : Index := Scalar.indexCast v1689
  ![v1690.toNat]
def k0_off228 (v1691 : BitVec 32) : Fin 2 → Nat :=
  let c0_i32_1014 : BitVec 32 := 0#32
  ![v1691.toNat, 0]

def k0_chk114 (v1691 : BitVec 32) : Prop :=
  (∀ a, (k0_off228 v1691) a + S1x8142.size a ≤ S8142x8142.size a)
instance k0_chk114.dec : ∀ (v1691 : BitVec 32), Decidable (k0_chk114 v1691) := fun v1691 => decidable_of_iff' _ (Iff.of_eq (k0_chk114.eq_1 v1691))
theorem k0_off228_inb : ∀ (v1691 : BitVec 32) (k0_hw114 : k0_chk114 v1691), ∀ a, (k0_off228 v1691) a + S1x8142.size a ≤ S8142x8142.size a := fun v1691 k0_hw114 => k0_hw114

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1704 : BitVec 32 := Scalar.addi v0 c114_i32
  let v1705 : Index := Scalar.indexCast v1704
  ![v1705.toNat]
def k0_off230 (v1706 : BitVec 32) : Fin 2 → Nat :=
  let c0_i32_1023 : BitVec 32 := 0#32
  ![v1706.toNat, 0]

def k0_chk115 (v1706 : BitVec 32) : Prop :=
  (∀ a, (k0_off230 v1706) a + S1x8142.size a ≤ S8142x8142.size a)
instance k0_chk115.dec : ∀ (v1706 : BitVec 32), Decidable (k0_chk115 v1706) := fun v1706 => decidable_of_iff' _ (Iff.of_eq (k0_chk115.eq_1 v1706))
theorem k0_off230_inb : ∀ (v1706 : BitVec 32) (k0_hw115 : k0_chk115 v1706), ∀ a, (k0_off230 v1706) a + S1x8142.size a ≤ S8142x8142.size a := fun v1706 k0_hw115 => k0_hw115

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1719 : BitVec 32 := Scalar.addi v0 c115_i32
  let v1720 : Index := Scalar.indexCast v1719
  ![v1720.toNat]
def k0_off232 (v1721 : BitVec 32) : Fin 2 → Nat :=
  let c0_i32_1032 : BitVec 32 := 0#32
  ![v1721.toNat, 0]

def k0_chk116 (v1721 : BitVec 32) : Prop :=
  (∀ a, (k0_off232 v1721) a + S1x8142.size a ≤ S8142x8142.size a)
instance k0_chk116.dec : ∀ (v1721 : BitVec 32), Decidable (k0_chk116 v1721) := fun v1721 => decidable_of_iff' _ (Iff.of_eq (k0_chk116.eq_1 v1721))
theorem k0_off232_inb : ∀ (v1721 : BitVec 32) (k0_hw116 : k0_chk116 v1721), ∀ a, (k0_off232 v1721) a + S1x8142.size a ≤ S8142x8142.size a := fun v1721 k0_hw116 => k0_hw116

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1734 : BitVec 32 := Scalar.addi v0 c116_i32
  let v1735 : Index := Scalar.indexCast v1734
  ![v1735.toNat]
def k0_off234 (v1736 : BitVec 32) : Fin 2 → Nat :=
  let c0_i32_1041 : BitVec 32 := 0#32
  ![v1736.toNat, 0]

def k0_chk117 (v1736 : BitVec 32) : Prop :=
  (∀ a, (k0_off234 v1736) a + S1x8142.size a ≤ S8142x8142.size a)
instance k0_chk117.dec : ∀ (v1736 : BitVec 32), Decidable (k0_chk117 v1736) := fun v1736 => decidable_of_iff' _ (Iff.of_eq (k0_chk117.eq_1 v1736))
theorem k0_off234_inb : ∀ (v1736 : BitVec 32) (k0_hw117 : k0_chk117 v1736), ∀ a, (k0_off234 v1736) a + S1x8142.size a ≤ S8142x8142.size a := fun v1736 k0_hw117 => k0_hw117

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1749 : BitVec 32 := Scalar.addi v0 c117_i32
  let v1750 : Index := Scalar.indexCast v1749
  ![v1750.toNat]
def k0_off236 (v1751 : BitVec 32) : Fin 2 → Nat :=
  let c0_i32_1050 : BitVec 32 := 0#32
  ![v1751.toNat, 0]

def k0_chk118 (v1751 : BitVec 32) : Prop :=
  (∀ a, (k0_off236 v1751) a + S1x8142.size a ≤ S8142x8142.size a)
instance k0_chk118.dec : ∀ (v1751 : BitVec 32), Decidable (k0_chk118 v1751) := fun v1751 => decidable_of_iff' _ (Iff.of_eq (k0_chk118.eq_1 v1751))
theorem k0_off236_inb : ∀ (v1751 : BitVec 32) (k0_hw118 : k0_chk118 v1751), ∀ a, (k0_off236 v1751) a + S1x8142.size a ≤ S8142x8142.size a := fun v1751 k0_hw118 => k0_hw118

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1764 : BitVec 32 := Scalar.addi v0 c118_i32
  let v1765 : Index := Scalar.indexCast v1764
  ![v1765.toNat]
def k0_off238 (v1766 : BitVec 32) : Fin 2 → Nat :=
  let c0_i32_1059 : BitVec 32 := 0#32
  ![v1766.toNat, 0]

def k0_chk119 (v1766 : BitVec 32) : Prop :=
  (∀ a, (k0_off238 v1766) a + S1x8142.size a ≤ S8142x8142.size a)
instance k0_chk119.dec : ∀ (v1766 : BitVec 32), Decidable (k0_chk119 v1766) := fun v1766 => decidable_of_iff' _ (Iff.of_eq (k0_chk119.eq_1 v1766))
theorem k0_off238_inb : ∀ (v1766 : BitVec 32) (k0_hw119 : k0_chk119 v1766), ∀ a, (k0_off238 v1766) a + S1x8142.size a ≤ S8142x8142.size a := fun v1766 k0_hw119 => k0_hw119

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1779 : BitVec 32 := Scalar.addi v0 c119_i32
  let v1780 : Index := Scalar.indexCast v1779
  ![v1780.toNat]
def k0_off240 (v1781 : BitVec 32) : Fin 2 → Nat :=
  let c0_i32_1068 : BitVec 32 := 0#32
  ![v1781.toNat, 0]

def k0_chk120 (v1781 : BitVec 32) : Prop :=
  (∀ a, (k0_off240 v1781) a + S1x8142.size a ≤ S8142x8142.size a)
instance k0_chk120.dec : ∀ (v1781 : BitVec 32), Decidable (k0_chk120 v1781) := fun v1781 => decidable_of_iff' _ (Iff.of_eq (k0_chk120.eq_1 v1781))
theorem k0_off240_inb : ∀ (v1781 : BitVec 32) (k0_hw120 : k0_chk120 v1781), ∀ a, (k0_off240 v1781) a + S1x8142.size a ≤ S8142x8142.size a := fun v1781 k0_hw120 => k0_hw120

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1794 : BitVec 32 := Scalar.addi v0 c120_i32
  let v1795 : Index := Scalar.indexCast v1794
  ![v1795.toNat]
def k0_off242 (v1796 : BitVec 32) : Fin 2 → Nat :=
  let c0_i32_1077 : BitVec 32 := 0#32
  ![v1796.toNat, 0]

def k0_chk121 (v1796 : BitVec 32) : Prop :=
  (∀ a, (k0_off242 v1796) a + S1x8142.size a ≤ S8142x8142.size a)
instance k0_chk121.dec : ∀ (v1796 : BitVec 32), Decidable (k0_chk121 v1796) := fun v1796 => decidable_of_iff' _ (Iff.of_eq (k0_chk121.eq_1 v1796))
theorem k0_off242_inb : ∀ (v1796 : BitVec 32) (k0_hw121 : k0_chk121 v1796), ∀ a, (k0_off242 v1796) a + S1x8142.size a ≤ S8142x8142.size a := fun v1796 k0_hw121 => k0_hw121

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1809 : BitVec 32 := Scalar.addi v0 c121_i32
  let v1810 : Index := Scalar.indexCast v1809
  ![v1810.toNat]
def k0_off244 (v1811 : BitVec 32) : Fin 2 → Nat :=
  let c0_i32_1086 : BitVec 32 := 0#32
  ![v1811.toNat, 0]

def k0_chk122 (v1811 : BitVec 32) : Prop :=
  (∀ a, (k0_off244 v1811) a + S1x8142.size a ≤ S8142x8142.size a)
instance k0_chk122.dec : ∀ (v1811 : BitVec 32), Decidable (k0_chk122 v1811) := fun v1811 => decidable_of_iff' _ (Iff.of_eq (k0_chk122.eq_1 v1811))
theorem k0_off244_inb : ∀ (v1811 : BitVec 32) (k0_hw122 : k0_chk122 v1811), ∀ a, (k0_off244 v1811) a + S1x8142.size a ≤ S8142x8142.size a := fun v1811 k0_hw122 => k0_hw122

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1824 : BitVec 32 := Scalar.addi v0 c122_i32
  let v1825 : Index := Scalar.indexCast v1824
  ![v1825.toNat]
def k0_off246 (v1826 : BitVec 32) : Fin 2 → Nat :=
  let c0_i32_1095 : BitVec 32 := 0#32
  ![v1826.toNat, 0]

def k0_chk123 (v1826 : BitVec 32) : Prop :=
  (∀ a, (k0_off246 v1826) a + S1x8142.size a ≤ S8142x8142.size a)
instance k0_chk123.dec : ∀ (v1826 : BitVec 32), Decidable (k0_chk123 v1826) := fun v1826 => decidable_of_iff' _ (Iff.of_eq (k0_chk123.eq_1 v1826))
theorem k0_off246_inb : ∀ (v1826 : BitVec 32) (k0_hw123 : k0_chk123 v1826), ∀ a, (k0_off246 v1826) a + S1x8142.size a ≤ S8142x8142.size a := fun v1826 k0_hw123 => k0_hw123

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1839 : BitVec 32 := Scalar.addi v0 c123_i32
  let v1840 : Index := Scalar.indexCast v1839
  ![v1840.toNat]
def k0_off248 (v1841 : BitVec 32) : Fin 2 → Nat :=
  let c0_i32_1104 : BitVec 32 := 0#32
  ![v1841.toNat, 0]

def k0_chk124 (v1841 : BitVec 32) : Prop :=
  (∀ a, (k0_off248 v1841) a + S1x8142.size a ≤ S8142x8142.size a)
instance k0_chk124.dec : ∀ (v1841 : BitVec 32), Decidable (k0_chk124 v1841) := fun v1841 => decidable_of_iff' _ (Iff.of_eq (k0_chk124.eq_1 v1841))
theorem k0_off248_inb : ∀ (v1841 : BitVec 32) (k0_hw124 : k0_chk124 v1841), ∀ a, (k0_off248 v1841) a + S1x8142.size a ≤ S8142x8142.size a := fun v1841 k0_hw124 => k0_hw124

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1854 : BitVec 32 := Scalar.addi v0 c124_i32
  let v1855 : Index := Scalar.indexCast v1854
  ![v1855.toNat]
def k0_off250 (v1856 : BitVec 32) : Fin 2 → Nat :=
  let c0_i32_1113 : BitVec 32 := 0#32
  ![v1856.toNat, 0]

def k0_chk125 (v1856 : BitVec 32) : Prop :=
  (∀ a, (k0_off250 v1856) a + S1x8142.size a ≤ S8142x8142.size a)
instance k0_chk125.dec : ∀ (v1856 : BitVec 32), Decidable (k0_chk125 v1856) := fun v1856 => decidable_of_iff' _ (Iff.of_eq (k0_chk125.eq_1 v1856))
theorem k0_off250_inb : ∀ (v1856 : BitVec 32) (k0_hw125 : k0_chk125 v1856), ∀ a, (k0_off250 v1856) a + S1x8142.size a ≤ S8142x8142.size a := fun v1856 k0_hw125 => k0_hw125

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1869 : BitVec 32 := Scalar.addi v0 c125_i32
  let v1870 : Index := Scalar.indexCast v1869
  ![v1870.toNat]
def k0_off252 (v1871 : BitVec 32) : Fin 2 → Nat :=
  let c0_i32_1122 : BitVec 32 := 0#32
  ![v1871.toNat, 0]

def k0_chk126 (v1871 : BitVec 32) : Prop :=
  (∀ a, (k0_off252 v1871) a + S1x8142.size a ≤ S8142x8142.size a)
instance k0_chk126.dec : ∀ (v1871 : BitVec 32), Decidable (k0_chk126 v1871) := fun v1871 => decidable_of_iff' _ (Iff.of_eq (k0_chk126.eq_1 v1871))
theorem k0_off252_inb : ∀ (v1871 : BitVec 32) (k0_hw126 : k0_chk126 v1871), ∀ a, (k0_off252 v1871) a + S1x8142.size a ≤ S8142x8142.size a := fun v1871 k0_hw126 => k0_hw126

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1884 : BitVec 32 := Scalar.addi v0 c126_i32
  let v1885 : Index := Scalar.indexCast v1884
  ![v1885.toNat]
def k0_off254 (v1886 : BitVec 32) : Fin 2 → Nat :=
  let c0_i32_1131 : BitVec 32 := 0#32
  ![v1886.toNat, 0]

def k0_chk127 (v1886 : BitVec 32) : Prop :=
  (∀ a, (k0_off254 v1886) a + S1x8142.size a ≤ S8142x8142.size a)
instance k0_chk127.dec : ∀ (v1886 : BitVec 32), Decidable (k0_chk127 v1886) := fun v1886 => decidable_of_iff' _ (Iff.of_eq (k0_chk127.eq_1 v1886))
theorem k0_off254_inb : ∀ (v1886 : BitVec 32) (k0_hw127 : k0_chk127 v1886), ∀ a, (k0_off254 v1886) a + S1x8142.size a ≤ S8142x8142.size a := fun v1886 k0_hw127 => k0_hw127

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1899 : BitVec 32 := Scalar.addi v0 c127_i32
  let v1900 : Index := Scalar.indexCast v1899
  ![v1900.toNat]
def k0_off256 (v1901 : BitVec 32) : Fin 2 → Nat :=
  let c0_i32_1140 : BitVec 32 := 0#32
  ![v1901.toNat, 0]

def k0_chk128 (v1901 : BitVec 32) : Prop :=
  (∀ a, (k0_off256 v1901) a + S1x8142.size a ≤ S8142x8142.size a)
instance k0_chk128.dec : ∀ (v1901 : BitVec 32), Decidable (k0_chk128 v1901) := fun v1901 => decidable_of_iff' _ (Iff.of_eq (k0_chk128.eq_1 v1901))
theorem k0_off256_inb : ∀ (v1901 : BitVec 32) (k0_hw128 : k0_chk128 v1901), ∀ a, (k0_off256 v1901) a + S1x8142.size a ≤ S8142x8142.size a := fun v1901 k0_hw128 => k0_hw128

def k0_cond2 (i : grid0.Coords) : BitVec 1 :=
  let arg0 : BitVec 32 := BitVec.ofNat 32 (i 0).val
  let c31_i32_1166 : BitVec 32 := 31#32
  let v1953 : BitVec 1 := Scalar.cmpi .eq arg0 c31_i32_1166
  let v1954 : BitVec 32 := Scalar.extui v1953
  let c0_i32_1167 : BitVec 32 := 0#32
  let v1955 : BitVec 1 := Scalar.cmpi .ne v1954 c0_i32_1167
  v1955

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8142 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S4096_S4096x1 : S4096.ShapeCasts S4096x1
  numel1_S1 : S1.numel = 1
  inb_S2_S1_0 : ∀ a, (![0] : Fin 1 → Nat) a + S1.size a ≤ S2.size a
  squeezes_S1_S_ : S1.Squeezes S_
  inb_S128x8142_S1x8142_0_0 : ∀ a, (![0, 0] : Fin 2 → Nat) a + S1x8142.size a ≤ S128x8142.size a
  squeezes_S1x8142_S8142 : S1x8142.Squeezes S8142
  inb_S2_S1_1 : ∀ a, (![1] : Fin 1 → Nat) a + S1.size a ≤ S2.size a
  inb_S128x8142_S1x8142_1_0 : ∀ a, (![1, 0] : Fin 2 → Nat) a + S1x8142.size a ≤ S128x8142.size a
  inb_S8142x8142_S1x8142_0_0 : ∀ a, (![0, 0] : Fin 2 → Nat) a + S1x8142.size a ≤ S8142x8142.size a
  inb_S128x8142_S1x8142_2_0 : ∀ a, (![2, 0] : Fin 2 → Nat) a + S1x8142.size a ≤ S128x8142.size a
  inb_S128x8142_S1x8142_3_0 : ∀ a, (![3, 0] : Fin 2 → Nat) a + S1x8142.size a ≤ S128x8142.size a
  inb_S128x8142_S1x8142_4_0 : ∀ a, (![4, 0] : Fin 2 → Nat) a + S1x8142.size a ≤ S128x8142.size a
  inb_S128x8142_S1x8142_5_0 : ∀ a, (![5, 0] : Fin 2 → Nat) a + S1x8142.size a ≤ S128x8142.size a
  inb_S128x8142_S1x8142_6_0 : ∀ a, (![6, 0] : Fin 2 → Nat) a + S1x8142.size a ≤ S128x8142.size a
  inb_S128x8142_S1x8142_7_0 : ∀ a, (![7, 0] : Fin 2 → Nat) a + S1x8142.size a ≤ S128x8142.size a
  inb_S128x8142_S1x8142_8_0 : ∀ a, (![8, 0] : Fin 2 → Nat) a + S1x8142.size a ≤ S128x8142.size a
  inb_S128x8142_S1x8142_9_0 : ∀ a, (![9, 0] : Fin 2 → Nat) a + S1x8142.size a ≤ S128x8142.size a
  inb_S128x8142_S1x8142_10_0 : ∀ a, (![10, 0] : Fin 2 → Nat) a + S1x8142.size a ≤ S128x8142.size a
  inb_S128x8142_S1x8142_11_0 : ∀ a, (![11, 0] : Fin 2 → Nat) a + S1x8142.size a ≤ S128x8142.size a
  inb_S128x8142_S1x8142_12_0 : ∀ a, (![12, 0] : Fin 2 → Nat) a + S1x8142.size a ≤ S128x8142.size a
  inb_S128x8142_S1x8142_13_0 : ∀ a, (![13, 0] : Fin 2 → Nat) a + S1x8142.size a ≤ S128x8142.size a
  inb_S128x8142_S1x8142_14_0 : ∀ a, (![14, 0] : Fin 2 → Nat) a + S1x8142.size a ≤ S128x8142.size a
  inb_S128x8142_S1x8142_15_0 : ∀ a, (![15, 0] : Fin 2 → Nat) a + S1x8142.size a ≤ S128x8142.size a
  inb_S128x8142_S1x8142_16_0 : ∀ a, (![16, 0] : Fin 2 → Nat) a + S1x8142.size a ≤ S128x8142.size a
  inb_S128x8142_S1x8142_17_0 : ∀ a, (![17, 0] : Fin 2 → Nat) a + S1x8142.size a ≤ S128x8142.size a
  inb_S128x8142_S1x8142_18_0 : ∀ a, (![18, 0] : Fin 2 → Nat) a + S1x8142.size a ≤ S128x8142.size a
  inb_S128x8142_S1x8142_19_0 : ∀ a, (![19, 0] : Fin 2 → Nat) a + S1x8142.size a ≤ S128x8142.size a
  inb_S128x8142_S1x8142_20_0 : ∀ a, (![20, 0] : Fin 2 → Nat) a + S1x8142.size a ≤ S128x8142.size a
  inb_S128x8142_S1x8142_21_0 : ∀ a, (![21, 0] : Fin 2 → Nat) a + S1x8142.size a ≤ S128x8142.size a
  inb_S128x8142_S1x8142_22_0 : ∀ a, (![22, 0] : Fin 2 → Nat) a + S1x8142.size a ≤ S128x8142.size a
  inb_S128x8142_S1x8142_23_0 : ∀ a, (![23, 0] : Fin 2 → Nat) a + S1x8142.size a ≤ S128x8142.size a
  inb_S128x8142_S1x8142_24_0 : ∀ a, (![24, 0] : Fin 2 → Nat) a + S1x8142.size a ≤ S128x8142.size a
  inb_S128x8142_S1x8142_25_0 : ∀ a, (![25, 0] : Fin 2 → Nat) a + S1x8142.size a ≤ S128x8142.size a
  inb_S128x8142_S1x8142_26_0 : ∀ a, (![26, 0] : Fin 2 → Nat) a + S1x8142.size a ≤ S128x8142.size a
  inb_S128x8142_S1x8142_27_0 : ∀ a, (![27, 0] : Fin 2 → Nat) a + S1x8142.size a ≤ S128x8142.size a
  inb_S128x8142_S1x8142_28_0 : ∀ a, (![28, 0] : Fin 2 → Nat) a + S1x8142.size a ≤ S128x8142.size a
  inb_S128x8142_S1x8142_29_0 : ∀ a, (![29, 0] : Fin 2 → Nat) a + S1x8142.size a ≤ S128x8142.size a
  inb_S128x8142_S1x8142_30_0 : ∀ a, (![30, 0] : Fin 2 → Nat) a + S1x8142.size a ≤ S128x8142.size a
  inb_S128x8142_S1x8142_31_0 : ∀ a, (![31, 0] : Fin 2 → Nat) a + S1x8142.size a ≤ S128x8142.size a
  inb_S128x8142_S1x8142_32_0 : ∀ a, (![32, 0] : Fin 2 → Nat) a + S1x8142.size a ≤ S128x8142.size a
  inb_S128x8142_S1x8142_33_0 : ∀ a, (![33, 0] : Fin 2 → Nat) a + S1x8142.size a ≤ S128x8142.size a
  inb_S128x8142_S1x8142_34_0 : ∀ a, (![34, 0] : Fin 2 → Nat) a + S1x8142.size a ≤ S128x8142.size a
  inb_S128x8142_S1x8142_35_0 : ∀ a, (![35, 0] : Fin 2 → Nat) a + S1x8142.size a ≤ S128x8142.size a
  inb_S128x8142_S1x8142_36_0 : ∀ a, (![36, 0] : Fin 2 → Nat) a + S1x8142.size a ≤ S128x8142.size a
  inb_S128x8142_S1x8142_37_0 : ∀ a, (![37, 0] : Fin 2 → Nat) a + S1x8142.size a ≤ S128x8142.size a
  inb_S128x8142_S1x8142_38_0 : ∀ a, (![38, 0] : Fin 2 → Nat) a + S1x8142.size a ≤ S128x8142.size a
  inb_S128x8142_S1x8142_39_0 : ∀ a, (![39, 0] : Fin 2 → Nat) a + S1x8142.size a ≤ S128x8142.size a
  inb_S128x8142_S1x8142_40_0 : ∀ a, (![40, 0] : Fin 2 → Nat) a + S1x8142.size a ≤ S128x8142.size a
  inb_S128x8142_S1x8142_41_0 : ∀ a, (![41, 0] : Fin 2 → Nat) a + S1x8142.size a ≤ S128x8142.size a
  inb_S128x8142_S1x8142_42_0 : ∀ a, (![42, 0] : Fin 2 → Nat) a + S1x8142.size a ≤ S128x8142.size a
  inb_S128x8142_S1x8142_43_0 : ∀ a, (![43, 0] : Fin 2 → Nat) a + S1x8142.size a ≤ S128x8142.size a
  inb_S128x8142_S1x8142_44_0 : ∀ a, (![44, 0] : Fin 2 → Nat) a + S1x8142.size a ≤ S128x8142.size a
  inb_S128x8142_S1x8142_45_0 : ∀ a, (![45, 0] : Fin 2 → Nat) a + S1x8142.size a ≤ S128x8142.size a
  inb_S128x8142_S1x8142_46_0 : ∀ a, (![46, 0] : Fin 2 → Nat) a + S1x8142.size a ≤ S128x8142.size a
  inb_S128x8142_S1x8142_47_0 : ∀ a, (![47, 0] : Fin 2 → Nat) a + S1x8142.size a ≤ S128x8142.size a
  inb_S128x8142_S1x8142_48_0 : ∀ a, (![48, 0] : Fin 2 → Nat) a + S1x8142.size a ≤ S128x8142.size a
  inb_S128x8142_S1x8142_49_0 : ∀ a, (![49, 0] : Fin 2 → Nat) a + S1x8142.size a ≤ S128x8142.size a
  inb_S128x8142_S1x8142_50_0 : ∀ a, (![50, 0] : Fin 2 → Nat) a + S1x8142.size a ≤ S128x8142.size a
  inb_S128x8142_S1x8142_51_0 : ∀ a, (![51, 0] : Fin 2 → Nat) a + S1x8142.size a ≤ S128x8142.size a
  inb_S128x8142_S1x8142_52_0 : ∀ a, (![52, 0] : Fin 2 → Nat) a + S1x8142.size a ≤ S128x8142.size a
  inb_S128x8142_S1x8142_53_0 : ∀ a, (![53, 0] : Fin 2 → Nat) a + S1x8142.size a ≤ S128x8142.size a
  inb_S128x8142_S1x8142_54_0 : ∀ a, (![54, 0] : Fin 2 → Nat) a + S1x8142.size a ≤ S128x8142.size a
  inb_S128x8142_S1x8142_55_0 : ∀ a, (![55, 0] : Fin 2 → Nat) a + S1x8142.size a ≤ S128x8142.size a
  inb_S128x8142_S1x8142_56_0 : ∀ a, (![56, 0] : Fin 2 → Nat) a + S1x8142.size a ≤ S128x8142.size a
  inb_S128x8142_S1x8142_57_0 : ∀ a, (![57, 0] : Fin 2 → Nat) a + S1x8142.size a ≤ S128x8142.size a
  inb_S128x8142_S1x8142_58_0 : ∀ a, (![58, 0] : Fin 2 → Nat) a + S1x8142.size a ≤ S128x8142.size a
  inb_S128x8142_S1x8142_59_0 : ∀ a, (![59, 0] : Fin 2 → Nat) a + S1x8142.size a ≤ S128x8142.size a
  inb_S128x8142_S1x8142_60_0 : ∀ a, (![60, 0] : Fin 2 → Nat) a + S1x8142.size a ≤ S128x8142.size a
  inb_S128x8142_S1x8142_61_0 : ∀ a, (![61, 0] : Fin 2 → Nat) a + S1x8142.size a ≤ S128x8142.size a
  inb_S128x8142_S1x8142_62_0 : ∀ a, (![62, 0] : Fin 2 → Nat) a + S1x8142.size a ≤ S128x8142.size a
  inb_S128x8142_S1x8142_63_0 : ∀ a, (![63, 0] : Fin 2 → Nat) a + S1x8142.size a ≤ S128x8142.size a
  inb_S128x8142_S1x8142_64_0 : ∀ a, (![64, 0] : Fin 2 → Nat) a + S1x8142.size a ≤ S128x8142.size a
  inb_S128x8142_S1x8142_65_0 : ∀ a, (![65, 0] : Fin 2 → Nat) a + S1x8142.size a ≤ S128x8142.size a
  inb_S128x8142_S1x8142_66_0 : ∀ a, (![66, 0] : Fin 2 → Nat) a + S1x8142.size a ≤ S128x8142.size a
  inb_S128x8142_S1x8142_67_0 : ∀ a, (![67, 0] : Fin 2 → Nat) a + S1x8142.size a ≤ S128x8142.size a
  inb_S128x8142_S1x8142_68_0 : ∀ a, (![68, 0] : Fin 2 → Nat) a + S1x8142.size a ≤ S128x8142.size a
  inb_S128x8142_S1x8142_69_0 : ∀ a, (![69, 0] : Fin 2 → Nat) a + S1x8142.size a ≤ S128x8142.size a
  inb_S128x8142_S1x8142_70_0 : ∀ a, (![70, 0] : Fin 2 → Nat) a + S1x8142.size a ≤ S128x8142.size a
  inb_S128x8142_S1x8142_71_0 : ∀ a, (![71, 0] : Fin 2 → Nat) a + S1x8142.size a ≤ S128x8142.size a
  inb_S128x8142_S1x8142_72_0 : ∀ a, (![72, 0] : Fin 2 → Nat) a + S1x8142.size a ≤ S128x8142.size a
  inb_S128x8142_S1x8142_73_0 : ∀ a, (![73, 0] : Fin 2 → Nat) a + S1x8142.size a ≤ S128x8142.size a
  inb_S128x8142_S1x8142_74_0 : ∀ a, (![74, 0] : Fin 2 → Nat) a + S1x8142.size a ≤ S128x8142.size a
  inb_S128x8142_S1x8142_75_0 : ∀ a, (![75, 0] : Fin 2 → Nat) a + S1x8142.size a ≤ S128x8142.size a
  inb_S128x8142_S1x8142_76_0 : ∀ a, (![76, 0] : Fin 2 → Nat) a + S1x8142.size a ≤ S128x8142.size a
  inb_S128x8142_S1x8142_77_0 : ∀ a, (![77, 0] : Fin 2 → Nat) a + S1x8142.size a ≤ S128x8142.size a
  inb_S128x8142_S1x8142_78_0 : ∀ a, (![78, 0] : Fin 2 → Nat) a + S1x8142.size a ≤ S128x8142.size a
  inb_S128x8142_S1x8142_79_0 : ∀ a, (![79, 0] : Fin 2 → Nat) a + S1x8142.size a ≤ S128x8142.size a
  inb_S128x8142_S1x8142_80_0 : ∀ a, (![80, 0] : Fin 2 → Nat) a + S1x8142.size a ≤ S128x8142.size a
  inb_S128x8142_S1x8142_81_0 : ∀ a, (![81, 0] : Fin 2 → Nat) a + S1x8142.size a ≤ S128x8142.size a
  inb_S128x8142_S1x8142_82_0 : ∀ a, (![82, 0] : Fin 2 → Nat) a + S1x8142.size a ≤ S128x8142.size a
  inb_S128x8142_S1x8142_83_0 : ∀ a, (![83, 0] : Fin 2 → Nat) a + S1x8142.size a ≤ S128x8142.size a
  inb_S128x8142_S1x8142_84_0 : ∀ a, (![84, 0] : Fin 2 → Nat) a + S1x8142.size a ≤ S128x8142.size a
  inb_S128x8142_S1x8142_85_0 : ∀ a, (![85, 0] : Fin 2 → Nat) a + S1x8142.size a ≤ S128x8142.size a
  inb_S128x8142_S1x8142_86_0 : ∀ a, (![86, 0] : Fin 2 → Nat) a + S1x8142.size a ≤ S128x8142.size a
  inb_S128x8142_S1x8142_87_0 : ∀ a, (![87, 0] : Fin 2 → Nat) a + S1x8142.size a ≤ S128x8142.size a
  inb_S128x8142_S1x8142_88_0 : ∀ a, (![88, 0] : Fin 2 → Nat) a + S1x8142.size a ≤ S128x8142.size a
  inb_S128x8142_S1x8142_89_0 : ∀ a, (![89, 0] : Fin 2 → Nat) a + S1x8142.size a ≤ S128x8142.size a
  inb_S128x8142_S1x8142_90_0 : ∀ a, (![90, 0] : Fin 2 → Nat) a + S1x8142.size a ≤ S128x8142.size a
  inb_S128x8142_S1x8142_91_0 : ∀ a, (![91, 0] : Fin 2 → Nat) a + S1x8142.size a ≤ S128x8142.size a
  inb_S128x8142_S1x8142_92_0 : ∀ a, (![92, 0] : Fin 2 → Nat) a + S1x8142.size a ≤ S128x8142.size a
  inb_S128x8142_S1x8142_93_0 : ∀ a, (![93, 0] : Fin 2 → Nat) a + S1x8142.size a ≤ S128x8142.size a
  inb_S128x8142_S1x8142_94_0 : ∀ a, (![94, 0] : Fin 2 → Nat) a + S1x8142.size a ≤ S128x8142.size a
  inb_S128x8142_S1x8142_95_0 : ∀ a, (![95, 0] : Fin 2 → Nat) a + S1x8142.size a ≤ S128x8142.size a
  inb_S128x8142_S1x8142_96_0 : ∀ a, (![96, 0] : Fin 2 → Nat) a + S1x8142.size a ≤ S128x8142.size a
  inb_S128x8142_S1x8142_97_0 : ∀ a, (![97, 0] : Fin 2 → Nat) a + S1x8142.size a ≤ S128x8142.size a
  inb_S128x8142_S1x8142_98_0 : ∀ a, (![98, 0] : Fin 2 → Nat) a + S1x8142.size a ≤ S128x8142.size a
  inb_S128x8142_S1x8142_99_0 : ∀ a, (![99, 0] : Fin 2 → Nat) a + S1x8142.size a ≤ S128x8142.size a
  inb_S128x8142_S1x8142_100_0 : ∀ a, (![100, 0] : Fin 2 → Nat) a + S1x8142.size a ≤ S128x8142.size a
  inb_S128x8142_S1x8142_101_0 : ∀ a, (![101, 0] : Fin 2 → Nat) a + S1x8142.size a ≤ S128x8142.size a
  inb_S128x8142_S1x8142_102_0 : ∀ a, (![102, 0] : Fin 2 → Nat) a + S1x8142.size a ≤ S128x8142.size a
  inb_S128x8142_S1x8142_103_0 : ∀ a, (![103, 0] : Fin 2 → Nat) a + S1x8142.size a ≤ S128x8142.size a
  inb_S128x8142_S1x8142_104_0 : ∀ a, (![104, 0] : Fin 2 → Nat) a + S1x8142.size a ≤ S128x8142.size a
  inb_S128x8142_S1x8142_105_0 : ∀ a, (![105, 0] : Fin 2 → Nat) a + S1x8142.size a ≤ S128x8142.size a
  inb_S128x8142_S1x8142_106_0 : ∀ a, (![106, 0] : Fin 2 → Nat) a + S1x8142.size a ≤ S128x8142.size a
  inb_S128x8142_S1x8142_107_0 : ∀ a, (![107, 0] : Fin 2 → Nat) a + S1x8142.size a ≤ S128x8142.size a
  inb_S128x8142_S1x8142_108_0 : ∀ a, (![108, 0] : Fin 2 → Nat) a + S1x8142.size a ≤ S128x8142.size a
  inb_S128x8142_S1x8142_109_0 : ∀ a, (![109, 0] : Fin 2 → Nat) a + S1x8142.size a ≤ S128x8142.size a
  inb_S128x8142_S1x8142_110_0 : ∀ a, (![110, 0] : Fin 2 → Nat) a + S1x8142.size a ≤ S128x8142.size a
  inb_S128x8142_S1x8142_111_0 : ∀ a, (![111, 0] : Fin 2 → Nat) a + S1x8142.size a ≤ S128x8142.size a
  inb_S128x8142_S1x8142_112_0 : ∀ a, (![112, 0] : Fin 2 → Nat) a + S1x8142.size a ≤ S128x8142.size a
  inb_S128x8142_S1x8142_113_0 : ∀ a, (![113, 0] : Fin 2 → Nat) a + S1x8142.size a ≤ S128x8142.size a
  inb_S128x8142_S1x8142_114_0 : ∀ a, (![114, 0] : Fin 2 → Nat) a + S1x8142.size a ≤ S128x8142.size a
  inb_S128x8142_S1x8142_115_0 : ∀ a, (![115, 0] : Fin 2 → Nat) a + S1x8142.size a ≤ S128x8142.size a
  inb_S128x8142_S1x8142_116_0 : ∀ a, (![116, 0] : Fin 2 → Nat) a + S1x8142.size a ≤ S128x8142.size a
  inb_S128x8142_S1x8142_117_0 : ∀ a, (![117, 0] : Fin 2 → Nat) a + S1x8142.size a ≤ S128x8142.size a
  inb_S128x8142_S1x8142_118_0 : ∀ a, (![118, 0] : Fin 2 → Nat) a + S1x8142.size a ≤ S128x8142.size a
  inb_S128x8142_S1x8142_119_0 : ∀ a, (![119, 0] : Fin 2 → Nat) a + S1x8142.size a ≤ S128x8142.size a
  inb_S128x8142_S1x8142_120_0 : ∀ a, (![120, 0] : Fin 2 → Nat) a + S1x8142.size a ≤ S128x8142.size a
  inb_S128x8142_S1x8142_121_0 : ∀ a, (![121, 0] : Fin 2 → Nat) a + S1x8142.size a ≤ S128x8142.size a
  inb_S128x8142_S1x8142_122_0 : ∀ a, (![122, 0] : Fin 2 → Nat) a + S1x8142.size a ≤ S128x8142.size a
  inb_S128x8142_S1x8142_123_0 : ∀ a, (![123, 0] : Fin 2 → Nat) a + S1x8142.size a ≤ S128x8142.size a
  inb_S128x8142_S1x8142_124_0 : ∀ a, (![124, 0] : Fin 2 → Nat) a + S1x8142.size a ≤ S128x8142.size a
  inb_S128x8142_S1x8142_125_0 : ∀ a, (![125, 0] : Fin 2 → Nat) a + S1x8142.size a ≤ S128x8142.size a
  inb_S128x8142_S1x8142_126_0 : ∀ a, (![126, 0] : Fin 2 → Nat) a + S1x8142.size a ≤ S128x8142.size a
  inb_S128x8142_S1x8142_127_0 : ∀ a, (![127, 0] : Fin 2 → Nat) a + S1x8142.size a ≤ S128x8142.size a
  inb_S128x8142_S128x8142_0_0 : ∀ a, (![0, 0] : Fin 2 → Nat) a + S128x8142.size a ≤ S128x8142.size a
  h_S128x8142 : 0 < S128x8142.numel
  reduces_S128x8142_S128 : S128x8142.Reduces [1] S128
  shapeCasts_S128_S128x1 : S128.ShapeCasts S128x1
  broadcasts_S128x1_S128x8142 : S128x1.Broadcasts S128x8142
  iota_S128x8142_d1_w32 : S128x8142.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hcc0_scratch1 : 5 + S2.numel ≤ 7
  hrank0 : 0 < grid0.rank
  k0_off1_inb : ∀ i : grid0.Coords, ∀ a, (k0_off1 i) a + S1.size a ≤ S4096.size a
  k0_off3_inb : ∀ i : grid0.Coords, ∀ a, (k0_off3 i) a + S1.size a ≤ S4096.size a
  k0_off5_inb : ∀ i : grid0.Coords, ∀ a, (k0_off5 i) a + S1.size a ≤ S4096.size a
  k0_off7_inb : ∀ i : grid0.Coords, ∀ a, (k0_off7 i) a + S1.size a ≤ S4096.size a
  k0_off9_inb : ∀ i : grid0.Coords, ∀ a, (k0_off9 i) a + S1.size a ≤ S4096.size a
  k0_off11_inb : ∀ i : grid0.Coords, ∀ a, (k0_off11 i) a + S1.size a ≤ S4096.size a
  k0_off13_inb : ∀ i : grid0.Coords, ∀ a, (k0_off13 i) a + S1.size a ≤ S4096.size a
  k0_off15_inb : ∀ i : grid0.Coords, ∀ a, (k0_off15 i) a + S1.size a ≤ S4096.size a
  k0_off17_inb : ∀ i : grid0.Coords, ∀ a, (k0_off17 i) a + S1.size a ≤ S4096.size a
  k0_off19_inb : ∀ i : grid0.Coords, ∀ a, (k0_off19 i) a + S1.size a ≤ S4096.size a
  k0_off21_inb : ∀ i : grid0.Coords, ∀ a, (k0_off21 i) a + S1.size a ≤ S4096.size a
  k0_off23_inb : ∀ i : grid0.Coords, ∀ a, (k0_off23 i) a + S1.size a ≤ S4096.size a
  k0_off25_inb : ∀ i : grid0.Coords, ∀ a, (k0_off25 i) a + S1.size a ≤ S4096.size a
  k0_off27_inb : ∀ i : grid0.Coords, ∀ a, (k0_off27 i) a + S1.size a ≤ S4096.size a
  k0_off29_inb : ∀ i : grid0.Coords, ∀ a, (k0_off29 i) a + S1.size a ≤ S4096.size a
  k0_off31_inb : ∀ i : grid0.Coords, ∀ a, (k0_off31 i) a + S1.size a ≤ S4096.size a
  k0_off33_inb : ∀ i : grid0.Coords, ∀ a, (k0_off33 i) a + S1.size a ≤ S4096.size a
  k0_off35_inb : ∀ i : grid0.Coords, ∀ a, (k0_off35 i) a + S1.size a ≤ S4096.size a
  k0_off37_inb : ∀ i : grid0.Coords, ∀ a, (k0_off37 i) a + S1.size a ≤ S4096.size a
  k0_off39_inb : ∀ i : grid0.Coords, ∀ a, (k0_off39 i) a + S1.size a ≤ S4096.size a
  k0_off41_inb : ∀ i : grid0.Coords, ∀ a, (k0_off41 i) a + S1.size a ≤ S4096.size a
  k0_off43_inb : ∀ i : grid0.Coords, ∀ a, (k0_off43 i) a + S1.size a ≤ S4096.size a
  k0_off45_inb : ∀ i : grid0.Coords, ∀ a, (k0_off45 i) a + S1.size a ≤ S4096.size a
  k0_off47_inb : ∀ i : grid0.Coords, ∀ a, (k0_off47 i) a + S1.size a ≤ S4096.size a
  k0_off49_inb : ∀ i : grid0.Coords, ∀ a, (k0_off49 i) a + S1.size a ≤ S4096.size a
  k0_off51_inb : ∀ i : grid0.Coords, ∀ a, (k0_off51 i) a + S1.size a ≤ S4096.size a
  k0_off53_inb : ∀ i : grid0.Coords, ∀ a, (k0_off53 i) a + S1.size a ≤ S4096.size a
  k0_off55_inb : ∀ i : grid0.Coords, ∀ a, (k0_off55 i) a + S1.size a ≤ S4096.size a
  k0_off57_inb : ∀ i : grid0.Coords, ∀ a, (k0_off57 i) a + S1.size a ≤ S4096.size a
  k0_off59_inb : ∀ i : grid0.Coords, ∀ a, (k0_off59 i) a + S1.size a ≤ S4096.size a
  k0_off61_inb : ∀ i : grid0.Coords, ∀ a, (k0_off61 i) a + S1.size a ≤ S4096.size a
  k0_off63_inb : ∀ i : grid0.Coords, ∀ a, (k0_off63 i) a + S1.size a ≤ S4096.size a
  k0_off65_inb : ∀ i : grid0.Coords, ∀ a, (k0_off65 i) a + S1.size a ≤ S4096.size a
  k0_off67_inb : ∀ i : grid0.Coords, ∀ a, (k0_off67 i) a + S1.size a ≤ S4096.size a
  k0_off69_inb : ∀ i : grid0.Coords, ∀ a, (k0_off69 i) a + S1.size a ≤ S4096.size a
  k0_off71_inb : ∀ i : grid0.Coords, ∀ a, (k0_off71 i) a + S1.size a ≤ S4096.size a
  k0_off73_inb : ∀ i : grid0.Coords, ∀ a, (k0_off73 i) a + S1.size a ≤ S4096.size a
  k0_off75_inb : ∀ i : grid0.Coords, ∀ a, (k0_off75 i) a + S1.size a ≤ S4096.size a
  k0_off77_inb : ∀ i : grid0.Coords, ∀ a, (k0_off77 i) a + S1.size a ≤ S4096.size a
  k0_off79_inb : ∀ i : grid0.Coords, ∀ a, (k0_off79 i) a + S1.size a ≤ S4096.size a
  k0_off81_inb : ∀ i : grid0.Coords, ∀ a, (k0_off81 i) a + S1.size a ≤ S4096.size a
  k0_off83_inb : ∀ i : grid0.Coords, ∀ a, (k0_off83 i) a + S1.size a ≤ S4096.size a
  k0_off85_inb : ∀ i : grid0.Coords, ∀ a, (k0_off85 i) a + S1.size a ≤ S4096.size a
  k0_off87_inb : ∀ i : grid0.Coords, ∀ a, (k0_off87 i) a + S1.size a ≤ S4096.size a
  k0_off89_inb : ∀ i : grid0.Coords, ∀ a, (k0_off89 i) a + S1.size a ≤ S4096.size a
  k0_off91_inb : ∀ i : grid0.Coords, ∀ a, (k0_off91 i) a + S1.size a ≤ S4096.size a
  k0_off93_inb : ∀ i : grid0.Coords, ∀ a, (k0_off93 i) a + S1.size a ≤ S4096.size a
  k0_off95_inb : ∀ i : grid0.Coords, ∀ a, (k0_off95 i) a + S1.size a ≤ S4096.size a
  k0_off97_inb : ∀ i : grid0.Coords, ∀ a, (k0_off97 i) a + S1.size a ≤ S4096.size a
  k0_off99_inb : ∀ i : grid0.Coords, ∀ a, (k0_off99 i) a + S1.size a ≤ S4096.size a
  k0_off101_inb : ∀ i : grid0.Coords, ∀ a, (k0_off101 i) a + S1.size a ≤ S4096.size a
  k0_off103_inb : ∀ i : grid0.Coords, ∀ a, (k0_off103 i) a + S1.size a ≤ S4096.size a
  k0_off105_inb : ∀ i : grid0.Coords, ∀ a, (k0_off105 i) a + S1.size a ≤ S4096.size a
  k0_off107_inb : ∀ i : grid0.Coords, ∀ a, (k0_off107 i) a + S1.size a ≤ S4096.size a
  k0_off109_inb : ∀ i : grid0.Coords, ∀ a, (k0_off109 i) a + S1.size a ≤ S4096.size a
  k0_off111_inb : ∀ i : grid0.Coords, ∀ a, (k0_off111 i) a + S1.size a ≤ S4096.size a
  k0_off113_inb : ∀ i : grid0.Coords, ∀ a, (k0_off113 i) a + S1.size a ≤ S4096.size a
  k0_off115_inb : ∀ i : grid0.Coords, ∀ a, (k0_off115 i) a + S1.size a ≤ S4096.size a
  k0_off117_inb : ∀ i : grid0.Coords, ∀ a, (k0_off117 i) a + S1.size a ≤ S4096.size a
  k0_off119_inb : ∀ i : grid0.Coords, ∀ a, (k0_off119 i) a + S1.size a ≤ S4096.size a
  k0_off121_inb : ∀ i : grid0.Coords, ∀ a, (k0_off121 i) a + S1.size a ≤ S4096.size a
  k0_off123_inb : ∀ i : grid0.Coords, ∀ a, (k0_off123 i) a + S1.size a ≤ S4096.size a
  k0_off125_inb : ∀ i : grid0.Coords, ∀ a, (k0_off125 i) a + S1.size a ≤ S4096.size a
  k0_off127_inb : ∀ i : grid0.Coords, ∀ a, (k0_off127 i) a + S1.size a ≤ S4096.size a
  k0_off129_inb : ∀ i : grid0.Coords, ∀ a, (k0_off129 i) a + S1.size a ≤ S4096.size a
  k0_off131_inb : ∀ i : grid0.Coords, ∀ a, (k0_off131 i) a + S1.size a ≤ S4096.size a
  k0_off133_inb : ∀ i : grid0.Coords, ∀ a, (k0_off133 i) a + S1.size a ≤ S4096.size a
  k0_off135_inb : ∀ i : grid0.Coords, ∀ a, (k0_off135 i) a + S1.size a ≤ S4096.size a
  k0_off137_inb : ∀ i : grid0.Coords, ∀ a, (k0_off137 i) a + S1.size a ≤ S4096.size a
  k0_off139_inb : ∀ i : grid0.Coords, ∀ a, (k0_off139 i) a + S1.size a ≤ S4096.size a
  k0_off141_inb : ∀ i : grid0.Coords, ∀ a, (k0_off141 i) a + S1.size a ≤ S4096.size a
  k0_off143_inb : ∀ i : grid0.Coords, ∀ a, (k0_off143 i) a + S1.size a ≤ S4096.size a
  k0_off145_inb : ∀ i : grid0.Coords, ∀ a, (k0_off145 i) a + S1.size a ≤ S4096.size a
  k0_off147_inb : ∀ i : grid0.Coords, ∀ a, (k0_off147 i) a + S1.size a ≤ S4096.size a
  k0_off149_inb : ∀ i : grid0.Coords, ∀ a, (k0_off149 i) a + S1.size a ≤ S4096.size a
  k0_off151_inb : ∀ i : grid0.Coords, ∀ a, (k0_off151 i) a + S1.size a ≤ S4096.size a
  k0_off153_inb : ∀ i : grid0.Coords, ∀ a, (k0_off153 i) a + S1.size a ≤ S4096.size a
  k0_off155_inb : ∀ i : grid0.Coords, ∀ a, (k0_off155 i) a + S1.size a ≤ S4096.size a
  k0_off157_inb : ∀ i : grid0.Coords, ∀ a, (k0_off157 i) a + S1.size a ≤ S4096.size a
  k0_off159_inb : ∀ i : grid0.Coords, ∀ a, (k0_off159 i) a + S1.size a ≤ S4096.size a
  k0_off161_inb : ∀ i : grid0.Coords, ∀ a, (k0_off161 i) a + S1.size a ≤ S4096.size a
  k0_off163_inb : ∀ i : grid0.Coords, ∀ a, (k0_off163 i) a + S1.size a ≤ S4096.size a
  k0_off165_inb : ∀ i : grid0.Coords, ∀ a, (k0_off165 i) a + S1.size a ≤ S4096.size a
  k0_off167_inb : ∀ i : grid0.Coords, ∀ a, (k0_off167 i) a + S1.size a ≤ S4096.size a
  k0_off169_inb : ∀ i : grid0.Coords, ∀ a, (k0_off169 i) a + S1.size a ≤ S4096.size a
  k0_off171_inb : ∀ i : grid0.Coords, ∀ a, (k0_off171 i) a + S1.size a ≤ S4096.size a
  k0_off173_inb : ∀ i : grid0.Coords, ∀ a, (k0_off173 i) a + S1.size a ≤ S4096.size a
  k0_off175_inb : ∀ i : grid0.Coords, ∀ a, (k0_off175 i) a + S1.size a ≤ S4096.size a
  k0_off177_inb : ∀ i : grid0.Coords, ∀ a, (k0_off177 i) a + S1.size a ≤ S4096.size a
  k0_off179_inb : ∀ i : grid0.Coords, ∀ a, (k0_off179 i) a + S1.size a ≤ S4096.size a
  k0_off181_inb : ∀ i : grid0.Coords, ∀ a, (k0_off181 i) a + S1.size a ≤ S4096.size a
  k0_off183_inb : ∀ i : grid0.Coords, ∀ a, (k0_off183 i) a + S1.size a ≤ S4096.size a
  k0_off185_inb : ∀ i : grid0.Coords, ∀ a, (k0_off185 i) a + S1.size a ≤ S4096.size a
  k0_off187_inb : ∀ i : grid0.Coords, ∀ a, (k0_off187 i) a + S1.size a ≤ S4096.size a
  k0_off189_inb : ∀ i : grid0.Coords, ∀ a, (k0_off189 i) a + S1.size a ≤ S4096.size a
  k0_off191_inb : ∀ i : grid0.Coords, ∀ a, (k0_off191 i) a + S1.size a ≤ S4096.size a
  k0_off193_inb : ∀ i : grid0.Coords, ∀ a, (k0_off193 i) a + S1.size a ≤ S4096.size a
  k0_off195_inb : ∀ i : grid0.Coords, ∀ a, (k0_off195 i) a + S1.size a ≤ S4096.size a
  k0_off197_inb : ∀ i : grid0.Coords, ∀ a, (k0_off197 i) a + S1.size a ≤ S4096.size a
  k0_off199_inb : ∀ i : grid0.Coords, ∀ a, (k0_off199 i) a + S1.size a ≤ S4096.size a
  k0_off201_inb : ∀ i : grid0.Coords, ∀ a, (k0_off201 i) a + S1.size a ≤ S4096.size a
  k0_off203_inb : ∀ i : grid0.Coords, ∀ a, (k0_off203 i) a + S1.size a ≤ S4096.size a
  k0_off205_inb : ∀ i : grid0.Coords, ∀ a, (k0_off205 i) a + S1.size a ≤ S4096.size a
  k0_off207_inb : ∀ i : grid0.Coords, ∀ a, (k0_off207 i) a + S1.size a ≤ S4096.size a
  k0_off209_inb : ∀ i : grid0.Coords, ∀ a, (k0_off209 i) a + S1.size a ≤ S4096.size a
  k0_off211_inb : ∀ i : grid0.Coords, ∀ a, (k0_off211 i) a + S1.size a ≤ S4096.size a
  k0_off213_inb : ∀ i : grid0.Coords, ∀ a, (k0_off213 i) a + S1.size a ≤ S4096.size a
  k0_off215_inb : ∀ i : grid0.Coords, ∀ a, (k0_off215 i) a + S1.size a ≤ S4096.size a
  k0_off217_inb : ∀ i : grid0.Coords, ∀ a, (k0_off217 i) a + S1.size a ≤ S4096.size a
  k0_off219_inb : ∀ i : grid0.Coords, ∀ a, (k0_off219 i) a + S1.size a ≤ S4096.size a
  k0_off221_inb : ∀ i : grid0.Coords, ∀ a, (k0_off221 i) a + S1.size a ≤ S4096.size a
  k0_off223_inb : ∀ i : grid0.Coords, ∀ a, (k0_off223 i) a + S1.size a ≤ S4096.size a
  k0_off225_inb : ∀ i : grid0.Coords, ∀ a, (k0_off225 i) a + S1.size a ≤ S4096.size a
  k0_off227_inb : ∀ i : grid0.Coords, ∀ a, (k0_off227 i) a + S1.size a ≤ S4096.size a
  k0_off229_inb : ∀ i : grid0.Coords, ∀ a, (k0_off229 i) a + S1.size a ≤ S4096.size a
  k0_off231_inb : ∀ i : grid0.Coords, ∀ a, (k0_off231 i) a + S1.size a ≤ S4096.size a
  k0_off233_inb : ∀ i : grid0.Coords, ∀ a, (k0_off233 i) a + S1.size a ≤ S4096.size a
  k0_off235_inb : ∀ i : grid0.Coords, ∀ a, (k0_off235 i) a + S1.size a ≤ S4096.size a
  k0_off237_inb : ∀ i : grid0.Coords, ∀ a, (k0_off237 i) a + S1.size a ≤ S4096.size a
  k0_off239_inb : ∀ i : grid0.Coords, ∀ a, (k0_off239 i) a + S1.size a ≤ S4096.size a
  k0_off241_inb : ∀ i : grid0.Coords, ∀ a, (k0_off241 i) a + S1.size a ≤ S4096.size a
  k0_off243_inb : ∀ i : grid0.Coords, ∀ a, (k0_off243 i) a + S1.size a ≤ S4096.size a
  k0_off245_inb : ∀ i : grid0.Coords, ∀ a, (k0_off245 i) a + S1.size a ≤ S4096.size a
  k0_off247_inb : ∀ i : grid0.Coords, ∀ a, (k0_off247 i) a + S1.size a ≤ S4096.size a
  k0_off249_inb : ∀ i : grid0.Coords, ∀ a, (k0_off249 i) a + S1.size a ≤ S4096.size a
  k0_off251_inb : ∀ i : grid0.Coords, ∀ a, (k0_off251 i) a + S1.size a ≤ S4096.size a
  k0_off253_inb : ∀ i : grid0.Coords, ∀ a, (k0_off253 i) a + S1.size a ≤ S4096.size a
  k0_off255_inb : ∀ i : grid0.Coords, ∀ a, (k0_off255 i) a + S1.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8142.size a ≤ S4096x8142.size a
  hwx0_0 : ∀ i : grid0.Coords, EltTy.bits .f32 = 32 ∨ (Rect.block (s := S4096x8142) S128x8142.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x1.size a ≤ S1x1.size a
  hwx0_2 : ∀ i : grid0.Coords, EltTy.bits .f32 = 32 ∨ (Rect.block (s := S1x1) S1x1.size (cc0_transform_3 i) (hinb0_2 i)).WholeWords (EltTy.packing .f32)

variable [Facts₀]

abbrev cc0_scratch1 : DmaSems sig S2 := SemArray.consecutive 5 S2 hcc0_scratch1

abbrev spec0_0 : Pipeline.WinSpec sig grid0.rank :=
  Pipeline.WinSpec.ofSpec (Memref.whole main_arg0) S128x8142.size reads0_0 false false 2 stage0_0 sem0_0 nbuf0_0 hstage0_0

abbrev spec0_1 : Pipeline.WinSpec sig grid0.rank :=
  Pipeline.WinSpec.ofSpec (Memref.whole main_v0) S128x1.size reads0_1 false false 2 stage0_1 sem0_1 nbuf0_1 hstage0_1

abbrev spec0_2 : Pipeline.WinSpec sig grid0.rank :=
  Pipeline.WinSpec.ofSpec (Memref.whole main_v1) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x8142 : Shape := ⟨2, ![4096, 8142]⟩
abbrev S4096 : Shape := ⟨1, ![4096]⟩
abbrev S8142x8142 : Shape := ⟨2, ![8142, 8142]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x8142, .f32⟩
  | .hbm, ⟨1, _⟩ => ⟨S4096, .i32⟩
  | .hbm, ⟨2, _⟩ => ⟨S8142x8142, .f32⟩
  | .hbm, ⟨3, _⟩ => ⟨S8142x8142, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x8142, .f32⟩
  | .hbm, ⟨13, _⟩ => ⟨S4096x8142, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x8142, .f32⟩
  | .hbm, ⟨21, _⟩ => ⟨S4096x8142, .f32⟩
  | .hbm, ⟨22, _⟩ => ⟨S4096x8142, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S4096x8142, .f32⟩
  | .hbm, ⟨28, _⟩ => ⟨S4096x8142, .f32⟩
  | .hbm, ⟨29, _⟩ => ⟨S4096x1, .i32⟩
  | .hbm, ⟨30, _⟩ => ⟨S_, .i32⟩
  | .hbm, ⟨31, _⟩ => ⟨S4096x1, .i32⟩
  | .hbm, ⟨32, _⟩ => ⟨S4096x1, .i1⟩
  | .hbm, ⟨33, _⟩ => ⟨S_, .i32⟩
  | .hbm, ⟨34, _⟩ => ⟨S4096x1, .i32⟩
  | .hbm, ⟨35, _⟩ => ⟨S4096x1, .i32⟩
  | .hbm, ⟨36, _⟩ => ⟨S4096x1, .i32⟩
  | .hbm, ⟨37, _⟩ => ⟨S4096x1x1, .i32⟩
  | .hbm, ⟨38, _⟩ => ⟨S1, .i32⟩
  | .hbm, ⟨39, _⟩ => ⟨S_, .i32⟩
  | .hbm, ⟨40, _⟩ => ⟨S4096x1x1, .i32⟩
  | .hbm, ⟨41, _⟩ => ⟨S4096x1x1, .i1⟩
  | .hbm, ⟨42, _⟩ => ⟨S1x1x1, .i32⟩
  | .hbm, ⟨43, _⟩ => ⟨S4096x1x1, .i32⟩
  | .hbm, ⟨44, _⟩ => ⟨S4096x1x1, .i1⟩
  | .hbm, ⟨45, _⟩ => ⟨S4096x1x1, .i1⟩
  | .hbm, ⟨46, _⟩ => ⟨S_, .i1⟩
  | .hbm, ⟨47, _⟩ => ⟨S4096x1, .i1⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x8142, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v9 : Ref sig .tc := ⟨.hbm, 28, rfl⟩
abbrev main_v10 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_cst_1 : Ref sig .tc := ⟨.hbm, 54, rfl⟩
abbrev main_v13 : Ref sig .tc := ⟨.hbm, 55, rfl⟩
abbrev main_v14 : Ref sig .tc := ⟨.hbm, 56, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x8142_S4096_d1 : S4096x8142.ReducesTo [1] S4096
  h_S_ : 0 < S_.numel
  bcast_S4096x1_S4096x8142_0_1 : S4096x1.BroadcastsInDim S4096x8142 (![0, 1] : Fin 2 → Fin S4096x8142.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  gather_S8142x8142_S4096x1_S4096x8142_1_0_n_n_0_1_18142_wf : GatherDims.WF S8142x8142 S4096x1 S4096x8142 [1] [0] [] [0] [] 1 ![1, 8142]
  gather_S4096x8142_S4096x1x1_S4096x1_n_1_0_0_1_2_11_wf : GatherDims.WF S4096x8142 S4096x1x1 S4096x1 [] [1] [0] [1] [0] 2 ![1, 1]

variable [Facts₀]

def gather_S8142x8142_S4096x1_S4096x8142_1_0_n_n_0_1_18142 : GatherDims S8142x8142 S4096x1 S4096x8142 where
  offsetDims := [1]
  collapsedSliceDims := [0]
  operandBatchingDims := []
  startIndicesBatchingDims := []
  startIndexMap := [0]
  indexVectorDim := 1
  sliceSizes := ![1, 8142]
  wf := gather_S8142x8142_S4096x1_S4096x8142_1_0_n_n_0_1_18142_wf
def gather_S4096x8142_S4096x1x1_S4096x1_n_1_0_0_1_2_11 : GatherDims S4096x8142 S4096x1x1 S4096x1 where
  offsetDims := []
  collapsedSliceDims := [1]
  operandBatchingDims := [0]
  startIndicesBatchingDims := [0]
  startIndexMap := [1]
  indexVectorDim := 2
  sliceSizes := ![1, 1]
  wf := gather_S4096x8142_S4096x1x1_S4096x1_n_1_0_0_1_2_11_wf

class Facts : Prop extends Facts₀ where

variable [Facts]
-- ==== Proof.Spec.lean ====
/-
  The loss both programs compute, as one function of the three arrays over the extended reals.

  Row R of the batch has logits a_R(j) = x(R, j) + log w(t_R, j), t_R the class its label names. With
  M_R the largest of them and S_R = Σ_j exp (a_R(j) − M_R), the kernel forms the negative log-likelihood
  (log S_R + M_R) − a_R(t_R) and averages by a product with 2⁻¹²; the reference forms the log-probability
  (a_R(t_R) − M_R) − log S_R, sums, divides by 4096 and negates. On real logits the two agree
  (proved in the algebra module); here are only the definitions.
-/
import Idealize.ShloMosaic.PureOps.Ideal
import Idealize.ShloMosaic.Lib.ValueIdx

noncomputable section

open scoped BigOperators

namespace Cert.Seesaw

open Idealize.ShloMosaic Idealize.ShloMosaic.ValueIdx

/-- The logits' shape [4096, 8142], the labels' [4096], the weights' [8142, 8142]. -/
abbrev SX : Shape := ⟨2, ![4096, 8142]⟩
abbrev ST : Shape := ⟨1, ![4096]⟩
abbrev SW : Shape := ⟨2, ![8142, 8142]⟩

/-- The class a label word names (a word outside [0, 8142) is sent to the last class, so the function is
    total; under the precondition no label is outside). -/
def cls (t : BitVec 32) : Fin 8142 := ⟨min t.toNat 8141, by omega⟩

/-- The largest entry of a row of 8142 extended reals. -/
def rowMax (a : Fin 8142 → EReal) : EReal := Finset.univ.sup a
/-- The sum of the exponentials of a row shifted by its maximum. -/
def rowSumExp (a : Fin 8142 → EReal) : EReal := ∑ j : Fin 8142, Ideal.exp (a j - rowMax a)
/-- The kernel's row term: log-sum-exp minus the entry at the label. -/
def rowNll (a : Fin 8142 → EReal) (k : Fin 8142) : EReal := (Ideal.log (rowSumExp a) + rowMax a) - a k
/-- The reference's row term: the log-probability at the label. -/
def rowLogp (a : Fin 8142 → EReal) (k : Fin 8142) : EReal := (a k - rowMax a) - Ideal.log (rowSumExp a)

/-- Row R's logits: x plus the logarithm of the weight row its label names. -/
def logits (X : SX.Idx → EReal) (T : ST.Idx → BitVec 32) (Wm : SW.Idx → EReal) (R : Fin 4096) : Fin 8142 → EReal :=
  fun j => X (ix2 R j) + Ideal.log (Wm (ix2 (cls (T (ix1 R))) j))

/-- The kernel's result: the sum of the rows' terms times the word of 2⁻¹². -/
def kernelVal (X : SX.Idx → EReal) (T : ST.Idx → BitVec 32) (Wm : SW.Idx → EReal) : EReal :=
  (∑ R : Fin 4096, rowNll (logits X T Wm R) (cls (T (ix1 R)))) * Ideal.ofBits .f32 0x39800000#32

/-- The reference's result: minus the rows' log-probabilities summed (from zero) and divided by the word of 4096. -/
def refVal (X : SX.Idx → EReal) (T : ST.Idx → BitVec 32) (Wm : SW.Idx → EReal) : EReal :=
  -(Ideal.div (0 + ∑ R : Fin 4096, rowLogp (logits X T Wm R) (cls (T (ix1 R)))) (Ideal.ofBits .f32 0x45800000#32))

/-- What the precondition says of the arrays, entry by entry: x and w real, every w positive, every label a class. -/
structure Good (X : SX.Idx → EReal) (T : ST.Idx → BitVec 32) (Wm : SW.Idx → EReal) : Prop where
  x_real : ∀ i, ∃ r : ℝ, X i = (r : EReal)
  w_pos : ∀ i, ∃ r : ℝ, 0 < r ∧ Wm i = (r : EReal)
  t_lt : ∀ i, (T i).toNat < 8142

end Cert.Seesaw

end
-- ==== Proof.PreDecode.lean ====
/-
  The printed precondition, read back entry by entry.

  The predicate is a conjunction of four statements, each "every entry of an array of truth values is true":
  |x| < +∞ at every entry of x, |w| < +∞ at every entry of w, 0 ≤ t and t < 8142 (signed) at every label t,
  and w > 0 at every entry of w. A conjunction of bits that is 1 has every conjunct 1, and an "and" over a whole
  array that is 1 met a 1 at every entry. What remains is one entry at a time: an extended real whose absolute
  value max a (−a) is below ⊤ is neither ⊤ nor ⊥, hence a real; a 32-bit word that is ≥ 0 and < 8142 read signed
  is < 8142 read unsigned; and a real above the word of zero is a positive real.
-/
import proofs.«407913_j32418413150371_1_alg».proof.Pre_finite_inputs
import proofs.«407913_j32418413150371_1_alg».proof.Proof.Spec
import Idealize.ShloMosaic.Lib.ReduceAll
import Idealize.ShloMosaic.PureOps.Ideal.Laws

noncomputable section

namespace Cert.Seesaw.Pre

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- The predicate's four conjuncts, each at every entry. -/
theorem conjuncts {F : FTy → Type} [FloatOps F] (X : FVec F S4096x8142 .f32) (T : IVec S4096 32) (Wm : FVec F S8142x8142 .f32)
    (h : fn (F := F) X T Wm = fun _ => 1#1) :
    (∀ i, FloatOps.cmpf .olt (FloatOps.hostAbsf (X i)) (FloatOps.ofBits .f32 0x7F800000#32) = 1#1)
    ∧ (∀ i, FloatOps.cmpf .olt (FloatOps.hostAbsf (Wm i)) (FloatOps.ofBits .f32 0x7F800000#32) = 1#1)
    ∧ (∀ i, IntOp.cmpi .sge (T i) 0#32 = 1#1 ∧ IntOp.cmpi .slt (T i) 8142#32 = 1#1)
    ∧ (∀ i, FloatOps.cmpf .ogt (Wm i) (FloatOps.ofBits .f32 0x00000000#32) = 1#1) := by
  have e := congrFun h ix0
  dsimp only [fn, fn_part1] at e
  simp only [andi] at e
  rw [IntOp.andi_eq_one, IntOp.andi_eq_one, IntOp.andi_eq_one] at e
  obtain ⟨⟨⟨h1, h2⟩, h3⟩, h4⟩ := e
  refine ⟨fun i => ?_, fun i => ?_, fun i => ?_, fun i => ?_⟩
  · exact Host.reduce_andi_all _ _ _ _ _ h1 i
  · exact Host.reduce_andi_all _ _ _ _ _ h2 i
  · exact IntOp.andi_eq_one.1 (Host.reduce_andi_all _ _ _ _ _ h3 i)
  · exact Host.reduce_andi_all _ _ _ _ _ h4 i

/-- A truth value's bit is 1 exactly when it is true. -/
theorem ofBool_eq_one (b : Bool) : BitVec.ofBool b = 1#1 ↔ b = true := by cases b <;> decide

/-- A 32-bit word that is at least 0 and below 8142, read signed, is below 8142 read unsigned. -/
theorem toNat_lt_of_signed (t : BitVec 32) (h0 : IntOp.cmpi .sge t 0#32 = 1#1) (h1 : IntOp.cmpi .slt t 8142#32 = 1#1) :
    t.toNat < 8142 := by
  rw [IntOp.cmpi_sge] at h0
  rw [IntOp.cmpi_slt] at h1
  have z : (0#32 : BitVec 32).toInt = 0 := by decide
  have c : (8142#32 : BitVec 32).toInt = 8142 := by decide
  rw [z] at h0
  rw [c] at h1
  have hlt := t.isLt
  rw [BitVec.toInt_eq_toNat_cond] at h0 h1
  split at h0 <;> omega

/-- Every label names a class. -/
theorem t_lt_of_pre {F : FTy → Type} [FloatOps F] (X : FVec F Cert.Pre_finite_inputs.S4096x8142 .f32)
    (T : IVec Cert.Pre_finite_inputs.S4096 32) (Wm : FVec F Cert.Pre_finite_inputs.S8142x8142 .f32)
    (h : Cert.Pre_finite_inputs.fn (F := F) X T Wm = fun _ => 1#1) : ∀ i, (T i).toNat < 8142 := fun i =>
  toNat_lt_of_signed (T i) ((conjuncts X T Wm h).2.2.1 i).1 ((conjuncts X T Wm h).2.2.1 i).2

/-- An extended real whose absolute value max a (−a) is below ⊤ is a real. -/
theorem real_of_abs_lt_top (a : EReal) (h : Ideal.cmp .olt (max a (-a)) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  simp only [Ideal.cmp] at h
  rw [ofBool_eq_one, decide_eq_true_eq] at h
  induction a using EReal.rec with
  | bot => simp at h
  | top => simp at h
  | coe r => exact ⟨r, rfl⟩

/-- An extended real that is a real and above the word of zero is a positive real. -/
theorem pos_of_gt_zero (a : EReal) (hr : ∃ r : ℝ, a = (r : EReal))
    (h : Ideal.cmp .ogt a (Ideal.ofBits .f32 0x00000000#32) = 1#1) : ∃ r : ℝ, 0 < r ∧ a = (r : EReal) := by
  obtain ⟨r, rfl⟩ := hr
  rw [Ideal.ofBits_zero_f32] at h
  refine ⟨r, ?_, rfl⟩
  simp only [Ideal.cmp] at h
  rw [ofBool_eq_one, decide_eq_true_eq] at h
  exact EReal.coe_pos.mp h

/-- The precondition, entry by entry: x and w real, every w positive, every label a class. -/
theorem good_of_pre (X : FVec Ideal Cert.Pre_finite_inputs.S4096x8142 .f32) (T : IVec Cert.Pre_finite_inputs.S4096 32)
    (Wm : FVec Ideal Cert.Pre_finite_inputs.S8142x8142 .f32)
    (h : Cert.Pre_finite_inputs.fn (F := Ideal) X T Wm = fun _ => 1#1) : Cert.Seesaw.Good X T Wm := by
  obtain ⟨hx, hw, -, hp⟩ := conjuncts X T Wm h
  exact ⟨fun i => real_of_abs_lt_top (X i) (hx i),
    fun i => pos_of_gt_zero (Wm i) (real_of_abs_lt_top (Wm i) (hw i)) (hp i), t_lt_of_pre X T Wm h⟩

end Cert.Seesaw.Pre

end
-- ==== Proof.Algebra.lean ====
/-
  On real logits the two forms of the class-weighted cross-entropy agree.

  A row of real numbers has a real maximum, attained at some index; the exponentials of the shifted row
  are positive reals, so their sum is a positive real and its logarithm is the real logarithm. Hence the
  row's negative log-likelihood (log S + M) − a k is a real r and the row's log-probability
  (a k − M) − log S is the real −r. Summing over the rows, the product of Σ r with 2⁻¹² equals minus the
  quotient of Σ (−r) by 4096.
-/
import proofs.«407913_j32418413150371_1_alg».proof.Proof.Spec
import Mathlib.Data.EReal.Basic
import Mathlib.Data.EReal.Operations
import Mathlib.Data.Finset.Lattice.Fold
import Mathlib.Algebra.BigOperators.Group.Finset.Basic
import Mathlib.Algebra.Order.BigOperators.Group.Finset
import Mathlib.Analysis.SpecialFunctions.Log.Basic

noncomputable section

open scoped BigOperators

namespace Cert.Seesaw

open Idealize.ShloMosaic Idealize.ShloMosaic.ValueIdx

/-! ### The two float words -/

/-- The word of 2⁻¹² denotes the real 1/4096. -/
theorem ofBits_inv4096 : Ideal.ofBits .f32 0x39800000#32 = ((1 / 4096 : ℝ) : EReal) := by
  simp [Ideal.ofBits, Ideal.ieee, -EReal.coe_mul]; norm_num

/-- The word of 2¹² denotes the real 4096. -/
theorem ofBits_4096 : Ideal.ofBits .f32 0x45800000#32 = ((4096 : ℝ) : EReal) := by
  simp [Ideal.ofBits, Ideal.ieee, -EReal.coe_mul]; norm_num

/-! ### Finite sums of reals inside the extended reals -/

/-- The coercion of a finite sum of reals is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ### One row of real logits -/

/-- The maximum of a row of reals is one of its entries and bounds every entry. -/
theorem rowMax_coe (b : Fin 8142 → ℝ) :
    ∃ j0 : Fin 8142, rowMax (fun j => (b j : EReal)) = (b j0 : EReal) ∧ ∀ j, b j ≤ b j0 := by
  obtain ⟨j0, -, h0⟩ := Finset.exists_mem_eq_sup (Finset.univ : Finset (Fin 8142))
    ⟨⟨0, by norm_num⟩, Finset.mem_univ _⟩ (fun j => (b j : EReal))
  refine ⟨j0, h0, fun j => ?_⟩
  have hle : (b j : EReal) ≤ Finset.univ.sup (fun j => (b j : EReal)) :=
    Finset.le_sup (f := fun j => (b j : EReal)) (Finset.mem_univ j)
  rw [h0] at hle
  exact_mod_cast hle

/-- The sum of the shifted exponentials of a row of reals is a positive real. -/
theorem rowSumExp_coe (b : Fin 8142 → ℝ) (m : ℝ)
    (hm : rowMax (fun j => (b j : EReal)) = (m : EReal)) :
    rowSumExp (fun j => (b j : EReal)) = ((∑ j : Fin 8142, Real.exp (b j - m) : ℝ) : EReal)
      ∧ 0 < ∑ j : Fin 8142, Real.exp (b j - m) := by
  constructor
  · rw [rowSumExp, hm, coe_sum_real]
    refine Finset.sum_congr rfl fun j _ => ?_
    rw [← EReal.coe_sub, Ideal.exp_coe]
  · exact Finset.sum_pos (fun j _ => Real.exp_pos _) ⟨⟨0, by norm_num⟩, Finset.mem_univ _⟩

/-- On a row of reals the kernel's term is a real and the reference's term is its negative. -/
theorem row_terms_coe (b : Fin 8142 → ℝ) (k : Fin 8142) :
    ∃ r : ℝ, rowNll (fun j => (b j : EReal)) k = (r : EReal)
      ∧ rowLogp (fun j => (b j : EReal)) k = ((-r : ℝ) : EReal) := by
  obtain ⟨j0, hM, -⟩ := rowMax_coe b
  obtain ⟨hS, hpos⟩ := rowSumExp_coe b (b j0) hM
  have hlog : ∃ l : ℝ, Ideal.log (rowSumExp (fun j => (b j : EReal))) = (l : EReal) :=
    ⟨Real.log (∑ j : Fin 8142, Real.exp (b j - b j0)), by
      rw [hS, Ideal.log_coe, if_neg (not_le.mpr hpos)]⟩
  obtain ⟨l, hl⟩ := hlog
  refine ⟨l + b j0 - b k, ?_, ?_⟩
  · rw [rowNll, hl, hM, ← EReal.coe_add, ← EReal.coe_sub]
  · rw [rowLogp, hl, hM, ← EReal.coe_sub, ← EReal.coe_sub,
      show b k - b j0 - l = -(l + b j0 - b k) by ring]

/-- The same over a row of extended reals every entry of which is a real. -/
theorem row_terms {a : Fin 8142 → EReal} (ha : ∀ j, ∃ r : ℝ, a j = (r : EReal)) (k : Fin 8142) :
    ∃ r : ℝ, rowNll a k = (r : EReal) ∧ rowLogp a k = ((-r : ℝ) : EReal) := by
  choose b hb using ha
  have hab : a = fun j => (b j : EReal) := funext hb
  rw [hab]
  exact row_terms_coe b k

/-! ### The logits are reals under the precondition -/

theorem logits_real {X : SX.Idx → EReal} {T : ST.Idx → BitVec 32} {Wm : SW.Idx → EReal}
    (h : Good X T Wm) (R : Fin 4096) (j : Fin 8142) :
    ∃ r : ℝ, logits X T Wm R j = (r : EReal) := by
  obtain ⟨x, hx⟩ := h.x_real (ix2 R j)
  obtain ⟨w, hw, hW⟩ := h.w_pos (ix2 (cls (T (ix1 R))) j)
  refine ⟨x + Real.log w, ?_⟩
  rw [logits, hx, hW, Ideal.log_coe, if_neg (not_le.mpr hw), EReal.coe_add]

/-! ### The two results agree -/

theorem kernelVal_eq_refVal {X : SX.Idx → EReal} {T : ST.Idx → BitVec 32} {Wm : SW.Idx → EReal}
    (h : Good X T Wm) : kernelVal X T Wm = refVal X T Wm := by
  have hrow : ∀ R : Fin 4096, ∃ r : ℝ,
      rowNll (logits X T Wm R) (cls (T (ix1 R))) = (r : EReal)
        ∧ rowLogp (logits X T Wm R) (cls (T (ix1 R))) = ((-r : ℝ) : EReal) :=
    fun R => row_terms (logits_real h R) _
  choose r hN hL using hrow
  have hK : (∑ R : Fin 4096, rowNll (logits X T Wm R) (cls (T (ix1 R))))
      = ((∑ R : Fin 4096, r R : ℝ) : EReal) := by
    rw [coe_sum_real]; exact Finset.sum_congr rfl fun R _ => hN R
  have hR : (∑ R : Fin 4096, rowLogp (logits X T Wm R) (cls (T (ix1 R))))
      = ((∑ R : Fin 4096, -(r R) : ℝ) : EReal) := by
    rw [coe_sum_real]; exact Finset.sum_congr rfl fun R _ => hL R
  rw [kernelVal, refVal, hK, hR, ofBits_inv4096, ofBits_4096,
    Ideal.div_coe (by norm_num : (4096 : ℝ) ≠ 0), zero_add,
    ← EReal.coe_mul, ← EReal.coe_mul, ← EReal.coe_neg, Finset.sum_neg_distrib]
  generalize (∑ R : Fin 4096, r R) = s
  rw [show s * (1 / 4096) = -(-s * (1 / 4096)) by ring]

end Cert.Seesaw

end
-- ==== Proof.LibRows.lean ====
/-
  Two host operations read at an element, for any extents: a ROW GATHER (`table[idx]` over a rank-2 table: result row `e`
  is the table's row named by start index `e`, read signed and clamped into the table) and a ROW SCATTER-ADD onto a rank-2
  operand (`operand.at[idx].add(updates)`: element `(n, q)` of the result is the operand's plus the sum of the updates'
  `(e, q)` over the update rows `e` whose start index, read signed and not clamped, is `n`; a row landing outside the
  operand contributes nothing).
-/
import Idealize.ShloMosaic.Lib.ValueIdx
import Idealize.ShloMosaic.PureOps.Ideal

noncomputable section

open scoped BigOperators

namespace Cert.LibRows

open Idealize.ShloMosaic Idealize.ShloMosaic.ValueIdx

/-! ## The row gather -/

/-- The start-indices index a result index `(e, q)` reads, whatever the component: row `e` of the index column
    (the result's one batch axis is axis 0, which reads the start indices' axis 0; the index vector's axis holds the
    component, and a start index has one). -/
theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

/-- Axis 0 of the operand index: the start index of row `e`, read signed and clamped into the table (the axis is
    collapsed, slice size 1: no batching and no offset coordinate). -/
theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

/-- Axis 1 of the operand index: the result's column (the start index map does not name the axis, it is not a
    batching axis, and it is the one kept axis, read by the result's one offset axis). -/
theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

/-- THE ROW GATHER: the dimension numbers are the printed ones of `table[idx]` over a rank-2 table with the start
    indices an [E × 1] column (each hypothesis holds of a printed record by `rfl`). -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

/-! ## The row scatter-add -/

/-- The scatter-indices index an update index `(e, q')` reads, whatever the component: row `e` of the index column
    (the updates' one scatter axis is axis 0, which reads the scatter indices' axis 0). -/
theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- On axis 0 the window starts at the index word of row `e`, read signed and not clamped. -/
theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

/-- On axis 1 it starts at 0: the map does not name that axis. -/
theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

/-- Axis 0 is the inserted axis: no window coordinate there. -/
theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

/-- Axis 1 is the one kept axis, read by the updates' one window axis: its coordinate is the update's column. -/
theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

/-- WHERE AN UPDATE LANDS: update `(e, q')` lands at `(n, q)` exactly when its row's index word, read signed, is `n`
    and the columns agree. On axis 0 the landing coordinate is the index word (start) plus 0 (no window coordinate),
    in range exactly when it is some `n` below `N`; on axis 1 it is 0 plus `q'`, always in range. -/
theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>
      -- in range on both axes: compare the landing index with (n, q) coordinate by coordinate
      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

/-- THE ROW SCATTER-ADD at the ideal instance: the dimension numbers are the printed ones of a segment sum over rows
    (each hypothesis holds of a printed record by `rfl`). -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by
  -- every update index is (row, column): the landing criterion read at it
  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this
  -- an update landing at (n, q) sits in column q
  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1
  -- so the updates landing at (n, q) are the (e, q) over the rows e whose index word reads n: re-index by the row
  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.RefValue.lean ====
/-
  The reference's result is the specification's value.

  The reference takes the logarithm of the whole weight matrix, gathers for each row R of the batch the row its
  label t_R names, adds x, and takes a stable log-softmax along the classes: with a_R(j) = x(R, j) + log w(t_R, j),
  M_R the row's supremum and S_R = Σ_j exp (a_R(j) − M_R), entry (R, j) is (a_R(j) − M_R) − log S_R. It then takes
  the entry at the label, sums the 4096 entries from zero, divides by the word of 4096 and negates. Under labels in
  [0, 8142) the label's normalisation is the identity, no gather's clamp binds and the in-range test holds, so the
  result is minus ((0 + Σ_R rowLogp a_R t_R) / 4096): the value the specification names.

  Four operations are read at an element in this file: the row gather (by the general lemma of the rows file), a
  take along axis 1 batched over axis 0 (proved below for any extents), the maximum reduce (a fold of max from the
  bottom element over the classes: the supremum) and the reduce of the in-range bits over an axis of one entry.
-/
import proofs.«407913_j32418413150371_1_alg».proof.Proof.RefRunP
import proofs.«407913_j32418413150371_1_alg».proof.Proof.RefReadP
import proofs.«407913_j32418413150371_1_alg».proof.Proof.Spec
import proofs.«407913_j32418413150371_1_alg».proof.Proof.LibRows
import Idealize.ShloMosaic.Lib.ValueIdx
import Idealize.ShloMosaic.Lib.StableHlo.Predicate
import Idealize.ShloMosaic.PureOps.Ideal
import Idealize.ShloMosaic.PureOps.Ideal.Laws
import Idealize.ShloMosaic.PureOps.Reduce
import Mathlib.Algebra.BigOperators.Fin
import Mathlib.Algebra.BigOperators.Group.Finset.Basic
import Mathlib.Data.Finset.Lattice.Fold
import Mathlib.Order.BoundedOrder.Lattice

noncomputable section

open scoped BigOperators

namespace Cert.ReferenceIdeal.RefValue

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo
open Idealize.ShloMosaic.StableHlo.Predicate (slt_iff_toNat sge_iff_toNat sle_iff_toNat toInt_eq_toNat_of_lt)
open Cert.Seesaw

/-! ## A take along axis 1, batched over axis 0 -/

section Along
variable {α : Type} {E C w : Nat}

/-- Every start-indices index a result index (e, 0) reads is (e, 0, 0). -/
theorem along_siIdx (d : GatherDims ⟨2, ![E, C]⟩ ⟨3, ![E, 1, 1]⟩ ⟨2, ![E, 1]⟩)
    (hoff : d.offsetDims = []) (hsim : d.startIndexMap = [1]) (hivd : d.indexVectorDim = 2)
    (e : Fin E) (c : Fin d.startIndexMap.length) :
    d.siIdx (ix2 e (0 : Fin 1)) c = ix3 e (0 : Fin 1) (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => rfl
  | ⟨2, _⟩ => exact Nat.lt_one_iff.mp c.isLt

/-- Axis 0 of the operand index: the result's row (a batching axis: no start, no offset). -/
theorem along_operandIdx_row (d : GatherDims ⟨2, ![E, C]⟩ ⟨3, ![E, 1, 1]⟩ ⟨2, ![E, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![E, 1, 1]⟩ w) (e : Fin E) :
    (d.operandIdx (ix2 e (0 : Fin 1)) idx (0 : Fin 2)).val = e.val := by
  obtain ⟨od, cd, ob, sb, sm, iv, ss, wf⟩ := d
  dsimp only at hoff hcoll hob hsb hsim hivd
  subst hoff hcoll hob hsb hsim hivd
  have h0 : (0 : Fin 2) ∈ ([0] : List (Fin 2)) := List.mem_singleton.mpr rfl
  have h0' : (0 : Fin 2) ∉ ([1] : List (Fin 2)) := by decide
  simp only [GatherDims.operandIdx]
  rw [GatherDims.start_batching _ _ _ _ h0,
    GatherDims.offCoord_eq_zero _ _ _ (fun h => ((GatherDims.mem_sKept _ _).mp h).2 h0), Nat.zero_add, Nat.add_zero]
  unfold GatherDims.batchCoord
  rw [dif_pos h0]
  rfl

/-- Axis 1 of the operand index: the start index of row e, read signed and clamped into the row (the axis is
    collapsed, slice size 1: no batching and no offset coordinate). -/
theorem along_operandIdx_col (d : GatherDims ⟨2, ![E, C]⟩ ⟨3, ![E, 1, 1]⟩ ⟨2, ![E, 1]⟩)
    (hoff : d.offsetDims = []) (hcoll : d.collapsedSliceDims = [1]) (hob : d.operandBatchingDims = [0])
    (hsim : d.startIndexMap = [1]) (hivd : d.indexVectorDim = 2)
    (idx : IVec ⟨3, ![E, 1, 1]⟩ w) (e : Fin E) :
    (d.operandIdx (ix2 e (0 : Fin 1)) idx (1 : Fin 2)).val
      = min (idx (ix3 e (0 : Fin 1) (0 : Fin 1))).toInt.toNat (C - 1) := by
  have hsl : d.sliceSizes 1 = 1 := d.slice_collapsed 1 (by rw [hcoll]; exact List.mem_singleton.mpr rfl)
  have h1 : (1 : Fin 2) ∈ d.startIndexMap := by rw [hsim]; exact List.mem_singleton.mpr rfl
  have hc : (1 : Fin 2) ∉ d.sKept := fun h => ((d.mem_sKept 1).mp h).1 (by rw [hcoll]; exact List.mem_singleton.mpr rfl)
  have hb : (1 : Fin 2) ∉ d.operandBatchingDims := by
    rw [hob]; exact (show (1 : Fin 2) ∉ ([0] : List (Fin 2)) by decide)
  show d.start (ix2 e (0 : Fin 1)) idx 1 + d.batchCoord (ix2 e (0 : Fin 1)) 1 + d.offCoord (ix2 e (0 : Fin 1)) 1 = _
  rw [d.batchCoord_eq_zero _ _ hb, d.offCoord_eq_zero _ _ hc, Nat.add_zero]
  unfold GatherDims.start
  rw [dif_pos h1, along_siIdx d hoff hsim hivd, hsl]
  rfl

/-- THE TAKE ALONG AXIS 1: row e of the result is the operand's row e at the column its start index names, read
    signed and clamped into the row (each hypothesis holds of a printed record by rfl). -/
theorem gather_along_apply (d : GatherDims ⟨2, ![E, C]⟩ ⟨3, ![E, 1, 1]⟩ ⟨2, ![E, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![E, C]⟩ : Shape).Idx → α) (idx : IVec ⟨3, ![E, 1, 1]⟩ w) (e : Fin E) (hC : 0 < C) :
    Host.gather d x idx (ix2 e (0 : Fin 1))
      = x (ix2 e (⟨min (idx (ix3 e (0 : Fin 1) (0 : Fin 1))).toInt.toNat (C - 1), by omega⟩ : Fin C)) := by
  unfold Host.gather
  congr 1
  funext a
  apply Fin.ext
  match a with
  | ⟨0, _⟩ => exact along_operandIdx_row d hoff hcoll hob hsb hsim hivd idx e
  | ⟨1, _⟩ => exact along_operandIdx_col d hoff hcoll hob hsim hivd idx e

end Along

/-! ## Words: a label below 8142 -/

theorem slt_zero_of_lt {t : BitVec 32} (h : t.toNat < 8142) : IntOp.cmpi .slt t 0#32 = 0#1 := by
  apply eq_zero_of_ne_one
  intro h1
  have h2 := (slt_iff_toNat (a := t) (b := 0#32) (by omega) (by decide)).mp h1
  exact absurd h2 (Nat.not_lt_zero _)

theorem sge_zero_of_lt {t : BitVec 32} (h : t.toNat < 8142) : IntOp.cmpi .sge t 0#32 = 1#1 :=
  (sge_iff_toNat (a := t) (b := 0#32) (by omega) (by decide)).mpr (Nat.zero_le _)

theorem sle_last_of_lt {t : BitVec 32} (h : t.toNat < 8142) : IntOp.cmpi .sle t 8141#32 = 1#1 :=
  (sle_iff_toNat (a := t) (b := 8141#32) (by omega) (by decide)).mpr (by show t.toNat ≤ 8141; omega)

/-- The class a label below 8142 names is the clamp a gather applies to it. -/
theorem clamp_eq_cls {t : BitVec 32} (h : t.toNat < 8142) (p : min t.toInt.toNat (8142 - 1) < 8142) :
    (⟨min t.toInt.toNat (8142 - 1), p⟩ : Fin 8142) = cls t := by
  apply Fin.ext
  show min t.toInt.toNat (8142 - 1) = min t.toNat 8141
  rw [toInt_eq_toNat_of_lt (by omega), Int.toNat_natCast]

/-- The word of minus infinity denotes the bottom element. -/
theorem ofBits_neg_inf : Ideal.ofBits .f32 0xFF800000#32 = ⊥ := by simp [Ideal.ofBits, Ideal.ieee]

/-! ## Indices the layout operations read -/

theorem idx1_of_ix2 (R : Fin 4096) (q : Fin 1) :
    (fun a => match a with | ⟨0, _⟩ => ⟨((ix2 R q : S4096x1.Idx) 0).val, ((ix2 R q : S4096x1.Idx) 0).isLt⟩ : S4096.Idx) = ix1 R := by
  funext a; match a with | ⟨0, _⟩ => rfl

theorem idx2_of_ix2 (R : Fin 4096) (j : Fin 8142) :
    (fun a => match a with
      | ⟨0, _⟩ => ⟨((ix2 R j : S4096x8142.Idx) 0).val, ((ix2 R j : S4096x8142.Idx) 0).isLt⟩
      | ⟨1, _⟩ => ⟨0, Nat.one_pos⟩ : S4096x1.Idx) = ix2 R (0 : Fin 1) := by
  funext a; match a with | ⟨0, _⟩ => rfl | ⟨1, _⟩ => rfl

section Stages
variable (X : (⟨S4096x8142, .f32⟩ : BufTy).Contents (Elt Ideal)) (T : (⟨S4096, .i32⟩ : BufTy).Contents (Elt Ideal))
  (Wm : (⟨S8142x8142, .f32⟩ : BufTy).Contents (Elt Ideal))

/-- The label, normalised: itself. -/
theorem v5_apply (ht : ∀ i, (T i).toNat < 8142) (i : S4096.Idx) : val_main_v5 (F := Ideal) T i = T i := by
  rw [val_main_v5_apply, val_main_v2_apply, val_main_v1_apply, val_main_c_apply, slt_zero_of_lt (ht i), select_zero]

theorem v6_apply (ht : ∀ i, (T i).toNat < 8142) (R : Fin 4096) (q : Fin 1) :
    val_main_v6 (F := Ideal) T (ix2 R q) = T (ix1 R) := by
  rw [val_main_v6_apply, v5_apply T ht]
  exact congrArg T (idx1_of_ix2 R q)

/-- The gathered row: the logarithm of the weight row the label names. -/
theorem v7_apply (ht : ∀ i, (T i).toNat < 8142) (R : Fin 4096) (j : Fin 8142) :
    val_main_v7 (F := Ideal) T Wm (ix2 R j) = Ideal.log (Wm (ix2 (cls (T (ix1 R))) j)) := by
  unfold val_main_v7
  rw [Cert.LibRows.gather_rows_apply gather_S8142x8142_S4096x1_S4096x8142_1_0_n_n_0_1_18142 rfl rfl rfl rfl rfl
    (val_main_v0 (F := Ideal) Wm) (val_main_v6 (F := Ideal) T) R j (by decide)]
  rw [val_main_v0_apply, Ideal.hostUnary_log_def]
  have key : ∀ (t : BitVec 32) (p : min t.toInt.toNat (8142 - 1) < 8142), t = T (ix1 R) →
      (⟨min t.toInt.toNat (8142 - 1), p⟩ : Fin 8142) = cls (T (ix1 R)) := by
    intro t p e; subst e; exact clamp_eq_cls (ht _) p
  rw [key _ _ (v6_apply T ht R (0 : Fin 1))]

/-- The logits. -/
theorem v8_apply (ht : ∀ i, (T i).toNat < 8142) (R : Fin 4096) (j : Fin 8142) :
    val_main_v8 (F := Ideal) X T Wm (ix2 R j) = logits X T Wm R j := by
  rw [val_main_v8_apply, Ideal.addf_def, v7_apply T Wm ht]
  rfl

end Stages

/-- The fold of the maximum from the bottom element over a whole finite index set is the supremum. -/
theorem fold_max_bot {n : Nat} (f : Fin n → EReal) :
    (Finset.univ : Finset (Fin n)).fold (FloatOps.maximumf (F := Ideal) (φ := .f32)) (⊥ : EReal) f = Finset.univ.sup f := by
  rfl

theorem redRow : S4096x8142.Reduces [1] S4096 := by decide
theorem redUnit : S4096x1x1.Reduces [2] S4096x1 := by decide

theorem lift_row (R : Fin 4096) (k : Fin 8142) : redRow.lift (ix1 R) k = ix2 R k := by
  funext a; apply Fin.ext
  match a with | ⟨0, _⟩ => rfl | ⟨1, _⟩ => rfl

theorem lift_unit (R : Fin 4096) (q : Fin 1) (k : Fin 1) : redUnit.lift (ix2 R q) k = ix3 R q k := by
  funext a; apply Fin.ext
  match a with | ⟨0, _⟩ => rfl | ⟨1, _⟩ => rfl | ⟨2, _⟩ => rfl

theorem idx7_of (R : Fin 4096) (k : Fin 8142) :
    (fun a => match a with
      | ⟨0, _⟩ => ⟨((ix1 R : S4096.Idx) 0).val, ((ix1 R : S4096.Idx) 0).isLt⟩
      | ⟨1, _⟩ => ⟨k.val, k.isLt⟩ : S4096x8142.Idx) = ix2 R k := by
  funext a; match a with | ⟨0, _⟩ => rfl | ⟨1, _⟩ => rfl

theorem idx5_of (R : Fin 4096) (q r : Fin 1) : idx_main_call1_v5 (ix3 R q r) = ix2 R (0 : Fin 1) := by
  funext a; apply Fin.ext
  match a with
  | ⟨0, _⟩ =>
    show (((R.val * 1 + q.val) * 1 + r.val) / 1) = R.val
    have := q.isLt; have := r.isLt; omega
  | ⟨1, _⟩ => rfl

section Stages2
variable (X : (⟨S4096x8142, .f32⟩ : BufTy).Contents (Elt Ideal)) (T : (⟨S4096, .i32⟩ : BufTy).Contents (Elt Ideal))
  (Wm : (⟨S8142x8142, .f32⟩ : BufTy).Contents (Elt Ideal))

/-- The row's maximum. -/
theorem c0v0_apply (ht : ∀ i, (T i).toNat < 8142) (R : Fin 4096) :
    val_main_call0_v0 (F := Ideal) X T Wm (ix1 R) = rowMax (logits X T Wm R) := by
  unfold val_main_call0_v0
  rw [Host.reduce_eq_fold_single (FloatOps.maximumf (F := Ideal) (φ := .f32)) (val_main_v8 (F := Ideal) X T Wm)
    (val_main_call0_cst (F := Ideal)) reducesTo_S4096x8142_S4096_d1 redRow h_S_ (ix1 R)]
  rw [val_main_call0_cst_apply, Ideal.ofBits_def, ofBits_neg_inf]
  have hf : (val_main_v8 (F := Ideal) X T Wm ∘ redRow.lift (ix1 R)) = logits X T Wm R := by
    refine funext fun (k : Fin 8142) => ?_
    show val_main_v8 (F := Ideal) X T Wm (redRow.lift (ix1 R) k) = _
    rw [lift_row R k, v8_apply X T Wm ht]
  rw [hf]
  exact fold_max_bot _

theorem c0v2_apply (ht : ∀ i, (T i).toNat < 8142) (R : Fin 4096) :
    val_main_call0_v2 (F := Ideal) X T Wm (ix1 R) = rowMax (logits X T Wm R) := by
  rw [val_main_call0_v2_apply, val_main_call0_v1_apply, val_main_call0_cst_0_apply, Ideal.ofBits_def, ofBits_neg_inf,
    Ideal.maximumf_def, c0v0_apply X T Wm ht]
  exact max_bot_left _

theorem c0v4_apply (ht : ∀ i, (T i).toNat < 8142) (R : Fin 4096) (j : Fin 8142) :
    val_main_call0_v4 (F := Ideal) X T Wm (ix2 R j) = rowMax (logits X T Wm R) := by
  rw [val_main_call0_v4_apply, val_main_call0_v3_apply]
  have e : idx_main_call0_v3 (idx_main_call0_v4 (ix2 R j : S4096x8142.Idx)) = ix1 R := by
    funext a; match a with | ⟨0, _⟩ => rfl
  rw [e, c0v2_apply X T Wm ht]

theorem c0v5_apply (ht : ∀ i, (T i).toNat < 8142) (R : Fin 4096) (j : Fin 8142) :
    val_main_call0_v5 (F := Ideal) X T Wm (ix2 R j) = logits X T Wm R j - rowMax (logits X T Wm R) := by
  rw [val_main_call0_v5_apply, Ideal.subf_def, v8_apply X T Wm ht, c0v4_apply X T Wm ht]

/-- The sum of the exponentials. -/
theorem c0v7_apply (ht : ∀ i, (T i).toNat < 8142) (R : Fin 4096) :
    val_main_call0_v7 (F := Ideal) X T Wm (ix1 R) = rowSumExp (logits X T Wm R) := by
  rw [val_main_call0_v7_apply, val_main_call0_cst_1_apply, Ideal.ofBits_def, Ideal.ofBits_zero_f32, zero_add]
  refine Finset.sum_congr rfl fun k _ => ?_
  have e : idx_main_call0_v7 (ix1 R : S4096.Idx) k = ix2 R k := idx7_of R k
  rw [e, val_main_call0_v6_apply, Ideal.hostUnary_exp_def, c0v5_apply X T Wm ht]

theorem c0v10_apply (ht : ∀ i, (T i).toNat < 8142) (R : Fin 4096) (j : Fin 8142) :
    val_main_call0_v10 (F := Ideal) X T Wm (ix2 R j) = Ideal.log (rowSumExp (logits X T Wm R)) := by
  rw [val_main_call0_v10_apply, val_main_call0_v9_apply, Ideal.hostUnary_log_def, val_main_call0_v8_apply]
  have e : idx_main_call0_v8 (idx_main_call0_v10 (ix2 R j : S4096x8142.Idx)) = ix1 R := by
    funext a; match a with | ⟨0, _⟩ => rfl
  rw [e, c0v7_apply X T Wm ht]

/-- The log-probabilities. -/
theorem v9_apply (ht : ∀ i, (T i).toNat < 8142) (R : Fin 4096) (j : Fin 8142) :
    val_main_v9 (F := Ideal) X T Wm (ix2 R j) = rowLogp (logits X T Wm R) j := by
  rw [val_main_v9_apply, Ideal.subf_def, c0v5_apply X T Wm ht, c0v10_apply X T Wm ht]
  rfl

/-- The label again, normalised, as a column. -/
theorem c1v4_apply (ht : ∀ i, (T i).toNat < 8142) (R : Fin 4096) (q : Fin 1) :
    val_main_call1_v4 (F := Ideal) T (ix2 R q) = T (ix1 R) := by
  have e10 : val_main_v10 (F := Ideal) T (ix2 R q) = T (ix1 R) := by
    rw [val_main_v10_apply]; exact congrArg T (idx1_of_ix2 R q)
  rw [val_main_call1_v4_apply, val_main_call1_v1_apply, val_main_call1_v0_apply, val_main_call1_c_apply, e10,
    slt_zero_of_lt (ht _), select_zero]

theorem c1v5_apply (ht : ∀ i, (T i).toNat < 8142) (R : Fin 4096) (q r : Fin 1) :
    val_main_call1_v5 (F := Ideal) T (ix3 R q r) = T (ix1 R) := by
  rw [val_main_call1_v5_apply, idx5_of, c1v4_apply T ht]

/-- The in-range test holds everywhere. -/
theorem c1v11_apply (ht : ∀ i, (T i).toNat < 8142) (R : Fin 4096) (q r : Fin 1) :
    val_main_call1_v11 (F := Ideal) T (ix3 R q r) = 1#1 := by
  rw [val_main_call1_v11_apply, val_main_call1_v7_apply, val_main_call1_v10_apply, c1v5_apply T ht,
    val_main_call1_v6_apply, val_main_call1_c_2_apply, val_main_call1_v9_apply, val_main_call1_v8_apply,
    val_main_call1_c_1_apply, sge_zero_of_lt (ht _), sle_last_of_lt (ht _)]
  rfl

theorem c1v12_apply (ht : ∀ i, (T i).toNat < 8142) (R : Fin 4096) (q : Fin 1) :
    val_main_call1_v12 (F := Ideal) T (ix2 R q) = 1#1 := by
  unfold val_main_call1_v12
  rw [Host.reduce_eq_fold_single IntOp.andi (val_main_call1_v11 (F := Ideal) T)
    (val_main_call1_c_3 (F := Ideal)) reducesTo_S4096x1x1_S4096x1_d2 redUnit h_S_ (ix2 R q)]
  have hf : (val_main_call1_v11 (F := Ideal) T ∘ redUnit.lift (ix2 R q)) = fun _ => 1#1 := by
    refine funext fun (k : Fin 1) => ?_
    show val_main_call1_v11 (F := Ideal) T (redUnit.lift (ix2 R q) k) = _
    rw [lift_unit R q k, c1v11_apply T ht]
  rw [hf, val_main_call1_c_3_apply]
  rfl

/-- The entry taken at the label. -/
theorem c1v13_apply (ht : ∀ i, (T i).toNat < 8142) (R : Fin 4096) :
    val_main_call1_v13 (F := Ideal) X T Wm (ix2 R (0 : Fin 1)) = rowLogp (logits X T Wm R) (cls (T (ix1 R))) := by
  unfold val_main_call1_v13
  rw [gather_along_apply gather_S4096x8142_S4096x1x1_S4096x1_n_1_0_0_1_2_11 rfl rfl rfl rfl rfl rfl
    (val_main_v9 (F := Ideal) X T Wm) (val_main_call1_v5 (F := Ideal) T) R (by decide)]
  have key : ∀ (t : BitVec 32) (p : min t.toInt.toNat (8142 - 1) < 8142), t = T (ix1 R) →
      (⟨min t.toInt.toNat (8142 - 1), p⟩ : Fin 8142) = cls (T (ix1 R)) := by
    intro t p e; subst e; exact clamp_eq_cls (ht _) p
  rw [key _ _ (c1v5_apply T ht R (0 : Fin 1) (0 : Fin 1)), v9_apply X T Wm ht]

theorem v11_apply (ht : ∀ i, (T i).toNat < 8142) (R : Fin 4096) :
    val_main_v11 (F := Ideal) X T Wm (ix2 R (0 : Fin 1)) = rowLogp (logits X T Wm R) (cls (T (ix1 R))) := by
  rw [val_main_v11_apply, c1v12_apply T ht, select_one, c1v13_apply X T Wm ht]

/-- The sum over the batch, from zero. -/
theorem v12_apply (ht : ∀ i, (T i).toNat < 8142) (i : S_.Idx) :
    val_main_v12 (F := Ideal) X T Wm i = 0 + ∑ R : Fin 4096, rowLogp (logits X T Wm R) (cls (T (ix1 R))) := by
  rw [val_main_v12_apply, val_main_cst_apply, Ideal.ofBits_def, Ideal.ofBits_zero_f32, sum_idx2]
  refine congrArg (0 + ·) (Finset.sum_congr rfl fun R _ => ?_)
  rw [Fin.sum_univ_one, v11_apply X T Wm ht]

/-- THE REFERENCE'S RESULT is the specification's value of the three arrays. -/
theorem val_main_v14_eq_refVal (ht : ∀ i, (T i).toNat < 8142) :
    val_main_v14 (F := Ideal) X T Wm = fun _ => refVal X T Wm := by
  funext i
  rw [val_main_v14_apply, val_main_v13_apply, Ideal.hostNegf_def, Ideal.negf_def, Ideal.hostDivf_def,
    val_main_cst_1_apply, Ideal.ofBits_def, v12_apply X T Wm ht]
  rfl

end Stages2

/-! ## The run's result -/

/-- The composed term the reference's run leaves in its result buffer, at the ideal values and under labels that
    name classes, is the specification's value of the three argument arrays. -/
theorem ref_result (m : (ℓ : Loc nD τ sig) → Buf (Elt Ideal) ℓ) (c : Dev nD)
    (ht : ∀ i, ((m ((c.tc : Thread nD τ).loc main_arg1)) i).toNat < 8142) :
    Cert.ReferenceIdeal.ValueP.res_main_v14 (F := Ideal) m c
      = fun _ => refVal (m ((c.tc : Thread nD τ).loc main_arg0)) (m ((c.tc : Thread nD τ).loc main_arg1))
          (m ((c.tc : Thread nD τ).loc main_arg2)) := by
  rw [val_main_v14_eq]
  exact val_main_v14_eq_refVal _ _ _ ht

end Cert.ReferenceIdeal.RefValue

end
-- ==== Proof.KIKit.lean ====
/-
  The launch side of the idealized kernel's frame: @main as the label reshape, the one region, and the
  reshape of the [1,1] result; the contents the region finds; the label table read off the launch memory;
  the windows' blocks; the kernel's own two DMA cells and the weight matrix it copies rows of; and the
  region invariant conjunct by conjunct.
-/
import proofs.«407913_j32418413150371_1_alg».proof.Proof.Gen.KernelIdeal.Launch
import proofs.«407913_j32418413150371_1_alg».proof.Proof.Gen.KernelIdeal.Skeleton
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The buffers' contents when the region is entered: the launch memory after the reshape of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last reshape, at the contents after the first. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape before the region writes only the label column: the three arguments are as launched, -/
theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_arg2 (c : Dev nD) : V m c main_arg2 = m ((c : Thread nD τ).loc main_arg2) := by
  show StableHlo.after hostOps0 (fun b => m (c, b)) (Proc.devRef .tc main_arg2) = _; after_results
/-- and the label column is the labels reshaped [4096] → [4096, 1]. -/
theorem V_main_v0 (c : Dev nD) : (V m c main_v0 : S4096x1.Idx → Elt F .i32)
    = shapeCast S4096x1 (m ((c : Thread nD τ).loc main_arg1) : S4096.Idx → Elt F .i32) shapeCasts_S4096_S4096x1 := by
  show StableHlo.after hostOps0 (fun b => m (c, b)) (Proc.devRef .tc main_v0) = _; after_results; rfl

/-! ## The label table, read off the launch memory -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's contents as admissible contents (no index map reads the table: nothing is asked of them), and the pipeline at them. -/
abbrev adm : (pcfg0 (F := F)).Adm := ⟨tbl m, trivial⟩
abbrev cfgM : Pipeline.Cfg sig Λ₀ := cfg0 (adm m)

/-- The table as the body is handed it: its whole buffer as a memref. -/
abbrev tbM0_0 : Memref sig .tc .smem S4096 .i32 := Memref.whole main_arg1
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's operands -/

/-- Each window's current staging memref at point `t`, spelled as the pipeline passes it, and its wholeness. -/
abbrev ms0_0 (t : Fin (cfgM m).N) : Memref sig .tc .vmem S128x8142 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S128x1 .i32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1 .f32 := spec0_2.stage ((cfgM m).slots t 2)
abbrev hs0_2 (t : Fin (cfgM m).N) : (ms0_2 m t).IsWhole := hstage0_2 (((cfgM m).slots t 2).cast nbuf0_2)
/-- The scratch operands: the gathered weight rows [128, 8142] and the running sum [1, 1]. -/
abbrev scM0_0 : Memref sig .tc .vmem S128x8142 .f32 := Memref.whole cc0_scratch0
abbrev scM0_2 : Memref sig .tc .vmem S1x1 .f32 := Memref.whole cc0_scratch2
/-- The weight matrix, left in HBM, whole. -/
abbrev hbM0_0 : Memref sig .tc .hbm S8142x8142 .f32 := Memref.whole main_arg2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own two DMA cells. -/
abbrev osem0 : Fin 2 → SemLoc sig := fun j => (![SemLoc.dma 5, SemLoc.dma 6] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0) := by
  rw [Pipeline.ownSems0_eq_of_list c osem0 [0, 1] (by decide) (by decide)]; rfl
/-- The operand the body copies rows of, as a reference: unscoped, no window's array, no table. -/
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The launch's invariant conjunct by conjunct: the two scratch buffers at some contents, the generator register,
    the two cells at zero, the weight matrix at its launch contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_2 fullShare d)) ∗ (∃ r, prngReg c r)
          ∗ iprop(semVal ((c : Thread nD τ), SemLoc.dma 5) 0 ∗ semVal ((c : Thread nD τ), SemLoc.dma 6) 0) ∗ iprop(hbPt0 c hbM0_0 (V m c main_arg2))) := by
  rw [Pipeline.ΦD_eq, scopedRest0_eq, ownSems00_eq, hbmPts0_eq]; simp only [scM0_0, scM0_2, owns_whole]; try rfl

/-- The kernel body at point `t`, on what the pipeline calls it with. -/
abbrev bodyAt0 (t : Fin (cfgM m).N) : Prog (TpuEff nD τ sig (Elt F) Λ₀ .tc) PUnit :=
  cc0__kernel (grid0.coords t) (Memref.whole main_arg1) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole main_arg2) (Memref.isWhole_whole _) (spec0_2.stage ((cfgM m).slots t 2)) (hstage0_2 (((cfgM m).slots t 2).cast nbuf0_2)) (Memref.whole cc0_scratch0) (Memref.isWhole_whole _) cc0_scratch1 (Memref.whole cc0_scratch2) (Memref.isWhole_whole _)

end Cert.KernelIdeal.Fr

end
-- ==== Proof.KIRuns.lean ====
/-
  What the three cases of the kernel body's run share: the two branch conditions (the first grid step
  resets the running sum, the last writes the mean out), and the fact about the label table under which
  every row copy stays inside the weight matrix.
-/
import proofs.«407913_j32418413150371_1_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first branch's condition: the grid step is step 0. -/
abbrev cond1 (i : grid0.Coords) : Prop :=
  Scalar.cmpi .ne (Scalar.extui (Scalar.cmpi .eq (BitVec.ofNat 32 (i 0).val) 0#32)) 0#32 = 1#1
/-- The second's: it is step 31. -/
abbrev cond2 (i : grid0.Coords) : Prop := k0_cond2 i = 1#1

/-- Every word of the label table names a row of the weight matrix. -/
def TblOk (c : Dev nD) (xt : TbBuf0 (F := F) c tbM0_0) : Prop :=
  ∀ (r : LoadRect S4096) (x : r.shape.Idx), ((tbM0_0.view.readAt (Elt F) r xt x : Elt F .i32) : BitVec 32).toNat < 8142

/-- The weight matrix held at the read share of the body's cell number `k`: the two row copies in flight at once,
    one on each cell, read it under two disjoint shares (they may read the same row). -/
abbrev hbTok (c : Dev nD) (k : ℕ) (f : HbBuf0 (F := F) c hbM0_0) : sProp 𝕄 :=
  hbM0_0.view.loc (c : Thread nD τ) ↦{Transfers.shareTokN fullShare k} f

/-- A row copy whose row number is below 8142 lies inside the [8142, 8142] matrix. -/
theorem chk_of (v : BitVec 32) (h : v.toNat < 8142) :
    ∀ a : Fin 2, (![v.toNat, 0] : Fin 2 → Nat) a + S1x8142.size a ≤ S8142x8142.size a := by
  intro a
  match a with
  | ⟨0, _⟩ => show v.toNat + 1 ≤ 8142; omega
  | ⟨1, _⟩ => show 0 + 8142 ≤ 8142; omega

variable (m : (ℓ : Loc nD τ sig) → Buf (Elt F) ℓ)

/-- The first condition holds at step 0 only, the second at step 31 only: decided over the 32 steps. -/
theorem hcond1 : ∀ t : Fin (cfgM m).N, cond1 (grid0.coords t) ↔ t.val = 0 :=
  (by decide +kernel : ∀ t : Fin grid0.N, cond1 (grid0.coords t) ↔ t.val = 0)
theorem hcond2 : ∀ t : Fin (cfgM m).N, cond2 (grid0.coords t) ↔ t.val = 31 :=
  (by decide +kernel : ∀ t : Fin grid0.N, cond2 (grid0.coords t) ↔ t.val = 31)

/-- The two input windows are never idle; the output window is idle, and not written back, at every step but
    the last, where the body stores into it. -/
theorem liveAt0_0 : ∀ t : Fin (cfgM m).N, (cfgM m).idle 0 (grid0.coords t) = false := fun _ => rfl
theorem liveAt0_1 : ∀ t : Fin (cfgM m).N, (cfgM m).idle 1 (grid0.coords t) = false := fun _ => rfl
theorem idleAt0_2 : ∀ t : Fin (cfgM m).N, ¬cond2 (grid0.coords t) → (cfgM m).idle 2 (grid0.coords t) = true :=
  (by decide +kernel : ∀ t : Fin grid0.N, ¬cond2 (grid0.coords t) → idle0 2 (grid0.coords t) = true)
theorem liveAt0_2 : ∀ t : Fin (cfgM m).N, cond2 (grid0.coords t) → (cfgM m).idle 2 (grid0.coords t) = false :=
  (by decide +kernel : ∀ t : Fin grid0.N, cond2 (grid0.coords t) → idle0 2 (grid0.coords t) = false)
theorem noFlush0_2 : ∀ t : Fin (cfgM m).N, ¬cond2 (grid0.coords t) → ((cfgM m).win 2).flush t = false :=
  (by decide +kernel : ∀ t : Fin grid0.N, ¬cond2 (grid0.coords t) → Pipeline.Window.flushOf grid0 true cc0_transform_3 t = false)
theorem flush0_2 : ∀ t : Fin (cfgM m).N, ((cfgM m).win 2).flush t = true ↔ t.val = 31 :=
  (by decide +kernel : ∀ t : Fin grid0.N, Pipeline.Window.flushOf grid0 true cc0_transform_3 t = true ↔ t.val = 31)

end Cert.KernelIdeal.Fr

end
-- ==== Proof.KIRunA.lean ====
/-
  The kernel body run once at the first grid step: the running sum is reset to zero, the 128 rows of the
  weight matrix the step's labels name are copied in two at a time on the body's two cells, and the sum is
  stored back with this step's 128 row terms added to the zero; the output window is left as found.
-/
import proofs.«407913_j32418413150371_1_alg».proof.Proof.KIRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The pieces the run leaves in the running-sum scratch, with the proof that the body runs to its end from
    whole staging buffers, the table's half, the weight matrix at the two cells' read shares and the two cells at
    zero, handing all of them back (the gathered-rows scratch at some contents, the cells at zero again). -/
noncomputable def kernelRun0_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i)
    (x0 : Vec F S128x8142 .f32) (x1 : Vec F S128x1 .i32) (xs0 : Vec F S128x8142 .f32) (xt0 : TbBuf0 (F := F) c tbM0_0) (fh0 : HbBuf0 (F := F) c hbM0_0) (hT : TblOk c xt0) :
    { LS2 : List (View.Piece (Elt F) S1x1 .f32) //
      ∀ (xi2 : Vec F S1x1 .f32) (W : Waits sig Unit) (K : PUnit → sProp 𝕄),
        iprop(owns (c : Thread nD τ) arg2 fullShare x0 ∗ owns (c : Thread nD τ) arg3 fullShare x1 ∗ owns (c : Thread nD τ) arg5 fullShare xi2
            ∗ owns (c : Thread nD τ) scM0_0 fullShare xs0 ∗ (∃ d, owns (c : Thread nD τ) scM0_2 fullShare d)
            ∗ semVal ((c : Thread nD τ), SemLoc.dma 5) 0 ∗ semVal ((c : Thread nD τ), SemLoc.dma 6) 0
            ∗ hbTok c 5 fh0 ∗ hbTok c 6 fh0 ∗ tbPt0 c tbM0_0 xt0 ∗ owes (c : Thread nD τ) 0 W
            ∗ (iprop(owns (c : Thread nD τ) arg2 fullShare x0 ∗ owns (c : Thread nD τ) arg3 fullShare x1 ∗ owns (c : Thread nD τ) arg5 fullShare xi2
                ∗ (∃ d, owns (c : Thread nD τ) scM0_0 fullShare d)
                ∗ (∃ f, scM0_2.view.loc (c : Thread nD τ) ↦[scM0_2.view.set]{fullShare} scM0_2.view.writes (Elt F) f LS2)
                ∗ semVal ((c : Thread nD τ), SemLoc.dma 5) 0 ∗ semVal ((c : Thread nD τ), SemLoc.dma 6) 0
                ∗ hbTok c 5 fh0 ∗ hbTok c 6 fh0 ∗ tbPt0 c tbM0_0 xt0 ∗ (∃ W', owes (c : Thread nD τ) 0 W')) -∗ K ⟨⟩))
          ⊢ wp frame (wpE (defs₀ (F := F)) Variants.none c none) Set.univ
              (cc0__kernel i tbM0_0 htbM0_0 arg2 harg2 arg3 harg3 hbM0_0 (Memref.isWhole_whole _) arg5 harg5 scM0_0 (Memref.isWhole_whole _) cc0_scratch1 scM0_2 (Memref.isWhole_whole _)) K } := by
  refine ⟨?_, fun xi2 W K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%fs0, %hfs0, HS0⟩, ⟨%ds2, %fs2, -, HS2⟩, Hq0, Hq1, Hh0, Hh1, HT0, HW, Hk⟩
    obtain rfl := (Memref.isWhole_whole cc0_scratch0).eq_unread hfs0
    obtain rfl := harg2.eq_unread hf0; obtain rfl := harg3.eq_unread hf1; obtain rfl := harg5.eq_unread hf2
    sl_exec_parts! (disch := first | exact hc1 | exact hc2 | sl_exact hc1 | sl_exact hc2 | exact chk_of _ (hT _ _) | sl_exact (chk_of _ (hT _ _)))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [HS0]
    · iexists _, _; isplitr; swap; · iexact HS0
      ipureintro; rfl
    isplitl [HS2]; · iexists _; iexact HS2
    isplitl [Hq0]; · iexact Hq0
    isplitl [Hq1]; · iexact Hq1
    isplitl [Hh0]; · iexact Hh0
    isplitl [Hh1]; · iexact Hh1
    isplitl [HT0]; · iexact HT0
    iexists _; iexact HW

end Cert.KernelIdeal.Fr

end
-- ==== Proof.KIRunB.lean ====
/-
  The kernel body run once at a symbolic grid step that is neither the first nor the last: the 128 row
  copies of the weight matrix are started and waited for two at a time on the body's two cells, the
  logits' block and the gathered rows are loaded, and the running sum is read and stored back with this
  step's 128 row terms added; the output window is left as found.
-/
import proofs.«407913_j32418413150371_1_alg».proof.Proof.KIRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The pieces the run leaves in the running-sum scratch, with the proof that the body runs to its end from
    whole staging buffers, the table's half, the weight matrix at the two cells' read shares and the two cells at
    zero, handing all of them back (the gathered-rows scratch at some contents, the cells at zero again). -/
noncomputable def kernelRun0_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i)
    (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    { LS2 : List (View.Piece (Elt F) S1x1 .f32) //
      ∀ (xi2 : Vec F S1x1 .f32) (W : Waits sig Unit) (K : PUnit → sProp 𝕄),
        iprop(owns (c : Thread nD τ) arg2 fullShare x0 ∗ owns (c : Thread nD τ) arg3 fullShare x1 ∗ owns (c : Thread nD τ) arg5 fullShare xi2
            ∗ owns (c : Thread nD τ) scM0_0 fullShare xs0 ∗ owns (c : Thread nD τ) scM0_2 fullShare xs2
            ∗ semVal ((c : Thread nD τ), SemLoc.dma 5) 0 ∗ semVal ((c : Thread nD τ), SemLoc.dma 6) 0
            ∗ hbTok c 5 fh0 ∗ hbTok c 6 fh0 ∗ tbPt0 c tbM0_0 xt0 ∗ owes (c : Thread nD τ) 0 W
            ∗ (iprop(owns (c : Thread nD τ) arg2 fullShare x0 ∗ owns (c : Thread nD τ) arg3 fullShare x1 ∗ owns (c : Thread nD τ) arg5 fullShare xi2
                ∗ (∃ d, owns (c : Thread nD τ) scM0_0 fullShare d)
                ∗ (∃ f, scM0_2.view.loc (c : Thread nD τ) ↦[scM0_2.view.set]{fullShare} scM0_2.view.writes (Elt F) f LS2)
                ∗ semVal ((c : Thread nD τ), SemLoc.dma 5) 0 ∗ semVal ((c : Thread nD τ), SemLoc.dma 6) 0
                ∗ hbTok c 5 fh0 ∗ hbTok c 6 fh0 ∗ tbPt0 c tbM0_0 xt0 ∗ (∃ W', owes (c : Thread nD τ) 0 W')) -∗ K ⟨⟩))
          ⊢ wp frame (wpE (defs₀ (F := F)) Variants.none c none) Set.univ
              (cc0__kernel i tbM0_0 htbM0_0 arg2 harg2 arg3 harg3 hbM0_0 (Memref.isWhole_whole _) arg5 harg5 scM0_0 (Memref.isWhole_whole _) cc0_scratch1 scM0_2 (Memref.isWhole_whole _)) K } := by
  refine ⟨?_, fun xi2 W K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%fs0, %hfs0, HS0⟩, ⟨%fs2, %hfs2, HS2⟩, Hq0, Hq1, Hh0, Hh1, HT0, HW, Hk⟩
    obtain rfl := (Memref.isWhole_whole cc0_scratch0).eq_unread hfs0
    obtain rfl := harg2.eq_unread hf0; obtain rfl := harg3.eq_unread hf1; obtain rfl := harg5.eq_unread hf2
    obtain rfl := (Memref.isWhole_whole cc0_scratch2).eq_unread hfs2
    sl_exec_parts! (disch := first | exact hc1 | exact hc2 | sl_exact hc1 | sl_exact hc2 | exact chk_of _ (hT _ _) | sl_exact (chk_of _ (hT _ _)))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [HS0]
    · iexists _, _; isplitr; swap; · iexact HS0
      ipureintro; rfl
    isplitl [HS2]; · iexists _; iexact HS2
    isplitl [Hq0]; · iexact Hq0
    isplitl [Hq1]; · iexact Hq1
    isplitl [Hh0]; · iexact Hh0
    isplitl [Hh1]; · iexact Hh1
    isplitl [HT0]; · iexact HT0
    iexists _; iexact HW

end Cert.KernelIdeal.Fr

end
-- ==== Proof.KIRunC.lean ====
/-
  The kernel body run once at the last grid step: the 128 row copies, the running sum read and stored back
  with this step's row terms added, and then the sum times 2⁻¹² stored into the output window.
-/
import proofs.«407913_j32418413150371_1_alg».proof.Proof.KIRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The pieces the run leaves in the running-sum scratch and in the output window, with the proof that the body runs to its end from
    whole staging buffers, the table's half, the weight matrix at the two cells' read shares and the two cells at
    zero, handing all of them back (the gathered-rows scratch at some contents, the cells at zero again). -/
noncomputable def kernelRun0_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i)
    (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    Σ' (L5 : List (View.Piece (Elt F) S1x1 .f32)), { LS2 : List (View.Piece (Elt F) S1x1 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d)
            ∗ owns (c : Thread nD τ) scM0_0 fullShare xs0 ∗ owns (c : Thread nD τ) scM0_2 fullShare xs2
            ∗ semVal ((c : Thread nD τ), SemLoc.dma 5) 0 ∗ semVal ((c : Thread nD τ), SemLoc.dma 6) 0
            ∗ hbTok c 5 fh0 ∗ hbTok c 6 fh0 ∗ tbPt0 c tbM0_0 xt0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L5)
                ∗ (∃ d, owns (c : Thread nD τ) scM0_0 fullShare d)
                ∗ (∃ f, scM0_2.view.loc (c : Thread nD τ) ↦[scM0_2.view.set]{fullShare} scM0_2.view.writes (Elt F) f LS2)
                ∗ semVal ((c : Thread nD τ), SemLoc.dma 5) 0 ∗ semVal ((c : Thread nD τ), SemLoc.dma 6) 0
                ∗ hbTok c 5 fh0 ∗ hbTok c 6 fh0 ∗ tbPt0 c tbM0_0 xt0 ∗ (∃ W', owes (c : Thread nD τ) 0 W')) -∗ K ⟨⟩))
          ⊢ wp frame (wpE (defs₀ (F := F)) Variants.none c none) Set.univ
              (cc0__kernel i tbM0_0 htbM0_0 arg2 harg2 arg3 harg3 hbM0_0 (Memref.isWhole_whole _) arg5 harg5 scM0_0 (Memref.isWhole_whole _) cc0_scratch1 scM0_2 (Memref.isWhole_whole _)) K } := by
  refine ⟨?_, ?_, fun W K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%fs0, %hfs0, HS0⟩, ⟨%fs2, %hfs2, HS2⟩, Hq0, Hq1, Hh0, Hh1, HT0, HW, Hk⟩
    obtain rfl := (Memref.isWhole_whole cc0_scratch0).eq_unread hfs0
    obtain rfl := harg2.eq_unread hf0; obtain rfl := harg3.eq_unread hf1
    obtain rfl := (Memref.isWhole_whole cc0_scratch2).eq_unread hfs2
    sl_exec_parts! (disch := first | exact hc1 | exact hc2 | sl_exact hc1 | sl_exact hc2 | exact chk_of _ (hT _ _) | sl_exact (chk_of _ (hT _ _)))
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _, _; isplitr; swap; · iexact HS0
      ipureintro; rfl
    isplitl [HS2]; · iexists _; iexact HS2
    isplitl [Hq0]; · iexact Hq0
    isplitl [Hq1]; · iexact Hq1
    isplitl [Hh0]; · iexact Hh0
    isplitl [Hh1]; · iexact Hh1
    isplitl [HT0]; · iexact HT0
    iexists _; iexact HW

end Cert.KernelIdeal.Fr

end
-- ==== Proof.KIBlocks.lean ====
/-
  The two input windows' blocks, read at explicit coordinates.

  The grid has 32 steps. At step t the first window holds rows 128·t … 128·t + 127 of the logits x : [4096, 8142]
  (all 8142 columns), and the second holds the same rows of the label column [4096, 1], which is the label vector
  [4096] reshaped: entry (r, 0) of a block is label 128·t + r. A block's coordinate on an axis is always the block
  index times the block's extent plus the coordinate inside the block; the index maps are (t, 0) for both windows.
-/
import proofs.«407913_j32418413150371_1_alg».proof.Proof.KIKit
import Idealize.ShloMosaic.Lib.ValueIdx
import Idealize.ShloMosaic.Lib.Pipeline.Value
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- The grid has 32 steps. -/
theorem N_eq : (cfgM m).N = 32 := N_0

/-- Row r of step t's block is a row of the array. -/
theorem row_lt (t : Fin (cfgM m).N) (r : Fin 128) : 128 * t.val + r.val < 4096 := by
  have ht : t.val < 32 := lt_of_lt_of_eq t.isLt (N_eq m)
  have hr := r.isLt
  omega

/-- Step t's block of the logits, and of the label column. -/
abbrev xblk (c : Dev nD) (t : Fin (cfgM m).N) : Vec F S128x8142 .f32 := iblk m c 0 t
abbrev tblk (c : Dev nD) (t : Fin (cfgM m).N) : Vec F S128x1 .i32 := iblk m c 1 t

/-- The two windows' index maps over the grid: block (t, 0) at step t. -/
theorem idx_facts : ∀ t : Fin grid0.N, cc0_transform_0 (grid0.coords t) 0 = t.val ∧ cc0_transform_0 (grid0.coords t) 1 = 0
    ∧ cc0_transform_1 (grid0.coords t) 0 = t.val ∧ cc0_transform_1 (grid0.coords t) 1 = 0 := by
  decide +kernel

/-- Entry (r, j) of step t's block of the logits is x at row 128·t + r, column j. -/
theorem xblk_apply (c : Dev nD) (t : Fin (cfgM m).N) (r : Fin 128) (j : Fin 8142) :
    xblk m c t (ix2 r j) = (m ((c : Thread nD τ).loc main_arg0) : S4096x8142.Idx → Elt F .f32) (ix2 ⟨128 * t.val + r.val, row_lt m t r⟩ j) := by
  obtain ⟨e0, e1, -, -⟩ := idx_facts t
  have key : ((((cfgM m).win 0).blk t).view.emb (ix2 r j) : S4096x8142.Idx) = ix2 ⟨128 * t.val + r.val, row_lt m t r⟩ j := by
    funext a
    apply Fin.ext
    match a with
    | ⟨0, _⟩ => show cc0_transform_0 (grid0.coords t) 0 * 128 + 1 * r.val = 128 * t.val + r.val; rw [e0]; omega
    | ⟨1, _⟩ => show cc0_transform_0 (grid0.coords t) 1 * 8142 + 1 * j.val = j.val; rw [e1]; omega
  show V m c main_arg0 ((((cfgM m).win 0).blk t).view.emb (ix2 r j)) = _
  exact (congrFun (V_main_arg0 m c) _).trans (congrArg (m ((c : Thread nD τ).loc main_arg0) : S4096x8142.Idx → Elt F .f32) key)

/-- The label column is the label vector: entry (q, 0) of the reshape [4096] → [4096, 1] is entry q. -/
theorem col_apply {α : Type} (x : S4096.Idx → α) (q : Fin 4096) :
    shapeCast S4096x1 x shapeCasts_S4096_S4096x1 (ix2 q (0 : Fin 1)) = x (ix1 q) :=
  shapeCast_apply x shapeCasts_S4096_S4096x1 _ _ (by
    rw [Shape.rowMajor_val_two, Shape.rowMajor_val_one]
    show q.val = q.val * 1 + 0
    omega)

/-- Entry (r, 0) of step t's block of the label column is label 128·t + r. -/
theorem tblk_apply (c : Dev nD) (t : Fin (cfgM m).N) (r : Fin 128) :
    tblk m c t (ix2 r (0 : Fin 1)) = (m ((c : Thread nD τ).loc main_arg1) : S4096.Idx → Elt F .i32) (ix1 ⟨128 * t.val + r.val, row_lt m t r⟩) := by
  obtain ⟨-, -, e0, e1⟩ := idx_facts t
  have key : ((((cfgM m).win 1).blk t).view.emb (ix2 r (0 : Fin 1)) : S4096x1.Idx) = ix2 ⟨128 * t.val + r.val, row_lt m t r⟩ (0 : Fin 1) := by
    funext a
    apply Fin.ext
    match a with
    | ⟨0, _⟩ => show cc0_transform_1 (grid0.coords t) 0 * 128 + 1 * r.val = 128 * t.val + r.val; rw [e0]; omega
    | ⟨1, _⟩ => show cc0_transform_1 (grid0.coords t) 1 * 1 + 1 * 0 = 0; rw [e1]
  show V m c main_v0 ((((cfgM m).win 1).blk t).view.emb (ix2 r (0 : Fin 1))) = _
  exact ((congrFun (V_main_v0 m c) _).trans
    (congrArg (shapeCast S4096x1 (m ((c : Thread nD τ).loc main_arg1) : S4096.Idx → Elt F .i32) shapeCasts_S4096_S4096x1) key)).trans
    (col_apply _ _)

end Cert.KernelIdeal.Fr

end
-- ==== Proof.KIPieces.lean ====
/-
  What each case of the body's run leaves, as values: the running-sum scratch after a step holds the step's
  store — the 128 row terms of the logits block and the gathered weight rows added to what the scratch held
  (zero at the first step) — and the output window after the last step holds that sum times 2⁻¹². The
  gathered rows are the rows of the weight matrix that the label table's words for this step name, whatever
  the scratch they were copied into held before.
-/
import proofs.«407913_j32418413150371_1_alg».proof.Proof.KIRunA
import proofs.«407913_j32418413150371_1_alg».proof.Proof.KIRunB
import proofs.«407913_j32418413150371_1_alg».proof.Proof.KIRunC
import proofs.«407913_j32418413150371_1_alg».proof.Proof.KIBlocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- The running-sum scratch and one staging buffer of the output window, as views contents are stated through. -/
abbrev VS2 : View sig .tc .vmem S1x1 .f32 := scM0_2.view
abbrev VO2 : View sig .tc .vmem S1x1 .f32 := (Memref.whole cc0_stg2_0 : Memref sig .tc .vmem S1x1 .f32).view

/-! ## What each case's run leaves, as pieces read back -/

theorem scover_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0) (y : S1x1.Idx) :
    ∃ pc ∈ (kernelRun0_A c i arg2 harg2 arg3 harg3 arg5 harg5 hc1 hc2 x0 x1 xs0 xt0 fh0 hT).1, y ∈ pc.1.set :=
  View.cover_of_tiledL (kernelRun0_A c i arg2 harg2 arg3 harg3 arg5 harg5 hc1 hc2 x0 x1 xs0 xt0 fh0 hT).1 S1x1.size (by sl_kernel_rfl) y
/-- What case A leaves in the running-sum scratch: its pieces read back over junk. -/
def sout_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0) : Vec F S1x1 .f32 :=
  VS2.read (Elt F) (VS2.writes (Elt F) VS2.junk (kernelRun0_A c i arg2 harg2 arg3 harg3 arg5 harg5 hc1 hc2 x0 x1 xs0 xt0 fh0 hT).1)

theorem scover_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) (y : S1x1.Idx) :
    ∃ pc ∈ (kernelRun0_B c i arg2 harg2 arg3 harg3 arg5 harg5 hc1 hc2 x0 x1 xs0 xs2 xt0 fh0 hT).1, y ∈ pc.1.set :=
  View.cover_of_tiledL (kernelRun0_B c i arg2 harg2 arg3 harg3 arg5 harg5 hc1 hc2 x0 x1 xs0 xs2 xt0 fh0 hT).1 S1x1.size (by sl_kernel_rfl) y
/-- What case B leaves in the running-sum scratch: its pieces read back over junk. -/
def sout_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) : Vec F S1x1 .f32 :=
  VS2.read (Elt F) (VS2.writes (Elt F) VS2.junk (kernelRun0_B c i arg2 harg2 arg3 harg3 arg5 harg5 hc1 hc2 x0 x1 xs0 xs2 xt0 fh0 hT).1)

theorem scover_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) (y : S1x1.Idx) :
    ∃ pc ∈ (kernelRun0_C c i arg2 harg2 arg3 harg3 arg5 harg5 hc1 hc2 x0 x1 xs0 xs2 xt0 fh0 hT).2.1, y ∈ pc.1.set :=
  View.cover_of_tiledL (kernelRun0_C c i arg2 harg2 arg3 harg3 arg5 harg5 hc1 hc2 x0 x1 xs0 xs2 xt0 fh0 hT).2.1 S1x1.size (by sl_kernel_rfl) y
/-- What case C leaves in the running-sum scratch: its pieces read back over junk. -/
def sout_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) : Vec F S1x1 .f32 :=
  VS2.read (Elt F) (VS2.writes (Elt F) VS2.junk (kernelRun0_C c i arg2 harg2 arg3 harg3 arg5 harg5 hc1 hc2 x0 x1 xs0 xs2 xt0 fh0 hT).2.1)

theorem cover_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) (y : S1x1.Idx) :
    ∃ pc ∈ (kernelRun0_C c i arg2 harg2 arg3 harg3 arg5 harg5 hc1 hc2 x0 x1 xs0 xs2 xt0 fh0 hT).1, y ∈ pc.1.set :=
  View.cover_of_tiledL (kernelRun0_C c i arg2 harg2 arg3 harg3 arg5 harg5 hc1 hc2 x0 x1 xs0 xs2 xt0 fh0 hT).1 S1x1.size (by sl_kernel_rfl) y
/-- What the last step leaves in the output window's staging buffer. -/
def out_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) : Vec F S1x1 .f32 :=
  VO2.read (Elt F) (VO2.writes (Elt F) VO2.junk (kernelRun0_C c i arg2 harg2 arg3 harg3 arg5 harg5 hc1 hc2 x0 x1 xs0 xs2 xt0 fh0 hT).1)

/-! ## The same as values -/

/-- The row of the weight matrix that the table's word for row `r` of step `i` names (a word that names none is
    sent to the last row, so the function is total; under the frame's hypothesis no word is such). -/
def rowOf (c : Dev nD) (xt0 : TbBuf0 (F := F) c tbM0_0) (i : grid0.Coords) (r : ℕ) : Fin 8142 :=
  ⟨min (((xt0 : S4096.Idx → Elt F .i32) (ix1 ⟨(128 * (i 0).val + r) % 4096, Nat.mod_lt _ (by decide)⟩) : BitVec 32)).toNat 8141, by omega⟩
/-- The gathered rows: row `r` of the [128, 8142] scratch holds the weight row its label names. -/
def wbOf (c : Dev nD) (i : grid0.Coords) (xt0 : TbBuf0 (F := F) c tbM0_0) (fh0 : HbBuf0 (F := F) c hbM0_0) : Vec F S128x8142 .f32 :=
  fun y => (fh0 : S8142x8142.Idx → Elt F .f32) (ix2 (rowOf c xt0 i (y 0).val) ⟨(y 1).val, idx2_lt1 y⟩)
/-- One step's store into the running sum. -/
def stepOf (wb x0 : Vec F S128x8142 .f32) (x1 : Vec F S128x1 .i32) (acc : Vec F S1x1 .f32) : Vec F S1x1 .f32 :=
  k0_pay2 (k0_pay4 wb x0) (k0_pay5 wb x0) (k0_pay6 wb x0) x1 acc

/-! ## The pieces read back, over the loaded scratch by its name in the run -/

/-- The zero offsets of a rank-2 rectangle, as the constant function. -/
theorem hz2 : (![0, 0] : Fin 2 → Nat) = fun _ => 0 := by
  funext a; match a with | ⟨0, _⟩ => rfl | ⟨1, _⟩ => rfl

/-- Case A with the loaded scratch named: the reset stores zero, the step's store over it is read back. -/
theorem piece_A' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0)
    (hL : kernelRun0_A.sl.v1920 c i xs0 xt0 fh0 hT = wbOf c i xt0 fh0) :
    sout_A c i arg2 harg2 arg3 harg3 arg5 harg5 hc1 hc2 x0 x1 xs0 xt0 fh0 hT = stepOf (wbOf c i xt0 fh0) x0 x1 (k0_pay1 (F := F)) := by
  unfold sout_A
  rw [View.read_writes_eq_canon _ _ _ (scover_A c i arg2 harg2 arg3 harg3 arg5 harg5 hc1 hc2 x0 x1 xs0 xt0 fh0 hT)]
  unfold kernelRun0_A
  dsimp only
  unfold kernelRun0_A.sl.HS2_2 kernelRun0_A.sl.r_128 kernelRun0_A.sl.r_129 kernelRun0_A.sl.r_130
    kernelRun0_A.sl.v1948 kernelRun0_A.sl.HS2_1
  rw [View.canon_cons_unit_zero (S := S1x1) hz2, View.readCov_unit_zero (S := S1x1) _ hz2, hL]
  simp only [View.readAt_eq_ld, harg2.read_unread, harg3.read_unread,
    View.ld_unit_zero (S := S128x8142) hz2, View.ld_unit_zero (S := S128x1) hz2]
  rfl

/-- Case B with the loaded scratch named: the one store is read back. -/
theorem piece_B' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0)
    (hL : kernelRun0_B.sl.v1920 c i xs0 xt0 fh0 hT = wbOf c i xt0 fh0) :
    sout_B c i arg2 harg2 arg3 harg3 arg5 harg5 hc1 hc2 x0 x1 xs0 xs2 xt0 fh0 hT = stepOf (wbOf c i xt0 fh0) x0 x1 xs2 := by
  unfold sout_B
  rw [View.read_writes_eq_canon _ _ _ (scover_B c i arg2 harg2 arg3 harg3 arg5 harg5 hc1 hc2 x0 x1 xs0 xs2 xt0 fh0 hT)]
  unfold kernelRun0_B
  dsimp only
  unfold kernelRun0_B.sl.HS2_1 kernelRun0_B.sl.r_128 kernelRun0_B.sl.r_129 kernelRun0_B.sl.r_130
  rw [View.canon_unit_zero hz2, hL]
  simp only [View.readAt_eq_ld, harg2.read_unread, harg3.read_unread, (Memref.isWhole_whole _).read_unread,
    View.ld_unit_zero (S := S128x8142) hz2, View.ld_unit_zero (S := S128x1) hz2, View.ld_unit_zero (S := S1x1) hz2]
  rfl

/-- Case C's running sum with the loaded scratch named: as case B. -/
theorem piece_C' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0)
    (hL : kernelRun0_C.sl.v1920 c i xs0 xt0 fh0 hT = wbOf c i xt0 fh0) :
    sout_C c i arg2 harg2 arg3 harg3 arg5 harg5 hc1 hc2 x0 x1 xs0 xs2 xt0 fh0 hT = stepOf (wbOf c i xt0 fh0) x0 x1 xs2 := by
  unfold sout_C
  rw [View.read_writes_eq_canon _ _ _ (scover_C c i arg2 harg2 arg3 harg3 arg5 harg5 hc1 hc2 x0 x1 xs0 xs2 xt0 fh0 hT)]
  unfold kernelRun0_C
  dsimp only
  unfold kernelRun0_C.sl.HS2_1 kernelRun0_C.sl.r_128 kernelRun0_C.sl.r_129 kernelRun0_C.sl.r_130
  rw [View.canon_unit_zero hz2, hL]
  simp only [View.readAt_eq_ld, harg2.read_unread, harg3.read_unread, (Memref.isWhole_whole _).read_unread,
    View.ld_unit_zero (S := S128x8142) hz2, View.ld_unit_zero (S := S128x1) hz2, View.ld_unit_zero (S := S1x1) hz2]
  rfl

/-- Case C's output window with the loaded scratch named: the running sum just stored, read back, times 2⁻¹². -/
theorem piece_out_C' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0)
    (hL : kernelRun0_C.sl.v1920 c i xs0 xt0 fh0 hT = wbOf c i xt0 fh0) :
    out_C c i arg2 harg2 arg3 harg3 arg5 harg5 hc1 hc2 x0 x1 xs0 xs2 xt0 fh0 hT = k0_pay3 (stepOf (wbOf c i xt0 fh0) x0 x1 xs2) := by
  unfold out_C
  rw [View.read_writes_eq_canon _ _ _ (cover_C c i arg2 harg2 arg3 harg3 arg5 harg5 hc1 hc2 x0 x1 xs0 xs2 xt0 fh0 hT)]
  unfold kernelRun0_C
  dsimp only
  unfold kernelRun0_C.sl.H2_1 kernelRun0_C.sl.v1956 kernelRun0_C.sl.HS2_1 kernelRun0_C.sl.r_128 kernelRun0_C.sl.r_129
    kernelRun0_C.sl.r_130
  rw [View.canon_unit_zero hz2, View.readCov_unit_zero (S := S1x1) _ hz2, hL]
  simp only [View.readAt_eq_ld, harg2.read_unread, harg3.read_unread, (Memref.isWhole_whole _).read_unread,
    View.ld_unit_zero (S := S128x8142) hz2, View.ld_unit_zero (S := S128x1) hz2, View.ld_unit_zero (S := S1x1) hz2]
  rfl

end Cert.KernelIdeal.Fr

end
-- ==== Proof.KIRowReads.lean ====
/-
  Three reads the row gather rests on.

  A word of the label table loaded at a rectangle of one element is the table's entry at that cell. A row of
  the weight matrix read through a one-row slice with its unit axis dropped is the matrix's row: entry j of
  the slice is entry (w, j) of the matrix. And the cell a grid step's row r names, computed on 32-bit words as
  128 a + r, is that number, the words being far from wrapping.
-/
import proofs.«407913_j32418413150371_1_alg».proof.Proof.KIKit
import Idealize.ShloMosaic.Lib.ValueIdx
import Idealize.ShloMosaic.Shape
import Idealize.ShloMosaic.Signature.View
import Idealize.ShloMosaic.Signature.Memref
import Idealize.ShloMosaic.Signature.Eff
import Idealize.ShloMosaic.PureOps.Float

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx

variable {F : FTy → Type} [FloatOps F]

/-! ### The cell arithmetic on words -/

/-- Row r of grid step a, computed on 32-bit words, is 128 a + r. -/
theorem cell_word_add (a r : ℕ) (ha : a < 32) (hr : r < 128) :
    (Scalar.indexCast (Scalar.addi (Scalar.muli (BitVec.ofNat 32 a) 128#32) (BitVec.ofNat 32 r))).toNat
      = 128 * a + r := by
  simp only [Scalar.indexCast, Scalar.addi, Scalar.muli, IntOp.addi, IntOp.muli, BitVec.toNat_add,
    BitVec.toNat_mul, BitVec.toNat_ofNat]
  omega

/-- The first row of grid step a is 128 a. -/
theorem cell_word_mul (a : ℕ) (ha : a < 32) :
    (Scalar.indexCast (Scalar.muli (BitVec.ofNat 32 a) 128#32)).toNat = 128 * a := by
  simp only [Scalar.indexCast, Scalar.muli, IntOp.muli, BitVec.toNat_mul, BitVec.toNat_ofNat]
  omega

/-! ### A table word -/

/-- The one index of the unit rectangle at cell n sits at cell n. -/
theorem unit_idx_first (n : ℕ) (hn : n < 4096)
    (hin : ∀ a, (![n] : Fin 1 → Nat) a + S1.size a ≤ S4096.size a)
    (h1 : 0 < (Rect.unit (s := S4096) ![n] S1.size hin).shape.numel) :
    (Rect.unit (s := S4096) ![n] S1.size hin).toLoadRect.idx (Shape.Idx.first h1) = ix1 ⟨n, hn⟩ := by
  funext a
  match a with
  | ⟨0, _⟩ => exact Fin.ext (by show n + 1 * 0 = n; omega)

/-- A table word read at the unit rectangle at cell n is the table's entry n. -/
theorem tb_readAt_unit {c : Dev nD} (xt0 : TbBuf0 (F := F) c tbM0_0) (n : ℕ) (hn : n < 4096)
    (hin : ∀ a, (![n] : Fin 1 → Nat) a + S1.size a ≤ S4096.size a)
    (h1 : 0 < (Rect.unit (s := S4096) ![n] S1.size hin).shape.numel) :
    View.readAt (Elt F) tbM0_0.view (Rect.unit (s := S4096) ![n] S1.size hin).toLoadRect xt0 (Shape.Idx.first h1)
      = (xt0 : S4096.Idx → Elt F .i32) (ix1 ⟨n, hn⟩) := by
  rw [View.readAt_apply, unit_idx_first n hn hin h1]
  rfl

/-! ### A row of the weight matrix -/

/-- Entry j of a row matched with the shape [1, 8142] is entry (0, j). -/
theorem reshape_row_idx (h : S8142.numel = S1x8142.numel) (j : Fin 8142) :
    Shape.reshapeEquiv h (ix1 j) = ix2 (⟨0, Nat.one_pos⟩ : Fin 1) j :=
  Shape.reshapeEquiv_eq_of_rowMajor h (by
    rw [Shape.rowMajor_val_two, Shape.rowMajor_val_one]
    show 0 * 8142 + j.val = j.val
    omega)

/-- Entry (0, j) of the one-row rectangle at row w sits at entry (w, j). -/
theorem unit_row_emb (w : ℕ) (hw : w < 8142)
    (hin : ∀ a, (![w, 0] : Fin 2 → Nat) a + S1x8142.size a ≤ S8142x8142.size a) (j : Fin 8142) :
    (Rect.unit (s := S8142x8142) ![w, 0] S1x8142.size hin).emb (ix2 (⟨0, Nat.one_pos⟩ : Fin 1) j)
      = ix2 ⟨w, hw⟩ j := by
  funext a
  match a with
  | ⟨0, _⟩ => exact Fin.ext (by show w + 1 * 0 = w; omega)
  | ⟨1, _⟩ => exact Fin.ext (by show 0 + 1 * j.val = j.val; omega)

/-- Row w of the weight matrix read through its one-row slice with the unit axis dropped: entry j is the
    matrix's entry (w, j). -/
theorem hb_read_row {c : Dev nD} (fh0 : HbBuf0 (F := F) c hbM0_0) (w : ℕ) (hw : w < 8142)
    (hin : ∀ a, (![w, 0] : Fin 2 → Nat) a + S1x8142.size a ≤ S8142x8142.size a)
    (hh : ∀ a, (Rect.unit (s := S8142x8142) ![w, 0] S1x8142.size hin).stride a = 1)
    (hq : S1x8142.Squeezes S8142) (j : Fin 8142) :
    ReadAs.same.apply (View.read (Elt F)
        ((hbM0_0.slice (Rect.unit (s := S8142x8142) ![w, 0] S1x8142.size hin) hh).squeeze S8142 hq).view fh0) (ix1 j)
      = (fh0 : S8142x8142.Idx → Elt F .f32) (ix2 ⟨w, hw⟩ j) := by
  rw [ReadAs.apply_same, View.read_apply]
  show (fh0 : S8142x8142.Idx → Elt F .f32)
      ((Rect.unit (s := S8142x8142) ![w, 0] S1x8142.size hin).emb (Shape.reshapeEquiv hq.numel_eq (ix1 j))) = _
  rw [reshape_row_idx hq.numel_eq j, unit_row_emb w hw hin j]

end Cert.KernelIdeal.Fr

end
-- ==== Proof.KIGather.lean ====
/-
  The gathered weight rows.

  The body copies 128 rows of the weight matrix [8142, 8142] into a scratch [128, 8142], one row at a time: the copy
  into row r takes the row that the label table's word at cell 128·i + r names (i the grid step). Each copy
  overwrites one whole row and no other, so after the 128 copies, whatever the scratch held before, its row r reads
  as what the r-th copy moved; and that is row (word at cell 128·i + r) of the weight matrix: with the step below 32
  and the row below 128 the cell number's 32-bit arithmetic does not wrap, and every word of the table names a row.
  So the scratch, loaded whole, is the function that sends (r, j) to the weight matrix at (row named for r, j).
-/
import proofs.«407913_j32418413150371_1_alg».proof.Proof.KIPieces
import proofs.«407913_j32418413150371_1_alg».proof.Proof.KIRowReads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Rows written one after another into a [128, 8142] array -/

section Rows

variable {sg : RefSig} {κ : Kind} {sp : Space} {Val : EltTy → Type}

/-- Row r of the array, all 8142 columns, lies inside it. -/
theorem rowInb (r : ℕ) (hr : r < 128) : ∀ a, (![r, 0] : Fin 2 → ℕ) a + S1x8142.size a ≤ S128x8142.size a := by
  intro a
  match a with
  | ⟨0, _⟩ => show r + 1 ≤ 128; omega
  | ⟨1, _⟩ => show 0 + 8142 ≤ 8142; omega

/-- Row r of the array as a vector of 8142 entries: the one-row slice with its unit axis dropped. -/
abbrev rowV (M : Memref sg κ sp S128x8142 .f32) (r : ℕ) (hr : r < 128) : View sg κ sp S8142 .f32 :=
  ((M.slice (Rect.unit (s := S128x8142) ![r, 0] S1x8142.size (rowInb r hr)) (fun _ => rfl)).squeeze S8142 squeezes_S1x8142_S8142).view

/-- Entry j of row r's vector sits in the array at (r, j). -/
theorem rowV_emb (M : Memref sg κ sp S128x8142 .f32) (r : ℕ) (hr : r < 128) (j : Fin 8142) :
    (rowV M r hr).emb (ix1 j) = M.view.emb (ix2 ⟨r, hr⟩ j) := by
  have e : (rowV M r hr).emb (ix1 j)
      = M.view.emb ((Rect.unit (s := S128x8142) ![r, 0] S1x8142.size (rowInb r hr)).emb (Shape.reshapeEquiv squeezes_S1x8142_S8142.numel_eq (ix1 j))) := rfl
  rw [e, Shape.reshapeEquiv_cons_one]
  congr 1
  funext a
  apply Fin.ext
  rw [Rect.emb_apply]
  match a with
  | ⟨0, _⟩ => show r + 1 * 0 = r; omega
  | ⟨1, _⟩ => show 0 + 1 * j.val = j.val; omega

/-- A whole-row write read back through the array on that row: the payload. -/
theorem rowV_read_own (M : Memref sg κ sp S128x8142 .f32) (r : ℕ) (hr : r < 128) (f : M.view.ty.Contents Val) (w : S8142.Idx → Val .f32) (j : Fin 8142) :
    M.view.read Val ((rowV M r hr).write Val f w Finset.univ) (ix2 ⟨r, hr⟩ j) = w (ix1 j) := by
  rw [View.read_apply, ← rowV_emb M r hr j, View.write_emb_of_mem _ _ (Finset.mem_univ _), cast_cast, cast_eq]

/-- A write into row r leaves every other row as it was. -/
theorem rowV_read_other (M : Memref sg κ sp S128x8142 .f32) (r : ℕ) (hr : r < 128) (q : ℕ) (hq : q < 128) (hne : q ≠ r) (f : M.view.ty.Contents Val)
    (w : S8142.Idx → Val .f32) (Ms : Finset S8142.Idx) (j : Fin 8142) :
    M.view.read Val ((rowV M r hr).write Val f w Ms) (ix2 ⟨q, hq⟩ j) = M.view.read Val f (ix2 ⟨q, hq⟩ j) := by
  apply View.read_congr_at
  apply View.write_of_not_mem
  intro hm
  obtain ⟨x, _, hx⟩ := Finset.mem_map.mp hm
  rw [eq_ix1 x] at hx
  have hx' : M.view.emb (ix2 ⟨r, hr⟩ (x 0)) = M.view.emb (ix2 ⟨q, hq⟩ j) := (rowV_emb M r hr (x 0)).symm.trans hx
  have h := M.view.emb.injective hx'
  have h0 := congrArg (fun i : S128x8142.Idx => (i 0 : ℕ)) h
  exact hne h0.symm

/-- The array after rows 0 … n − 1 have been written, in that order, over some contents. -/
def rowsTo (M : Memref sg κ sp S128x8142 .f32) (P : (r : ℕ) → r < 128 → S8142.Idx → Val .f32) (base : M.view.ty.Contents Val) :
    (n : ℕ) → n ≤ 128 → M.view.ty.Contents Val
  | 0, _ => base
  | n + 1, h => (rowV M n (Nat.lt_of_succ_le h)).write Val (rowsTo M P base n (Nat.le_of_succ_le h)) (P n (Nat.lt_of_succ_le h)) Finset.univ

/-- Each written row reads as its payload, whatever was there before and whatever was written after. -/
theorem rowsTo_read (M : Memref sg κ sp S128x8142 .f32) (P : (r : ℕ) → r < 128 → S8142.Idx → Val .f32) (base : M.view.ty.Contents Val) :
    ∀ (n : ℕ) (hn : n ≤ 128) (r : ℕ) (hr : r < n) (j : Fin 8142),
      M.view.read Val (rowsTo M P base n hn) (ix2 ⟨r, lt_of_lt_of_le hr hn⟩ j) = P r (lt_of_lt_of_le hr hn) (ix1 j) := by
  intro n
  induction n with
  | zero => intro hn r hr; exact absurd hr (Nat.not_lt_zero r)
  | succ n ih =>
    intro hn r hr j
    show M.view.read Val ((rowV M n (Nat.lt_of_succ_le hn)).write Val (rowsTo M P base n (Nat.le_of_succ_le hn)) (P n (Nat.lt_of_succ_le hn)) Finset.univ) _ = _
    by_cases h : r = n
    · subst h
      exact rowV_read_own M r _ _ _ j
    · rw [rowV_read_other M n _ r _ h]
      exact ih (Nat.le_of_succ_le hn) r (by omega) j

/-- The whole array loaded after all 128 rows have been written: row r is the r-th payload. -/
theorem rowsTo_load (M : Memref sg κ sp S128x8142 .f32) (P : (r : ℕ) → r < 128 → S8142.Idx → Val .f32) (base : M.view.ty.Contents Val)
    (inb : ∀ a, (![0, 0] : Fin 2 → ℕ) a + S128x8142.size a ≤ S128x8142.size a) (r : Fin 128) (j : Fin 8142) :
    M.view.readAt Val (Rect.unit (s := S128x8142) ![0, 0] S128x8142.size inb).toLoadRect (rowsTo M P base 128 le_rfl) (ix2 r j) = P r.val r.isLt (ix1 j) := by
  rw [View.readAt_apply]
  have e : (Rect.unit (s := S128x8142) ![0, 0] S128x8142.size inb).toLoadRect.idx (ix2 r j) = ix2 ⟨r.val, lt_of_lt_of_le r.isLt le_rfl⟩ j := by
    funext a
    apply Fin.ext
    match a with
    | ⟨0, _⟩ => show 0 + 1 * r.val = r.val; omega
    | ⟨1, _⟩ => show 0 + 1 * j.val = j.val; omega
  rw [e]
  exact rowsTo_read M P base 128 le_rfl r.val r.isLt j

end Rows

/-! ## The run's 128 row copies as such a sequence of row writes -/

variable {F : FTy → Type} [FloatOps F]

/-- The cell of the label table that row r of step i reads, as the body computes it (row 0 without the addition). -/
def cellOff (i : grid0.Coords) (r : ℕ) : Fin 1 → ℕ :=
  if r = 0 then ![(Scalar.indexCast (Scalar.muli (BitVec.ofNat 32 (i 0).val) 128#32)).toNat]
  else ![(Scalar.indexCast (Scalar.addi (Scalar.muli (BitVec.ofNat 32 (i 0).val) 128#32) (BitVec.ofNat 32 r))).toNat]

/-- A step below 32 and a row below 128: no product or sum of the words wraps. -/
theorem word_cell (a r : ℕ) (ha : a < 32) (hr : r < 128) : (BitVec.ofNat 32 a * 128#32 + BitVec.ofNat 32 r).toNat = 128 * a + r := by
  rw [BitVec.toNat_add, BitVec.toNat_mul, BitVec.toNat_ofNat, BitVec.toNat_ofNat, BitVec.toNat_ofNat]
  omega
theorem word_cell0 (a : ℕ) (ha : a < 32) : (BitVec.ofNat 32 a * 128#32).toNat = 128 * a := by
  rw [BitVec.toNat_mul, BitVec.toNat_ofNat, BitVec.toNat_ofNat]
  omega

/-- The cell is number 128·i + r. -/
theorem cellOff_eq (i : grid0.Coords) (r : ℕ) (hr : r < 128) : cellOff i r = ![128 * (i 0).val + r] := by
  have hi : (i 0).val < 32 := (i 0).isLt
  unfold cellOff
  split
  · next h =>
    subst h
    show ![(BitVec.ofNat 32 (i 0).val * 128#32).toNat] = _
    rw [word_cell0 _ hi]
    rfl
  · show ![(BitVec.ofNat 32 (i 0).val * 128#32 + BitVec.ofNat 32 r).toNat] = _
    rw [word_cell _ _ hi hr]

theorem cellInb (i : grid0.Coords) (r : ℕ) (hr : r < 128) : ∀ a, cellOff i r a + S1.size a ≤ S4096.size a := by
  have hi : (i 0).val < 32 := (i 0).isLt
  rw [cellOff_eq i r hr]
  intro a
  match a with
  | ⟨0, _⟩ => show 128 * (i 0).val + r + 1 ≤ 4096; omega

/-- The table's word for row r of step i, as the body reads it. -/
def wordAt (c : Dev nD) (i : grid0.Coords) (xt0 : TbBuf0 (F := F) c tbM0_0) (r : ℕ) (hr : r < 128) : Elt F .i32 :=
  View.readAt (Elt F) tbM0_0.view (Rect.unit (s := S4096) (cellOff i r) S1.size (cellInb i r hr)).toLoadRect xt0
    (Shape.Idx.first (s := (Rect.unit (s := S4096) (cellOff i r) S1.size (cellInb i r hr)).toLoadRect.shape) (show 0 < S1.numel from by decide))

/-- Under the frame's hypothesis on the table the word names a row of the weight matrix. -/
theorem wordAt_lt (c : Dev nD) (i : grid0.Coords) (xt0 : TbBuf0 (F := F) c tbM0_0) (hT : TblOk c xt0) (r : ℕ) (hr : r < 128) :
    ((wordAt c i xt0 r hr : Elt F .i32) : BitVec 32).toNat < 8142 := by
  unfold wordAt
  exact hT _ _

/-- What the copy into row r moves: the row of the weight matrix that word names. -/
def payAt (c : Dev nD) (i : grid0.Coords) (xt0 : TbBuf0 (F := F) c tbM0_0) (fh0 : HbBuf0 (F := F) c hbM0_0) (hT : TblOk c xt0) (r : ℕ) (hr : r < 128) :
    S8142.Idx → Elt F .f32 :=
  View.read (Elt F) ((hbM0_0.slice (Rect.unit (s := S8142x8142) ![((wordAt c i xt0 r hr : Elt F .i32) : BitVec 32).toNat, 0] S1x8142.size (chk_of _ (wordAt_lt c i xt0 hT r hr))) (fun _ => rfl)).squeeze S8142
    squeezes_S1x8142_S8142).view fh0

/-- The gathered-rows scratch as the body loads it is the whole-array load after those 128 row writes. -/
theorem link_A (c : Dev nD) (i : grid0.Coords) (xs0 : Vec F S128x8142 .f32) (xt0 : TbBuf0 (F := F) c tbM0_0) (fh0 : HbBuf0 (F := F) c hbM0_0) (hT : TblOk c xt0) :
    kernelRun0_A.sl.v1920 c i xs0 xt0 fh0 hT
      = View.readAt (Elt F) scM0_0.view (Rect.unit (s := S128x8142) ![0, 0] S128x8142.size inb_S128x8142_S128x8142_0_0).toLoadRect
          (rowsTo scM0_0 (payAt c i xt0 fh0 hT) ((Memref.isWhole_whole cc0_scratch0).unread xs0) 128 le_rfl) := rfl

/-- The gathered-rows scratch as the body loads it is the whole-array load after those 128 row writes. -/
theorem link_B (c : Dev nD) (i : grid0.Coords) (xs0 : Vec F S128x8142 .f32) (xt0 : TbBuf0 (F := F) c tbM0_0) (fh0 : HbBuf0 (F := F) c hbM0_0) (hT : TblOk c xt0) :
    kernelRun0_B.sl.v1920 c i xs0 xt0 fh0 hT
      = View.readAt (Elt F) scM0_0.view (Rect.unit (s := S128x8142) ![0, 0] S128x8142.size inb_S128x8142_S128x8142_0_0).toLoadRect
          (rowsTo scM0_0 (payAt c i xt0 fh0 hT) ((Memref.isWhole_whole cc0_scratch0).unread xs0) 128 le_rfl) := rfl

/-- The gathered-rows scratch as the body loads it is the whole-array load after those 128 row writes. -/
theorem link_C (c : Dev nD) (i : grid0.Coords) (xs0 : Vec F S128x8142 .f32) (xt0 : TbBuf0 (F := F) c tbM0_0) (fh0 : HbBuf0 (F := F) c hbM0_0) (hT : TblOk c xt0) :
    kernelRun0_C.sl.v1920 c i xs0 xt0 fh0 hT
      = View.readAt (Elt F) scM0_0.view (Rect.unit (s := S128x8142) ![0, 0] S128x8142.size inb_S128x8142_S128x8142_0_0).toLoadRect
          (rowsTo scM0_0 (payAt c i xt0 fh0 hT) ((Memref.isWhole_whole cc0_scratch0).unread xs0) 128 le_rfl) := rfl

/-- The table's word for row r of step i is the table's entry 128·i + r. -/
theorem cell_lt (i : grid0.Coords) (r : ℕ) (hr : r < 128) : 128 * (i 0).val + r < 4096 := by
  have hi : (i 0).val < 32 := (i 0).isLt
  omega

theorem wordAt_eq (c : Dev nD) (i : grid0.Coords) (xt0 : TbBuf0 (F := F) c tbM0_0) (r : ℕ) (hr : r < 128) :
    wordAt c i xt0 r hr = (xt0 : S4096.Idx → Elt F .i32) (ix1 ⟨128 * (i 0).val + r, cell_lt i r hr⟩) := by
  unfold wordAt
  rw [View.readAt_apply]
  show (xt0 : S4096.Idx → Elt F .i32) _ = _
  congr 1
  funext a
  apply Fin.ext
  match a with
  | ⟨0, _⟩ => show cellOff i r 0 + 1 * 0 = 128 * (i 0).val + r; rw [cellOff_eq i r hr]; rfl

/-- The weight row the word names is the row the value side calls rowOf. -/
theorem rowOf_eq (c : Dev nD) (i : grid0.Coords) (xt0 : TbBuf0 (F := F) c tbM0_0) (hT : TblOk c xt0) (r : ℕ) (hr : r < 128) :
    rowOf c xt0 i r = ⟨((wordAt c i xt0 r hr : Elt F .i32) : BitVec 32).toNat, wordAt_lt c i xt0 hT r hr⟩ := by
  have hw := wordAt_lt c i xt0 hT r hr
  have hk := cell_lt i r hr
  have hfin : ∀ (p : (128 * (i 0).val + r) % 4096 < 4096), (⟨(128 * (i 0).val + r) % 4096, p⟩ : Fin 4096) = ⟨128 * (i 0).val + r, hk⟩ :=
    fun p => Fin.ext (Nat.mod_eq_of_lt hk)
  apply Fin.ext
  show (rowOf c xt0 i r).val = ((wordAt c i xt0 r hr : Elt F .i32) : BitVec 32).toNat
  rw [wordAt_eq c i xt0 r hr] at hw ⊢
  unfold rowOf
  show min (((xt0 : S4096.Idx → Elt F .i32) (ix1 ⟨(128 * (i 0).val + r) % 4096, _⟩) : BitVec 32)).toNat 8141 = _
  rw [hfin]
  exact Nat.min_eq_left (by omega)

/-- What the copy into row r moves, entry j: the weight matrix at (rowOf … r, j). -/
theorem payAt_apply (c : Dev nD) (i : grid0.Coords) (xt0 : TbBuf0 (F := F) c tbM0_0) (fh0 : HbBuf0 (F := F) c hbM0_0) (hT : TblOk c xt0) (r : ℕ) (hr : r < 128) (j : Fin 8142) :
    payAt c i xt0 fh0 hT r hr (ix1 j) = (fh0 : S8142x8142.Idx → Elt F .f32) (ix2 (rowOf c xt0 i r) j) := by
  rw [rowOf_eq c i xt0 hT r hr]
  exact hb_read_row fh0 _ (wordAt_lt c i xt0 hT r hr) _ _ _ j

/-- The loaded scratch after the 128 row writes is the gathered rows. -/
theorem load_eq_wbOf (c : Dev nD) (i : grid0.Coords) (base : scM0_0.view.ty.Contents (Elt F)) (xt0 : TbBuf0 (F := F) c tbM0_0) (fh0 : HbBuf0 (F := F) c hbM0_0) (hT : TblOk c xt0) :
    View.readAt (Elt F) scM0_0.view (Rect.unit (s := S128x8142) ![0, 0] S128x8142.size inb_S128x8142_S128x8142_0_0).toLoadRect
        (rowsTo scM0_0 (payAt c i xt0 fh0 hT) base 128 le_rfl) = wbOf c i xt0 fh0 := by
  funext y
  obtain ⟨r, j, rfl⟩ : ∃ (r : Fin 128) (j : Fin 8142), y = ix2 r j := ⟨y 0, y 1, eq_ix2 y⟩
  rw [rowsTo_load, payAt_apply]
  rfl

theorem gather_A (c : Dev nD) (i : grid0.Coords) (xs0 : Vec F S128x8142 .f32) (xt0 : TbBuf0 (F := F) c tbM0_0) (fh0 : HbBuf0 (F := F) c hbM0_0) (hT : TblOk c xt0) :
    kernelRun0_A.sl.v1920 c i xs0 xt0 fh0 hT = wbOf c i xt0 fh0 :=
  (link_A c i xs0 xt0 fh0 hT).trans (load_eq_wbOf c i _ xt0 fh0 hT)

theorem gather_B (c : Dev nD) (i : grid0.Coords) (xs0 : Vec F S128x8142 .f32) (xt0 : TbBuf0 (F := F) c tbM0_0) (fh0 : HbBuf0 (F := F) c hbM0_0) (hT : TblOk c xt0) :
    kernelRun0_B.sl.v1920 c i xs0 xt0 fh0 hT = wbOf c i xt0 fh0 :=
  (link_B c i xs0 xt0 fh0 hT).trans (load_eq_wbOf c i _ xt0 fh0 hT)

theorem gather_C (c : Dev nD) (i : grid0.Coords) (xs0 : Vec F S128x8142 .f32) (xt0 : TbBuf0 (F := F) c tbM0_0) (fh0 : HbBuf0 (F := F) c hbM0_0) (hT : TblOk c xt0) :
    kernelRun0_C.sl.v1920 c i xs0 xt0 fh0 hT = wbOf c i xt0 fh0 :=
  (link_C c i xs0 xt0 fh0 hT).trans (load_eq_wbOf c i _ xt0 fh0 hT)

end Cert.KernelIdeal.Fr

end
-- ==== Proof.KIPiecesF.lean ====
/-
  What each case of the body's run leaves, as values of the step's inputs alone: the store of the step's 128
  row terms over the running sum, with the gathered rows the weight rows the step's labels name.
-/
import proofs.«407913_j32418413150371_1_alg».proof.Proof.KIGather

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces as values (the gathered rows' lemma fills the one hypothesis) -/

theorem piece_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0) :
    sout_A c i arg2 harg2 arg3 harg3 arg5 harg5 hc1 hc2 x0 x1 xs0 xt0 fh0 hT = stepOf (wbOf c i xt0 fh0) x0 x1 (k0_pay1 (F := F)) :=
  piece_A' c i arg2 harg2 arg3 harg3 arg5 harg5 hc1 hc2 x0 x1 xs0 xt0 fh0 hT (gather_A c i xs0 xt0 fh0 hT)
theorem piece_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    sout_B c i arg2 harg2 arg3 harg3 arg5 harg5 hc1 hc2 x0 x1 xs0 xs2 xt0 fh0 hT = stepOf (wbOf c i xt0 fh0) x0 x1 xs2 :=
  piece_B' c i arg2 harg2 arg3 harg3 arg5 harg5 hc1 hc2 x0 x1 xs0 xs2 xt0 fh0 hT (gather_B c i xs0 xt0 fh0 hT)
theorem piece_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    sout_C c i arg2 harg2 arg3 harg3 arg5 harg5 hc1 hc2 x0 x1 xs0 xs2 xt0 fh0 hT = stepOf (wbOf c i xt0 fh0) x0 x1 xs2 :=
  piece_C' c i arg2 harg2 arg3 harg3 arg5 harg5 hc1 hc2 x0 x1 xs0 xs2 xt0 fh0 hT (gather_C c i xs0 xt0 fh0 hT)
theorem piece_out_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    out_C c i arg2 harg2 arg3 harg3 arg5 harg5 hc1 hc2 x0 x1 xs0 xs2 xt0 fh0 hT = k0_pay3 (stepOf (wbOf c i xt0 fh0) x0 x1 xs2) :=
  piece_out_C' c i arg2 harg2 arg3 harg3 arg5 harg5 hc1 hc2 x0 x1 xs0 xs2 xt0 fh0 hT (gather_C c i xs0 xt0 fh0 hT)

end Cert.KernelIdeal.Fr

end
-- ==== Proof.KIFrame.lean ====
/-
  The idealized kernel's frame and what it leaves: what the running-sum scratch holds after each of the 32
  grid steps (step 0 from zero, every later step from what the step before left), what the output window
  holds after the last, the pipeline's proof data over them, the body obligation at every step — the region
  invariant hands the body its two scratch buffers, its two cells at zero, the weight matrix (split into the
  two cells' read shares for the body and joined again after it) and the label table's half —, the run of
  @main and the frame claim.
-/
import proofs.«407913_j32418413150371_1_alg».proof.Proof.KIPiecesF

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The frame's hypothesis and the accumulation -/

/-- Every word of the label table, as the region finds it, names a row of the weight matrix. -/
def Hyps : Prop := ∀ c : Dev nD, TblOk c (tbl m 0)

/-- The gathered rows at step `t`. -/
abbrev wbAt (c : Dev nD) (t : Fin (cfgM m).N) : Vec F S128x8142 .f32 := wbOf c (grid0.coords t) (tbl m 0) (V m c main_arg2)

/-- THE ACCUMULATION: what the running-sum scratch holds after the body at step `n`: step 0's store over zero,
    every later step's over what the step before left. -/
def accAt (c : Dev nD) : (n : ℕ) → n < (cfgM m).N → Vec F S1x1 .f32
  | 0, hn => stepOf (wbAt m c ⟨0, hn⟩) (iblk m c 0 ⟨0, hn⟩) (iblk m c 1 ⟨0, hn⟩) (k0_pay1 (F := F))
  | n + 1, hn => stepOf (wbAt m c ⟨n + 1, hn⟩) (iblk m c 0 ⟨n + 1, hn⟩) (iblk m c 1 ⟨n + 1, hn⟩) (accAt c n (Nat.lt_of_succ_lt hn))

theorem lt31 : 31 < (cfgM m).N := by rw [N_eq]; omega

/-- What the output window's staging buffer holds after the last step: the sum times 2⁻¹². -/
def outAt (c : Dev nD) : Vec F S1x1 .f32 := k0_pay3 (accAt m c 31 (lt31 m))

/-- The weight matrix's full points-to as the two cells' read shares and the rest of the share. -/
def hbRest (c : Dev nD) (f : HbBuf0 (F := F) c hbM0_0) : sProp 𝕄 :=
  iprop((hbM0_0.view.loc (c : Thread nD τ) ↦{Transfers.shareDrop fullShare 7} f)
    ∗ BI.bigSep (Finset.range 5) (fun i => (hbM0_0.view.loc (c : Thread nD τ) ↦{Transfers.shareTokN fullShare i} f : sProp 𝕄)))

theorem hb_split (c : Dev nD) (f : HbBuf0 (F := F) c hbM0_0) :
    (hbPt0 c hbM0_0 f : sProp 𝕄) ⊣⊢ iprop(hbTok c 5 f ∗ hbTok c 6 f ∗ hbRest c f) := by
  have h := Transfers.pointsTo_toks_range (Ix := Unit) (Name := ℕ) (U := Pipeline.UD sig nD τ) (Lvl := ℕ)
    (ℓ := hbM0_0.view.loc (c : Thread nD τ)) (S := Finset.univ) (f := f) fullShare 7
  rw [show Finset.range 7 = insert 6 (insert 5 (Finset.range 5)) from by decide,
    bigSep_insert (by decide), bigSep_insert (by decide)] at h
  refine h.trans ⟨?_, ?_⟩
  · show iprop((hbM0_0.view.loc (c : Thread nD τ) ↦{Transfers.shareDrop fullShare 7} f)
        ∗ (hbM0_0.view.loc (c : Thread nD τ) ↦{Transfers.shareTokN fullShare 6} f)
        ∗ (hbM0_0.view.loc (c : Thread nD τ) ↦{Transfers.shareTokN fullShare 5} f)
        ∗ BI.bigSep (Finset.range 5) (fun i => (hbM0_0.view.loc (c : Thread nD τ) ↦{Transfers.shareTokN fullShare i} f : sProp 𝕄))) ⊢ _
    unfold hbRest hbTok; iintro ⟨Hd, H6, H5, Hr⟩
    isplitl [H5]; · iexact H5
    isplitl [H6]; · iexact H6
    isplitl [Hd]; · iexact Hd
    iexact Hr
  · show _ ⊢ iprop((hbM0_0.view.loc (c : Thread nD τ) ↦{Transfers.shareDrop fullShare 7} f)
        ∗ (hbM0_0.view.loc (c : Thread nD τ) ↦{Transfers.shareTokN fullShare 6} f)
        ∗ (hbM0_0.view.loc (c : Thread nD τ) ↦{Transfers.shareTokN fullShare 5} f)
        ∗ BI.bigSep (Finset.range 5) (fun i => (hbM0_0.view.loc (c : Thread nD τ) ↦{Transfers.shareTokN fullShare i} f : sProp 𝕄)))
    unfold hbRest hbTok; iintro ⟨H5, H6, Hd, Hr⟩
    isplitl [Hd]; · iexact Hd
    isplitl [H6]; · iexact H6
    isplitl [H5]; · iexact H5
    iexact Hr

/-! ## The region invariant, step by step -/

/-- Before the first step: what the launch hands the region. After step `n − 1`: the gathered-rows scratch at
    some contents, the running sum at the accumulation, the generator register, the two cells at zero, the weight
    matrix at its launch contents, the label table's half. -/
def PhiS (c : Dev nD) (n : ℕ) (hn : n ≤ (cfgM m).N) : sProp 𝕄 :=
  if h : n = 0 then iprop(Pipeline.ΦD osem0 spec0 H0 (V m) c ∗ Pipeline.ΦT pre0 (tbl m) c)
  else iprop((∃ d, owns (c : Thread nD τ) scM0_0 fullShare d) ∗ owns (c : Thread nD τ) scM0_2 fullShare (accAt m c (n - 1) (by omega))
    ∗ (∃ r, prngReg c r) ∗ semVal ((c : Thread nD τ), SemLoc.dma 5) 0 ∗ semVal ((c : Thread nD τ), SemLoc.dma 6) 0
    ∗ hbPt0 c hbM0_0 (V m c main_arg2) ∗ tbPt0 c tbM0_0 (tbl m 0))

theorem PhiS_zero (c : Dev nD) (n : ℕ) (hn : n ≤ (cfgM m).N) (h : n = 0) :
    PhiS m c n hn = iprop(Pipeline.ΦD osem0 spec0 H0 (V m) c ∗ Pipeline.ΦT pre0 (tbl m) c) := by
  unfold PhiS; rw [dif_pos h]
theorem PhiS_succ (c : Dev nD) (n : ℕ) (hn : n + 1 ≤ (cfgM m).N) :
    PhiS m c (n + 1) hn = iprop((∃ d, owns (c : Thread nD τ) scM0_0 fullShare d) ∗ owns (c : Thread nD τ) scM0_2 fullShare (accAt m c n hn)
      ∗ (∃ r, prngReg c r) ∗ semVal ((c : Thread nD τ), SemLoc.dma 5) 0 ∗ semVal ((c : Thread nD τ), SemLoc.dma 6) 0
      ∗ hbPt0 c hbM0_0 (V m c main_arg2) ∗ tbPt0 c tbM0_0 (tbl m 0)) := by
  unfold PhiS; rw [dif_neg (Nat.succ_ne_zero n)]; rfl

theorem PhiS_pos (c : Dev nD) (n : ℕ) (hn : n ≤ (cfgM m).N) (h : n ≠ 0) :
    PhiS m c n hn = iprop((∃ d, owns (c : Thread nD τ) scM0_0 fullShare d) ∗ owns (c : Thread nD τ) scM0_2 fullShare (accAt m c (n - 1) (by omega))
      ∗ (∃ r, prngReg c r) ∗ semVal ((c : Thread nD τ), SemLoc.dma 5) 0 ∗ semVal ((c : Thread nD τ), SemLoc.dma 6) 0
      ∗ hbPt0 c hbM0_0 (V m c main_arg2) ∗ tbPt0 c tbM0_0 (tbl m 0)) := by
  unfold PhiS; rw [dif_neg h]

/-- The accumulation at step 0 and at a later step. -/
theorem accAt_zero (c : Dev nD) (t : Fin (cfgM m).N) (h : t.val = 0) :
    accAt m c t.val t.isLt = stepOf (wbAt m c t) (iblk m c 0 t) (iblk m c 1 t) (k0_pay1 (F := F)) := by
  obtain ⟨n, hn⟩ := t
  obtain rfl : n = 0 := h
  rfl
theorem accAt_pos (c : Dev nD) (t : Fin (cfgM m).N) (h : t.val ≠ 0) :
    accAt m c t.val t.isLt = stepOf (wbAt m c t) (iblk m c 0 t) (iblk m c 1 t) (accAt m c (t.val - 1) (by omega)) := by
  obtain ⟨n, hn⟩ := t
  cases n with
  | zero => exact absurd rfl h
  | succ k => rfl

/-! ## The pipeline's proof data -/

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outAt m c
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem PhiS_castSucc (c : Dev nD) (t : Fin (cfgM m).N) :
    (dats m 0 c).Φ t.castSucc = PhiS m c t.val (Nat.le_of_lt t.isLt) := by
  dsimp only [dats]; simp only [Fin.coe_castSucc]
theorem after0_0 (c : Dev nD) (t : Fin (cfgM m).N) : (dats m 0 c).after 0 t = iblk m c 0 t := rfl
theorem after0_1 (c : Dev nD) (t : Fin (cfgM m).N) : (dats m 0 c).after 1 t = iblk m c 1 t := rfl
theorem after0_2 (c : Dev nD) (t : Fin (cfgM m).N) : (dats m 0 c).after 2 t = outAt m c := rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d

/-! ## The body obligation, at a generic step -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any step: the inputs' memrefs hold their blocks; the step's number says which case it is in; the
    invariant hands the body its scratch buffers (the running sum at what the step before left), its cells at
    zero, the weight matrix — split into the two cells' read shares and joined again after the run — and the
    label table's half, and takes them back with the running sum at this step's store. -/
theorem sound_body (hH : Hyps m) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 32 := lt_of_lt_of_eq t.isLt (N_eq m)
  rw [show (dats m 0 c).leavesExact 0 t = owns (c : Thread nD τ) (ms0_0 m t) fullShare ((dats m 0 c).after 0 t) from (by
      unfold Dat.leavesExact; rw [liveAt0_0 m t]; rfl), after0_0]
  rw [show (dats m 0 c).leavesExact 1 t = owns (c : Thread nD τ) (ms0_1 m t) fullShare ((dats m 0 c).after 1 t) from (by
      unfold Dat.leavesExact; rw [liveAt0_1 m t]; rfl), after0_1]
  by_cases h0 : t.val = 0
  · have hc1 : cond1 (grid0.coords t) := (hcond1 m t).mpr h0
    have hc2 : ¬cond2 (grid0.coords t) := fun h => by have := (hcond2 m t).mp h; omega
    rw [Dat.leavesExact_idle (dats m 0 c) 2 t (idleAt0_2 m t hc2) (noFlush0_2 m t hc2)]
    rw [PhiS_castSucc m c t, PhiS_zero m c _ _ h0, PhiD0_eq, PhiT0_eq]
    iintro ⟨⟨⟨⟨HS0x, HS2x⟩, Hg, ⟨Hq0, Hq1⟩, Hh0⟩, HT0⟩, ⟨%W, -, HW⟩, ⟨%d0, H0⟩, ⟨%d1, H1⟩, ⟨%d2, H2⟩⟩
    icases HS0x with ⟨%ds0, HS0⟩
    icases HS2x with ⟨%ds2, HS2⟩
    ihave Hh := (hb_split c _).1 $$ Hh0
    icases Hh with ⟨Hh5, Hh6, HhR⟩
    iapply ((kernelRun0_A c (grid0.coords t) (ms0_0 m t) (hs0_0 m t) (ms0_1 m t) (hs0_1 m t) (ms0_2 m t) (hs0_2 m t) hc1 hc2 (iblk m c 0 t) (iblk m c 1 t) ds0 (tbl m 0) (V m c main_arg2) (hH c)).2 _ W _)
    isplitl [H0]; · iexact H0
    isplitl [H1]; · iexact H1
    isplitl [H2]; · iexact H2
    isplitl [HS0]; · iexact HS0
    isplitl [HS2]; · iexists _; iexact HS2
    isplitl [Hq0]; · iexact Hq0
    isplitl [Hq1]; · iexact Hq1
    isplitl [Hh5]; · iexact Hh5
    isplitl [Hh6]; · iexact Hh6
    isplitl [HT0]; · iexact HT0
    isplitl [HW]; · iexact HW
    iintro ⟨H0, H1, H2, HS0, ⟨%es2, HS2⟩, Hq0, Hq1, Hh5, Hh6, HT0, ⟨%W', HW'⟩⟩
    isplitl [HS0 HS2 Hg Hq0 Hq1 Hh5 Hh6 HhR HT0]
    · isplitl [HS0]; · iexact HS0
      isplitl [HS2]
      · unfold owns; iexists _; isplitr
        swap; · iexact HS2
        ipureintro
        exact ((View.read_writes_of_cover _ _ _ _ _ (scover_A c (grid0.coords t) (ms0_0 m t) (hs0_0 m t) (ms0_1 m t) (hs0_1 m t) (ms0_2 m t) (hs0_2 m t) hc1 hc2 (iblk m c 0 t) (iblk m c 1 t) ds0 (tbl m 0) (V m c main_arg2) (hH c))).trans (piece_A c (grid0.coords t) (ms0_0 m t) (hs0_0 m t) (ms0_1 m t) (hs0_1 m t) (ms0_2 m t) (hs0_2 m t) hc1 hc2 (iblk m c 0 t) (iblk m c 1 t) ds0 (tbl m 0) (V m c main_arg2) (hH c))).trans (accAt_zero m c t h0).symm
      isplitl [Hg]; · iexact Hg
      isplitl [Hq0]; · iexact Hq0
      isplitl [Hq1]; · iexact Hq1
      isplitl [Hh5 Hh6 HhR]
      · iapply (hb_split c _).2
        isplitl [Hh5]; · iexact Hh5
        isplitl [Hh6]; · iexact Hh6
        iexact HhR
      iexact HT0
    isplitl [HW']
    · iexists W'; isplitr; · ipureintro; exact fun _ _ => Or.inl trivial
      iexact HW'
    isplitl [H0]; · iexact H0
    isplitl [H1]; · iexact H1
    iexists _; iexact H2
  · by_cases h31 : t.val = 31
    · have hc1 : ¬cond1 (grid0.coords t) := fun h => h0 ((hcond1 m t).mp h)
      have hc2 : cond2 (grid0.coords t) := (hcond2 m t).mpr h31
      rw [show (dats m 0 c).leavesExact 2 t = owns (c : Thread nD τ) (ms0_2 m t) fullShare ((dats m 0 c).after 2 t) from (by
          unfold Dat.leavesExact; rw [liveAt0_2 m t hc2]; rfl), after0_2]
      rw [PhiS_castSucc m c t, PhiS_pos m c _ _ h0]
      iintro ⟨⟨HS0x, HS2, Hg, Hq0, Hq1, Hh0, HT0⟩, ⟨%W, -, HW⟩, ⟨%d0, H0⟩, ⟨%d1, H1⟩, ⟨%d2, H2⟩⟩
      icases HS0x with ⟨%ds0, HS0⟩
      ihave Hh := (hb_split c _).1 $$ Hh0
      icases Hh with ⟨Hh5, Hh6, HhR⟩
      iapply ((kernelRun0_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c)).2.2 W _)
      isplitl [H0]; · iexact H0
      isplitl [H1]; · iexact H1
      isplitl [H2]; · iexists _; iexact H2
      isplitl [HS0]; · iexact HS0
      isplitl [HS2]; · iexact HS2
      isplitl [Hq0]; · iexact Hq0
      isplitl [Hq1]; · iexact Hq1
      isplitl [Hh5]; · iexact Hh5
      isplitl [Hh6]; · iexact Hh6
      isplitl [HT0]; · iexact HT0
      isplitl [HW]; · iexact HW
      iintro ⟨H0, H1, ⟨%e2, H2⟩, HS0, ⟨%es2, HS2⟩, Hq0, Hq1, Hh5, Hh6, HT0, ⟨%W', HW'⟩⟩
      isplitl [HS0 HS2 Hg Hq0 Hq1 Hh5 Hh6 HhR HT0]
      · isplitl [HS0]; · iexact HS0
        isplitl [HS2]
        · unfold owns; iexists _; isplitr
          swap; · iexact HS2
          ipureintro
          exact ((View.read_writes_of_cover _ _ _ _ _ (scover_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (piece_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (accAt_pos m c t h0).symm
        isplitl [Hg]; · iexact Hg
        isplitl [Hq0]; · iexact Hq0
        isplitl [Hq1]; · iexact Hq1
        isplitl [Hh5 Hh6 HhR]
        · iapply (hb_split c _).2
          isplitl [Hh5]; · iexact Hh5
          isplitl [Hh6]; · iexact Hh6
          iexact HhR
        iexact HT0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro
      refine ((View.read_writes_of_cover _ _ _ _ _ (cover_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (piece_out_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans ?_
      unfold outAt
      congr 1
      rw [← accAt_pos m c t h0]
      obtain ⟨n, hn⟩ := t
      obtain rfl : n = 31 := h31
      rfl
    · have hc1 : ¬cond1 (grid0.coords t) := fun h => h0 ((hcond1 m t).mp h)
      have hc2 : ¬cond2 (grid0.coords t) := fun h => h31 ((hcond2 m t).mp h)
      rw [Dat.leavesExact_idle (dats m 0 c) 2 t (idleAt0_2 m t hc2) (noFlush0_2 m t hc2)]
      rw [PhiS_castSucc m c t, PhiS_pos m c _ _ h0]
      iintro ⟨⟨HS0x, HS2, Hg, Hq0, Hq1, Hh0, HT0⟩, ⟨%W, -, HW⟩, ⟨%d0, H0⟩, ⟨%d1, H1⟩, ⟨%d2, H2⟩⟩
      icases HS0x with ⟨%ds0, HS0⟩
      ihave Hh := (hb_split c _).1 $$ Hh0
      icases Hh with ⟨Hh5, Hh6, HhR⟩
      iapply ((kernelRun0_B c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c)).2 _ W _)
      isplitl [H0]; · iexact H0
      isplitl [H1]; · iexact H1
      isplitl [H2]; · iexact H2
      isplitl [HS0]; · iexact HS0
      isplitl [HS2]; · iexact HS2
      isplitl [Hq0]; · iexact Hq0
      isplitl [Hq1]; · iexact Hq1
      isplitl [Hh5]; · iexact Hh5
      isplitl [Hh6]; · iexact Hh6
      isplitl [HT0]; · iexact HT0
      isplitl [HW]; · iexact HW
      iintro ⟨H0, H1, H2, HS0, ⟨%es2, HS2⟩, Hq0, Hq1, Hh5, Hh6, HT0, ⟨%W', HW'⟩⟩
      isplitl [HS0 HS2 Hg Hq0 Hq1 Hh5 Hh6 HhR HT0]
      · isplitl [HS0]; · iexact HS0
        isplitl [HS2]
        · unfold owns; iexists _; isplitr
          swap; · iexact HS2
          ipureintro
          exact ((View.read_writes_of_cover _ _ _ _ _ (scover_B c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (piece_B c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (accAt_pos m c t h0).symm
        isplitl [Hg]; · iexact Hg
        isplitl [Hq0]; · iexact Hq0
        isplitl [Hq1]; · iexact Hq1
        isplitl [Hh5 Hh6 HhR]
        · iapply (hb_split c _).2
          isplitl [Hh5]; · iexact Hh5
          isplitl [Hh6]; · iexact Hh6
          iexact HhR
        iexact HT0
      isplitl [HW']
      · iexists W'; isplitr; · ipureintro; exact fun _ _ => Or.inl trivial
        iexact HW'
      isplitl [H0]; · iexact H0
      isplitl [H1]; · iexact H1
      iexists _; iexact H2

set_option maxRecDepth 65536 in
/-- The library's body obligation, at every step. -/
theorem body_obligation (hH : Hyps m) (c : Dev nD) : BodyObligation (dats (F := F) m 0 c) (defs₀ (F := F)) Variants.none () Set.univ := fun t => by
  rw [bigSep_W0, bigSep_W0]
  exact sound_body m hH c t

/-- What the launch hands the region is the invariant before the first step. -/
theorem hin (c : Dev nD) : iprop(Pipeline.ΦD osem0 spec0 H0 (V m) c ∗ Pipeline.ΦT pre0 (tbl m) c) ⊢ (dats m 0 c).Φ 0 := by
  rw [show (dats m 0 c).Φ 0 = PhiS m c 0 (Nat.zero_le _) from rfl, PhiS_zero m c 0 _ rfl]

/-- After the last step the invariant gives the launch's back: the running sum's named contents and the table's half are dropped. -/
theorem hout (c : Dev nD) : (dats m 0 c).Φ (Fin.last (cfgM m).N) ⊢ Pipeline.ΦD osem0 spec0 H0 (V m) c := by
  rw [show (dats m 0 c).Φ (Fin.last (cfgM m).N) = PhiS m c (cfgM m).N (Nat.le_refl _) from rfl,
    PhiS_pos m c _ _ (by rw [N_eq]; omega), PhiD0_eq]
  iintro ⟨HS0, HS2, Hg, Hq0, Hq1, Hh0, -⟩
  isplitl [HS0 HS2]
  · isplitl [HS0]; · iexact HS0
    iexists _; iexact HS2
  isplitl [Hg]; · iexact Hg
  isplitl [Hq0 Hq1]
  · isplitl [Hq0]; · iexact Hq0
    iexact Hq1
  iexact Hh0

/-! ## The run and the frame -/

/-- The reshape after the region touches the result array and its own fresh buffer only: neither the label table
    nor the weight matrix; it allocates nothing and writes no array of the pipeline. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) (fun k => ?_) (fun b hb => ?_)
  · rw [StableHlo.reshape_bufs]
    fin_cases k
    simp only [Finset.mem_insert, Finset.mem_singleton, not_or]
    exact ⟨StableHlo.devRef_ne_of_ne (by decide), StableHlo.devRef_ne_of_ne (by decide)⟩
  · rw [StableHlo.reshape_bufs]
    simp only [H0, Finset.mem_singleton] at hb
    subst hb
    simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

set_option backward.isDefEq.respectTransparency.types false in
/-- From any memory with zero counters, under the frame's hypothesis: every weakly fair execution of @main
    terminates, every array of the pipeline ends at what the library computes from the proof data and every other
    unscoped buffer as the last reshape leaves it. -/
theorem run_main (hH : Hyps m) : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- A buffer that is no array of the pipeline and not the last reshape's result ends as the region found it. -/
theorem tail_keeps (c : Dev nD) (b : Ref sig .tc) (hb : ∀ w, Pipeline.arrRef spec0 w ≠ b) (hb2 : b ≠ main_v2) :
    Pipeline.afterTail pcfgs (fun _ => adm m) (dats m) 0 (V0 m) [hostOps1] c b = V m c b := by
  unfold Pipeline.afterTail
  rw [StableHlo.after_of_forall_not_mem _ _ fun op hop hw => ?_, Pipeline.withArrays_of_ne _ c (V0 m c) _ b hb]
  simp only [List.flatten_cons, List.flatten_nil, List.append_nil, hostOps1, List.mem_cons, List.mem_nil_iff, or_false] at hop
  subst hop
  rw [StableHlo.reshape_writes, Finset.mem_singleton] at hw
  exact hb2 (Proc.devRef_injective _ hw)

/-- THE FRAME: every weakly fair execution of @main terminates, nothing faults, and the three argument arrays end
    unchanged — for every memory whose label table names rows of the weight matrix. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (show main_arg1 ∈ Pipeline.restRefs sig spec0 from by decide)).trans ((tail_keeps m c main_arg1 (by decide) (by decide)).trans (V_main_arg1 m c)),
      ((h c).2 main_arg2 (show main_arg2 ∈ Pipeline.restRefs sig spec0 from by decide)).trans ((tail_keeps m c main_arg2 (by decide) (by decide)).trans (V_main_arg2 m c))⟩) (run_main m ρ hH)

/-- The frame's hypothesis from a bound on every label. -/
theorem hyps_of_labels (h : ∀ (c : Dev nD) (i : S4096.Idx), ((m ((c.tc : Thread nD τ).loc main_arg1) : S4096.Idx → Elt F .i32) i : BitVec 32).toNat < 8142) : Hyps m := by
  intro c r x
  obtain rfl : c = 0 := Subsingleton.elim _ _
  have e := V_main_arg1 m 0
  have key : ∀ k : S4096.Idx, ((tbl m 0 : S4096.Idx → Elt F .i32) k : BitVec 32).toNat < 8142 := fun k => by
    have := h 0 k
    rw [← e] at this
    exact this
  exact key _

end Cert.KernelIdeal.Fr

end
-- ==== Proof.KernelStep.lean ====
/-
  What one grid step of the kernel adds to its accumulator, read over the extended reals.

  A step holds 128 rows: the gathered weight rows wb, the block xb of x, the labels' column tb and the
  accumulator. Row r's logits are a_r(j) = xb(r, j) + log wb(r, j); the step forms their maximum M_r, the
  exponentials exp (a_r(j) − M_r), their sum S_r, the logit at the label (a lane sum of the logits masked by
  "lane = label"), the term (log S_r + M_r) − a_r(t_r), and adds the 128 terms to the accumulator. Here each
  stored value is read at an index: the zero the first step stores, the product with 2⁻¹² the last step
  stores, and the accumulator plus the sum of the rows' terms in between.
-/
import proofs.«407913_j32418413150371_1_alg».proof.Proof.Gen.KernelIdeal.Skeleton
import proofs.«407913_j32418413150371_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Step

open Cert.KernelIdeal Cert.KernelIdeal.Gen Cert.Seesaw Idealize.ShloMosaic Idealize.ShloMosaic.ValueIdx

/-! ## Indices of the one-element shape -/

/-- The shape [1, 1] has one index. -/
theorem idx11 (i : S1x1.Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-! ## Column forms of the layout operations -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The reductions of the block, read by coordinates -/

/-- The sum along the lanes of a [128, 8142] block at row `r` is the sum of that row. -/
theorem laneSum_apply (src : FVec Ideal S128x8142 .f32) (h : S128x8142.Reduces [1] S128) (hφ : FKind.Formats .f32)
    (hacc : (0x00000000#32 : BitVec 32) = FKind.add.neutral .f32 hφ) (r : Fin 128) :
    multiReduction .add [1] S128 src 0x00000000#32 h hφ hacc (ix1 r) = ∑ j : Fin 8142, src (ix2 r j) := by
  refine (Ideal.multiReduction_add_single src _ h hφ hacc (ix1 r)).trans ?_
  refine Finset.sum_congr rfl fun j _ => congrArg src ?_
  funext d
  match d with
  | ⟨0, _⟩ => exact Fin.ext rfl
  | ⟨1, _⟩ => exact Fin.ext rfl

/-- The sum along the rows of a [128, 1] column is the sum of its 128 entries. -/
theorem rowSum_apply (src : FVec Ideal S128x1 .f32) (h : S128x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 128, src (ix2 r (0 : Fin 1)) := by
  refine (Ideal.multiReduction_add_single src _ h hφ hacc (ix1 (0 : Fin 1))).trans ?_
  refine Finset.sum_congr rfl fun r _ => congrArg src ?_
  funext d
  match d with
  | ⟨0, _⟩ => exact Fin.ext rfl
  | ⟨1, _⟩ => exact Fin.ext rfl

/-- The row maximum of a [128, 8142] block at row `r`, taken from the word of −∞, is the supremum of that row. -/
theorem laneMax_apply (src : FVec Ideal S128x8142 .f32) (h : S128x8142.Reduces [1] S128) (hφ : FKind.Formats .f32)
    (hacc : (0xFF800000#32 : BitVec 32) = FKind.maximumf.neutral .f32 hφ) (r : Fin 128) :
    multiReduction .maximumf [1] S128 src 0xFF800000#32 h hφ hacc (ix1 r)
      = Finset.univ.sup fun j : Fin 8142 => src (ix2 r j) := by
  refine (Ideal.multiReduction_maximumf_single src _ h hφ hacc (ix1 r)).trans ?_
  have hb : (FloatOps.ofBits .f32 0xFF800000#32 : Ideal .f32) = (⊥ : EReal) := by
    show Ideal.ofBits .f32 0xFF800000#32 = ⊥
    simp [Ideal.ofBits, Ideal.ieee]
  have hf : (src ∘ h.lift (ix1 r)) = fun j : Fin 8142 => src (ix2 r j) := by
    funext j
    refine congrArg src ?_
    funext d
    match d with
    | ⟨0, _⟩ => exact Fin.ext rfl
    | ⟨1, _⟩ => exact Fin.ext rfl
  refine (congrArg₂ (fun b f => Finset.fold max b f (Finset.univ : Finset (Fin 8142))) hb hf).trans ?_
  rfl

/-! ## The one-hot lane sum -/

/-- Over the 8142 lanes, the sum of "the entry where the lane's word is the label, zero elsewhere" is the entry at the
    label's class, when the label is below 8142. -/
theorem onehot_sum (f : Fin 8142 → EReal) (t : BitVec 32) (z : EReal) (hz : z = 0) (ht : t.toNat < 8142) :
    ∑ j : Fin 8142, Scalar.select (IntOp.cmpi .eq (BitVec.ofNat 32 j.val) t) (f j) z = f (cls t) := by
  subst hz
  have hc : (cls t).val = t.toNat := by show min t.toNat 8141 = t.toNat; omega
  rw [Finset.sum_eq_single (cls t)]
  · have h1 : IntOp.cmpi .eq (BitVec.ofNat 32 (cls t).val) t = 1#1 := by
      refine IntOp.cmpi_eq.mpr (BitVec.eq_of_toNat_eq ?_)
      rw [BitVec.toNat_ofNat, hc]
      omega
    rw [h1, select_one]
  · intro j _ hj
    have h0 : IntOp.cmpi .eq (BitVec.ofNat 32 j.val) t = 0#1 := by
      refine eq_zero_of_ne_one fun h1 => hj (Fin.ext ?_)
      have e := congrArg BitVec.toNat (IntOp.cmpi_eq.mp h1)
      rw [BitVec.toNat_ofNat] at e
      have := j.isLt
      rw [hc]
      omega
    rw [h0, select_zero]
  · intro h
    exact absurd (Finset.mem_univ _) h

/-! ## The payloads at an index -/

/-- The logits: the x block plus the logarithm of the weight rows. -/
theorem pay4_apply (wb xb : Vec Ideal S128x8142 .f32) (r : Fin 128) (j : Fin 8142) :
    k0_pay4 (F := Ideal) wb xb (ix2 r j) = xb (ix2 r j) + Ideal.log (wb (ix2 r j)) := rfl

/-- The column of row maxima. -/
theorem pay5_apply (wb xb : Vec Ideal S128x8142 .f32) (r : Fin 128) (u : Fin 1) :
    k0_pay5 (F := Ideal) wb xb (ix2 r u) = rowMax fun j : Fin 8142 => xb (ix2 r j) + Ideal.log (wb (ix2 r j)) := by
  unfold k0_pay5
  refine (shapeCast_a_a1_apply _ _ r u).trans ?_
  exact laneMax_apply _ _ _ _ r

/-- The exponentials of the logits shifted by their row's maximum. -/
theorem pay6_apply (wb xb : Vec Ideal S128x8142 .f32) (r : Fin 128) (j : Fin 8142) :
    k0_pay6 (F := Ideal) wb xb (ix2 r j)
      = Ideal.exp ((xb (ix2 r j) + Ideal.log (wb (ix2 r j)))
          - rowMax fun j : Fin 8142 => xb (ix2 r j) + Ideal.log (wb (ix2 r j))) := by
  unfold k0_pay6
  refine congrArg (fun m => Ideal.exp ((xb (ix2 r j) + Ideal.log (wb (ix2 r j))) - m)) ?_
  refine (broadcastTo_a1_ab_apply _ _ r j).trans ?_
  exact pay5_apply wb xb r 0

/-- The stored accumulator, over any logits, maxima and exponentials: the old accumulator plus, summed over the rows,
    the logarithm of the row's sum of exponentials plus the row's maximum minus the logit at the label's class. -/
theorem pay2_apply (lg : FVec Ideal S128x8142 .f32) (mx : FVec Ideal S128x1 .f32) (ex : FVec Ideal S128x8142 .f32)
    (tb : Vec Ideal S128x1 .i32) (acc : Vec Ideal S1x1 .f32) (ht : ∀ r : Fin 128, (tb (ix2 r 0)).toNat < 8142) :
    k0_pay2 (F := Ideal) lg mx ex tb acc (ix2 0 0)
      = acc (ix2 0 0) + ∑ r : Fin 128,
          ((Ideal.log (∑ j : Fin 8142, ex (ix2 r j)) + mx (ix2 r 0)) - lg (ix2 r (cls (tb (ix2 r 0))))) := by
  unfold k0_pay2
  refine (congrFun (shapeCast_self _ _) _).trans ?_
  refine congrArg (acc (ix2 0 0) + ·) ?_
  refine (shapeCast_a_1a_apply (a := 1) _ _ 0 0).trans ?_
  refine (rowSum_apply _ _ _ _).trans ?_
  refine Finset.sum_congr rfl fun r _ => ?_
  refine congrArg₂ (· - ·) (congrArg₂ (· + ·) (congrArg Ideal.log ?_) rfl) ?_
  · refine (shapeCast_a_a1_apply _ _ r 0).trans ?_
    exact laneSum_apply _ _ _ _ r
  · refine (shapeCast_a_a1_apply _ _ r 0).trans ?_
    refine (laneSum_apply _ _ _ _ r).trans ?_
    refine (Finset.sum_congr rfl fun j _ => ?_).trans
      (onehot_sum (fun j => lg (ix2 r j)) (tb (ix2 r 0)) (Ideal.ofBits .f32 0x00000000#32) Ideal.ofBits_zero_f32 (ht r))
    refine congrArg₂ (fun a b => Scalar.select (IntOp.cmpi .eq a b) (lg (ix2 r j)) (Ideal.ofBits .f32 0x00000000#32)) ?_ ?_
    · exact iota_single_apply .tc S128x8142 32 1 _ (ix2 r j)
    · refine (broadcastTo_a1_ab_apply _ _ r j).trans ?_
      exact congrFun (shapeCast_self _ _) _

/-! ## The three stored values -/

/-- The first step stores zero. -/
theorem pay1_value : k0_pay1 (F := Ideal) = fun _ => (0 : EReal) := by
  funext i
  show Ideal.ofBits .f32 0x00000000#32 = 0
  exact Ideal.ofBits_zero_f32

/-- The last step stores the accumulator times the word of 2⁻¹². -/
theorem pay3_value (v : Vec Ideal S1x1 .f32) :
    k0_pay3 (F := Ideal) v = fun _ => v (ix2 0 0) * Ideal.ofBits .f32 0x39800000#32 := by
  funext i
  obtain rfl := idx11 i
  rfl

/-- Every step stores the accumulator plus the sum of its 128 rows' terms. -/
theorem step_value (wb xb : Vec Ideal S128x8142 .f32) (tb : Vec Ideal S128x1 .i32) (acc : Vec Ideal S1x1 .f32)
    (ht : ∀ r : Fin 128, (tb (ix2 r 0)).toNat < 8142) :
    k0_pay2 (F := Ideal) (k0_pay4 wb xb) (k0_pay5 wb xb) (k0_pay6 wb xb) tb acc
      = fun _ => acc (ix2 0 0) + ∑ r : Fin 128,
          rowNll (fun j : Fin 8142 => xb (ix2 r j) + Ideal.log (wb (ix2 r j))) (cls (tb (ix2 r 0))) := by
  funext i
  obtain rfl := idx11 i
  refine (pay2_apply _ _ _ tb acc ht).trans ?_
  refine congrArg (acc (ix2 0 0) + ·) ?_
  refine Finset.sum_congr rfl fun r _ => ?_
  unfold rowNll rowSumExp
  refine congrArg₂ (· - ·) (congrArg₂ (· + ·) (congrArg Ideal.log ?_) (pay5_apply wb xb r 0)) rfl
  exact Finset.sum_congr rfl fun j _ => pay6_apply wb xb r j

end Cert.KernelIdeal.Step

end
-- ==== Proof.Blocks.lean ====
/-
  The 4096 rows taken as 32 blocks of 128.

  The sum of a function over the 4096 rows is the sum over the 32 blocks of the sums over the 128 rows of
  each block, row 128 t + r being row r of block t. A running sum that starts from 0 plus the first block's
  term and at each later block adds that block's term holds, after the last block, the sum of the 32 terms.
  Together: the running sum of the blocks' negative log-likelihood terms, times the word of 2⁻¹², is the
  kernel's result.
-/
import proofs.«407913_j32418413150371_1_alg».proof.Proof.Spec
import Mathlib.Data.EReal.Basic
import Mathlib.Logic.Equiv.Fin.Basic
import Mathlib.Algebra.BigOperators.Group.Finset.Basic
import Mathlib.Algebra.BigOperators.Fin
import Mathlib.Data.Fintype.BigOperators

noncomputable section

open scoped BigOperators

namespace Cert.Seesaw

open Idealize.ShloMosaic Idealize.ShloMosaic.ValueIdx

/-! ### Rows by blocks -/

/-- A sum over the 4096 rows is the sum over the 32 blocks of the sums over each block's 128 rows. -/
theorem sum_blocks (f : Fin 4096 → EReal) :
    ∑ t : Fin 32, ∑ r : Fin 128, f ⟨128 * t.val + r.val, by omega⟩ = ∑ R : Fin 4096, f R := by
  rw [← Fintype.sum_prod_type' (fun (t : Fin 32) (r : Fin 128) => f ⟨128 * t.val + r.val, by omega⟩)]
  refine Fintype.sum_equiv (finProdFinEquiv : Fin 32 × Fin 128 ≃ Fin 4096) _ _ fun x => ?_
  refine congrArg f (Fin.ext ?_)
  show 128 * x.1.val + x.2.val = x.2.val + 128 * x.1.val
  exact Nat.add_comm _ _

/-! ### The running sum -/

/-- A sum started from 0 plus the first term and extended one term at a time is, after the 32nd term,
    the sum of all 32. -/
theorem running_sum (B : Fin 32 → EReal) (acc : ℕ → EReal) (h0 : acc 0 = 0 + B 0)
    (hs : ∀ t (ht : t + 1 < 32), acc (t + 1) = acc t + B ⟨t + 1, ht⟩) :
    acc 31 = ∑ t : Fin 32, B t := by
  have hg : ∀ t : Fin 32, (if h : t.val < 32 then B ⟨t.val, h⟩ else 0) = B t :=
    fun t => dif_pos t.isLt
  have key : ∀ n, n < 32 →
      acc n = ∑ i ∈ Finset.range (n + 1), (if h : i < 32 then B ⟨i, h⟩ else 0) := by
    intro n
    induction n with
    | zero =>
      intro _
      rw [h0, zero_add, Finset.sum_range_one]
      exact (hg 0).symm
    | succ n ih =>
      intro hn
      rw [hs n hn, ih (by omega), Finset.sum_range_succ _ (n + 1), dif_pos hn]
  rw [key 31 (by norm_num),
    ← Fin.sum_univ_eq_sum_range (fun i => if h : i < 32 then B ⟨i, h⟩ else 0) 32]
  exact Finset.sum_congr rfl fun t _ => hg t

/-! ### The kernel's result by blocks -/

/-- Block t's term: the sum of its 128 rows' negative log-likelihoods. -/
def blockTerm (X : SX.Idx → EReal) (T : ST.Idx → BitVec 32) (Wm : SW.Idx → EReal) (t : Fin 32) : EReal :=
  ∑ r : Fin 128, rowNll (logits X T Wm ⟨128 * t.val + r.val, by omega⟩)
    (cls (T (ValueIdx.ix1 ⟨128 * t.val + r.val, by omega⟩)))

/-- The running sum of the 32 blocks' terms, times the word of 2⁻¹², is the kernel's result. -/
theorem kernelVal_eq_blocks (X : SX.Idx → EReal) (T : ST.Idx → BitVec 32) (Wm : SW.Idx → EReal)
    (acc : ℕ → EReal) (h0 : acc 0 = 0 + blockTerm X T Wm 0)
    (hs : ∀ t (ht : t + 1 < 32), acc (t + 1) = acc t + blockTerm X T Wm ⟨t + 1, ht⟩) :
    acc 31 * Ideal.ofBits .f32 0x39800000#32 = kernelVal X T Wm := by
  rw [running_sum (blockTerm X T Wm) acc h0 hs, kernelVal]
  congr 1
  exact sum_blocks (fun R => rowNll (logits X T Wm R) (cls (T (ix1 R))))

end Cert.Seesaw

end
-- ==== Proof.KIFold.lean ====
/-
  The 32 grid steps folded over the running sum.

  Step 0 resets the accumulator to zero and stores zero plus its block's term; step t + 1 stores what step t left
  plus its own block's term; after step 31 the output is the sum times the word of 2⁻¹². When step t's blocks are
  rows 128 t … 128 t + 127 of x, of the labels and of the weight rows the labels name, each step's term is that
  block's sum of negative log-likelihoods, and the output is the kernel's result as the specification writes it.
-/
import proofs.«407913_j32418413150371_1_alg».proof.Proof.KernelStep
import proofs.«407913_j32418413150371_1_alg».proof.Proof.Spec
import proofs.«407913_j32418413150371_1_alg».proof.Proof.Blocks

noncomputable section

open scoped BigOperators

namespace Cert.KernelIdeal.Step

open Cert.KernelIdeal Cert.KernelIdeal.Gen Cert.Seesaw Idealize.ShloMosaic Idealize.ShloMosaic.ValueIdx

/-- The accumulator after step t (steps past the 32nd change nothing): step 0 adds its block's term to the zero it
    has just stored, a later step adds its block's term to what the step before left. -/
def accV (xb wb : Fin 32 → Vec Ideal S128x8142 .f32) (tb : Fin 32 → Vec Ideal S128x1 .i32) : ℕ → Vec Ideal S1x1 .f32
  | 0 => k0_pay2 (F := Ideal) (k0_pay4 (wb 0) (xb 0)) (k0_pay5 (wb 0) (xb 0)) (k0_pay6 (wb 0) (xb 0)) (tb 0)
      (k0_pay1 (F := Ideal))
  | t + 1 =>
    if h : t + 1 < 32 then
      k0_pay2 (F := Ideal) (k0_pay4 (wb ⟨t + 1, h⟩) (xb ⟨t + 1, h⟩)) (k0_pay5 (wb ⟨t + 1, h⟩) (xb ⟨t + 1, h⟩))
        (k0_pay6 (wb ⟨t + 1, h⟩) (xb ⟨t + 1, h⟩)) (tb ⟨t + 1, h⟩) (accV xb wb tb t)
    else accV xb wb tb t

section Fold

variable (X : SX.Idx → EReal) (T : ST.Idx → BitVec 32) (Wm : SW.Idx → EReal)
  (xb wb : Fin 32 → Vec Ideal S128x8142 .f32) (tb : Fin 32 → Vec Ideal S128x1 .i32)

/-- Step t's sum of row terms, over blocks that are rows 128 t + r of the arrays, is block t's term. -/
theorem stepTerm_eq
    (hx : ∀ (t : Fin 32) (r : Fin 128) (j : Fin 8142), xb t (ix2 r j) = X (ix2 ⟨128 * t.val + r.val, by omega⟩ j))
    (ht : ∀ (t : Fin 32) (r : Fin 128), tb t (ix2 r 0) = T (ix1 ⟨128 * t.val + r.val, by omega⟩))
    (hw : ∀ (t : Fin 32) (r : Fin 128) (j : Fin 8142),
      wb t (ix2 r j) = Wm (ix2 (cls (T (ix1 ⟨128 * t.val + r.val, by omega⟩))) j))
    (t : Fin 32) :
    ∑ r : Fin 128, rowNll (fun j : Fin 8142 => xb t (ix2 r j) + Ideal.log (wb t (ix2 r j))) (cls (tb t (ix2 r 0)))
      = blockTerm X T Wm t := by
  unfold blockTerm
  refine Finset.sum_congr rfl fun r _ => ?_
  rw [ht t r]
  refine congrArg (fun a => rowNll a (cls (T (ix1 ⟨128 * t.val + r.val, by omega⟩)))) ?_
  funext j
  rw [hx t r j, hw t r j]
  rfl

/-- One step's store at the one index: the accumulator it found plus block t's term. -/
theorem step_block
    (hT : ∀ i, (T i).toNat < 8142)
    (hx : ∀ (t : Fin 32) (r : Fin 128) (j : Fin 8142), xb t (ix2 r j) = X (ix2 ⟨128 * t.val + r.val, by omega⟩ j))
    (ht : ∀ (t : Fin 32) (r : Fin 128), tb t (ix2 r 0) = T (ix1 ⟨128 * t.val + r.val, by omega⟩))
    (hw : ∀ (t : Fin 32) (r : Fin 128) (j : Fin 8142),
      wb t (ix2 r j) = Wm (ix2 (cls (T (ix1 ⟨128 * t.val + r.val, by omega⟩))) j))
    (t : Fin 32) (acc : Vec Ideal S1x1 .f32) :
    k0_pay2 (F := Ideal) (k0_pay4 (wb t) (xb t)) (k0_pay5 (wb t) (xb t)) (k0_pay6 (wb t) (xb t)) (tb t) acc (ix2 0 0)
      = acc (ix2 0 0) + blockTerm X T Wm t := by
  have hlt : ∀ r : Fin 128, (tb t (ix2 r 0)).toNat < 8142 := fun r => by rw [ht t r]; exact hT _
  refine (congrFun (step_value (wb t) (xb t) (tb t) acc hlt) (ix2 0 0)).trans ?_
  exact congrArg (acc (ix2 0 0) + ·) (stepTerm_eq X T Wm xb wb tb hx ht hw t)

/-- After the 32 steps, the output: the kernel's result. -/
theorem final_value (hT : ∀ i, (T i).toNat < 8142)
    (hx : ∀ (t : Fin 32) (r : Fin 128) (j : Fin 8142), xb t (ix2 r j) = X (ix2 ⟨128 * t.val + r.val, by omega⟩ j))
    (ht : ∀ (t : Fin 32) (r : Fin 128), tb t (ix2 r 0) = T (ix1 ⟨128 * t.val + r.val, by omega⟩))
    (hw : ∀ (t : Fin 32) (r : Fin 128) (j : Fin 8142),
      wb t (ix2 r j) = Wm (ix2 (cls (T (ix1 ⟨128 * t.val + r.val, by omega⟩))) j)) :
    k0_pay3 (F := Ideal) (accV xb wb tb 31) = fun _ => kernelVal X T Wm := by
  rw [pay3_value]
  funext _
  refine kernelVal_eq_blocks X T Wm (fun t => accV xb wb tb t (ix2 0 0)) ?_ fun t h => ?_
  · show accV xb wb tb 0 (ix2 0 0) = 0 + blockTerm X T Wm 0
    rw [accV]
    refine (step_block X T Wm xb wb tb hT hx ht hw 0 (k0_pay1 (F := Ideal))).trans ?_
    exact congrArg (· + blockTerm X T Wm 0) (congrFun pay1_value _)
  · show accV xb wb tb (t + 1) (ix2 0 0) = accV xb wb tb t (ix2 0 0) + blockTerm X T Wm ⟨t + 1, h⟩
    rw [accV, dif_pos h]
    exact step_block X T Wm xb wb tb hT hx ht hw ⟨t + 1, h⟩ (accV xb wb tb t)

end Fold

end Cert.KernelIdeal.Step

end
-- ==== Proof.KIValue.lean ====
/-
  The idealized kernel's value: after @main the result is the class-weighted cross-entropy of the three
  argument arrays as the specification writes the kernel's side of it, and the arguments are unchanged.

  The running-sum scratch after step n is the fold of the 32 steps' stores over the blocks the windows hold,
  step t's blocks being rows 128 t … 128 t + 127 of the logits and of the labels and the weight rows those
  labels name; the output window's one block is the whole [1, 1] result array, written back after the last
  step only, holding the sum times the word of 2⁻¹²; the reshape after the region reads it at its one index.
-/
import proofs.«407913_j32418413150371_1_alg».proof.Proof.KIFrame
import proofs.«407913_j32418413150371_1_alg».proof.Proof.KIFold
import proofs.«407913_j32418413150371_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## The accumulation is the fold of the 32 steps -/

/-- A step number below 32 is a grid point. -/
theorem lt_N (t : Fin 32) : t.val < (cfgM m).N := by rw [N_eq]; exact t.isLt

/-- The 32 steps' blocks of the logits, of the labels, and gathered rows. -/
abbrev xbs (c : Dev nD) (t : Fin 32) : Vec Ideal S128x8142 .f32 := xblk m c ⟨t.val, lt_N m t⟩
abbrev tbs (c : Dev nD) (t : Fin 32) : Vec Ideal S128x1 .i32 := tblk m c ⟨t.val, lt_N m t⟩
abbrev wbs (c : Dev nD) (t : Fin 32) : Vec Ideal S128x8142 .f32 := wbAt m c ⟨t.val, lt_N m t⟩

/-- What the running-sum scratch holds after step n is the fold of the steps' stores up to n. -/
theorem accAt_eq_accV (c : Dev nD) :
    ∀ (n : ℕ) (hn : n < (cfgM m).N), accAt m c n hn = Step.accV (xbs m c) (wbs m c) (tbs m c) n
  | 0, hn => rfl
  | n + 1, hn => by
    have h32 : n + 1 < 32 := lt_of_lt_of_eq hn (N_eq m)
    rw [accAt, Step.accV, dif_pos h32, accAt_eq_accV c n]
    rfl

/-- A rank-1 grid's coordinate is the point's number. -/
theorem coords_val : ∀ t : Fin grid0.N, (grid0.coords t 0).val = t.val := by decide +kernel

/-- Row r of step t's gathered rows is the weight row that label 128 t + r names. -/
theorem wbs_apply (c : Dev nD) (t : Fin 32) (r : Fin 128) (j : Fin 8142) :
    wbs m c t (ix2 r j)
      = (m ((c.tc : Thread nD τ).loc main_arg2) : Cert.Seesaw.SW.Idx → EReal)
          (ix2 (Cert.Seesaw.cls ((m ((c.tc : Thread nD τ).loc main_arg1) : Cert.Seesaw.ST.Idx → BitVec 32)
            (ix1 ⟨128 * t.val + r.val, by omega⟩))) j) := by
  obtain rfl : c = 0 := Subsingleton.elim _ _
  have hlt : 128 * t.val + r.val < 4096 := by omega
  have hq : (128 * (grid0.coords (⟨t.val, lt_N m t⟩ : Fin (cfgM m).N) 0).val + r.val) % 4096 = 128 * t.val + r.val := by
    have e : (grid0.coords (⟨t.val, lt_N m t⟩ : Fin (cfgM m).N) 0).val = t.val := coords_val ⟨t.val, lt_N m t⟩
    rw [e]
    exact Nat.mod_eq_of_lt hlt
  have hw : ((tbl m 0 : S4096.Idx → Elt Ideal .i32)
        (ix1 ⟨(128 * (grid0.coords (⟨t.val, lt_N m t⟩ : Fin (cfgM m).N) 0).val + r.val) % 4096, Nat.mod_lt _ (by decide)⟩) : BitVec 32)
      = (m (((0 : Dev nD).tc : Thread nD τ).loc main_arg1) : Cert.Seesaw.ST.Idx → BitVec 32) (ix1 ⟨128 * t.val + r.val, hlt⟩) := by
    refine (congrFun (V_main_arg1 m 0) _).trans ?_
    exact congrArg _ (congrArg ix1 (Fin.ext hq))
  refine (congrFun (V_main_arg2 m 0) _).trans ?_
  exact congrArg (fun w : BitVec 32 =>
    (m (((0 : Dev nD).tc : Thread nD τ).loc main_arg2) : Cert.Seesaw.SW.Idx → EReal) (ix2 (Cert.Seesaw.cls w) j)) hw

/-! ## The output array -/

/-- The output window's index map: block (0, 0) at every step. -/
theorem idx_out : ∀ t : Fin grid0.N, cc0_transform_3 (grid0.coords t) 0 = 0 ∧ cc0_transform_3 (grid0.coords t) 1 = 0 := by
  decide +kernel

/-- The output window's block offsets are zero at every step. -/
theorem off_out (t : Fin (cfgM m).N) :
    (fun a => ((cfgM m).win 2).index t a * main_v1.ty.shape.size a) = fun _ => 0 := by
  obtain ⟨e0, e1⟩ := idx_out t
  funext a
  match a with
  | ⟨0, _⟩ => show cc0_transform_3 (grid0.coords t) 0 * 1 = 0; rw [e0]
  | ⟨1, _⟩ => show cc0_transform_3 (grid0.coords t) 1 * 1 = 0; rw [e1]

/-- What a step writes back of the output window is its block of the last step's output: the whole [1, 1] array. -/
theorem flushed_out (c : Dev nD) (t : Fin (cfgM m).N) :
    (dats m 0 c).flushed 2 t = (((cfgM m).win 2).blk t).view.read (Elt Ideal) (outAt m c) := by
  show ((cfgM m).win 2).cut (grid0.coords t) ((dats m 0 c).after 2 t) = _
  rw [after0_2]
  exact (Memref.read_access_unit_zero (Elt Ideal) main_v1 (off_out m t)
    (fun a => by rw [congrFun (off_out m t) a]; simp) (outAt m c)).symm

set_option backward.isDefEq.respectTransparency.types false in
/-- The last step's block covers the array's one index. -/
theorem cover_out (c : Dev nD) (i : ((((cfgM m).win 2).arr.view.loc (c.tc : Thread nD τ)).2.ty.Idx)) :
    ∃ t : Fin (cfgM m).N, ((cfgM m).win 2).flush t = true ∧ i ∈ (((cfgM m).win 2).blk t).view.set := by
  refine ⟨⟨31, lt31 m⟩, (flush0_2 m _).mpr rfl, ?_⟩
  show i ∈ ((View.whole main_v1).slice (((cfgM m).win 2).rect ⟨31, lt31 m⟩)).set
  rw [View.set_slice_whole]
  exact View.mem_set_unit_zero (S := S1x1) (off_out m ⟨31, lt31 m⟩) _ i

/-- So the result array ends holding the last step's output. -/
theorem final_out (c : Dev nD) : (dats m 0 c).arrAt 2 (cfgM m).N = outAt m c :=
  (dats m 0 c).arrAt_eq_of_cover 2 (outAt m c) (fun t _ => flushed_out m c t) (cover_out m c)

/-! ## The result -/

/-- The last step's output is the kernel's result of the three argument arrays, when every label is a class. -/
theorem outAt_value (c : Dev nD)
    (hT : ∀ i, ((m ((c.tc : Thread nD τ).loc main_arg1) : Cert.Seesaw.ST.Idx → BitVec 32) i).toNat < 8142) :
    outAt m c = fun _ => Cert.Seesaw.kernelVal (m ((c.tc : Thread nD τ).loc main_arg0)) (m ((c.tc : Thread nD τ).loc main_arg1))
      (m ((c.tc : Thread nD τ).loc main_arg2)) := by
  unfold outAt
  rw [accAt_eq_accV m c 31 (lt31 m)]
  exact Step.final_value (m ((c.tc : Thread nD τ).loc main_arg0)) (m ((c.tc : Thread nD τ).loc main_arg1))
    (m ((c.tc : Thread nD τ).loc main_arg2)) (xbs m c) (wbs m c) (tbs m c) hT
    (fun t r j => xblk_apply m c ⟨t.val, lt_N m t⟩ r j) (fun t r => tblk_apply m c ⟨t.val, lt_N m t⟩ r)
    (fun t r j => wbs_apply m c t r j)

/-- After the region the reshape reads the result array, which holds the last step's output. -/
theorem tail_value (c : Dev nD) :
    Pipeline.afterTail pcfgs (fun _ => adm m) (dats m) 0 (V0 m) [hostOps1] c main_v2
      = shapeCast S_ (outAt m c) shapeCasts_S1x1_S_ := by
  have hA : Pipeline.withArrays (Pipeline.pin pcfgs (fun _ => adm m) 0).spec c (V0 m c)
      (fun w => (dats m 0 c).arrAt w (Pipeline.pin pcfgs (fun _ => adm m) 0).N) (Proc.devRef .tc main_v1) = outAt m c :=
    (Pipeline.withArrays_arr spec0 (launch0 (F := Ideal)).win.arr_inj c _ _ 2).trans (final_out m c)
  unfold Pipeline.afterTail
  show StableHlo.after hostOps1 _ (Proc.devRef .tc main_v2) = _
  after_results
  rw [hA]
  rfl

/-- The reshape of a constant [1, 1] array to a scalar is the constant. -/
theorem result_value (c : Dev nD)
    (hT : ∀ i, ((m ((c.tc : Thread nD τ).loc main_arg1) : Cert.Seesaw.ST.Idx → BitVec 32) i).toNat < 8142) :
    Pipeline.afterTail pcfgs (fun _ => adm m) (dats m) 0 (V0 m) [hostOps1] c main_v2
      = fun _ => Cert.Seesaw.kernelVal (m ((c.tc : Thread nD τ).loc main_arg0)) (m ((c.tc : Thread nD τ).loc main_arg1))
          (m ((c.tc : Thread nD τ).loc main_arg2)) := by
  rw [tail_value, outAt_value m c hT]
  rfl

/-- THE VALUE: every weakly fair execution of @main terminates with the result at the kernel's value of the three
    argument arrays and the arguments unchanged — for every memory whose arrays the precondition admits. -/
theorem value_run (m : (ℓ : Loc nD τ sig) → Buf (Elt Ideal) ℓ) (ρ : Dev nD → PrngReg)
    (hG : ∀ c : Dev nD, Cert.Seesaw.Good (m ((c.tc : Thread nD τ).loc main_arg0)) (m ((c.tc : Thread nD τ).loc main_arg1))
      (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v2) = (fun _ => Cert.Seesaw.kernelVal (m ((c.tc : Thread nD τ).loc main_arg0))
          (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (show main_v2 ∈ Pipeline.restRefs sig spec0 from by decide)).trans (result_value m c (hG c).t_lt),
      ((h c).1 0).trans (((dats m 0 c).arrAt_in 0 rfl _).trans ((A_eq m c 0).trans (V_main_arg0 m c))),
      ((h c).2 main_arg1 (show main_arg1 ∈ Pipeline.restRefs sig spec0 from by decide)).trans
        ((tail_keeps m c main_arg1 (by decide) (by decide)).trans (V_main_arg1 m c)),
      ((h c).2 main_arg2 (show main_arg2 ∈ Pipeline.restRefs sig spec0 from by decide)).trans
        ((tail_keeps m c main_arg2 (by decide) (by decide)).trans (V_main_arg2 m c))⟩)
    (run_main (F := Ideal) m ρ (hyps_of_labels m fun c i => (hG c).t_lt i))

end Cert.KernelIdeal.Fr

end
-- ==== Proof.KKit.lean ====
/-
  The launch side of the kernel's frame: @main as the label reshape, the one region, and the
  reshape of the [1,1] result; the contents the region finds; the label table read off the launch memory;
  the windows' blocks; the kernel's own two DMA cells and the weight matrix it copies rows of; and the
  region invariant conjunct by conjunct.
-/
import proofs.«407913_j32418413150371_1_alg».proof.Proof.Gen.Kernel.Launch
import proofs.«407913_j32418413150371_1_alg».proof.Proof.Gen.Kernel.Skeleton
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The buffers' contents when the region is entered: the launch memory after the reshape of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last reshape, at the contents after the first. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape before the region writes only the label column: the three arguments are as launched, -/
theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_arg2 (c : Dev nD) : V m c main_arg2 = m ((c : Thread nD τ).loc main_arg2) := by
  show StableHlo.after hostOps0 (fun b => m (c, b)) (Proc.devRef .tc main_arg2) = _; after_results
/-- and the label column is the labels reshaped [4096] → [4096, 1]. -/
theorem V_main_v0 (c : Dev nD) : (V m c main_v0 : S4096x1.Idx → Elt F .i32)
    = shapeCast S4096x1 (m ((c : Thread nD τ).loc main_arg1) : S4096.Idx → Elt F .i32) shapeCasts_S4096_S4096x1 := by
  show StableHlo.after hostOps0 (fun b => m (c, b)) (Proc.devRef .tc main_v0) = _; after_results; rfl

/-! ## The label table, read off the launch memory -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's contents as admissible contents (no index map reads the table: nothing is asked of them), and the pipeline at them. -/
abbrev adm : (pcfg0 (F := F)).Adm := ⟨tbl m, trivial⟩
abbrev cfgM : Pipeline.Cfg sig Λ₀ := cfg0 (adm m)

/-- The table as the body is handed it: its whole buffer as a memref. -/
abbrev tbM0_0 : Memref sig .tc .smem S4096 .i32 := Memref.whole main_arg1
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's operands -/

/-- Each window's current staging memref at point `t`, spelled as the pipeline passes it, and its wholeness. -/
abbrev ms0_0 (t : Fin (cfgM m).N) : Memref sig .tc .vmem S128x8142 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S128x1 .i32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1 .f32 := spec0_2.stage ((cfgM m).slots t 2)
abbrev hs0_2 (t : Fin (cfgM m).N) : (ms0_2 m t).IsWhole := hstage0_2 (((cfgM m).slots t 2).cast nbuf0_2)
/-- The scratch operands: the gathered weight rows [128, 8142] and the running sum [1, 1]. -/
abbrev scM0_0 : Memref sig .tc .vmem S128x8142 .f32 := Memref.whole cc0_scratch0
abbrev scM0_2 : Memref sig .tc .vmem S1x1 .f32 := Memref.whole cc0_scratch2
/-- The weight matrix, left in HBM, whole. -/
abbrev hbM0_0 : Memref sig .tc .hbm S8142x8142 .f32 := Memref.whole main_arg2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own two DMA cells. -/
abbrev osem0 : Fin 2 → SemLoc sig := fun j => (![SemLoc.dma 5, SemLoc.dma 6] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0) := by
  rw [Pipeline.ownSems0_eq_of_list c osem0 [0, 1] (by decide) (by decide)]; rfl
/-- The operand the body copies rows of, as a reference: unscoped, no window's array, no table. -/
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The launch's invariant conjunct by conjunct: the two scratch buffers at some contents, the generator register,
    the two cells at zero, the weight matrix at its launch contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_2 fullShare d)) ∗ (∃ r, prngReg c r)
          ∗ iprop(semVal ((c : Thread nD τ), SemLoc.dma 5) 0 ∗ semVal ((c : Thread nD τ), SemLoc.dma 6) 0) ∗ iprop(hbPt0 c hbM0_0 (V m c main_arg2))) := by
  rw [Pipeline.ΦD_eq, scopedRest0_eq, ownSems00_eq, hbmPts0_eq]; simp only [scM0_0, scM0_2, owns_whole]; try rfl

/-- The kernel body at point `t`, on what the pipeline calls it with. -/
abbrev bodyAt0 (t : Fin (cfgM m).N) : Prog (TpuEff nD τ sig (Elt F) Λ₀ .tc) PUnit :=
  cc0__kernel (grid0.coords t) (Memref.whole main_arg1) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole main_arg2) (Memref.isWhole_whole _) (spec0_2.stage ((cfgM m).slots t 2)) (hstage0_2 (((cfgM m).slots t 2).cast nbuf0_2)) (Memref.whole cc0_scratch0) (Memref.isWhole_whole _) cc0_scratch1 (Memref.whole cc0_scratch2) (Memref.isWhole_whole _)

end Cert.Kernel.Fr

end
-- ==== Proof.KRuns.lean ====
/-
  What the three cases of the kernel body's run share: the two branch conditions (the first grid step
  resets the running sum, the last writes the mean out), and the fact about the label table under which
  every row copy stays inside the weight matrix.
-/
import proofs.«407913_j32418413150371_1_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first branch's condition: the grid step is step 0. -/
abbrev cond1 (i : grid0.Coords) : Prop :=
  Scalar.cmpi .ne (Scalar.extui (Scalar.cmpi .eq (BitVec.ofNat 32 (i 0).val) 0#32)) 0#32 = 1#1
/-- The second's: it is step 31. -/
abbrev cond2 (i : grid0.Coords) : Prop := k0_cond2 i = 1#1

/-- Every word of the label table names a row of the weight matrix. -/
def TblOk (c : Dev nD) (xt : TbBuf0 (F := F) c tbM0_0) : Prop :=
  ∀ (r : LoadRect S4096) (x : r.shape.Idx), ((tbM0_0.view.readAt (Elt F) r xt x : Elt F .i32) : BitVec 32).toNat < 8142

/-- The weight matrix held at the read share of the body's cell number `k`: the two row copies in flight at once,
    one on each cell, read it under two disjoint shares (they may read the same row). -/
abbrev hbTok (c : Dev nD) (k : ℕ) (f : HbBuf0 (F := F) c hbM0_0) : sProp 𝕄 :=
  hbM0_0.view.loc (c : Thread nD τ) ↦{Transfers.shareTokN fullShare k} f

/-- A row copy whose row number is below 8142 lies inside the [8142, 8142] matrix. -/
theorem chk_of (v : BitVec 32) (h : v.toNat < 8142) :
    ∀ a : Fin 2, (![v.toNat, 0] : Fin 2 → Nat) a + S1x8142.size a ≤ S8142x8142.size a := by
  intro a
  match a with
  | ⟨0, _⟩ => show v.toNat + 1 ≤ 8142; omega
  | ⟨1, _⟩ => show 0 + 8142 ≤ 8142; omega

variable (m : (ℓ : Loc nD τ sig) → Buf (Elt F) ℓ)

/-- The first condition holds at step 0 only, the second at step 31 only: decided over the 32 steps. -/
theorem hcond1 : ∀ t : Fin (cfgM m).N, cond1 (grid0.coords t) ↔ t.val = 0 :=
  (by decide +kernel : ∀ t : Fin grid0.N, cond1 (grid0.coords t) ↔ t.val = 0)
theorem hcond2 : ∀ t : Fin (cfgM m).N, cond2 (grid0.coords t) ↔ t.val = 31 :=
  (by decide +kernel : ∀ t : Fin grid0.N, cond2 (grid0.coords t) ↔ t.val = 31)

/-- The two input windows are never idle; the output window is idle, and not written back, at every step but
    the last, where the body stores into it. -/
theorem liveAt0_0 : ∀ t : Fin (cfgM m).N, (cfgM m).idle 0 (grid0.coords t) = false := fun _ => rfl
theorem liveAt0_1 : ∀ t : Fin (cfgM m).N, (cfgM m).idle 1 (grid0.coords t) = false := fun _ => rfl
theorem idleAt0_2 : ∀ t : Fin (cfgM m).N, ¬cond2 (grid0.coords t) → (cfgM m).idle 2 (grid0.coords t) = true :=
  (by decide +kernel : ∀ t : Fin grid0.N, ¬cond2 (grid0.coords t) → idle0 2 (grid0.coords t) = true)
theorem liveAt0_2 : ∀ t : Fin (cfgM m).N, cond2 (grid0.coords t) → (cfgM m).idle 2 (grid0.coords t) = false :=
  (by decide +kernel : ∀ t : Fin grid0.N, cond2 (grid0.coords t) → idle0 2 (grid0.coords t) = false)
theorem noFlush0_2 : ∀ t : Fin (cfgM m).N, ¬cond2 (grid0.coords t) → ((cfgM m).win 2).flush t = false :=
  (by decide +kernel : ∀ t : Fin grid0.N, ¬cond2 (grid0.coords t) → Pipeline.Window.flushOf grid0 true cc0_transform_3 t = false)
theorem flush0_2 : ∀ t : Fin (cfgM m).N, ((cfgM m).win 2).flush t = true ↔ t.val = 31 :=
  (by decide +kernel : ∀ t : Fin grid0.N, Pipeline.Window.flushOf grid0 true cc0_transform_3 t = true ↔ t.val = 31)

end Cert.Kernel.Fr

end
-- ==== Proof.KRunA.lean ====
/-
  The kernel body run once at the first grid step: the running sum is reset to zero, the 128 rows of the
  weight matrix the step's labels name are copied in two at a time on the body's two cells, and the sum is
  stored back with this step's 128 row terms added to the zero; the output window is left as found.
-/
import proofs.«407913_j32418413150371_1_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The pieces the run leaves in the running-sum scratch, with the proof that the body runs to its end from
    whole staging buffers, the table's half, the weight matrix at the two cells' read shares and the two cells at
    zero, handing all of them back (the gathered-rows scratch at some contents, the cells at zero again). -/
noncomputable def kernelRun0_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i)
    (x0 : Vec F S128x8142 .f32) (x1 : Vec F S128x1 .i32) (xs0 : Vec F S128x8142 .f32) (xt0 : TbBuf0 (F := F) c tbM0_0) (fh0 : HbBuf0 (F := F) c hbM0_0) (hT : TblOk c xt0) :
    { LS2 : List (View.Piece (Elt F) S1x1 .f32) //
      ∀ (xi2 : Vec F S1x1 .f32) (W : Waits sig Unit) (K : PUnit → sProp 𝕄),
        iprop(owns (c : Thread nD τ) arg2 fullShare x0 ∗ owns (c : Thread nD τ) arg3 fullShare x1 ∗ owns (c : Thread nD τ) arg5 fullShare xi2
            ∗ owns (c : Thread nD τ) scM0_0 fullShare xs0 ∗ (∃ d, owns (c : Thread nD τ) scM0_2 fullShare d)
            ∗ semVal ((c : Thread nD τ), SemLoc.dma 5) 0 ∗ semVal ((c : Thread nD τ), SemLoc.dma 6) 0
            ∗ hbTok c 5 fh0 ∗ hbTok c 6 fh0 ∗ tbPt0 c tbM0_0 xt0 ∗ owes (c : Thread nD τ) 0 W
            ∗ (iprop(owns (c : Thread nD τ) arg2 fullShare x0 ∗ owns (c : Thread nD τ) arg3 fullShare x1 ∗ owns (c : Thread nD τ) arg5 fullShare xi2
                ∗ (∃ d, owns (c : Thread nD τ) scM0_0 fullShare d)
                ∗ (∃ f, scM0_2.view.loc (c : Thread nD τ) ↦[scM0_2.view.set]{fullShare} scM0_2.view.writes (Elt F) f LS2)
                ∗ semVal ((c : Thread nD τ), SemLoc.dma 5) 0 ∗ semVal ((c : Thread nD τ), SemLoc.dma 6) 0
                ∗ hbTok c 5 fh0 ∗ hbTok c 6 fh0 ∗ tbPt0 c tbM0_0 xt0 ∗ (∃ W', owes (c : Thread nD τ) 0 W')) -∗ K ⟨⟩))
          ⊢ wp frame (wpE (defs₀ (F := F)) Variants.none c none) Set.univ
              (cc0__kernel i tbM0_0 htbM0_0 arg2 harg2 arg3 harg3 hbM0_0 (Memref.isWhole_whole _) arg5 harg5 scM0_0 (Memref.isWhole_whole _) cc0_scratch1 scM0_2 (Memref.isWhole_whole _)) K } := by
  refine ⟨?_, fun xi2 W K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%fs0, %hfs0, HS0⟩, ⟨%ds2, %fs2, -, HS2⟩, Hq0, Hq1, Hh0, Hh1, HT0, HW, Hk⟩
    obtain rfl := (Memref.isWhole_whole cc0_scratch0).eq_unread hfs0
    obtain rfl := harg2.eq_unread hf0; obtain rfl := harg3.eq_unread hf1; obtain rfl := harg5.eq_unread hf2
    sl_exec_parts! (disch := first | exact hc1 | exact hc2 | sl_exact hc1 | sl_exact hc2 | exact chk_of _ (hT _ _) | sl_exact (chk_of _ (hT _ _)))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [HS0]
    · iexists _, _; isplitr; swap; · iexact HS0
      ipureintro; rfl
    isplitl [HS2]; · iexists _; iexact HS2
    isplitl [Hq0]; · iexact Hq0
    isplitl [Hq1]; · iexact Hq1
    isplitl [Hh0]; · iexact Hh0
    isplitl [Hh1]; · iexact Hh1
    isplitl [HT0]; · iexact HT0
    iexists _; iexact HW

end Cert.Kernel.Fr

end
-- ==== Proof.KRunB.lean ====
/-
  The kernel body run once at a symbolic grid step that is neither the first nor the last: the 128 row
  copies of the weight matrix are started and waited for two at a time on the body's two cells, the
  logits' block and the gathered rows are loaded, and the running sum is read and stored back with this
  step's 128 row terms added; the output window is left as found.
-/
import proofs.«407913_j32418413150371_1_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The pieces the run leaves in the running-sum scratch, with the proof that the body runs to its end from
    whole staging buffers, the table's half, the weight matrix at the two cells' read shares and the two cells at
    zero, handing all of them back (the gathered-rows scratch at some contents, the cells at zero again). -/
noncomputable def kernelRun0_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i)
    (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    { LS2 : List (View.Piece (Elt F) S1x1 .f32) //
      ∀ (xi2 : Vec F S1x1 .f32) (W : Waits sig Unit) (K : PUnit → sProp 𝕄),
        iprop(owns (c : Thread nD τ) arg2 fullShare x0 ∗ owns (c : Thread nD τ) arg3 fullShare x1 ∗ owns (c : Thread nD τ) arg5 fullShare xi2
            ∗ owns (c : Thread nD τ) scM0_0 fullShare xs0 ∗ owns (c : Thread nD τ) scM0_2 fullShare xs2
            ∗ semVal ((c : Thread nD τ), SemLoc.dma 5) 0 ∗ semVal ((c : Thread nD τ), SemLoc.dma 6) 0
            ∗ hbTok c 5 fh0 ∗ hbTok c 6 fh0 ∗ tbPt0 c tbM0_0 xt0 ∗ owes (c : Thread nD τ) 0 W
            ∗ (iprop(owns (c : Thread nD τ) arg2 fullShare x0 ∗ owns (c : Thread nD τ) arg3 fullShare x1 ∗ owns (c : Thread nD τ) arg5 fullShare xi2
                ∗ (∃ d, owns (c : Thread nD τ) scM0_0 fullShare d)
                ∗ (∃ f, scM0_2.view.loc (c : Thread nD τ) ↦[scM0_2.view.set]{fullShare} scM0_2.view.writes (Elt F) f LS2)
                ∗ semVal ((c : Thread nD τ), SemLoc.dma 5) 0 ∗ semVal ((c : Thread nD τ), SemLoc.dma 6) 0
                ∗ hbTok c 5 fh0 ∗ hbTok c 6 fh0 ∗ tbPt0 c tbM0_0 xt0 ∗ (∃ W', owes (c : Thread nD τ) 0 W')) -∗ K ⟨⟩))
          ⊢ wp frame (wpE (defs₀ (F := F)) Variants.none c none) Set.univ
              (cc0__kernel i tbM0_0 htbM0_0 arg2 harg2 arg3 harg3 hbM0_0 (Memref.isWhole_whole _) arg5 harg5 scM0_0 (Memref.isWhole_whole _) cc0_scratch1 scM0_2 (Memref.isWhole_whole _)) K } := by
  refine ⟨?_, fun xi2 W K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%fs0, %hfs0, HS0⟩, ⟨%fs2, %hfs2, HS2⟩, Hq0, Hq1, Hh0, Hh1, HT0, HW, Hk⟩
    obtain rfl := (Memref.isWhole_whole cc0_scratch0).eq_unread hfs0
    obtain rfl := harg2.eq_unread hf0; obtain rfl := harg3.eq_unread hf1; obtain rfl := harg5.eq_unread hf2
    obtain rfl := (Memref.isWhole_whole cc0_scratch2).eq_unread hfs2
    sl_exec_parts! (disch := first | exact hc1 | exact hc2 | sl_exact hc1 | sl_exact hc2 | exact chk_of _ (hT _ _) | sl_exact (chk_of _ (hT _ _)))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [HS0]
    · iexists _, _; isplitr; swap; · iexact HS0
      ipureintro; rfl
    isplitl [HS2]; · iexists _; iexact HS2
    isplitl [Hq0]; · iexact Hq0
    isplitl [Hq1]; · iexact Hq1
    isplitl [Hh0]; · iexact Hh0
    isplitl [Hh1]; · iexact Hh1
    isplitl [HT0]; · iexact HT0
    iexists _; iexact HW

end Cert.Kernel.Fr

end
-- ==== Proof.KRunC.lean ====
/-
  The kernel body run once at the last grid step: the 128 row copies, the running sum read and stored back
  with this step's row terms added, and then the sum times 2⁻¹² stored into the output window.
-/
import proofs.«407913_j32418413150371_1_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The pieces the run leaves in the running-sum scratch and in the output window, with the proof that the body runs to its end from
    whole staging buffers, the table's half, the weight matrix at the two cells' read shares and the two cells at
    zero, handing all of them back (the gathered-rows scratch at some contents, the cells at zero again). -/
noncomputable def kernelRun0_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i)
    (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    Σ' (L5 : List (View.Piece (Elt F) S1x1 .f32)), { LS2 : List (View.Piece (Elt F) S1x1 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d)
            ∗ owns (c : Thread nD τ) scM0_0 fullShare xs0 ∗ owns (c : Thread nD τ) scM0_2 fullShare xs2
            ∗ semVal ((c : Thread nD τ), SemLoc.dma 5) 0 ∗ semVal ((c : Thread nD τ), SemLoc.dma 6) 0
            ∗ hbTok c 5 fh0 ∗ hbTok c 6 fh0 ∗ tbPt0 c tbM0_0 xt0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L5)
                ∗ (∃ d, owns (c : Thread nD τ) scM0_0 fullShare d)
                ∗ (∃ f, scM0_2.view.loc (c : Thread nD τ) ↦[scM0_2.view.set]{fullShare} scM0_2.view.writes (Elt F) f LS2)
                ∗ semVal ((c : Thread nD τ), SemLoc.dma 5) 0 ∗ semVal ((c : Thread nD τ), SemLoc.dma 6) 0
                ∗ hbTok c 5 fh0 ∗ hbTok c 6 fh0 ∗ tbPt0 c tbM0_0 xt0 ∗ (∃ W', owes (c : Thread nD τ) 0 W')) -∗ K ⟨⟩))
          ⊢ wp frame (wpE (defs₀ (F := F)) Variants.none c none) Set.univ
              (cc0__kernel i tbM0_0 htbM0_0 arg2 harg2 arg3 harg3 hbM0_0 (Memref.isWhole_whole _) arg5 harg5 scM0_0 (Memref.isWhole_whole _) cc0_scratch1 scM0_2 (Memref.isWhole_whole _)) K } := by
  refine ⟨?_, ?_, fun W K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%fs0, %hfs0, HS0⟩, ⟨%fs2, %hfs2, HS2⟩, Hq0, Hq1, Hh0, Hh1, HT0, HW, Hk⟩
    obtain rfl := (Memref.isWhole_whole cc0_scratch0).eq_unread hfs0
    obtain rfl := harg2.eq_unread hf0; obtain rfl := harg3.eq_unread hf1
    obtain rfl := (Memref.isWhole_whole cc0_scratch2).eq_unread hfs2
    sl_exec_parts! (disch := first | exact hc1 | exact hc2 | sl_exact hc1 | sl_exact hc2 | exact chk_of _ (hT _ _) | sl_exact (chk_of _ (hT _ _)))
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _, _; isplitr; swap; · iexact HS0
      ipureintro; rfl
    isplitl [HS2]; · iexists _; iexact HS2
    isplitl [Hq0]; · iexact Hq0
    isplitl [Hq1]; · iexact Hq1
    isplitl [Hh0]; · iexact Hh0
    isplitl [Hh1]; · iexact Hh1
    isplitl [HT0]; · iexact HT0
    iexists _; iexact HW

end Cert.Kernel.Fr

end
-- ==== Proof.KBlocks.lean ====
/-
  The two input windows' blocks, read at explicit coordinates.

  The grid has 32 steps. At step t the first window holds rows 128·t … 128·t + 127 of the logits x : [4096, 8142]
  (all 8142 columns), and the second holds the same rows of the label column [4096, 1], which is the label vector
  [4096] reshaped: entry (r, 0) of a block is label 128·t + r. A block's coordinate on an axis is always the block
  index times the block's extent plus the coordinate inside the block; the index maps are (t, 0) for both windows.
-/
import proofs.«407913_j32418413150371_1_alg».proof.Proof.KKit
import Idealize.ShloMosaic.Lib.ValueIdx
import Idealize.ShloMosaic.Lib.Pipeline.Value
import Idealize.ShloMosaic.Lib.ValueLayout

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- The grid has 32 steps. -/
theorem N_eq : (cfgM m).N = 32 := N_0

/-- Row r of step t's block is a row of the array. -/
theorem row_lt (t : Fin (cfgM m).N) (r : Fin 128) : 128 * t.val + r.val < 4096 := by
  have ht : t.val < 32 := lt_of_lt_of_eq t.isLt (N_eq m)
  have hr := r.isLt
  omega

/-- Step t's block of the logits, and of the label column. -/
abbrev xblk (c : Dev nD) (t : Fin (cfgM m).N) : Vec F S128x8142 .f32 := iblk m c 0 t
abbrev tblk (c : Dev nD) (t : Fin (cfgM m).N) : Vec F S128x1 .i32 := iblk m c 1 t

/-- The two windows' index maps over the grid: block (t, 0) at step t. -/
theorem idx_facts : ∀ t : Fin grid0.N, cc0_transform_0 (grid0.coords t) 0 = t.val ∧ cc0_transform_0 (grid0.coords t) 1 = 0
    ∧ cc0_transform_1 (grid0.coords t) 0 = t.val ∧ cc0_transform_1 (grid0.coords t) 1 = 0 := by
  decide +kernel

/-- Entry (r, j) of step t's block of the logits is x at row 128·t + r, column j. -/
theorem xblk_apply (c : Dev nD) (t : Fin (cfgM m).N) (r : Fin 128) (j : Fin 8142) :
    xblk m c t (ix2 r j) = (m ((c : Thread nD τ).loc main_arg0) : S4096x8142.Idx → Elt F .f32) (ix2 ⟨128 * t.val + r.val, row_lt m t r⟩ j) := by
  obtain ⟨e0, e1, -, -⟩ := idx_facts t
  have key : ((((cfgM m).win 0).blk t).view.emb (ix2 r j) : S4096x8142.Idx) = ix2 ⟨128 * t.val + r.val, row_lt m t r⟩ j := by
    funext a
    apply Fin.ext
    match a with
    | ⟨0, _⟩ => show cc0_transform_0 (grid0.coords t) 0 * 128 + 1 * r.val = 128 * t.val + r.val; rw [e0]; omega
    | ⟨1, _⟩ => show cc0_transform_0 (grid0.coords t) 1 * 8142 + 1 * j.val = j.val; rw [e1]; omega
  show V m c main_arg0 ((((cfgM m).win 0).blk t).view.emb (ix2 r j)) = _
  exact (congrFun (V_main_arg0 m c) _).trans (congrArg (m ((c : Thread nD τ).loc main_arg0) : S4096x8142.Idx → Elt F .f32) key)

/-- The label column is the label vector: entry (q, 0) of the reshape [4096] → [4096, 1] is entry q. -/
theorem col_apply {α : Type} (x : S4096.Idx → α) (q : Fin 4096) :
    shapeCast S4096x1 x shapeCasts_S4096_S4096x1 (ix2 q (0 : Fin 1)) = x (ix1 q) :=
  shapeCast_apply x shapeCasts_S4096_S4096x1 _ _ (by
    rw [Shape.rowMajor_val_two, Shape.rowMajor_val_one]
    show q.val = q.val * 1 + 0
    omega)

/-- Entry (r, 0) of step t's block of the label column is label 128·t + r. -/
theorem tblk_apply (c : Dev nD) (t : Fin (cfgM m).N) (r : Fin 128) :
    tblk m c t (ix2 r (0 : Fin 1)) = (m ((c : Thread nD τ).loc main_arg1) : S4096.Idx → Elt F .i32) (ix1 ⟨128 * t.val + r.val, row_lt m t r⟩) := by
  obtain ⟨-, -, e0, e1⟩ := idx_facts t
  have key : ((((cfgM m).win 1).blk t).view.emb (ix2 r (0 : Fin 1)) : S4096x1.Idx) = ix2 ⟨128 * t.val + r.val, row_lt m t r⟩ (0 : Fin 1) := by
    funext a
    apply Fin.ext
    match a with
    | ⟨0, _⟩ => show cc0_transform_1 (grid0.coords t) 0 * 128 + 1 * r.val = 128 * t.val + r.val; rw [e0]; omega
    | ⟨1, _⟩ => show cc0_transform_1 (grid0.coords t) 1 * 1 + 1 * 0 = 0; rw [e1]
  show V m c main_v0 ((((cfgM m).win 1).blk t).view.emb (ix2 r (0 : Fin 1))) = _
  exact ((congrFun (V_main_v0 m c) _).trans
    (congrArg (shapeCast S4096x1 (m ((c : Thread nD τ).loc main_arg1) : S4096.Idx → Elt F .i32) shapeCasts_S4096_S4096x1) key)).trans
    (col_apply _ _)

end Cert.Kernel.Fr

end
-- ==== Proof.KPieces.lean ====
/-
  What each case of the body's run leaves, as values: the running-sum scratch after a step holds the step's
  store — the 128 row terms of the logits block and the gathered weight rows added to what the scratch held
  (zero at the first step) — and the output window after the last step holds that sum times 2⁻¹². The
  gathered rows are the rows of the weight matrix that the label table's words for this step name, whatever
  the scratch they were copied into held before.
-/
import proofs.«407913_j32418413150371_1_alg».proof.Proof.KRunA
import proofs.«407913_j32418413150371_1_alg».proof.Proof.KRunB
import proofs.«407913_j32418413150371_1_alg».proof.Proof.KRunC
import proofs.«407913_j32418413150371_1_alg».proof.Proof.KBlocks

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- The running-sum scratch and one staging buffer of the output window, as views contents are stated through. -/
abbrev VS2 : View sig .tc .vmem S1x1 .f32 := scM0_2.view
abbrev VO2 : View sig .tc .vmem S1x1 .f32 := (Memref.whole cc0_stg2_0 : Memref sig .tc .vmem S1x1 .f32).view

/-! ## What each case's run leaves, as pieces read back -/

theorem scover_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0) (y : S1x1.Idx) :
    ∃ pc ∈ (kernelRun0_A c i arg2 harg2 arg3 harg3 arg5 harg5 hc1 hc2 x0 x1 xs0 xt0 fh0 hT).1, y ∈ pc.1.set :=
  View.cover_of_tiledL (kernelRun0_A c i arg2 harg2 arg3 harg3 arg5 harg5 hc1 hc2 x0 x1 xs0 xt0 fh0 hT).1 S1x1.size (by sl_kernel_rfl) y
/-- What case A leaves in the running-sum scratch: its pieces read back over junk. -/
def sout_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0) : Vec F S1x1 .f32 :=
  VS2.read (Elt F) (VS2.writes (Elt F) VS2.junk (kernelRun0_A c i arg2 harg2 arg3 harg3 arg5 harg5 hc1 hc2 x0 x1 xs0 xt0 fh0 hT).1)

theorem scover_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) (y : S1x1.Idx) :
    ∃ pc ∈ (kernelRun0_B c i arg2 harg2 arg3 harg3 arg5 harg5 hc1 hc2 x0 x1 xs0 xs2 xt0 fh0 hT).1, y ∈ pc.1.set :=
  View.cover_of_tiledL (kernelRun0_B c i arg2 harg2 arg3 harg3 arg5 harg5 hc1 hc2 x0 x1 xs0 xs2 xt0 fh0 hT).1 S1x1.size (by sl_kernel_rfl) y
/-- What case B leaves in the running-sum scratch: its pieces read back over junk. -/
def sout_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) : Vec F S1x1 .f32 :=
  VS2.read (Elt F) (VS2.writes (Elt F) VS2.junk (kernelRun0_B c i arg2 harg2 arg3 harg3 arg5 harg5 hc1 hc2 x0 x1 xs0 xs2 xt0 fh0 hT).1)

theorem scover_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) (y : S1x1.Idx) :
    ∃ pc ∈ (kernelRun0_C c i arg2 harg2 arg3 harg3 arg5 harg5 hc1 hc2 x0 x1 xs0 xs2 xt0 fh0 hT).2.1, y ∈ pc.1.set :=
  View.cover_of_tiledL (kernelRun0_C c i arg2 harg2 arg3 harg3 arg5 harg5 hc1 hc2 x0 x1 xs0 xs2 xt0 fh0 hT).2.1 S1x1.size (by sl_kernel_rfl) y
/-- What case C leaves in the running-sum scratch: its pieces read back over junk. -/
def sout_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) : Vec F S1x1 .f32 :=
  VS2.read (Elt F) (VS2.writes (Elt F) VS2.junk (kernelRun0_C c i arg2 harg2 arg3 harg3 arg5 harg5 hc1 hc2 x0 x1 xs0 xs2 xt0 fh0 hT).2.1)

theorem cover_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) (y : S1x1.Idx) :
    ∃ pc ∈ (kernelRun0_C c i arg2 harg2 arg3 harg3 arg5 harg5 hc1 hc2 x0 x1 xs0 xs2 xt0 fh0 hT).1, y ∈ pc.1.set :=
  View.cover_of_tiledL (kernelRun0_C c i arg2 harg2 arg3 harg3 arg5 harg5 hc1 hc2 x0 x1 xs0 xs2 xt0 fh0 hT).1 S1x1.size (by sl_kernel_rfl) y
/-- What the last step leaves in the output window's staging buffer. -/
def out_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) : Vec F S1x1 .f32 :=
  VO2.read (Elt F) (VO2.writes (Elt F) VO2.junk (kernelRun0_C c i arg2 harg2 arg3 harg3 arg5 harg5 hc1 hc2 x0 x1 xs0 xs2 xt0 fh0 hT).1)

/-! ## The same as values -/

/-- The row of the weight matrix that the table's word for row `r` of step `i` names (a word that names none is
    sent to the last row, so the function is total; under the frame's hypothesis no word is such). -/
def rowOf (c : Dev nD) (xt0 : TbBuf0 (F := F) c tbM0_0) (i : grid0.Coords) (r : ℕ) : Fin 8142 :=
  ⟨min (((xt0 : S4096.Idx → Elt F .i32) (ix1 ⟨(128 * (i 0).val + r) % 4096, Nat.mod_lt _ (by decide)⟩) : BitVec 32)).toNat 8141, by omega⟩
/-- The gathered rows: row `r` of the [128, 8142] scratch holds the weight row its label names. -/
def wbOf (c : Dev nD) (i : grid0.Coords) (xt0 : TbBuf0 (F := F) c tbM0_0) (fh0 : HbBuf0 (F := F) c hbM0_0) : Vec F S128x8142 .f32 :=
  fun y => (fh0 : S8142x8142.Idx → Elt F .f32) (ix2 (rowOf c xt0 i (y 0).val) ⟨(y 1).val, idx2_lt1 y⟩)
/-- One step's store into the running sum. -/
def stepOf (wb x0 : Vec F S128x8142 .f32) (x1 : Vec F S128x1 .i32) (acc : Vec F S1x1 .f32) : Vec F S1x1 .f32 :=
  k0_pay2 (k0_pay4 wb x0) (k0_pay5 wb x0) (k0_pay6 wb x0) x1 acc

/-! ## The pieces read back, over the loaded scratch by its name in the run -/

/-- The zero offsets of a rank-2 rectangle, as the constant function. -/
theorem hz2 : (![0, 0] : Fin 2 → Nat) = fun _ => 0 := by
  funext a; match a with | ⟨0, _⟩ => rfl | ⟨1, _⟩ => rfl

/-- Case A with the loaded scratch named: the reset stores zero, the step's store over it is read back. -/
theorem piece_A' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0)
    (hL : kernelRun0_A.sl.v1920 c i xs0 xt0 fh0 hT = wbOf c i xt0 fh0) :
    sout_A c i arg2 harg2 arg3 harg3 arg5 harg5 hc1 hc2 x0 x1 xs0 xt0 fh0 hT = stepOf (wbOf c i xt0 fh0) x0 x1 (k0_pay1 (F := F)) := by
  unfold sout_A
  rw [View.read_writes_eq_canon _ _ _ (scover_A c i arg2 harg2 arg3 harg3 arg5 harg5 hc1 hc2 x0 x1 xs0 xt0 fh0 hT)]
  unfold kernelRun0_A
  dsimp only
  unfold kernelRun0_A.sl.HS2_2 kernelRun0_A.sl.r_128 kernelRun0_A.sl.r_129 kernelRun0_A.sl.r_130
    kernelRun0_A.sl.v1948 kernelRun0_A.sl.HS2_1
  rw [View.canon_cons_unit_zero (S := S1x1) hz2, View.readCov_unit_zero (S := S1x1) _ hz2, hL]
  simp only [View.readAt_eq_ld, harg2.read_unread, harg3.read_unread,
    View.ld_unit_zero (S := S128x8142) hz2, View.ld_unit_zero (S := S128x1) hz2]
  rfl

/-- Case B with the loaded scratch named: the one store is read back. -/
theorem piece_B' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0)
    (hL : kernelRun0_B.sl.v1920 c i xs0 xt0 fh0 hT = wbOf c i xt0 fh0) :
    sout_B c i arg2 harg2 arg3 harg3 arg5 harg5 hc1 hc2 x0 x1 xs0 xs2 xt0 fh0 hT = stepOf (wbOf c i xt0 fh0) x0 x1 xs2 := by
  unfold sout_B
  rw [View.read_writes_eq_canon _ _ _ (scover_B c i arg2 harg2 arg3 harg3 arg5 harg5 hc1 hc2 x0 x1 xs0 xs2 xt0 fh0 hT)]
  unfold kernelRun0_B
  dsimp only
  unfold kernelRun0_B.sl.HS2_1 kernelRun0_B.sl.r_128 kernelRun0_B.sl.r_129 kernelRun0_B.sl.r_130
  rw [View.canon_unit_zero hz2, hL]
  simp only [View.readAt_eq_ld, harg2.read_unread, harg3.read_unread, (Memref.isWhole_whole _).read_unread,
    View.ld_unit_zero (S := S128x8142) hz2, View.ld_unit_zero (S := S128x1) hz2, View.ld_unit_zero (S := S1x1) hz2]
  rfl

/-- Case C's running sum with the loaded scratch named: as case B. -/
theorem piece_C' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0)
    (hL : kernelRun0_C.sl.v1920 c i xs0 xt0 fh0 hT = wbOf c i xt0 fh0) :
    sout_C c i arg2 harg2 arg3 harg3 arg5 harg5 hc1 hc2 x0 x1 xs0 xs2 xt0 fh0 hT = stepOf (wbOf c i xt0 fh0) x0 x1 xs2 := by
  unfold sout_C
  rw [View.read_writes_eq_canon _ _ _ (scover_C c i arg2 harg2 arg3 harg3 arg5 harg5 hc1 hc2 x0 x1 xs0 xs2 xt0 fh0 hT)]
  unfold kernelRun0_C
  dsimp only
  unfold kernelRun0_C.sl.HS2_1 kernelRun0_C.sl.r_128 kernelRun0_C.sl.r_129 kernelRun0_C.sl.r_130
  rw [View.canon_unit_zero hz2, hL]
  simp only [View.readAt_eq_ld, harg2.read_unread, harg3.read_unread, (Memref.isWhole_whole _).read_unread,
    View.ld_unit_zero (S := S128x8142) hz2, View.ld_unit_zero (S := S128x1) hz2, View.ld_unit_zero (S := S1x1) hz2]
  rfl

/-- Case C's output window with the loaded scratch named: the running sum just stored, read back, times 2⁻¹². -/
theorem piece_out_C' (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0)
    (hL : kernelRun0_C.sl.v1920 c i xs0 xt0 fh0 hT = wbOf c i xt0 fh0) :
    out_C c i arg2 harg2 arg3 harg3 arg5 harg5 hc1 hc2 x0 x1 xs0 xs2 xt0 fh0 hT = k0_pay3 (stepOf (wbOf c i xt0 fh0) x0 x1 xs2) := by
  unfold out_C
  rw [View.read_writes_eq_canon _ _ _ (cover_C c i arg2 harg2 arg3 harg3 arg5 harg5 hc1 hc2 x0 x1 xs0 xs2 xt0 fh0 hT)]
  unfold kernelRun0_C
  dsimp only
  unfold kernelRun0_C.sl.H2_1 kernelRun0_C.sl.v1956 kernelRun0_C.sl.HS2_1 kernelRun0_C.sl.r_128 kernelRun0_C.sl.r_129
    kernelRun0_C.sl.r_130
  rw [View.canon_unit_zero hz2, View.readCov_unit_zero (S := S1x1) _ hz2, hL]
  simp only [View.readAt_eq_ld, harg2.read_unread, harg3.read_unread, (Memref.isWhole_whole _).read_unread,
    View.ld_unit_zero (S := S128x8142) hz2, View.ld_unit_zero (S := S128x1) hz2, View.ld_unit_zero (S := S1x1) hz2]
  rfl

end Cert.Kernel.Fr

end
-- ==== Proof.KRowReads.lean ====
/-
  Three reads the row gather rests on.

  A word of the label table loaded at a rectangle of one element is the table's entry at that cell. A row of
  the weight matrix read through a one-row slice with its unit axis dropped is the matrix's row: entry j of
  the slice is entry (w, j) of the matrix. And the cell a grid step's row r names, computed on 32-bit words as
  128 a + r, is that number, the words being far from wrapping.
-/
import proofs.«407913_j32418413150371_1_alg».proof.Proof.KKit
import Idealize.ShloMosaic.Lib.ValueIdx
import Idealize.ShloMosaic.Shape
import Idealize.ShloMosaic.Signature.View
import Idealize.ShloMosaic.Signature.Memref
import Idealize.ShloMosaic.Signature.Eff
import Idealize.ShloMosaic.PureOps.Float

set_option maxRecDepth 16384

noncomputable section

namespace Cert.Kernel.Fr

open Cert.Kernel Cert.Kernel.Gen
open Idealize.ShloMosaic Idealize.ShloMosaic.TcCoe Idealize.ShloMosaic.Tactic
open Idealize.ShloMosaic.ValueIdx

variable {F : FTy → Type} [FloatOps F]

/-! ### The cell arithmetic on words -/

/-- Row r of grid step a, computed on 32-bit words, is 128 a + r. -/
theorem cell_word_add (a r : ℕ) (ha : a < 32) (hr : r < 128) :
    (Scalar.indexCast (Scalar.addi (Scalar.muli (BitVec.ofNat 32 a) 128#32) (BitVec.ofNat 32 r))).toNat
      = 128 * a + r := by
  simp only [Scalar.indexCast, Scalar.addi, Scalar.muli, IntOp.addi, IntOp.muli, BitVec.toNat_add,
    BitVec.toNat_mul, BitVec.toNat_ofNat]
  omega

/-- The first row of grid step a is 128 a. -/
theorem cell_word_mul (a : ℕ) (ha : a < 32) :
    (Scalar.indexCast (Scalar.muli (BitVec.ofNat 32 a) 128#32)).toNat = 128 * a := by
  simp only [Scalar.indexCast, Scalar.muli, IntOp.muli, BitVec.toNat_mul, BitVec.toNat_ofNat]
  omega

/-! ### A table word -/

/-- The one index of the unit rectangle at cell n sits at cell n. -/
theorem unit_idx_first (n : ℕ) (hn : n < 4096)
    (hin : ∀ a, (![n] : Fin 1 → Nat) a + S1.size a ≤ S4096.size a)
    (h1 : 0 < (Rect.unit (s := S4096) ![n] S1.size hin).shape.numel) :
    (Rect.unit (s := S4096) ![n] S1.size hin).toLoadRect.idx (Shape.Idx.first h1) = ix1 ⟨n, hn⟩ := by
  funext a
  match a with
  | ⟨0, _⟩ => exact Fin.ext (by show n + 1 * 0 = n; omega)

/-- A table word read at the unit rectangle at cell n is the table's entry n. -/
theorem tb_readAt_unit {c : Dev nD} (xt0 : TbBuf0 (F := F) c tbM0_0) (n : ℕ) (hn : n < 4096)
    (hin : ∀ a, (![n] : Fin 1 → Nat) a + S1.size a ≤ S4096.size a)
    (h1 : 0 < (Rect.unit (s := S4096) ![n] S1.size hin).shape.numel) :
    View.readAt (Elt F) tbM0_0.view (Rect.unit (s := S4096) ![n] S1.size hin).toLoadRect xt0 (Shape.Idx.first h1)
      = (xt0 : S4096.Idx → Elt F .i32) (ix1 ⟨n, hn⟩) := by
  rw [View.readAt_apply, unit_idx_first n hn hin h1]
  rfl

/-! ### A row of the weight matrix -/

/-- Entry j of a row matched with the shape [1, 8142] is entry (0, j). -/
theorem reshape_row_idx (h : S8142.numel = S1x8142.numel) (j : Fin 8142) :
    Shape.reshapeEquiv h (ix1 j) = ix2 (⟨0, Nat.one_pos⟩ : Fin 1) j :=
  Shape.reshapeEquiv_eq_of_rowMajor h (by
    rw [Shape.rowMajor_val_two, Shape.rowMajor_val_one]
    show 0 * 8142 + j.val = j.val
    omega)

/-- Entry (0, j) of the one-row rectangle at row w sits at entry (w, j). -/
theorem unit_row_emb (w : ℕ) (hw : w < 8142)
    (hin : ∀ a, (![w, 0] : Fin 2 → Nat) a + S1x8142.size a ≤ S8142x8142.size a) (j : Fin 8142) :
    (Rect.unit (s := S8142x8142) ![w, 0] S1x8142.size hin).emb (ix2 (⟨0, Nat.one_pos⟩ : Fin 1) j)
      = ix2 ⟨w, hw⟩ j := by
  funext a
  match a with
  | ⟨0, _⟩ => exact Fin.ext (by show w + 1 * 0 = w; omega)
  | ⟨1, _⟩ => exact Fin.ext (by show 0 + 1 * j.val = j.val; omega)

/-- Row w of the weight matrix read through its one-row slice with the unit axis dropped: entry j is the
    matrix's entry (w, j). -/
theorem hb_read_row {c : Dev nD} (fh0 : HbBuf0 (F := F) c hbM0_0) (w : ℕ) (hw : w < 8142)
    (hin : ∀ a, (![w, 0] : Fin 2 → Nat) a + S1x8142.size a ≤ S8142x8142.size a)
    (hh : ∀ a, (Rect.unit (s := S8142x8142) ![w, 0] S1x8142.size hin).stride a = 1)
    (hq : S1x8142.Squeezes S8142) (j : Fin 8142) :
    ReadAs.same.apply (View.read (Elt F)
        ((hbM0_0.slice (Rect.unit (s := S8142x8142) ![w, 0] S1x8142.size hin) hh).squeeze S8142 hq).view fh0) (ix1 j)
      = (fh0 : S8142x8142.Idx → Elt F .f32) (ix2 ⟨w, hw⟩ j) := by
  rw [ReadAs.apply_same, View.read_apply]
  show (fh0 : S8142x8142.Idx → Elt F .f32)
      ((Rect.unit (s := S8142x8142) ![w, 0] S1x8142.size hin).emb (Shape.reshapeEquiv hq.numel_eq (ix1 j))) = _
  rw [reshape_row_idx hq.numel_eq j, unit_row_emb w hw hin j]

end Cert.Kernel.Fr

end
-- ==== Proof.KGather.lean ====
/-
  The gathered weight rows.

  The body copies 128 rows of the weight matrix [8142, 8142] into a scratch [128, 8142], one row at a time: the copy
  into row r takes the row that the label table's word at cell 128·i + r names (i the grid step). Each copy
  overwrites one whole row and no other, so after the 128 copies, whatever the scratch held before, its row r reads
  as what the r-th copy moved; and that is row (word at cell 128·i + r) of the weight matrix: with the step below 32
  and the row below 128 the cell number's 32-bit arithmetic does not wrap, and every word of the table names a row.
  So the scratch, loaded whole, is the function that sends (r, j) to the weight matrix at (row named for r, j).
-/
import proofs.«407913_j32418413150371_1_alg».proof.Proof.KPieces
import proofs.«407913_j32418413150371_1_alg».proof.Proof.KRowReads

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Rows written one after another into a [128, 8142] array -/

section Rows

variable {sg : RefSig} {κ : Kind} {sp : Space} {Val : EltTy → Type}

/-- Row r of the array, all 8142 columns, lies inside it. -/
theorem rowInb (r : ℕ) (hr : r < 128) : ∀ a, (![r, 0] : Fin 2 → ℕ) a + S1x8142.size a ≤ S128x8142.size a := by
  intro a
  match a with
  | ⟨0, _⟩ => show r + 1 ≤ 128; omega
  | ⟨1, _⟩ => show 0 + 8142 ≤ 8142; omega

/-- Row r of the array as a vector of 8142 entries: the one-row slice with its unit axis dropped. -/
abbrev rowV (M : Memref sg κ sp S128x8142 .f32) (r : ℕ) (hr : r < 128) : View sg κ sp S8142 .f32 :=
  ((M.slice (Rect.unit (s := S128x8142) ![r, 0] S1x8142.size (rowInb r hr)) (fun _ => rfl)).squeeze S8142 squeezes_S1x8142_S8142).view

/-- Entry j of row r's vector sits in the array at (r, j). -/
theorem rowV_emb (M : Memref sg κ sp S128x8142 .f32) (r : ℕ) (hr : r < 128) (j : Fin 8142) :
    (rowV M r hr).emb (ix1 j) = M.view.emb (ix2 ⟨r, hr⟩ j) := by
  have e : (rowV M r hr).emb (ix1 j)
      = M.view.emb ((Rect.unit (s := S128x8142) ![r, 0] S1x8142.size (rowInb r hr)).emb (Shape.reshapeEquiv squeezes_S1x8142_S8142.numel_eq (ix1 j))) := rfl
  rw [e, Shape.reshapeEquiv_cons_one]
  congr 1
  funext a
  apply Fin.ext
  rw [Rect.emb_apply]
  match a with
  | ⟨0, _⟩ => show r + 1 * 0 = r; omega
  | ⟨1, _⟩ => show 0 + 1 * j.val = j.val; omega

/-- A whole-row write read back through the array on that row: the payload. -/
theorem rowV_read_own (M : Memref sg κ sp S128x8142 .f32) (r : ℕ) (hr : r < 128) (f : M.view.ty.Contents Val) (w : S8142.Idx → Val .f32) (j : Fin 8142) :
    M.view.read Val ((rowV M r hr).write Val f w Finset.univ) (ix2 ⟨r, hr⟩ j) = w (ix1 j) := by
  rw [View.read_apply, ← rowV_emb M r hr j, View.write_emb_of_mem _ _ (Finset.mem_univ _), cast_cast, cast_eq]

/-- A write into row r leaves every other row as it was. -/
theorem rowV_read_other (M : Memref sg κ sp S128x8142 .f32) (r : ℕ) (hr : r < 128) (q : ℕ) (hq : q < 128) (hne : q ≠ r) (f : M.view.ty.Contents Val)
    (w : S8142.Idx → Val .f32) (Ms : Finset S8142.Idx) (j : Fin 8142) :
    M.view.read Val ((rowV M r hr).write Val f w Ms) (ix2 ⟨q, hq⟩ j) = M.view.read Val f (ix2 ⟨q, hq⟩ j) := by
  apply View.read_congr_at
  apply View.write_of_not_mem
  intro hm
  obtain ⟨x, _, hx⟩ := Finset.mem_map.mp hm
  rw [eq_ix1 x] at hx
  have hx' : M.view.emb (ix2 ⟨r, hr⟩ (x 0)) = M.view.emb (ix2 ⟨q, hq⟩ j) := (rowV_emb M r hr (x 0)).symm.trans hx
  have h := M.view.emb.injective hx'
  have h0 := congrArg (fun i : S128x8142.Idx => (i 0 : ℕ)) h
  exact hne h0.symm

/-- The array after rows 0 … n − 1 have been written, in that order, over some contents. -/
def rowsTo (M : Memref sg κ sp S128x8142 .f32) (P : (r : ℕ) → r < 128 → S8142.Idx → Val .f32) (base : M.view.ty.Contents Val) :
    (n : ℕ) → n ≤ 128 → M.view.ty.Contents Val
  | 0, _ => base
  | n + 1, h => (rowV M n (Nat.lt_of_succ_le h)).write Val (rowsTo M P base n (Nat.le_of_succ_le h)) (P n (Nat.lt_of_succ_le h)) Finset.univ

/-- Each written row reads as its payload, whatever was there before and whatever was written after. -/
theorem rowsTo_read (M : Memref sg κ sp S128x8142 .f32) (P : (r : ℕ) → r < 128 → S8142.Idx → Val .f32) (base : M.view.ty.Contents Val) :
    ∀ (n : ℕ) (hn : n ≤ 128) (r : ℕ) (hr : r < n) (j : Fin 8142),
      M.view.read Val (rowsTo M P base n hn) (ix2 ⟨r, lt_of_lt_of_le hr hn⟩ j) = P r (lt_of_lt_of_le hr hn) (ix1 j) := by
  intro n
  induction n with
  | zero => intro hn r hr; exact absurd hr (Nat.not_lt_zero r)
  | succ n ih =>
    intro hn r hr j
    show M.view.read Val ((rowV M n (Nat.lt_of_succ_le hn)).write Val (rowsTo M P base n (Nat.le_of_succ_le hn)) (P n (Nat.lt_of_succ_le hn)) Finset.univ) _ = _
    by_cases h : r = n
    · subst h
      exact rowV_read_own M r _ _ _ j
    · rw [rowV_read_other M n _ r _ h]
      exact ih (Nat.le_of_succ_le hn) r (by omega) j

/-- The whole array loaded after all 128 rows have been written: row r is the r-th payload. -/
theorem rowsTo_load (M : Memref sg κ sp S128x8142 .f32) (P : (r : ℕ) → r < 128 → S8142.Idx → Val .f32) (base : M.view.ty.Contents Val)
    (inb : ∀ a, (![0, 0] : Fin 2 → ℕ) a + S128x8142.size a ≤ S128x8142.size a) (r : Fin 128) (j : Fin 8142) :
    M.view.readAt Val (Rect.unit (s := S128x8142) ![0, 0] S128x8142.size inb).toLoadRect (rowsTo M P base 128 le_rfl) (ix2 r j) = P r.val r.isLt (ix1 j) := by
  rw [View.readAt_apply]
  have e : (Rect.unit (s := S128x8142) ![0, 0] S128x8142.size inb).toLoadRect.idx (ix2 r j) = ix2 ⟨r.val, lt_of_lt_of_le r.isLt le_rfl⟩ j := by
    funext a
    apply Fin.ext
    match a with
    | ⟨0, _⟩ => show 0 + 1 * r.val = r.val; omega
    | ⟨1, _⟩ => show 0 + 1 * j.val = j.val; omega
  rw [e]
  exact rowsTo_read M P base 128 le_rfl r.val r.isLt j

end Rows

/-! ## The run's 128 row copies as such a sequence of row writes -/

variable {F : FTy → Type} [FloatOps F]

/-- The cell of the label table that row r of step i reads, as the body computes it (row 0 without the addition). -/
def cellOff (i : grid0.Coords) (r : ℕ) : Fin 1 → ℕ :=
  if r = 0 then ![(Scalar.indexCast (Scalar.muli (BitVec.ofNat 32 (i 0).val) 128#32)).toNat]
  else ![(Scalar.indexCast (Scalar.addi (Scalar.muli (BitVec.ofNat 32 (i 0).val) 128#32) (BitVec.ofNat 32 r))).toNat]

/-- A step below 32 and a row below 128: no product or sum of the words wraps. -/
theorem word_cell (a r : ℕ) (ha : a < 32) (hr : r < 128) : (BitVec.ofNat 32 a * 128#32 + BitVec.ofNat 32 r).toNat = 128 * a + r := by
  rw [BitVec.toNat_add, BitVec.toNat_mul, BitVec.toNat_ofNat, BitVec.toNat_ofNat, BitVec.toNat_ofNat]
  omega
theorem word_cell0 (a : ℕ) (ha : a < 32) : (BitVec.ofNat 32 a * 128#32).toNat = 128 * a := by
  rw [BitVec.toNat_mul, BitVec.toNat_ofNat, BitVec.toNat_ofNat]
  omega

/-- The cell is number 128·i + r. -/
theorem cellOff_eq (i : grid0.Coords) (r : ℕ) (hr : r < 128) : cellOff i r = ![128 * (i 0).val + r] := by
  have hi : (i 0).val < 32 := (i 0).isLt
  unfold cellOff
  split
  · next h =>
    subst h
    show ![(BitVec.ofNat 32 (i 0).val * 128#32).toNat] = _
    rw [word_cell0 _ hi]
    rfl
  · show ![(BitVec.ofNat 32 (i 0).val * 128#32 + BitVec.ofNat 32 r).toNat] = _
    rw [word_cell _ _ hi hr]

theorem cellInb (i : grid0.Coords) (r : ℕ) (hr : r < 128) : ∀ a, cellOff i r a + S1.size a ≤ S4096.size a := by
  have hi : (i 0).val < 32 := (i 0).isLt
  rw [cellOff_eq i r hr]
  intro a
  match a with
  | ⟨0, _⟩ => show 128 * (i 0).val + r + 1 ≤ 4096; omega

/-- The table's word for row r of step i, as the body reads it. -/
def wordAt (c : Dev nD) (i : grid0.Coords) (xt0 : TbBuf0 (F := F) c tbM0_0) (r : ℕ) (hr : r < 128) : Elt F .i32 :=
  View.readAt (Elt F) tbM0_0.view (Rect.unit (s := S4096) (cellOff i r) S1.size (cellInb i r hr)).toLoadRect xt0
    (Shape.Idx.first (s := (Rect.unit (s := S4096) (cellOff i r) S1.size (cellInb i r hr)).toLoadRect.shape) (show 0 < S1.numel from by decide))

/-- Under the frame's hypothesis on the table the word names a row of the weight matrix. -/
theorem wordAt_lt (c : Dev nD) (i : grid0.Coords) (xt0 : TbBuf0 (F := F) c tbM0_0) (hT : TblOk c xt0) (r : ℕ) (hr : r < 128) :
    ((wordAt c i xt0 r hr : Elt F .i32) : BitVec 32).toNat < 8142 := by
  unfold wordAt
  exact hT _ _

/-- What the copy into row r moves: the row of the weight matrix that word names. -/
def payAt (c : Dev nD) (i : grid0.Coords) (xt0 : TbBuf0 (F := F) c tbM0_0) (fh0 : HbBuf0 (F := F) c hbM0_0) (hT : TblOk c xt0) (r : ℕ) (hr : r < 128) :
    S8142.Idx → Elt F .f32 :=
  View.read (Elt F) ((hbM0_0.slice (Rect.unit (s := S8142x8142) ![((wordAt c i xt0 r hr : Elt F .i32) : BitVec 32).toNat, 0] S1x8142.size (chk_of _ (wordAt_lt c i xt0 hT r hr))) (fun _ => rfl)).squeeze S8142
    squeezes_S1x8142_S8142).view fh0

/-- The gathered-rows scratch as the body loads it is the whole-array load after those 128 row writes. -/
theorem link_A (c : Dev nD) (i : grid0.Coords) (xs0 : Vec F S128x8142 .f32) (xt0 : TbBuf0 (F := F) c tbM0_0) (fh0 : HbBuf0 (F := F) c hbM0_0) (hT : TblOk c xt0) :
    kernelRun0_A.sl.v1920 c i xs0 xt0 fh0 hT
      = View.readAt (Elt F) scM0_0.view (Rect.unit (s := S128x8142) ![0, 0] S128x8142.size inb_S128x8142_S128x8142_0_0).toLoadRect
          (rowsTo scM0_0 (payAt c i xt0 fh0 hT) ((Memref.isWhole_whole cc0_scratch0).unread xs0) 128 le_rfl) := rfl

/-- The gathered-rows scratch as the body loads it is the whole-array load after those 128 row writes. -/
theorem link_B (c : Dev nD) (i : grid0.Coords) (xs0 : Vec F S128x8142 .f32) (xt0 : TbBuf0 (F := F) c tbM0_0) (fh0 : HbBuf0 (F := F) c hbM0_0) (hT : TblOk c xt0) :
    kernelRun0_B.sl.v1920 c i xs0 xt0 fh0 hT
      = View.readAt (Elt F) scM0_0.view (Rect.unit (s := S128x8142) ![0, 0] S128x8142.size inb_S128x8142_S128x8142_0_0).toLoadRect
          (rowsTo scM0_0 (payAt c i xt0 fh0 hT) ((Memref.isWhole_whole cc0_scratch0).unread xs0) 128 le_rfl) := rfl

/-- The gathered-rows scratch as the body loads it is the whole-array load after those 128 row writes. -/
theorem link_C (c : Dev nD) (i : grid0.Coords) (xs0 : Vec F S128x8142 .f32) (xt0 : TbBuf0 (F := F) c tbM0_0) (fh0 : HbBuf0 (F := F) c hbM0_0) (hT : TblOk c xt0) :
    kernelRun0_C.sl.v1920 c i xs0 xt0 fh0 hT
      = View.readAt (Elt F) scM0_0.view (Rect.unit (s := S128x8142) ![0, 0] S128x8142.size inb_S128x8142_S128x8142_0_0).toLoadRect
          (rowsTo scM0_0 (payAt c i xt0 fh0 hT) ((Memref.isWhole_whole cc0_scratch0).unread xs0) 128 le_rfl) := rfl

/-- The table's word for row r of step i is the table's entry 128·i + r. -/
theorem cell_lt (i : grid0.Coords) (r : ℕ) (hr : r < 128) : 128 * (i 0).val + r < 4096 := by
  have hi : (i 0).val < 32 := (i 0).isLt
  omega

theorem wordAt_eq (c : Dev nD) (i : grid0.Coords) (xt0 : TbBuf0 (F := F) c tbM0_0) (r : ℕ) (hr : r < 128) :
    wordAt c i xt0 r hr = (xt0 : S4096.Idx → Elt F .i32) (ix1 ⟨128 * (i 0).val + r, cell_lt i r hr⟩) := by
  unfold wordAt
  rw [View.readAt_apply]
  show (xt0 : S4096.Idx → Elt F .i32) _ = _
  congr 1
  funext a
  apply Fin.ext
  match a with
  | ⟨0, _⟩ => show cellOff i r 0 + 1 * 0 = 128 * (i 0).val + r; rw [cellOff_eq i r hr]; rfl

/-- The weight row the word names is the row the value side calls rowOf. -/
theorem rowOf_eq (c : Dev nD) (i : grid0.Coords) (xt0 : TbBuf0 (F := F) c tbM0_0) (hT : TblOk c xt0) (r : ℕ) (hr : r < 128) :
    rowOf c xt0 i r = ⟨((wordAt c i xt0 r hr : Elt F .i32) : BitVec 32).toNat, wordAt_lt c i xt0 hT r hr⟩ := by
  have hw := wordAt_lt c i xt0 hT r hr
  have hk := cell_lt i r hr
  have hfin : ∀ (p : (128 * (i 0).val + r) % 4096 < 4096), (⟨(128 * (i 0).val + r) % 4096, p⟩ : Fin 4096) = ⟨128 * (i 0).val + r, hk⟩ :=
    fun p => Fin.ext (Nat.mod_eq_of_lt hk)
  apply Fin.ext
  show (rowOf c xt0 i r).val = ((wordAt c i xt0 r hr : Elt F .i32) : BitVec 32).toNat
  rw [wordAt_eq c i xt0 r hr] at hw ⊢
  unfold rowOf
  show min (((xt0 : S4096.Idx → Elt F .i32) (ix1 ⟨(128 * (i 0).val + r) % 4096, _⟩) : BitVec 32)).toNat 8141 = _
  rw [hfin]
  exact Nat.min_eq_left (by omega)

/-- What the copy into row r moves, entry j: the weight matrix at (rowOf … r, j). -/
theorem payAt_apply (c : Dev nD) (i : grid0.Coords) (xt0 : TbBuf0 (F := F) c tbM0_0) (fh0 : HbBuf0 (F := F) c hbM0_0) (hT : TblOk c xt0) (r : ℕ) (hr : r < 128) (j : Fin 8142) :
    payAt c i xt0 fh0 hT r hr (ix1 j) = (fh0 : S8142x8142.Idx → Elt F .f32) (ix2 (rowOf c xt0 i r) j) := by
  rw [rowOf_eq c i xt0 hT r hr]
  exact hb_read_row fh0 _ (wordAt_lt c i xt0 hT r hr) _ _ _ j

/-- The loaded scratch after the 128 row writes is the gathered rows. -/
theorem load_eq_wbOf (c : Dev nD) (i : grid0.Coords) (base : scM0_0.view.ty.Contents (Elt F)) (xt0 : TbBuf0 (F := F) c tbM0_0) (fh0 : HbBuf0 (F := F) c hbM0_0) (hT : TblOk c xt0) :
    View.readAt (Elt F) scM0_0.view (Rect.unit (s := S128x8142) ![0, 0] S128x8142.size inb_S128x8142_S128x8142_0_0).toLoadRect
        (rowsTo scM0_0 (payAt c i xt0 fh0 hT) base 128 le_rfl) = wbOf c i xt0 fh0 := by
  funext y
  obtain ⟨r, j, rfl⟩ : ∃ (r : Fin 128) (j : Fin 8142), y = ix2 r j := ⟨y 0, y 1, eq_ix2 y⟩
  rw [rowsTo_load, payAt_apply]
  rfl

theorem gather_A (c : Dev nD) (i : grid0.Coords) (xs0 : Vec F S128x8142 .f32) (xt0 : TbBuf0 (F := F) c tbM0_0) (fh0 : HbBuf0 (F := F) c hbM0_0) (hT : TblOk c xt0) :
    kernelRun0_A.sl.v1920 c i xs0 xt0 fh0 hT = wbOf c i xt0 fh0 :=
  (link_A c i xs0 xt0 fh0 hT).trans (load_eq_wbOf c i _ xt0 fh0 hT)

theorem gather_B (c : Dev nD) (i : grid0.Coords) (xs0 : Vec F S128x8142 .f32) (xt0 : TbBuf0 (F := F) c tbM0_0) (fh0 : HbBuf0 (F := F) c hbM0_0) (hT : TblOk c xt0) :
    kernelRun0_B.sl.v1920 c i xs0 xt0 fh0 hT = wbOf c i xt0 fh0 :=
  (link_B c i xs0 xt0 fh0 hT).trans (load_eq_wbOf c i _ xt0 fh0 hT)

theorem gather_C (c : Dev nD) (i : grid0.Coords) (xs0 : Vec F S128x8142 .f32) (xt0 : TbBuf0 (F := F) c tbM0_0) (fh0 : HbBuf0 (F := F) c hbM0_0) (hT : TblOk c xt0) :
    kernelRun0_C.sl.v1920 c i xs0 xt0 fh0 hT = wbOf c i xt0 fh0 :=
  (link_C c i xs0 xt0 fh0 hT).trans (load_eq_wbOf c i _ xt0 fh0 hT)

end Cert.Kernel.Fr

end
-- ==== Proof.KPiecesF.lean ====
/-
  What each case of the body's run leaves, as values of the step's inputs alone: the store of the step's 128
  row terms over the running sum, with the gathered rows the weight rows the step's labels name.
-/
import proofs.«407913_j32418413150371_1_alg».proof.Proof.KGather

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces as values (the gathered rows' lemma fills the one hypothesis) -/

theorem piece_A (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : cond1 i) (hc2 : ¬cond2 i) (x0 : Vec F S128x8142 .f32) (x1 : Vec F S128x1 .i32) (xs0 : Vec F S128x8142 .f32) (xt0 : TbBuf0 (F := F) c tbM0_0) (fh0 : HbBuf0 (F := F) c hbM0_0) (hT : TblOk c xt0) :
    sout_A c i arg2 harg2 arg3 harg3 arg5 harg5 hc1 hc2 x0 x1 xs0 xt0 fh0 hT = stepOf (wbOf c i xt0 fh0) x0 x1 (k0_pay1 (F := F)) :=
  piece_A' c i arg2 harg2 arg3 harg3 arg5 harg5 hc1 hc2 x0 x1 xs0 xt0 fh0 hT (gather_A c i xs0 xt0 fh0 hT)
theorem piece_B (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : ¬cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    sout_B c i arg2 harg2 arg3 harg3 arg5 harg5 hc1 hc2 x0 x1 xs0 xs2 xt0 fh0 hT = stepOf (wbOf c i xt0 fh0) x0 x1 xs2 :=
  piece_B' c i arg2 harg2 arg3 harg3 arg5 harg5 hc1 hc2 x0 x1 xs0 xs2 xt0 fh0 hT (gather_B c i xs0 xt0 fh0 hT)
theorem piece_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    sout_C c i arg2 harg2 arg3 harg3 arg5 harg5 hc1 hc2 x0 x1 xs0 xs2 xt0 fh0 hT = stepOf (wbOf c i xt0 fh0) x0 x1 xs2 :=
  piece_C' c i arg2 harg2 arg3 harg3 arg5 harg5 hc1 hc2 x0 x1 xs0 xs2 xt0 fh0 hT (gather_C c i xs0 xt0 fh0 hT)
theorem piece_out_C (c : Dev nD) (i : grid0.Coords) (arg2 : Memref sig .tc .vmem S128x8142 .f32) (harg2 : arg2.IsWhole) (arg3 : Memref sig .tc .vmem S128x1 .i32) (harg3 : arg3.IsWhole) (arg5 : Memref sig .tc .vmem S1x1 .f32) (harg5 : arg5.IsWhole)
    (hc1 : ¬cond1 i) (hc2 : cond2 i) (x0 : Vec F S128x8142 .f32) (x1 : Vec F S128x1 .i32) (xs0 : Vec F S128x8142 .f32) (xs2 : Vec F S1x1 .f32) (xt0 : TbBuf0 (F := F) c tbM0_0) (fh0 : HbBuf0 (F := F) c hbM0_0) (hT : TblOk c xt0) :
    out_C c i arg2 harg2 arg3 harg3 arg5 harg5 hc1 hc2 x0 x1 xs0 xs2 xt0 fh0 hT = k0_pay3 (stepOf (wbOf c i xt0 fh0) x0 x1 xs2) :=
  piece_out_C' c i arg2 harg2 arg3 harg3 arg5 harg5 hc1 hc2 x0 x1 xs0 xs2 xt0 fh0 hT (gather_C c i xs0 xt0 fh0 hT)

end Cert.Kernel.Fr

end
-- ==== Proof.KFrame.lean ====
/-
  The kernel's frame and what it leaves: what the running-sum scratch holds after each of the 32
  grid steps (step 0 from zero, every later step from what the step before left), what the output window
  holds after the last, the pipeline's proof data over them, the body obligation at every step — the region
  invariant hands the body its two scratch buffers, its two cells at zero, the weight matrix (split into the
  two cells' read shares for the body and joined again after it) and the label table's half —, the run of
  @main and the frame claim.
-/
import proofs.«407913_j32418413150371_1_alg».proof.Proof.KPiecesF

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The frame's hypothesis and the accumulation -/

/-- Every word of the label table, as the region finds it, names a row of the weight matrix. -/
def Hyps : Prop := ∀ c : Dev nD, TblOk c (tbl m 0)

/-- The gathered rows at step `t`. -/
abbrev wbAt (c : Dev nD) (t : Fin (cfgM m).N) : Vec F S128x8142 .f32 := wbOf c (grid0.coords t) (tbl m 0) (V m c main_arg2)

/-- THE ACCUMULATION: what the running-sum scratch holds after the body at step `n`: step 0's store over zero,
    every later step's over what the step before left. -/
def accAt (c : Dev nD) : (n : ℕ) → n < (cfgM m).N → Vec F S1x1 .f32
  | 0, hn => stepOf (wbAt m c ⟨0, hn⟩) (iblk m c 0 ⟨0, hn⟩) (iblk m c 1 ⟨0, hn⟩) (k0_pay1 (F := F))
  | n + 1, hn => stepOf (wbAt m c ⟨n + 1, hn⟩) (iblk m c 0 ⟨n + 1, hn⟩) (iblk m c 1 ⟨n + 1, hn⟩) (accAt c n (Nat.lt_of_succ_lt hn))

theorem lt31 : 31 < (cfgM m).N := by rw [N_eq]; omega

/-- What the output window's staging buffer holds after the last step: the sum times 2⁻¹². -/
def outAt (c : Dev nD) : Vec F S1x1 .f32 := k0_pay3 (accAt m c 31 (lt31 m))

/-- The weight matrix's full points-to as the two cells' read shares and the rest of the share. -/
def hbRest (c : Dev nD) (f : HbBuf0 (F := F) c hbM0_0) : sProp 𝕄 :=
  iprop((hbM0_0.view.loc (c : Thread nD τ) ↦{Transfers.shareDrop fullShare 7} f)
    ∗ BI.bigSep (Finset.range 5) (fun i => (hbM0_0.view.loc (c : Thread nD τ) ↦{Transfers.shareTokN fullShare i} f : sProp 𝕄)))

theorem hb_split (c : Dev nD) (f : HbBuf0 (F := F) c hbM0_0) :
    (hbPt0 c hbM0_0 f : sProp 𝕄) ⊣⊢ iprop(hbTok c 5 f ∗ hbTok c 6 f ∗ hbRest c f) := by
  have h := Transfers.pointsTo_toks_range (Ix := Unit) (Name := ℕ) (U := Pipeline.UD sig nD τ) (Lvl := ℕ)
    (ℓ := hbM0_0.view.loc (c : Thread nD τ)) (S := Finset.univ) (f := f) fullShare 7
  rw [show Finset.range 7 = insert 6 (insert 5 (Finset.range 5)) from by decide,
    bigSep_insert (by decide), bigSep_insert (by decide)] at h
  refine h.trans ⟨?_, ?_⟩
  · show iprop((hbM0_0.view.loc (c : Thread nD τ) ↦{Transfers.shareDrop fullShare 7} f)
        ∗ (hbM0_0.view.loc (c : Thread nD τ) ↦{Transfers.shareTokN fullShare 6} f)
        ∗ (hbM0_0.view.loc (c : Thread nD τ) ↦{Transfers.shareTokN fullShare 5} f)
        ∗ BI.bigSep (Finset.range 5) (fun i => (hbM0_0.view.loc (c : Thread nD τ) ↦{Transfers.shareTokN fullShare i} f : sProp 𝕄))) ⊢ _
    unfold hbRest hbTok; iintro ⟨Hd, H6, H5, Hr⟩
    isplitl [H5]; · iexact H5
    isplitl [H6]; · iexact H6
    isplitl [Hd]; · iexact Hd
    iexact Hr
  · show _ ⊢ iprop((hbM0_0.view.loc (c : Thread nD τ) ↦{Transfers.shareDrop fullShare 7} f)
        ∗ (hbM0_0.view.loc (c : Thread nD τ) ↦{Transfers.shareTokN fullShare 6} f)
        ∗ (hbM0_0.view.loc (c : Thread nD τ) ↦{Transfers.shareTokN fullShare 5} f)
        ∗ BI.bigSep (Finset.range 5) (fun i => (hbM0_0.view.loc (c : Thread nD τ) ↦{Transfers.shareTokN fullShare i} f : sProp 𝕄)))
    unfold hbRest hbTok; iintro ⟨H5, H6, Hd, Hr⟩
    isplitl [Hd]; · iexact Hd
    isplitl [H6]; · iexact H6
    isplitl [H5]; · iexact H5
    iexact Hr

/-! ## The region invariant, step by step -/

/-- Before the first step: what the launch hands the region. After step `n − 1`: the gathered-rows scratch at
    some contents, the running sum at the accumulation, the generator register, the two cells at zero, the weight
    matrix at its launch contents, the label table's half. -/
def PhiS (c : Dev nD) (n : ℕ) (hn : n ≤ (cfgM m).N) : sProp 𝕄 :=
  if h : n = 0 then iprop(Pipeline.ΦD osem0 spec0 H0 (V m) c ∗ Pipeline.ΦT pre0 (tbl m) c)
  else iprop((∃ d, owns (c : Thread nD τ) scM0_0 fullShare d) ∗ owns (c : Thread nD τ) scM0_2 fullShare (accAt m c (n - 1) (by omega))
    ∗ (∃ r, prngReg c r) ∗ semVal ((c : Thread nD τ), SemLoc.dma 5) 0 ∗ semVal ((c : Thread nD τ), SemLoc.dma 6) 0
    ∗ hbPt0 c hbM0_0 (V m c main_arg2) ∗ tbPt0 c tbM0_0 (tbl m 0))

theorem PhiS_zero (c : Dev nD) (n : ℕ) (hn : n ≤ (cfgM m).N) (h : n = 0) :
    PhiS m c n hn = iprop(Pipeline.ΦD osem0 spec0 H0 (V m) c ∗ Pipeline.ΦT pre0 (tbl m) c) := by
  unfold PhiS; rw [dif_pos h]
theorem PhiS_succ (c : Dev nD) (n : ℕ) (hn : n + 1 ≤ (cfgM m).N) :
    PhiS m c (n + 1) hn = iprop((∃ d, owns (c : Thread nD τ) scM0_0 fullShare d) ∗ owns (c : Thread nD τ) scM0_2 fullShare (accAt m c n hn)
      ∗ (∃ r, prngReg c r) ∗ semVal ((c : Thread nD τ), SemLoc.dma 5) 0 ∗ semVal ((c : Thread nD τ), SemLoc.dma 6) 0
      ∗ hbPt0 c hbM0_0 (V m c main_arg2) ∗ tbPt0 c tbM0_0 (tbl m 0)) := by
  unfold PhiS; rw [dif_neg (Nat.succ_ne_zero n)]; rfl

theorem PhiS_pos (c : Dev nD) (n : ℕ) (hn : n ≤ (cfgM m).N) (h : n ≠ 0) :
    PhiS m c n hn = iprop((∃ d, owns (c : Thread nD τ) scM0_0 fullShare d) ∗ owns (c : Thread nD τ) scM0_2 fullShare (accAt m c (n - 1) (by omega))
      ∗ (∃ r, prngReg c r) ∗ semVal ((c : Thread nD τ), SemLoc.dma 5) 0 ∗ semVal ((c : Thread nD τ), SemLoc.dma 6) 0
      ∗ hbPt0 c hbM0_0 (V m c main_arg2) ∗ tbPt0 c tbM0_0 (tbl m 0)) := by
  unfold PhiS; rw [dif_neg h]

/-- The accumulation at step 0 and at a later step. -/
theorem accAt_zero (c : Dev nD) (t : Fin (cfgM m).N) (h : t.val = 0) :
    accAt m c t.val t.isLt = stepOf (wbAt m c t) (iblk m c 0 t) (iblk m c 1 t) (k0_pay1 (F := F)) := by
  obtain ⟨n, hn⟩ := t
  obtain rfl : n = 0 := h
  rfl
theorem accAt_pos (c : Dev nD) (t : Fin (cfgM m).N) (h : t.val ≠ 0) :
    accAt m c t.val t.isLt = stepOf (wbAt m c t) (iblk m c 0 t) (iblk m c 1 t) (accAt m c (t.val - 1) (by omega)) := by
  obtain ⟨n, hn⟩ := t
  cases n with
  | zero => exact absurd rfl h
  | succ k => rfl

/-! ## The pipeline's proof data -/

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outAt m c
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem PhiS_castSucc (c : Dev nD) (t : Fin (cfgM m).N) :
    (dats m 0 c).Φ t.castSucc = PhiS m c t.val (Nat.le_of_lt t.isLt) := by
  dsimp only [dats]; simp only [Fin.coe_castSucc]
theorem after0_0 (c : Dev nD) (t : Fin (cfgM m).N) : (dats m 0 c).after 0 t = iblk m c 0 t := rfl
theorem after0_1 (c : Dev nD) (t : Fin (cfgM m).N) : (dats m 0 c).after 1 t = iblk m c 1 t := rfl
theorem after0_2 (c : Dev nD) (t : Fin (cfgM m).N) : (dats m 0 c).after 2 t = outAt m c := rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d

/-! ## The body obligation, at a generic step -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any step: the inputs' memrefs hold their blocks; the step's number says which case it is in; the
    invariant hands the body its scratch buffers (the running sum at what the step before left), its cells at
    zero, the weight matrix — split into the two cells' read shares and joined again after the run — and the
    label table's half, and takes them back with the running sum at this step's store. -/
theorem sound_body (hH : Hyps m) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 32 := lt_of_lt_of_eq t.isLt (N_eq m)
  rw [show (dats m 0 c).leavesExact 0 t = owns (c : Thread nD τ) (ms0_0 m t) fullShare ((dats m 0 c).after 0 t) from (by
      unfold Dat.leavesExact; rw [liveAt0_0 m t]; rfl), after0_0]
  rw [show (dats m 0 c).leavesExact 1 t = owns (c : Thread nD τ) (ms0_1 m t) fullShare ((dats m 0 c).after 1 t) from (by
      unfold Dat.leavesExact; rw [liveAt0_1 m t]; rfl), after0_1]
  by_cases h0 : t.val = 0
  · have hc1 : cond1 (grid0.coords t) := (hcond1 m t).mpr h0
    have hc2 : ¬cond2 (grid0.coords t) := fun h => by have := (hcond2 m t).mp h; omega
    rw [Dat.leavesExact_idle (dats m 0 c) 2 t (idleAt0_2 m t hc2) (noFlush0_2 m t hc2)]
    rw [PhiS_castSucc m c t, PhiS_zero m c _ _ h0, PhiD0_eq, PhiT0_eq]
    iintro ⟨⟨⟨⟨HS0x, HS2x⟩, Hg, ⟨Hq0, Hq1⟩, Hh0⟩, HT0⟩, ⟨%W, -, HW⟩, ⟨%d0, H0⟩, ⟨%d1, H1⟩, ⟨%d2, H2⟩⟩
    icases HS0x with ⟨%ds0, HS0⟩
    icases HS2x with ⟨%ds2, HS2⟩
    ihave Hh := (hb_split c _).1 $$ Hh0
    icases Hh with ⟨Hh5, Hh6, HhR⟩
    iapply ((kernelRun0_A c (grid0.coords t) (ms0_0 m t) (hs0_0 m t) (ms0_1 m t) (hs0_1 m t) (ms0_2 m t) (hs0_2 m t) hc1 hc2 (iblk m c 0 t) (iblk m c 1 t) ds0 (tbl m 0) (V m c main_arg2) (hH c)).2 _ W _)
    isplitl [H0]; · iexact H0
    isplitl [H1]; · iexact H1
    isplitl [H2]; · iexact H2
    isplitl [HS0]; · iexact HS0
    isplitl [HS2]; · iexists _; iexact HS2
    isplitl [Hq0]; · iexact Hq0
    isplitl [Hq1]; · iexact Hq1
    isplitl [Hh5]; · iexact Hh5
    isplitl [Hh6]; · iexact Hh6
    isplitl [HT0]; · iexact HT0
    isplitl [HW]; · iexact HW
    iintro ⟨H0, H1, H2, HS0, ⟨%es2, HS2⟩, Hq0, Hq1, Hh5, Hh6, HT0, ⟨%W', HW'⟩⟩
    isplitl [HS0 HS2 Hg Hq0 Hq1 Hh5 Hh6 HhR HT0]
    · isplitl [HS0]; · iexact HS0
      isplitl [HS2]
      · unfold owns; iexists _; isplitr
        swap; · iexact HS2
        ipureintro
        exact ((View.read_writes_of_cover _ _ _ _ _ (scover_A c (grid0.coords t) (ms0_0 m t) (hs0_0 m t) (ms0_1 m t) (hs0_1 m t) (ms0_2 m t) (hs0_2 m t) hc1 hc2 (iblk m c 0 t) (iblk m c 1 t) ds0 (tbl m 0) (V m c main_arg2) (hH c))).trans (piece_A c (grid0.coords t) (ms0_0 m t) (hs0_0 m t) (ms0_1 m t) (hs0_1 m t) (ms0_2 m t) (hs0_2 m t) hc1 hc2 (iblk m c 0 t) (iblk m c 1 t) ds0 (tbl m 0) (V m c main_arg2) (hH c))).trans (accAt_zero m c t h0).symm
      isplitl [Hg]; · iexact Hg
      isplitl [Hq0]; · iexact Hq0
      isplitl [Hq1]; · iexact Hq1
      isplitl [Hh5 Hh6 HhR]
      · iapply (hb_split c _).2
        isplitl [Hh5]; · iexact Hh5
        isplitl [Hh6]; · iexact Hh6
        iexact HhR
      iexact HT0
    isplitl [HW']
    · iexists W'; isplitr; · ipureintro; exact fun _ _ => Or.inl trivial
      iexact HW'
    isplitl [H0]; · iexact H0
    isplitl [H1]; · iexact H1
    iexists _; iexact H2
  · by_cases h31 : t.val = 31
    · have hc1 : ¬cond1 (grid0.coords t) := fun h => h0 ((hcond1 m t).mp h)
      have hc2 : cond2 (grid0.coords t) := (hcond2 m t).mpr h31
      rw [show (dats m 0 c).leavesExact 2 t = owns (c : Thread nD τ) (ms0_2 m t) fullShare ((dats m 0 c).after 2 t) from (by
          unfold Dat.leavesExact; rw [liveAt0_2 m t hc2]; rfl), after0_2]
      rw [PhiS_castSucc m c t, PhiS_pos m c _ _ h0]
      iintro ⟨⟨HS0x, HS2, Hg, Hq0, Hq1, Hh0, HT0⟩, ⟨%W, -, HW⟩, ⟨%d0, H0⟩, ⟨%d1, H1⟩, ⟨%d2, H2⟩⟩
      icases HS0x with ⟨%ds0, HS0⟩
      ihave Hh := (hb_split c _).1 $$ Hh0
      icases Hh with ⟨Hh5, Hh6, HhR⟩
      iapply ((kernelRun0_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c)).2.2 W _)
      isplitl [H0]; · iexact H0
      isplitl [H1]; · iexact H1
      isplitl [H2]; · iexists _; iexact H2
      isplitl [HS0]; · iexact HS0
      isplitl [HS2]; · iexact HS2
      isplitl [Hq0]; · iexact Hq0
      isplitl [Hq1]; · iexact Hq1
      isplitl [Hh5]; · iexact Hh5
      isplitl [Hh6]; · iexact Hh6
      isplitl [HT0]; · iexact HT0
      isplitl [HW]; · iexact HW
      iintro ⟨H0, H1, ⟨%e2, H2⟩, HS0, ⟨%es2, HS2⟩, Hq0, Hq1, Hh5, Hh6, HT0, ⟨%W', HW'⟩⟩
      isplitl [HS0 HS2 Hg Hq0 Hq1 Hh5 Hh6 HhR HT0]
      · isplitl [HS0]; · iexact HS0
        isplitl [HS2]
        · unfold owns; iexists _; isplitr
          swap; · iexact HS2
          ipureintro
          exact ((View.read_writes_of_cover _ _ _ _ _ (scover_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (piece_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (accAt_pos m c t h0).symm
        isplitl [Hg]; · iexact Hg
        isplitl [Hq0]; · iexact Hq0
        isplitl [Hq1]; · iexact Hq1
        isplitl [Hh5 Hh6 HhR]
        · iapply (hb_split c _).2
          isplitl [Hh5]; · iexact Hh5
          isplitl [Hh6]; · iexact Hh6
          iexact HhR
        iexact HT0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro
      refine ((View.read_writes_of_cover _ _ _ _ _ (cover_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (piece_out_C c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans ?_
      unfold outAt
      congr 1
      rw [← accAt_pos m c t h0]
      obtain ⟨n, hn⟩ := t
      obtain rfl : n = 31 := h31
      rfl
    · have hc1 : ¬cond1 (grid0.coords t) := fun h => h0 ((hcond1 m t).mp h)
      have hc2 : ¬cond2 (grid0.coords t) := fun h => h31 ((hcond2 m t).mp h)
      rw [Dat.leavesExact_idle (dats m 0 c) 2 t (idleAt0_2 m t hc2) (noFlush0_2 m t hc2)]
      rw [PhiS_castSucc m c t, PhiS_pos m c _ _ h0]
      iintro ⟨⟨HS0x, HS2, Hg, Hq0, Hq1, Hh0, HT0⟩, ⟨%W, -, HW⟩, ⟨%d0, H0⟩, ⟨%d1, H1⟩, ⟨%d2, H2⟩⟩
      icases HS0x with ⟨%ds0, HS0⟩
      ihave Hh := (hb_split c _).1 $$ Hh0
      icases Hh with ⟨Hh5, Hh6, HhR⟩
      iapply ((kernelRun0_B c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c)).2 _ W _)
      isplitl [H0]; · iexact H0
      isplitl [H1]; · iexact H1
      isplitl [H2]; · iexact H2
      isplitl [HS0]; · iexact HS0
      isplitl [HS2]; · iexact HS2
      isplitl [Hq0]; · iexact Hq0
      isplitl [Hq1]; · iexact Hq1
      isplitl [Hh5]; · iexact Hh5
      isplitl [Hh6]; · iexact Hh6
      isplitl [HT0]; · iexact HT0
      isplitl [HW]; · iexact HW
      iintro ⟨H0, H1, H2, HS0, ⟨%es2, HS2⟩, Hq0, Hq1, Hh5, Hh6, HT0, ⟨%W', HW'⟩⟩
      isplitl [HS0 HS2 Hg Hq0 Hq1 Hh5 Hh6 HhR HT0]
      · isplitl [HS0]; · iexact HS0
        isplitl [HS2]
        · unfold owns; iexists _; isplitr
          swap; · iexact HS2
          ipureintro
          exact ((View.read_writes_of_cover _ _ _ _ _ (scover_B c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (piece_B c (grid0.coords t) (ms0_0 m t) (hs0_0 m t) (ms0_1 m t) (hs0_1 m t) (ms0_2 m t) (hs0_2 m t) hc1 hc2 (iblk m c 0 t) (iblk m c 1 t) ds0 (accAt m c (t.val - 1) (by omega)) (tbl m 0) (V m c main_arg2) (hH c))).trans (accAt_pos m c t h0).symm
        isplitl [Hg]; · iexact Hg
        isplitl [Hq0]; · iexact Hq0
        isplitl [Hq1]; · iexact Hq1
        isplitl [Hh5 Hh6 HhR]
        · iapply (hb_split c _).2
          isplitl [Hh5]; · iexact Hh5
          isplitl [Hh6]; · iexact Hh6
          iexact HhR
        iexact HT0
      isplitl [HW']
      · iexists W'; isplitr; · ipureintro; exact fun _ _ => Or.inl trivial
        iexact HW'
      isplitl [H0]; · iexact H0
      isplitl [H1]; · iexact H1
      iexists _; iexact H2

set_option maxRecDepth 65536 in
/-- The library's body obligation, at every step. -/
theorem body_obligation (hH : Hyps m) (c : Dev nD) : BodyObligation (dats (F := F) m 0 c) (defs₀ (F := F)) Variants.none () Set.univ := fun t => by
  rw [bigSep_W0, bigSep_W0]
  exact sound_body m hH c t

/-- What the launch hands the region is the invariant before the first step. -/
theorem hin (c : Dev nD) : iprop(Pipeline.ΦD osem0 spec0 H0 (V m) c ∗ Pipeline.ΦT pre0 (tbl m) c) ⊢ (dats m 0 c).Φ 0 := by
  rw [show (dats m 0 c).Φ 0 = PhiS m c 0 (Nat.zero_le _) from rfl, PhiS_zero m c 0 _ rfl]

/-- After the last step the invariant gives the launch's back: the running sum's named contents and the table's half are dropped. -/
theorem hout (c : Dev nD) : (dats m 0 c).Φ (Fin.last (cfgM m).N) ⊢ Pipeline.ΦD osem0 spec0 H0 (V m) c := by
  rw [show (dats m 0 c).Φ (Fin.last (cfgM m).N) = PhiS m c (cfgM m).N (Nat.le_refl _) from rfl,
    PhiS_pos m c _ _ (by rw [N_eq]; omega), PhiD0_eq]
  iintro ⟨HS0, HS2, Hg, Hq0, Hq1, Hh0, -⟩
  isplitl [HS0 HS2]
  · isplitl [HS0]; · iexact HS0
    iexists _; iexact HS2
  isplitl [Hg]; · iexact Hg
  isplitl [Hq0 Hq1]
  · isplitl [Hq0]; · iexact Hq0
    iexact Hq1
  iexact Hh0

/-! ## The run and the frame -/

/-- The reshape after the region touches the result array and its own fresh buffer only: neither the label table
    nor the weight matrix; it allocates nothing and writes no array of the pipeline. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) (fun k => ?_) (fun b hb => ?_)
  · rw [StableHlo.reshape_bufs]
    fin_cases k
    simp only [Finset.mem_insert, Finset.mem_singleton, not_or]
    exact ⟨StableHlo.devRef_ne_of_ne (by decide), StableHlo.devRef_ne_of_ne (by decide)⟩
  · rw [StableHlo.reshape_bufs]
    simp only [H0, Finset.mem_singleton] at hb
    subst hb
    simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

set_option backward.isDefEq.respectTransparency.types false in
/-- From any memory with zero counters, under the frame's hypothesis: every weakly fair execution of @main
    terminates, every array of the pipeline ends at what the library computes from the proof data and every other
    unscoped buffer as the last reshape leaves it. -/
theorem run_main (hH : Hyps m) : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- A buffer that is no array of the pipeline and not the last reshape's result ends as the region found it. -/
theorem tail_keeps (c : Dev nD) (b : Ref sig .tc) (hb : ∀ w, Pipeline.arrRef spec0 w ≠ b) (hb2 : b ≠ main_v2) :
    Pipeline.afterTail pcfgs (fun _ => adm m) (dats m) 0 (V0 m) [hostOps1] c b = V m c b := by
  unfold Pipeline.afterTail
  rw [StableHlo.after_of_forall_not_mem _ _ fun op hop hw => ?_, Pipeline.withArrays_of_ne _ c (V0 m c) _ b hb]
  simp only [List.flatten_cons, List.flatten_nil, List.append_nil, hostOps1, List.mem_cons, List.mem_nil_iff, or_false] at hop
  subst hop
  rw [StableHlo.reshape_writes, Finset.mem_singleton] at hw
  exact hb2 (Proc.devRef_injective _ hw)

/-- THE FRAME: every weakly fair execution of @main terminates, nothing faults, and the three argument arrays end
    unchanged — for every memory whose label table names rows of the weight matrix. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (show main_arg1 ∈ Pipeline.restRefs sig spec0 from by decide)).trans ((tail_keeps m c main_arg1 (by decide) (by decide)).trans (V_main_arg1 m c)),
      ((h c).2 main_arg2 (show main_arg2 ∈ Pipeline.restRefs sig spec0 from by decide)).trans ((tail_keeps m c main_arg2 (by decide) (by decide)).trans (V_main_arg2 m c))⟩) (run_main m ρ hH)

/-- The frame's hypothesis from a bound on every label. -/
theorem hyps_of_labels (h : ∀ (c : Dev nD) (i : S4096.Idx), ((m ((c.tc : Thread nD τ).loc main_arg1) : S4096.Idx → Elt F .i32) i : BitVec 32).toNat < 8142) : Hyps m := by
  intro c r x
  obtain rfl : c = 0 := Subsingleton.elim _ _
  have e := V_main_arg1 m 0
  have key : ∀ k : S4096.Idx, ((tbl m 0 : S4096.Idx → Elt F .i32) k : BitVec 32).toNat < 8142 := fun k => by
    have := h 0 k
    rw [← e] at this
    exact this
  exact key _

end Cert.Kernel.Fr

end
-- ==== Proof.lean ====
/-
  The certificate's claim, assembled.

  THE THREE FRAMES. The kernel copies, for each block of 128 rows of the batch, the rows of the weight matrix that the
  block's labels name; a copy stays inside the matrix exactly when its label is a row number. The precondition says
  every label is in [0, 8142) read signed, hence below 8142 read unsigned, and that is the one hypothesis the kernel's
  run takes, at the bit-exact values and at the ideal ones alike: it terminates, nothing faults, and the three argument
  arrays end as launched. The reference is a list of host operations, each writing its own result buffer: it runs
  from any memory and leaves its arguments as launched, whatever the precondition.

  THE IDEALIZATION rewrote no operation, so there is nothing to preserve: the idealized kernel is the kernel's own text
  read at the extended reals.

  THE ALGEBRAIC CONJUNCT. Row R of the batch has logits a_R(j) = x(R, j) + log w(t_R, j). With M_R their supremum and
  S_R = Σ_j exp (a_R(j) − M_R), the kernel ends with (Σ_R ((log S_R + M_R) − a_R(t_R))) · 2⁻¹² and the reference with
  −((0 + Σ_R ((a_R(t_R) − M_R) − log S_R)) / 4096): each program's run is read back to that function of its three
  argument arrays. Under the precondition x and w are real and w is positive, so every logit is a real, every row's
  two terms are a real and its negative, and the two results are one extended real. The memories agree on the
  arguments, so both results are that value of the kernel's arrays, which is the common witness.
-/
import proofs.«407913_j32418413150371_1_alg».proof.Defs
import proofs.«407913_j32418413150371_1_alg».proof.Proof.Gen.Kernel
import proofs.«407913_j32418413150371_1_alg».proof.Proof.Gen.KernelIdeal
import proofs.«407913_j32418413150371_1_alg».proof.Proof.Gen.ReferenceIdeal
import proofs.«407913_j32418413150371_1_alg».proof.Proof.Gen.Pre_finite_inputs
import proofs.«407913_j32418413150371_1_alg».proof.Proof.Spec
import proofs.«407913_j32418413150371_1_alg».proof.Proof.PreDecode
import proofs.«407913_j32418413150371_1_alg».proof.Proof.Algebra
import proofs.«407913_j32418413150371_1_alg».proof.Proof.RefRunP
import proofs.«407913_j32418413150371_1_alg».proof.Proof.RefValue
import proofs.«407913_j32418413150371_1_alg».proof.Proof.KIFrame
import proofs.«407913_j32418413150371_1_alg».proof.Proof.KIValue
import proofs.«407913_j32418413150371_1_alg».proof.Proof.KFrame

noncomputable section

namespace Cert.Proof

open Idealize.ShloMosaic Idealize.SL.Sem Idealize.ShloMosaic.TcCoe

/-- The kernel as printed runs and leaves its arguments as launched: the precondition's labels name rows of the
    weight matrix, which is what the kernel's row copies need to stay inside it. -/
theorem frame_Kernel :
    Cert.frame_Kernel (hKernel := Cert.Kernel.Gen.facts) (hPre_finite_inputs := Cert.Pre_finite_inputs.Gen.facts) :=
  fun m g hpre => Cert.Kernel.Fr.frame (F := Bits) m g
    (Cert.Kernel.Fr.hyps_of_labels m fun c i => Cert.Seesaw.Pre.t_lt_of_pre _ _ _ (hpre c) i)

/-- The same of the kernel read at the ideal values. -/
theorem frame_KernelIdeal :
    Cert.frame_KernelIdeal (hKernelIdeal := Cert.KernelIdeal.Gen.facts) (hPre_finite_inputs := Cert.Pre_finite_inputs.Gen.facts) :=
  fun m g hpre => Cert.KernelIdeal.Fr.frame (F := Ideal) m g
    (Cert.KernelIdeal.Fr.hyps_of_labels m fun c i => Cert.Seesaw.Pre.t_lt_of_pre _ _ _ (hpre c) i)

/-- The reference is a list of host operations: it runs from any memory, each argument ending as launched. -/
theorem frame_ReferenceIdeal :
    Cert.frame_ReferenceIdeal (hReferenceIdeal := Cert.ReferenceIdeal.Gen.facts) (hPre_finite_inputs := Cert.Pre_finite_inputs.Gen.facts) :=
  fun m g _ => (θ_run (Cert.ReferenceIdeal.defs (F := Ideal)) _ _).mono (fun _ h c => (h c).2)
    (Cert.ReferenceIdeal.ValueP.run (F := Ideal) m g)

/-- At the ideal values both programs end with the loss of the three arrays: the kernel's mean of the rows' negative
    log-likelihoods and the reference's negated mean of the rows' log-probabilities are one extended real once every
    logit is a real, which the precondition gives (x and w real, w positive, every label a class). -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  have hG : ∀ c : Dev Cert.KernelIdeal.nD, Cert.Seesaw.Good
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Cert.Seesaw.Pre.good_of_pre _ _ _ (hpre c)
  refine ⟨fun c _ => Cert.Seesaw.kernelVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.value_run m g hG, ?_⟩
  refine (θ_run (Cert.ReferenceIdeal.defs (F := Ideal)) _ _).mono (fun r h c => ⟨?_, (h c).2⟩)
    (Cert.ReferenceIdeal.ValueP.run (F := Ideal) m' g')
  have ht : ∀ i, ((m' ((c.tc : Thread Cert.ReferenceIdeal.nD Cert.ReferenceIdeal.τ).loc Cert.ReferenceIdeal.main_arg1)) i).toNat < 8142 := by
    intro i
    rw [(hagree c).2.1]
    exact Cert.Seesaw.Pre.t_lt_of_pre _ _ _ (hpre c) i
  rw [(h c).1, Cert.ReferenceIdeal.RefValue.ref_result m' c ht, (hagree c).1, (hagree c).2.1, (hagree c).2.2]
  exact funext fun _ => (Cert.Seesaw.kernelVal_eq_refVal (hG c)).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
